-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v78)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x2 : Shape := ⟨3, ![8, 65536, 2]⟩
abbrev S8x65536x32 : Shape := ⟨3, ![8, 65536, 32]⟩
abbrev S1 : Shape := ⟨1, ![1]⟩
abbrev S_ : Shape := ⟨0, ![]⟩

class Facts : Prop where
  bcast_S_S8x65536x32 : S_.BroadcastsInDim S8x65536x32 (![] : Fin 0 → Fin S8x65536x32.rank)
  reducesTo_S8x65536x32_S_d0_1_2 : S8x65536x32.ReducesTo [0, 1, 2] S_
  h_S_ : 0 < S_.numel
  bcast_S_S1 : S_.BroadcastsInDim S1 (![] : Fin 0 → Fin S1.rank)
  reducesTo_S1_S_d0 : S1.ReducesTo [0] S_
  bcast_S_S8x65536x2 : S_.BroadcastsInDim S8x65536x2 (![] : Fin 0 → Fin S8x65536x2.rank)
  reducesTo_S8x65536x2_S_d0_1_2 : S8x65536x2.ReducesTo [0, 1, 2] S_

variable [Facts]

def fn {F : FTy → Type} [FloatOps F] (main_arg0 : IVec S8x65536x2 32) (main_arg1 : FVec F S8x65536x32 .f32) (main_arg2 : FVec F S1 .f32) : IVec S_ 1 :=
  let main_v0 : FVec F S8x65536x32 .f32 := Host.absf main_arg1
  let main_cst : FVec F S_ .f32 := constant S_ .f32 0x7F800000#32
  let main_v1 : FVec F S8x65536x32 .f32 := broadcastInDim S8x65536x32 ![] bcast_S_S8x65536x32 main_cst
  let main_v2 : IVec S8x65536x32 1 := cmpf .olt main_v0 main_v1
  let main_c : IVec S_ 1 := constantI S_ 1 1#1
  let main_v3 : IVec S_ 1 := (fun x v => Host.reduce IntOp.andi x v reducesTo_S8x65536x32_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S8x65536x2 32 := broadcastInDim S8x65536x2 ![] bcast_S_S8x65536x2 main_c_2
  let main_v10 : IVec S8x65536x2 1 := cmpi .sge main_arg0 main_v9
  let main_c_3 : IVec S_ 1 := constantI S_ 1 1#1
  let main_v11 : IVec S_ 1 := (fun x v => Host.reduce IntOp.andi x v reducesTo_S8x65536x2_S_d0_1_2 h_S_) main_v10 main_c_3
  let main_v12 : IVec S_ 1 := andi main_v8 main_v11
  main_v12
-- ==== Kernel.lean ====
abbrev S8x65536x2 : Shape := ⟨3, ![8, 65536, 2]⟩
abbrev S8x65536x32 : Shape := ⟨3, ![8, 65536, 32]⟩
abbrev S1 : Shape := ⟨1, ![1]⟩
abbrev S256 : Shape := ⟨1, ![256]⟩
abbrev S_ : Shape := ⟨0, ![]⟩
abbrev S524288x2 : Shape := ⟨2, ![524288, 2]⟩
abbrev S2 : Shape := ⟨1, ![2]⟩
abbrev S8x2 : Shape := ⟨2, ![8, 2]⟩
abbrev S1x2 : Shape := ⟨2, ![1, 2]⟩
abbrev S1x256x1 : Shape := ⟨3, ![1, 256, 1]⟩
abbrev S8x1x2 : Shape := ⟨3, ![8, 1, 2]⟩
abbrev S8x256x2 : Shape := ⟨3, ![8, 256, 2]⟩
abbrev S8x256x1 : Shape := ⟨3, ![8, 256, 1]⟩
abbrev S8x256 : Shape := ⟨2, ![8, 256]⟩
abbrev S8x1x256 : Shape := ⟨3, ![8, 1, 256]⟩
abbrev S8x256x256 : Shape := ⟨3, ![8, 256, 256]⟩
abbrev S8x256x8192 : Shape := ⟨3, ![8, 256, 8192]⟩
abbrev S1x256x32 : Shape := ⟨3, ![1, 256, 32]⟩
abbrev S1x256x2 : Shape := ⟨3, ![1, 256, 2]⟩
abbrev S1x1x256 : Shape := ⟨3, ![1, 1, 256]⟩
abbrev S1x256x8192 : Shape := ⟨3, ![1, 256, 8192]⟩
abbrev S256x8192 : Shape := ⟨2, ![256, 8192]⟩
abbrev S256x32 : Shape := ⟨2, ![256, 32]⟩
abbrev S256x1 : Shape := ⟨2, ![256, 1]⟩
abbrev S1x256 : Shape := ⟨2, ![1, 256]⟩
abbrev S256x256 : Shape := ⟨2, ![256, 256]⟩
abbrev S256x256x1 : Shape := ⟨3, ![256, 256, 1]⟩
abbrev S256x1x32 : Shape := ⟨3, ![256, 1, 32]⟩
abbrev S256x256x32 : Shape := ⟨3, ![256, 256, 32]⟩
abbrev S8x256x256x32 : Shape := ⟨4, ![8, 256, 256, 32]⟩
abbrev S8 : Shape := ⟨1, ![8]⟩
abbrev S8x1x1 : Shape := ⟨3, ![8, 1, 1]⟩
abbrev S8x256x256x1 : Shape := ⟨4, ![8, 256, 256, 1]⟩
abbrev S8x256x256x3 : Shape := ⟨4, ![8, 256, 256, 3]⟩

abbrev nBuf : Space → Nat
  | .hbm => 210
  | .vmem => 11
  | .smem => 0
  | _ => 0

abbrev hbmTy0_0 (i : Nat) : BufTy := match i % 128 with
  | 0 => ⟨S8x65536x2, .i32⟩
  | 1 => ⟨S8x65536x32, .f32⟩
  | 2 => ⟨S1, .f32⟩
  | 3 => ⟨S256, .i32⟩
  | 4 => ⟨S_, .i32⟩
  | 5 => ⟨S256, .i32⟩
  | 6 => ⟨S256, .i32⟩
  | 7 => ⟨S_, .i32⟩
  | 8 => ⟨S256, .i32⟩
  | 9 => ⟨S256, .i32⟩
  | 10 => ⟨S524288x2, .i32⟩
  | 11 => ⟨S_, .i32⟩
  | 12 => ⟨S2, .i32⟩
  | 13 => ⟨S_, .i32⟩
  | 14 => ⟨S2, .i32⟩
  | 15 => ⟨S2, .i32⟩
  | 16 => ⟨S_, .i32⟩
  | 17 => ⟨S8x2, .i32⟩
  | 18 => ⟨S_, .i32⟩
  | 19 => ⟨S8x2, .i32⟩
  | 20 => ⟨S_, .i32⟩
  | 21 => ⟨S8x2, .i32⟩
  | 22 => ⟨S8x2, .i32⟩
  | 23 => ⟨S_, .i32⟩
  | 24 => ⟨S8x2, .i32⟩
  | 25 => ⟨S8x2, .i32⟩
  | 26 => ⟨S_, .i32⟩
  | 27 => ⟨S_, .i32⟩
  | 28 => ⟨S8x2, .i32⟩
  | 29 => ⟨S8x2, .i32⟩
  | 30 => ⟨S8x2, .i32⟩
  | 31 => ⟨S_, .i32⟩
  | 32 => ⟨S8x2, .i32⟩
  | 33 => ⟨S8x2, .i1⟩
  | 34 => ⟨S8x2, .i32⟩
  | 35 => ⟨S8x2, .i32⟩
  | 36 => ⟨S_, .i32⟩
  | 37 => ⟨S8x2, .i32⟩
  | 38 => ⟨S8x2, .i1⟩
  | 39 => ⟨S8x2, .i1⟩
  | 40 => ⟨S_, .i32⟩
  | 41 => ⟨S8x2, .i32⟩
  | 42 => ⟨S8x2, .i32⟩
  | 43 => ⟨S8x2, .i32⟩
  | 44 => ⟨S_, .i32⟩
  | 45 => ⟨S8x2, .i32⟩
  | 46 => ⟨S8x2, .i32⟩
  | 47 => ⟨S_, .i32⟩
  | 48 => ⟨S8x2, .i32⟩
  | 49 => ⟨S8x2, .i32⟩
  | 50 => ⟨S_, .i32⟩
  | 51 => ⟨S8x2, .i32⟩
  | 52 => ⟨S8x2, .i32⟩
  | 53 => ⟨S1x2, .i32⟩
  | 54 => ⟨S_, .i32⟩
  | 55 => ⟨S8x2, .i32⟩
  | 56 => ⟨S8x2, .i32⟩
  | 57 => ⟨S_, .i32⟩
  | 58 => ⟨S8x2, .i32⟩
  | 59 => ⟨S8x2, .i32⟩
  | 60 => ⟨S_, .i32⟩
  | 61 => ⟨S_, .i32⟩
  | 62 => ⟨S8x2, .i32⟩
  | 63 => ⟨S8x2, .i32⟩
  | 64 => ⟨S8x2, .i32⟩
  | 65 => ⟨S_, .i32⟩
  | 66 => ⟨S8x2, .i32⟩
  | 67 => ⟨S8x2, .i1⟩
  | 68 => ⟨S8x2, .i32⟩
  | 69 => ⟨S8x2, .i32⟩
  | 70 => ⟨S_, .i32⟩
  | 71 => ⟨S8x2, .i32⟩
  | 72 => ⟨S8x2, .i1⟩
  | 73 => ⟨S8x2, .i1⟩
  | 74 => ⟨S_, .i32⟩
  | 75 => ⟨S8x2, .i32⟩
  | 76 => ⟨S8x2, .i32⟩
  | 77 => ⟨S8x2, .i32⟩
  | 78 => ⟨S_, .i32⟩
  | 79 => ⟨S8x2, .i32⟩
  | 80 => ⟨S8x2, .i32⟩
  | 81 => ⟨S_, .i32⟩
  | 82 => ⟨S8x2, .i32⟩
  | 83 => ⟨S8x2, .i32⟩
  | 84 => ⟨S_, .i32⟩
  | 85 => ⟨S8x2, .i32⟩
  | 86 => ⟨S8x2, .i32⟩
  | 87 => ⟨S8x2, .i32⟩
  | 88 => ⟨S8x2, .i32⟩
  | 89 => ⟨S1x256x1, .i32⟩
  | 90 => ⟨S8x1x2, .i32⟩
  | 91 => ⟨S8x256x2, .i32⟩
  | 92 => ⟨S8x256x2, .i32⟩
  | 93 => ⟨S8x256x2, .i1⟩
  | 94 => ⟨S8x1x2, .i32⟩
  | 95 => ⟨S8x256x2, .i32⟩
  | 96 => ⟨S8x256x2, .i32⟩
  | 97 => ⟨S8x256x2, .i1⟩
  | 98 => ⟨S8x256x2, .i1⟩
  | 99 => ⟨S8x256x1, .i1⟩
  | 100 => ⟨S8x256, .i1⟩
  | 101 => ⟨S8x256x1, .i1⟩
  | 102 => ⟨S8x256, .i1⟩
  | 103 => ⟨S8x256x1, .i1⟩
  | 104 => ⟨S8x1x256, .i1⟩
  | 105 => ⟨S8x256x256, .i1⟩
  | 106 => ⟨S8x256x256, .i1⟩
  | 107 => ⟨S8x256x256, .i1⟩
  | 108 => ⟨S8x256, .f32⟩
  | 109 => ⟨S8x1x256, .f32⟩
  | 110 => ⟨S8x256, .f32⟩
  | 111 => ⟨S8x1x256, .f32⟩
  | 112 => ⟨S_, .i32⟩
  | 113 => ⟨S8x65536x2, .i32⟩
  | 114 => ⟨S8x65536x2, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S8x65536x2, .i32⟩
  | 122 => ⟨S8x65536x2, .i32⟩
  | 123 => ⟨S_, .i32⟩
  | 124 => ⟨S8x65536x2, .i32⟩
  | 125 => ⟨S8x65536x2, .i1⟩
  | 126 => ⟨S_, .i32⟩
  | 127 => ⟨S8x65536x2, .i32⟩
  | _ => ⟨S8x65536x2, .i32⟩

abbrev hbmTy0_1 (i : Nat) : BufTy := match i % 128 with
  | 0 => ⟨S8x65536x2, .i1⟩
  | 1 => ⟨S_, .i32⟩
  | 2 => ⟨S_, .i1⟩
  | 3 => ⟨S8x65536x2, .i1⟩
  | 4 => ⟨S8x65536x2, .i1⟩
  | 5 => ⟨S8x65536x2, .i1⟩
  | 6 => ⟨S8x65536x2, .i32⟩
  | 7 => ⟨S8x65536x2, .i32⟩
  | 8 => ⟨S8x65536x2, .i32⟩
  | 9 => ⟨S_, .i32⟩
  | 10 => ⟨S8x65536x2, .i32⟩
  | 11 => ⟨S8x65536x2, .i32⟩
  | 12 => ⟨S_, .i32⟩
  | 13 => ⟨S_, .i32⟩
  | 14 => ⟨S8x65536x2, .i32⟩
  | 15 => ⟨S8x65536x2, .i32⟩
  | 16 => ⟨S8x65536x2, .i32⟩
  | 17 => ⟨S_, .i32⟩
  | 18 => ⟨S8x65536x2, .i32⟩
  | 19 => ⟨S8x65536x2, .i1⟩
  | 20 => ⟨S8x65536x2, .i32⟩
  | 21 => ⟨S8x65536x2, .i32⟩
  | 22 => ⟨S_, .i32⟩
  | 23 => ⟨S8x65536x2, .i32⟩
  | 24 => ⟨S8x65536x2, .i1⟩
  | 25 => ⟨S8x65536x2, .i1⟩
  | 26 => ⟨S_, .i32⟩
  | 27 => ⟨S8x65536x2, .i32⟩
  | 28 => ⟨S8x65536x2, .i32⟩
  | 29 => ⟨S8x65536x2, .i32⟩
  | 30 => ⟨S_, .i32⟩
  | 31 => ⟨S8x65536x2, .i32⟩
  | 32 => ⟨S8x65536x2, .i1⟩
  | 33 => ⟨S_, .i32⟩
  | 34 => ⟨S_, .i32⟩
  | 35 => ⟨S8x65536x2, .i32⟩
  | 36 => ⟨S8x65536x2, .i32⟩
  | 37 => ⟨S_, .i32⟩
  | 38 => ⟨S8x65536x2, .i32⟩
  | 39 => ⟨S8x65536x2, .i1⟩
  | 40 => ⟨S_, .i32⟩
  | 41 => ⟨S8x65536x2, .i32⟩
  | 42 => ⟨S8x65536x2, .i1⟩
  | 43 => ⟨S8x65536x2, .i1⟩
  | 44 => ⟨S_, .i32⟩
  | 45 => ⟨S_, .i32⟩
  | 46 => ⟨S8x65536x2, .i32⟩
  | 47 => ⟨S8x65536x2, .i32⟩
  | 48 => ⟨S_, .i32⟩
  | 49 => ⟨S256, .i32⟩
  | 50 => ⟨S256, .i32⟩
  | 51 => ⟨S_, .i32⟩
  | 52 => ⟨S_, .i32⟩
  | 53 => ⟨S256, .i32⟩
  | 54 => ⟨S256, .i32⟩
  | 55 => ⟨S256, .i32⟩
  | 56 => ⟨S_, .i32⟩
  | 57 => ⟨S256, .i32⟩
  | 58 => ⟨S256, .i1⟩
  | 59 => ⟨S256, .i32⟩
  | 60 => ⟨S256, .i32⟩
  | 61 => ⟨S_, .i32⟩
  | 62 => ⟨S256, .i32⟩
  | 63 => ⟨S256, .i1⟩
  | 64 => ⟨S256, .i1⟩
  | 65 => ⟨S_, .i32⟩
  | 66 => ⟨S256, .i32⟩
  | 67 => ⟨S256, .i32⟩
  | 68 => ⟨S256, .i32⟩
  | 69 => ⟨S8x256x8192, .f32⟩
  | 70 => ⟨S8x256x256x32, .f32⟩
  | 71 => ⟨S8, .i32⟩
  | 72 => ⟨S8x1x1, .i32⟩
  | 73 => ⟨S8x256x256, .i32⟩
  | 74 => ⟨S1x256x1, .i32⟩
  | 75 => ⟨S8x256x256, .i32⟩
  | 76 => ⟨S1x1x256, .i32⟩
  | 77 => ⟨S8x256x256, .i32⟩
  | 78 => ⟨S8x256x256x1, .i32⟩
  | 79 => ⟨S8x256x256x1, .i32⟩
  | 80 => ⟨S8x256x256x1, .i32⟩
  | 81 => ⟨S8x256x256x3, .i32⟩
  | _ => ⟨S8x65536x2, .i32⟩

abbrev hbmTy (i : Nat) : BufTy := match i / 128 with
  | 0 => hbmTy0_0 i
  | 1 => hbmTy0_1 i
  | _ => ⟨S8x65536x2, .i32⟩

abbrev bufTy : (tb : Table) → Fin (tcTables nBuf tb) → BufTy
  | .hbm, ⟨i, _⟩ => hbmTy i
  | .local _ .vmem, ⟨0, _⟩ => ⟨S1x256x32, .f32⟩
  | .local _ .vmem, ⟨1, _⟩ => ⟨S1x256x32, .f32⟩
  | .local _ .vmem, ⟨2, _⟩ => ⟨S1x256x2, .i32⟩
  | .local _ .vmem, ⟨3, _⟩ => ⟨S1x256x2, .i32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x256x8192, .f32⟩
  | .local _ .vmem, ⟨9, _⟩ => ⟨S1x256x8192, .f32⟩
  | .local _ .vmem, ⟨10, _⟩ => ⟨S256x8192, .f32⟩
  | _, _ => ⟨S8x65536x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_v12 : Ref sig .tc := ⟨.hbm, 22, rfl⟩
abbrev main_c_6 : Ref sig .tc := ⟨.hbm, 23, rfl⟩
abbrev main_v13 : Ref sig .tc := ⟨.hbm, 24, rfl⟩
abbrev main_v14 : Ref sig .tc := ⟨.hbm, 25, rfl⟩
abbrev main_c_7 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v15 : Ref sig .tc := ⟨.hbm, 43, rfl⟩
abbrev main_c_8 : Ref sig .tc := ⟨.hbm, 44, rfl⟩
abbrev main_v16 : Ref sig .tc := ⟨.hbm, 45, rfl⟩
abbrev main_v17 : Ref sig .tc := ⟨.hbm, 46, rfl⟩
abbrev main_c_9 : Ref sig .tc := ⟨.hbm, 47, rfl⟩
abbrev main_v18 : Ref sig .tc := ⟨.hbm, 48, rfl⟩
abbrev main_v19 : Ref sig .tc := ⟨.hbm, 49, rfl⟩
abbrev main_c_10 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_11 : Ref sig .tc := ⟨.hbm, 54, rfl⟩
abbrev main_v23 : Ref sig .tc := ⟨.hbm, 55, rfl⟩
abbrev main_v24 : Ref sig .tc := ⟨.hbm, 56, rfl⟩
abbrev main_c_12 : Ref sig .tc := ⟨.hbm, 57, rfl⟩
abbrev main_v25 : Ref sig .tc := ⟨.hbm, 58, rfl⟩
abbrev main_v26 : Ref sig .tc := ⟨.hbm, 59, rfl⟩
abbrev main_c_13 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v27 : Ref sig .tc := ⟨.hbm, 77, rfl⟩
abbrev main_c_14 : Ref sig .tc := ⟨.hbm, 78, rfl⟩
abbrev main_v28 : Ref sig .tc := ⟨.hbm, 79, rfl⟩
abbrev main_v29 : Ref sig .tc := ⟨.hbm, 80, rfl⟩
abbrev main_c_15 : Ref sig .tc := ⟨.hbm, 81, rfl⟩
abbrev main_v30 : Ref sig .tc := ⟨.hbm, 82, rfl⟩
abbrev main_v31 : Ref sig .tc := ⟨.hbm, 83, rfl⟩
abbrev main_c_16 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_c_17 : Ref sig .tc := ⟨.hbm, 112, rfl⟩
abbrev main_v59 : Ref sig .tc := ⟨.hbm, 113, rfl⟩
abbrev main_v60 : Ref sig .tc := ⟨.hbm, 114, rfl⟩
abbrev main_c_18 : Ref sig .tc := ⟨.hbm, 115, rfl⟩
abbrev main_call2_v0 : Ref sig .tc := ⟨.hbm, 116, rfl⟩
abbrev main_call2_c : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_c_1 : Ref sig .tc := ⟨.hbm, 123, rfl⟩
abbrev main_call2_v5 : Ref sig .tc := ⟨.hbm, 124, rfl⟩
abbrev main_call2_v6 : Ref sig .tc := ⟨.hbm, 125, rfl⟩
abbrev main_call2_c_2 : Ref sig .tc := ⟨.hbm, 126, rfl⟩
abbrev main_call2_v7 : Ref sig .tc := ⟨.hbm, 127, rfl⟩
abbrev main_call2_v8 : Ref sig .tc := ⟨.hbm, 128, rfl⟩
abbrev main_call2_c_3 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_v12 : Ref sig .tc := ⟨.hbm, 133, rfl⟩
abbrev main_call2_v13 : Ref sig .tc := ⟨.hbm, 134, rfl⟩
abbrev main_call2_v14 : Ref sig .tc := ⟨.hbm, 135, rfl⟩
abbrev main_v61 : Ref sig .tc := ⟨.hbm, 136, rfl⟩
abbrev main_c_19 : Ref sig .tc := ⟨.hbm, 137, rfl⟩
abbrev main_v62 : Ref sig .tc := ⟨.hbm, 138, rfl⟩
abbrev main_v63 : Ref sig .tc := ⟨.hbm, 139, rfl⟩
abbrev main_c_20 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_c : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_0 : Ref sig .tc := ⟨.hbm, 154, rfl⟩
abbrev main_call3_v12 : Ref sig .tc := ⟨.hbm, 155, rfl⟩
abbrev main_call3_v13 : Ref sig .tc := ⟨.hbm, 156, rfl⟩
abbrev main_v64 : Ref sig .tc := ⟨.hbm, 157, rfl⟩
abbrev main_c_21 : Ref sig .tc := ⟨.hbm, 158, rfl⟩
abbrev main_v65 : Ref sig .tc := ⟨.hbm, 159, rfl⟩
abbrev main_v66 : Ref sig .tc := ⟨.hbm, 160, rfl⟩
abbrev main_c_22 : Ref sig .tc := ⟨.hbm, 161, rfl⟩
abbrev main_call4_v0 : Ref sig .tc := ⟨.hbm, 162, rfl⟩
abbrev main_call4_v1 : Ref sig .tc := ⟨.hbm, 163, rfl⟩
abbrev main_v67 : Ref sig .tc := ⟨.hbm, 164, rfl⟩
abbrev main_c_23 : Ref sig .tc := ⟨.hbm, 165, rfl⟩
abbrev main_v68 : Ref sig .tc := ⟨.hbm, 166, rfl⟩
abbrev main_v69 : Ref sig .tc := ⟨.hbm, 167, rfl⟩
abbrev main_c_24 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_c_25 : Ref sig .tc := ⟨.hbm, 172, rfl⟩
abbrev main_call5_v0 : Ref sig .tc := ⟨.hbm, 173, rfl⟩
abbrev main_call5_v1 : Ref sig .tc := ⟨.hbm, 174, rfl⟩
abbrev main_v73 : Ref sig .tc := ⟨.hbm, 175, rfl⟩
abbrev main_c_26 : Ref sig .tc := ⟨.hbm, 176, rfl⟩
abbrev main_v74 : Ref sig .tc := ⟨.hbm, 177, rfl⟩
abbrev main_v75 : Ref sig .tc := ⟨.hbm, 178, rfl⟩
abbrev main_c_27 : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_v6 : Ref sig .tc := ⟨.hbm, 186, rfl⟩
abbrev main_call6_v7 : Ref sig .tc := ⟨.hbm, 187, rfl⟩
abbrev main_call6_v8 : Ref sig .tc := ⟨.hbm, 188, rfl⟩
abbrev main_call6_c : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_c_0 : Ref sig .tc := ⟨.hbm, 193, rfl⟩
abbrev main_call6_v12 : Ref sig .tc := ⟨.hbm, 194, rfl⟩
abbrev main_call6_v13 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 256], ![false, false]⟩

def k0_cond2 (i : grid0.Coords) : BitVec 1 :=
  let arg1 : BitVec 32 := BitVec.ofNat 32 (i 1).val
  let c255_i32 : BitVec 32 := 255#32
  let v45 : BitVec 1 := Scalar.cmpi .eq arg1 c255_i32
  let v46 : BitVec 32 := Scalar.extui v45
  let c0_i32_18 : BitVec 32 := 0#32
  let v47 : BitVec 1 := Scalar.cmpi .ne v46 c0_i32_18
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S256 : S_.BroadcastsInDim S256 (![] : Fin 0 → Fin S256.rank)
  shapeCasts_S8x65536x2_S524288x2 : S8x65536x2.ShapeCasts S524288x2
  reducesTo_S524288x2_S2_d0 : S524288x2.ReducesTo [0] S2
  h_S_ : 0 < S_.numel
  bcast_S_S2 : S_.BroadcastsInDim S2 (![] : Fin 0 → Fin S2.rank)
  reducesTo_S8x65536x2_S8x2_d1 : S8x65536x2.ReducesTo [1] S8x2
  bcast_S_S8x2 : S_.BroadcastsInDim S8x2 (![] : Fin 0 → Fin S8x2.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  bcast_S256_S1x256x1_1 : S256.BroadcastsInDim S1x256x1 (![1] : Fin 1 → Fin S1x256x1.rank)
  bcast_S8x2_S8x1x2_0_2 : S8x2.BroadcastsInDim S8x1x2 (![0, 2] : Fin 2 → Fin S8x1x2.rank)
  bcast_S1x256x1_S8x256x2_0_1_2 : S1x256x1.BroadcastsInDim S8x256x2 (![0, 1, 2] : Fin 3 → Fin S8x256x2.rank)
  bcast_S8x1x2_S8x256x2_0_1_2 : S8x1x2.BroadcastsInDim S8x256x2 (![0, 1, 2] : Fin 3 → Fin S8x256x2.rank)
  slices_S8x256x2_S8x256x1_0_0_0 : S8x256x2.Slices ![0, 0, 0] S8x256x1
  shapeCasts_S8x256x1_S8x256 : S8x256x1.ShapeCasts S8x256
  slices_S8x256x2_S8x256x1_0_0_1 : S8x256x2.Slices ![0, 0, 1] S8x256x1
  bcast_S8x256_S8x256x1_0_1 : S8x256.BroadcastsInDim S8x256x1 (![0, 1] : Fin 2 → Fin S8x256x1.rank)
  bcast_S8x256_S8x1x256_0_2 : S8x256.BroadcastsInDim S8x1x256 (![0, 2] : Fin 2 → Fin S8x1x256.rank)
  bcast_S8x256x1_S8x256x256_0_1_2 : S8x256x1.BroadcastsInDim S8x256x256 (![0, 1, 2] : Fin 3 → Fin S8x256x256.rank)
  bcast_S8x1x256_S8x256x256_0_1_2 : S8x1x256.BroadcastsInDim S8x256x256 (![0, 1, 2] : Fin 3 → Fin S8x256x256.rank)
  shapeCasts_S8x256_S8x1x256 : S8x256.ShapeCasts S8x1x256
  bcast_S_S8x65536x2 : S_.BroadcastsInDim S8x65536x2 (![] : Fin 0 → Fin S8x65536x2.rank)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  bitsLt_bf16_f32 : FTy.bits .bf16 < FTy.bits .f32
  inb_S1x256x2_S1x256x1_0_0_0 : ∀ a, (![0, 0, 0] : Fin 3 → Nat) a + S1x256x1.size a ≤ S1x256x2.size a
  h_S1x256x1 : 0 < S1x256x1.numel
  shapeCasts_S1x256x1_S256x1 : S1x256x1.ShapeCasts S256x1
  inb_S1x256x2_S1x256x1_0_0_1 : ∀ a, (![0, 0, 1] : Fin 3 → Nat) a + S1x256x1.size a ≤ S1x256x2.size a
  iota_S1x256_d1_w32 : S1x256.Iotas .tc 32 [1]
  broadcasts_S256x1_S256x256 : S256x1.Broadcasts S256x256
  broadcasts_S1x256_S256x256 : S1x256.Broadcasts S256x256
  natLt_1_32 : 1 < 32
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S256x256_S256x256x1 : S256x256.ShapeCasts S256x256x1
  shapeCasts_S256x32_S256x1x32 : S256x32.ShapeCasts S256x1x32
  broadcasts_S256x256x1_S256x256x32 : S256x256x1.Broadcasts S256x256x32
  broadcasts_S256x1x32_S256x256x32 : S256x1x32.Broadcasts S256x256x32
  shapeCasts_S256x256x32_S256x8192 : S256x256x32.ShapeCasts S256x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  shapeCasts_S256x8192_S1x256x8192 : S256x8192.ShapeCasts S1x256x8192
  shapeCasts_S8x256x8192_S8x256x256x32 : S8x256x8192.ShapeCasts S8x256x256x32
  bcast_S8_S8x1x1_0 : S8.BroadcastsInDim S8x1x1 (![0] : Fin 1 → Fin S8x1x1.rank)
  bcast_S8x1x1_S8x256x256_0_1_2 : S8x1x1.BroadcastsInDim S8x256x256 (![0, 1, 2] : Fin 3 → Fin S8x256x256.rank)
  bcast_S1x256x1_S8x256x256_0_1_2 : S1x256x1.BroadcastsInDim S8x256x256 (![0, 1, 2] : Fin 3 → Fin S8x256x256.rank)
  bcast_S256_S1x1x256_2 : S256.BroadcastsInDim S1x1x256 (![2] : Fin 1 → Fin S1x1x256.rank)
  bcast_S1x1x256_S8x256x256_0_1_2 : S1x1x256.BroadcastsInDim S8x256x256 (![0, 1, 2] : Fin 3 → Fin S8x256x256.rank)
  bcast_S8x256x256_S8x256x256x1_0_1_2 : S8x256x256.BroadcastsInDim S8x256x256x1 (![0, 1, 2] : Fin 3 → Fin S8x256x256x1.rank)
  concatenates_S8x256x256x1_S8x256x256x1_S8x256x256x1_S8x256x256x3_d3 : Shape.Concatenates [S8x256x256x1, S8x256x256x1, S8x256x256x1] S8x256x256x3 3
  dot_S256x256_S256x8192_S256x8192_0_0_1_1_n_n_wf : DotDims.WF S256x256 S256x8192 S256x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32.size a ≤ S8x65536x32.size a
  hwx0_0 : ∀ i : grid0.Coords, EltTy.bits .f32 = 32 ∨ (Rect.block (s := S8x65536x32) S1x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2.size a ≤ S8x65536x2.size a
  hwx0_1 : ∀ i : grid0.Coords, EltTy.bits .i32 = 32 ∨ (Rect.block (s := S8x65536x2) S1x256x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x256.size a
  hwx0_3 : ∀ i : grid0.Coords, EltTy.bits .f32 = 32 ∨ (Rect.block (s := S8x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x8192.size a ≤ S8x256x8192.size a
  hwx0_4 : ∀ i : grid0.Coords, EltTy.bits .f32 = 32 ∨ (Rect.block (s := S8x256x8192) S1x256x8192.size (cc0_transform_4 i) (hinb0_4 i)).WholeWords (EltTy.packing .f32)

variable [Facts₀]

def dot_S256x256_S256x8192_S256x8192_0_0_1_1_n_n : DotDims S256x256 S256x8192 S256x8192 where
  lhsContracting := [0]
  rhsContracting := [0]
  lhsNonContracting := [1]
  rhsNonContracting := [1]
  lhsBatch := []
  rhsBatch := []
  wf := dot_S256x256_S256x8192_S256x8192_0_0_1_1_n_n_wf

abbrev win0_0 : Pipeline.Window sig grid0 :=
  Pipeline.Window.ofSpec (Memref.whole main_arg1) S1x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S1x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v77) S1x256x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x65536x2 : Shape := ⟨3, ![8, 65536, 2]⟩
abbrev S8x65536x32 : Shape := ⟨3, ![8, 65536, 32]⟩
abbrev S1 : Shape := ⟨1, ![1]⟩
abbrev S_ : Shape := ⟨0, ![]⟩
abbrev S2 : Shape := ⟨1, ![2]⟩
abbrev S524288x2 : Shape := ⟨2, ![524288, 2]⟩
abbrev S8x2 : Shape := ⟨2, ![8, 2]⟩
abbrev S1x2 : Shape := ⟨2, ![1, 2]⟩
abbrev S256 : Shape := ⟨1, ![256]⟩
abbrev S256x1 : Shape := ⟨2, ![256, 1]⟩
abbrev S256x2 : Shape := ⟨2, ![256, 2]⟩
abbrev S1x256x2 : Shape := ⟨3, ![1, 256, 2]⟩
abbrev S8x1x2 : Shape := ⟨3, ![8, 1, 2]⟩
abbrev S8x256x2 : Shape := ⟨3, ![8, 256, 2]⟩
abbrev S8x256x1 : Shape := ⟨3, ![8, 256, 1]⟩
abbrev S8x256 : Shape := ⟨2, ![8, 256]⟩
abbrev S8x1x256 : Shape := ⟨3, ![8, 1, 256]⟩
abbrev S8x256x256 : Shape := ⟨3, ![8, 256, 256]⟩
abbrev S8 : Shape := ⟨1, ![8]⟩
abbrev S8x1 : Shape := ⟨2, ![8, 1]⟩
abbrev S8x65536 : Shape := ⟨2, ![8, 65536]⟩
abbrev S8x512x512x32 : Shape := ⟨4, ![8, 512, 512, 32]⟩
abbrev S8x65536x1 : Shape := ⟨3, ![8, 65536, 1]⟩
abbrev S8x65536x3 : Shape := ⟨3, ![8, 65536, 3]⟩
abbrev S8x256x512x32 : Shape := ⟨4, ![8, 256, 512, 32]⟩
abbrev S8x256x256x32 : Shape := ⟨4, ![8, 256, 256, 32]⟩
abbrev S8x256x256x1 : Shape := ⟨4, ![8, 256, 256, 1]⟩
abbrev S8x1x1 : Shape := ⟨3, ![8, 1, 1]⟩
abbrev S1x256x1 : Shape := ⟨3, ![1, 256, 1]⟩
abbrev S1x1x256 : Shape := ⟨3, ![1, 1, 256]⟩
abbrev S8x256x256x3 : Shape := ⟨4, ![8, 256, 256, 3]⟩

abbrev nBuf : Space → Nat
  | .hbm => 289
  | .vmem => 0
  | .smem => 0
  | _ => 0

abbrev hbmTy0_0 (i : Nat) : BufTy := match i % 128 with
  | 0 => ⟨S8x65536x2, .i32⟩
  | 1 => ⟨S8x65536x32, .f32⟩
  | 2 => ⟨S1, .f32⟩
  | 3 => ⟨S_, .i32⟩
  | 4 => ⟨S2, .i32⟩
  | 5 => ⟨S_, .i32⟩
  | 6 => ⟨S2, .i32⟩
  | 7 => ⟨S_, .i32⟩
  | 8 => ⟨S2, .i32⟩
  | 9 => ⟨S_, .i32⟩
  | 10 => ⟨S2, .i32⟩
  | 11 => ⟨S_, .i32⟩
  | 12 => ⟨S2, .i32⟩
  | 13 => ⟨S2, .i32⟩
  | 14 => ⟨S_, .i32⟩
  | 15 => ⟨S_, .i32⟩
  | 16 => ⟨S2, .i32⟩
  | 17 => ⟨S2, .i32⟩
  | 18 => ⟨S2, .i32⟩
  | 19 => ⟨S_, .i32⟩
  | 20 => ⟨S2, .i32⟩
  | 21 => ⟨S2, .i1⟩
  | 22 => ⟨S2, .i32⟩
  | 23 => ⟨S2, .i32⟩
  | 24 => ⟨S_, .i32⟩
  | 25 => ⟨S2, .i32⟩
  | 26 => ⟨S2, .i1⟩
  | 27 => ⟨S2, .i1⟩
  | 28 => ⟨S_, .i32⟩
  | 29 => ⟨S2, .i32⟩
  | 30 => ⟨S2, .i32⟩
  | 31 => ⟨S2, .i32⟩
  | 32 => ⟨S2, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S2, .i32⟩
  | 40 => ⟨S2, .i32⟩
  | 41 => ⟨S_, .i32⟩
  | 42 => ⟨S2, .i32⟩
  | 43 => ⟨S2, .i1⟩
  | 44 => ⟨S_, .i32⟩
  | 45 => ⟨S2, .i32⟩
  | 46 => ⟨S2, .i1⟩
  | 47 => ⟨S_, .i32⟩
  | 48 => ⟨S_, .i1⟩
  | 49 => ⟨S2, .i1⟩
  | 50 => ⟨S2, .i1⟩
  | 51 => ⟨S2, .i1⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S524288x2, .i32⟩
  | 74 => ⟨S_, .i32⟩
  | 75 => ⟨S2, .i32⟩
  | 76 => ⟨S2, .i32⟩
  | 77 => ⟨S_, .i32⟩
  | 78 => ⟨S8x2, .i32⟩
  | 79 => ⟨S_, .i32⟩
  | 80 => ⟨S8x2, .i32⟩
  | 81 => ⟨S1x2, .i32⟩
  | 82 => ⟨S8x2, .i32⟩
  | 83 => ⟨S8x2, .i32⟩
  | 84 => ⟨S1x2, .i32⟩
  | 85 => ⟨S8x2, .i32⟩
  | 86 => ⟨S8x2, .i32⟩
  | 87 => ⟨S1x2, .i32⟩
  | 88 => ⟨S8x2, .i32⟩
  | 89 => ⟨S8x2, .i32⟩
  | 90 => ⟨S8x2, .i32⟩
  | 91 => ⟨S1x2, .i32⟩
  | 92 => ⟨S8x2, .i32⟩
  | 93 => ⟨S8x2, .i1⟩
  | 94 => ⟨S8x2, .i32⟩
  | 95 => ⟨S8x2, .i32⟩
  | 96 => ⟨S_, .i32⟩
  | 97 => ⟨S8x2, .i32⟩
  | 98 => ⟨S8x2, .i1⟩
  | 99 => ⟨S8x2, .i1⟩
  | 100 => ⟨S_, .i32⟩
  | 101 => ⟨S8x2, .i32⟩
  | 102 => ⟨S8x2, .i32⟩
  | 103 => ⟨S8x2, .i32⟩
  | 104 => ⟨S1x2, .i32⟩
  | 105 => ⟨S8x2, .i32⟩
  | 106 => ⟨S8x2, .i32⟩
  | 107 => ⟨S1x2, .i32⟩
  | 108 => ⟨S8x2, .i32⟩
  | 109 => ⟨S8x2, .i32⟩
  | 110 => ⟨S1x2, .i32⟩
  | 111 => ⟨S8x2, .i32⟩
  | 112 => ⟨S8x2, .i32⟩
  | 113 => ⟨S1x2, .i32⟩
  | 114 => ⟨S8x2, .i32⟩
  | 115 => ⟨S8x2, .i32⟩
  | 116 => ⟨S1x2, .i32⟩
  | 117 => ⟨S8x2, .i32⟩
  | 118 => ⟨S8x2, .i32⟩
  | 119 => ⟨S1x2, .i32⟩
  | 120 => ⟨S8x2, .i32⟩
  | 121 => ⟨S8x2, .i32⟩
  | 122 => ⟨S8x2, .i32⟩
  | 123 => ⟨S1x2, .i32⟩
  | 124 => ⟨S8x2, .i32⟩
  | 125 => ⟨S8x2, .i1⟩
  | 126 => ⟨S8x2, .i32⟩
  | 127 => ⟨S8x2, .i32⟩
  | _ => ⟨S8x65536x2, .i32⟩

abbrev hbmTy0_1 (i : Nat) : BufTy := match i % 128 with
  | 0 => ⟨S_, .i32⟩
  | 1 => ⟨S8x2, .i32⟩
  | 2 => ⟨S8x2, .i1⟩
  | 3 => ⟨S8x2, .i1⟩
  | 4 => ⟨S_, .i32⟩
  | 5 => ⟨S8x2, .i32⟩
  | 6 => ⟨S8x2, .i32⟩
  | 7 => ⟨S8x2, .i32⟩
  | 8 => ⟨S_, .i32⟩
  | 9 => ⟨S8x2, .i32⟩
  | 10 => ⟨S8x2, .i32⟩
  | 11 => ⟨S1x2, .i32⟩
  | 12 => ⟨S8x2, .i32⟩
  | 13 => ⟨S8x2, .i32⟩
  | 14 => ⟨S1x2, .i32⟩
  | 15 => ⟨S8x2, .i32⟩
  | 16 => ⟨S8x2, .i32⟩
  | 17 => ⟨S1x2, .i32⟩
  | 18 => ⟨S8x2, .i32⟩
  | 19 => ⟨S8x2, .i32⟩
  | 20 => ⟨S1x2, .i32⟩
  | 21 => ⟨S256, .i32⟩
  | 22 => ⟨S256x1, .i32⟩
  | 23 => ⟨S1x2, .i32⟩
  | 24 => ⟨S256x2, .i32⟩
  | 25 => ⟨S256x2, .i32⟩
  | 26 => ⟨S256x2, .i32⟩
  | 27 => ⟨S256x2, .i32⟩
  | 28 => ⟨S256x2, .i32⟩
  | 29 => ⟨S1x256x2, .i32⟩
  | 30 => ⟨S8x1x2, .i32⟩
  | 31 => ⟨S8x256x2, .i32⟩
  | 32 => ⟨S8x256x2, .i32⟩
  | 33 => ⟨S8x256x2, .i1⟩
  | 34 => ⟨S1x256x2, .i32⟩
  | 35 => ⟨S8x1x2, .i32⟩
  | 36 => ⟨S8x256x2, .i32⟩
  | 37 => ⟨S8x256x2, .i32⟩
  | 38 => ⟨S8x256x2, .i1⟩
  | 39 => ⟨S8x256x2, .i1⟩
  | 40 => ⟨S8x256x1, .i1⟩
  | 41 => ⟨S8x256, .i1⟩
  | 42 => ⟨S8x256x1, .i1⟩
  | 43 => ⟨S8x256x1, .i1⟩
  | 44 => ⟨S8x256, .i1⟩
  | 45 => ⟨S8x1x256, .i1⟩
  | 46 => ⟨S8x256x256, .i1⟩
  | 47 => ⟨S8x256x256, .i1⟩
  | 48 => ⟨S8x256x256, .i1⟩
  | 49 => ⟨S256x1, .i32⟩
  | 50 => ⟨S256, .i32⟩
  | 51 => ⟨S_, .i32⟩
  | 52 => ⟨S_, .i32⟩
  | 53 => ⟨S_, .i32⟩
  | 54 => ⟨S256, .i32⟩
  | 55 => ⟨S256, .i32⟩
  | 56 => ⟨S_, .i32⟩
  | 57 => ⟨S256, .i32⟩
  | 58 => ⟨S256, .i32⟩
  | 59 => ⟨S256x1, .i32⟩
  | 60 => ⟨S256, .i32⟩
  | 61 => ⟨S_, .i32⟩
  | 62 => ⟨S_, .i32⟩
  | 63 => ⟨S_, .i32⟩
  | 64 => ⟨S256, .i32⟩
  | 65 => ⟨S256, .i32⟩
  | 66 => ⟨S_, .i32⟩
  | 67 => ⟨S256, .i32⟩
  | 68 => ⟨S256, .i32⟩
  | 69 => ⟨S8, .i32⟩
  | 70 => ⟨S8x1, .i32⟩
  | 71 => ⟨S8x65536, .i32⟩
  | 72 => ⟨S_, .f32⟩
  | 73 => ⟨S8x512x512x32, .f32⟩
  | 74 => ⟨S8x65536x1, .i32⟩
  | 75 => ⟨S8x65536, .i32⟩
  | 76 => ⟨S8x65536x1, .i32⟩
  | 77 => ⟨S8x65536, .i32⟩
  | 78 => ⟨S_, .i32⟩
  | 79 => ⟨S8x65536, .i32⟩
  | 80 => ⟨S8x65536, .i1⟩
  | 81 => ⟨S_, .i32⟩
  | 82 => ⟨S8x65536, .i32⟩
  | 83 => ⟨S8x65536, .i32⟩
  | 84 => ⟨S8x65536, .i32⟩
  | 85 => ⟨S_, .i32⟩
  | 86 => ⟨S8x65536, .i32⟩
  | 87 => ⟨S8x65536, .i1⟩
  | 88 => ⟨S_, .i32⟩
  | 89 => ⟨S8x65536, .i32⟩
  | 90 => ⟨S8x65536, .i32⟩
  | 91 => ⟨S8x65536, .i32⟩
  | 92 => ⟨S_, .i32⟩
  | 93 => ⟨S8x65536, .i32⟩
  | 94 => ⟨S8x65536, .i1⟩
  | 95 => ⟨S_, .i32⟩
  | 96 => ⟨S8x65536, .i32⟩
  | 97 => ⟨S8x65536, .i32⟩
  | 98 => ⟨S8x65536, .i32⟩
  | 99 => ⟨S8x65536x1, .i32⟩
  | 100 => ⟨S8x65536x1, .i32⟩
  | 101 => ⟨S8x65536x1, .i32⟩
  | 102 => ⟨S8x65536x3, .i32⟩
  | 103 => ⟨S8x512x512x32, .f32⟩
  | 104 => ⟨S_, .i32⟩
  | 105 => ⟨S256, .i32⟩
  | 106 => ⟨S256, .i1⟩
  | 107 => ⟨S_, .i32⟩
  | 108 => ⟨S256, .i32⟩
  | 109 => ⟨S256, .i32⟩
  | 110 => ⟨S256, .i32⟩
  | 111 => ⟨S256x1, .i32⟩
  | 112 => ⟨S8x256x512x32, .f32⟩
  | 113 => ⟨S_, .i32⟩
  | 114 => ⟨S256, .i32⟩
  | 115 => ⟨S256, .i1⟩
  | 116 => ⟨S_, .i32⟩
  | 117 => ⟨S256, .i32⟩
  | 118 => ⟨S256, .i32⟩
  | 119 => ⟨S256, .i32⟩
  | 120 => ⟨S256x1, .i32⟩
  | 121 => ⟨S8x256x256x32, .f32⟩
  | 122 => ⟨S8x256x256x1, .i1⟩
  | 123 => ⟨S8x256x256x1, .f32⟩
  | 124 => ⟨S8x256x256x32, .f32⟩
  | 125 => ⟨S8x256x256x32, .f32⟩
  | 126 => ⟨S1x2, .i32⟩
  | 127 => ⟨S256x2, .i32⟩
  | _ => ⟨S8x65536x2, .i32⟩

abbrev hbmTy0_2 (i : Nat) : BufTy := match i % 128 with
  | 0 => ⟨S256x2, .i32⟩
  | 1 => ⟨S1x2, .i32⟩
  | 2 => ⟨S256x2, .i32⟩
  | 3 => ⟨S256x2, .i32⟩
  | 4 => ⟨S256x2, .i32⟩
  | 5 => ⟨S1x2, .i32⟩
  | 6 => ⟨S256x2, .i32⟩
  | 7 => ⟨S256x2, .i1⟩
  | 8 => ⟨S256x2, .i32⟩
  | 9 => ⟨S256x2, .i32⟩
  | 10 => ⟨S_, .i32⟩
  | 11 => ⟨S256x2, .i32⟩
  | 12 => ⟨S256x2, .i1⟩
  | 13 => ⟨S256x2, .i1⟩
  | 14 => ⟨S_, .i32⟩
  | 15 => ⟨S256x2, .i32⟩
  | 16 => ⟨S256x2, .i32⟩
  | 17 => ⟨S256x2, .i32⟩
  | 18 => ⟨S8, .i32⟩
  | 19 => ⟨S8x1x1, .i32⟩
  | 20 => ⟨S8x256x256, .i32⟩
  | 21 => ⟨S256x1, .i32⟩
  | 22 => ⟨S256, .i32⟩
  | 23 => ⟨S1x256x1, .i32⟩
  | 24 => ⟨S8x256x256, .i32⟩
  | 25 => ⟨S256x1, .i32⟩
  | 26 => ⟨S256, .i32⟩
  | 27 => ⟨S1x1x256, .i32⟩
  | 28 => ⟨S8x256x256, .i32⟩
  | 29 => ⟨S8x256x256x1, .i32⟩
  | 30 => ⟨S8x256x256x1, .i32⟩
  | 31 => ⟨S8x256x256x1, .i32⟩
  | 32 => ⟨S8x256x256x3, .i32⟩
  | _ => ⟨S8x65536x2, .i32⟩

abbrev hbmTy (i : Nat) : BufTy := match i / 128 with
  | 0 => hbmTy0_0 i
  | 1 => hbmTy0_1 i
  | 2 => hbmTy0_2 i
  | _ => ⟨S8x65536x2, .i32⟩

abbrev bufTy : (tb : Table) → Fin (tcTables nBuf tb) → BufTy
  | .hbm, ⟨i, _⟩ => hbmTy i
  | _, _ => ⟨S8x65536x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_c_4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_v7 : Ref sig .tc := ⟨.hbm, 32, rfl⟩
abbrev main_c_5 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v8 : Ref sig .tc := ⟨.hbm, 54, rfl⟩
abbrev main_v9 : Ref sig .tc := ⟨.hbm, 55, rfl⟩
abbrev main_c_6 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_c_7 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_8 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_9 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_10 : Ref sig .tc := ⟨.hbm, 74, rfl⟩
abbrev main_v24 : Ref sig .tc := ⟨.hbm, 75, rfl⟩
abbrev main_v25 : Ref sig .tc := ⟨.hbm, 76, rfl⟩
abbrev main_c_11 : Ref sig .tc := ⟨.hbm, 77, rfl⟩
abbrev main_v26 : Ref sig .tc := ⟨.hbm, 78, rfl⟩
abbrev main_c_12 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_c : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_0 : Ref sig .tc := ⟨.hbm, 132, rfl⟩
abbrev main_call3_v12 : Ref sig .tc := ⟨.hbm, 133, rfl⟩
abbrev main_call3_v13 : Ref sig .tc := ⟨.hbm, 134, rfl⟩
abbrev main_v50 : Ref sig .tc := ⟨.hbm, 135, rfl⟩
abbrev main_c_13 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_c_14 : Ref sig .tc := ⟨.hbm, 179, rfl⟩
abbrev main_c_15 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_c_16 : Ref sig .tc := ⟨.hbm, 189, rfl⟩
abbrev main_c_17 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_cst : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_c_18 : Ref sig .tc := ⟨.hbm, 206, rfl⟩
abbrev main_v105 : Ref sig .tc := ⟨.hbm, 207, rfl⟩
abbrev main_v106 : Ref sig .tc := ⟨.hbm, 208, rfl⟩
abbrev main_c_19 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_c_20 : Ref sig .tc := ⟨.hbm, 213, rfl⟩
abbrev main_v110 : Ref sig .tc := ⟨.hbm, 214, rfl⟩
abbrev main_v111 : Ref sig .tc := ⟨.hbm, 215, rfl⟩
abbrev main_c_21 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_c_22 : Ref sig .tc := ⟨.hbm, 220, rfl⟩
abbrev main_v115 : Ref sig .tc := ⟨.hbm, 221, rfl⟩
abbrev main_v116 : Ref sig .tc := ⟨.hbm, 222, rfl⟩
abbrev main_c_23 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_c_24 : Ref sig .tc := ⟨.hbm, 232, rfl⟩
abbrev main_v125 : Ref sig .tc := ⟨.hbm, 233, rfl⟩
abbrev main_v126 : Ref sig .tc := ⟨.hbm, 234, rfl⟩
abbrev main_c_25 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_c_26 : Ref sig .tc := ⟨.hbm, 241, rfl⟩
abbrev main_v132 : Ref sig .tc := ⟨.hbm, 242, rfl⟩
abbrev main_v133 : Ref sig .tc := ⟨.hbm, 243, rfl⟩
abbrev main_c_27 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_call6_v0 : Ref sig .tc := ⟨.hbm, 258, rfl⟩
abbrev main_call6_v1 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_call6_v5 : Ref sig .tc := ⟨.hbm, 263, rfl⟩
abbrev main_call6_v6 : Ref sig .tc := ⟨.hbm, 264, rfl⟩
abbrev main_call6_v7 : Ref sig .tc := ⟨.hbm, 265, rfl⟩
abbrev main_call6_c : Ref sig .tc := ⟨.hbm, 266, rfl⟩
abbrev main_call6_v8 : Ref sig .tc := ⟨.hbm, 267, rfl⟩
abbrev main_call6_v9 : Ref sig .tc := ⟨.hbm, 268, rfl⟩
abbrev main_call6_v10 : Ref sig .tc := ⟨.hbm, 269, rfl⟩
abbrev main_call6_c_0 : Ref sig .tc := ⟨.hbm, 270, rfl⟩
abbrev main_call6_v11 : Ref sig .tc := ⟨.hbm, 271, rfl⟩
abbrev main_call6_v12 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩

abbrev nD : Nat := 1
abbrev τ : Topo := Topo.v7x

variable {F : FTy → Type} [FloatOps F]

class Facts₀ : Prop where
  bcast_S_S2 : S_.BroadcastsInDim S2 (![] : Fin 0 → Fin S2.rank)
  shapeCasts_S8x65536x2_S524288x2 : S8x65536x2.ShapeCasts S524288x2
  reducesTo_S524288x2_S2_d0 : S524288x2.ReducesTo [0] S2
  h_S_ : 0 < S_.numel
  reducesTo_S8x65536x2_S8x2_d1 : S8x65536x2.ReducesTo [1] S8x2
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  bcast_S_S8x2 : S_.BroadcastsInDim S8x2 (![] : Fin 0 → Fin S8x2.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  bcast_S1x2_S256x2_0_1 : S1x2.BroadcastsInDim S256x2 (![0, 1] : Fin 2 → Fin S256x2.rank)
  bcast_S256x2_S1x256x2_1_2 : S256x2.BroadcastsInDim S1x256x2 (![1, 2] : Fin 2 → Fin S1x256x2.rank)
  bcast_S8x2_S8x1x2_0_2 : S8x2.BroadcastsInDim S8x1x2 (![0, 2] : Fin 2 → Fin S8x1x2.rank)
  bcast_S1x256x2_S8x256x2_0_1_2 : S1x256x2.BroadcastsInDim S8x256x2 (![0, 1, 2] : Fin 3 → Fin S8x256x2.rank)
  bcast_S8x1x2_S8x256x2_0_1_2 : S8x1x2.BroadcastsInDim S8x256x2 (![0, 1, 2] : Fin 3 → Fin S8x256x2.rank)
  slices_S8x256x2_S8x256x1_0_0_0 : S8x256x2.Slices ![0, 0, 0] S8x256x1
  shapeCasts_S8x256x1_S8x256 : S8x256x1.ShapeCasts S8x256
  bcast_S8x256_S8x256x1_0_1 : S8x256.BroadcastsInDim S8x256x1 (![0, 1] : Fin 2 → Fin S8x256x1.rank)
  slices_S8x256x2_S8x256x1_0_0_1 : S8x256x2.Slices ![0, 0, 1] S8x256x1
  bcast_S8x256_S8x1x256_0_2 : S8x256.BroadcastsInDim S8x1x256 (![0, 2] : Fin 2 → Fin S8x1x256.rank)
  bcast_S8x256x1_S8x256x256_0_1_2 : S8x256x1.BroadcastsInDim S8x256x256 (![0, 1, 2] : Fin 3 → Fin S8x256x256.rank)
  bcast_S8x1x256_S8x256x256_0_1_2 : S8x1x256.BroadcastsInDim S8x256x256 (![0, 1, 2] : Fin 3 → Fin S8x256x256.rank)
  slices_S256x2_S256x1_0_0 : S256x2.Slices ![0, 0] S256x1
  shapeCasts_S256x1_S256 : S256x1.ShapeCasts S256
  bcast_S_S256 : S_.BroadcastsInDim S256 (![] : Fin 0 → Fin S256.rank)
  slices_S256x2_S256x1_0_1 : S256x2.Slices ![0, 1] S256x1
  bcast_S8_S8x1_0 : S8.BroadcastsInDim S8x1 (![0] : Fin 1 → Fin S8x1.rank)
  bcast_S8x1_S8x65536_0_1 : S8x1.BroadcastsInDim S8x65536 (![0, 1] : Fin 2 → Fin S8x65536.rank)
  bcast_S_S8x512x512x32 : S_.BroadcastsInDim S8x512x512x32 (![] : Fin 0 → Fin S8x512x512x32.rank)
  slices_S8x65536x2_S8x65536x1_0_0_0 : S8x65536x2.Slices ![0, 0, 0] S8x65536x1
  shapeCasts_S8x65536x1_S8x65536 : S8x65536x1.ShapeCasts S8x65536
  slices_S8x65536x2_S8x65536x1_0_0_1 : S8x65536x2.Slices ![0, 0, 1] S8x65536x1
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  concatenates_S8x65536x1_S8x65536x1_S8x65536x1_S8x65536x3_d2 : Shape.Concatenates [S8x65536x1, S8x65536x1, S8x65536x1] S8x65536x3 2
  bcast_S8x256x256_S8x256x256x1_0_1_2 : S8x256x256.BroadcastsInDim S8x256x256x1 (![0, 1, 2] : Fin 3 → Fin S8x256x256x1.rank)
  bcast_S8x256x256x1_S8x256x256x32_0_1_2_3 : S8x256x256x1.BroadcastsInDim S8x256x256x32 (![0, 1, 2, 3] : Fin 4 → Fin S8x256x256x32.rank)
  bcast_S_S256x2 : S_.BroadcastsInDim S256x2 (![] : Fin 0 → Fin S256x2.rank)
  bcast_S8_S8x1x1_0 : S8.BroadcastsInDim S8x1x1 (![0] : Fin 1 → Fin S8x1x1.rank)
  bcast_S8x1x1_S8x256x256_0_1_2 : S8x1x1.BroadcastsInDim S8x256x256 (![0, 1, 2] : Fin 3 → Fin S8x256x256.rank)
  bcast_S256_S1x256x1_1 : S256.BroadcastsInDim S1x256x1 (![1] : Fin 1 → Fin S1x256x1.rank)
  bcast_S1x256x1_S8x256x256_0_1_2 : S1x256x1.BroadcastsInDim S8x256x256 (![0, 1, 2] : Fin 3 → Fin S8x256x256.rank)
  bcast_S256_S1x1x256_2 : S256.BroadcastsInDim S1x1x256 (![2] : Fin 1 → Fin S1x1x256.rank)
  bcast_S1x1x256_S8x256x256_0_1_2 : S1x1x256.BroadcastsInDim S8x256x256 (![0, 1, 2] : Fin 3 → Fin S8x256x256.rank)
  concatenates_S8x256x256x1_S8x256x256x1_S8x256x256x1_S8x256x256x3_d3 : Shape.Concatenates [S8x256x256x1, S8x256x256x1, S8x256x256x1] S8x256x256x3 3
  scatter_S8x512x512x32_S8x65536x3_S8x65536x32_2_012_012_2_wf : ScatterDims.WF S8x512x512x32 S8x65536x3 S8x65536x32 [2] [0, 1, 2] [0, 1, 2] 2
  gather_S8x512x512x32_S256x1_S8x256x512x32_023_1_n_n_1_1_8151232_wf : GatherDims.WF S8x512x512x32 S256x1 S8x256x512x32 [0, 2, 3] [1] [] [1] [] 1 ![8, 1, 512, 32]
  gather_S8x256x512x32_S256x1_S8x256x256x32_013_2_n_n_2_1_8256132_wf : GatherDims.WF S8x256x512x32 S256x1 S8x256x256x32 [0, 1, 3] [2] [] [2] [] 1 ![8, 256, 1, 32]

variable [Facts₀]

def scatter_S8x512x512x32_S8x65536x3_S8x65536x32_2_012_012_2 : ScatterDims S8x512x512x32 S8x65536x3 S8x65536x32 where
  updateWindowDims := [2]
  insertedWindowDims := [0, 1, 2]
  scatterDimsToOperandDims := [0, 1, 2]
  indexVectorDim := 2
  wf := scatter_S8x512x512x32_S8x65536x3_S8x65536x32_2_012_012_2_wf
def gather_S8x512x512x32_S256x1_S8x256x512x32_023_1_n_n_1_1_8151232 : GatherDims S8x512x512x32 S256x1 S8x256x512x32 where
  offsetDims := [0, 2, 3]
  collapsedSliceDims := [1]
  operandBatchingDims := []
  startIndicesBatchingDims := []
  startIndexMap := [1]
  indexVectorDim := 1
  sliceSizes := ![8, 1, 512, 32]
  wf := gather_S8x512x512x32_S256x1_S8x256x512x32_023_1_n_n_1_1_8151232_wf
def gather_S8x256x512x32_S256x1_S8x256x256x32_013_2_n_n_2_1_8256132 : GatherDims S8x256x512x32 S256x1 S8x256x256x32 where
  offsetDims := [0, 1, 3]
  collapsedSliceDims := [2]
  operandBatchingDims := []
  startIndicesBatchingDims := []
  startIndexMap := [2]
  indexVectorDim := 1
  sliceSizes := ![8, 256, 1, 32]
  wf := gather_S8x256x512x32_S256x1_S8x256x256x32_013_2_n_n_2_1_8256132_wf

class Facts : Prop extends Facts₀ where

variable [Facts]
-- ==== Proof.BKV.lean ====
/-
  The kernel program's buffer contents when its one region is entered: the launch contents after the host
  operations that precede the region (the validity windows, the mask, each point's bin index, the reported
  coordinates), as a valuation and read at a TensorCore reference.
-/
import proofs.«419918_j39608188403815_2_alg».proof.Proof.Gen.Kernel.Launch

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- The stretches of host operations before the region, in order (the program's own and its callees'). -/
abbrev prefixOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13]

/-- Core c's TensorCore buffer contents when the region is entered. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.BKFrameKit.lean ====
/-
  The frame kit of the kernel program's one pipelined region: @main around the region (the host operations before it,
  the region, the host operations after it), the argument arrays read back after the run, each window's block at a
  point, the body's two branch conditions decided over the grid, where the output window is idle, and the staging and
  scratch memrefs the whole-body runs are stated over.
-/
import proofs.«419918_j39608188403815_2_alg».proof.Proof.BKV
import proofs.«419918_j39608188403815_2_alg».proof.Proof.Gen.Kernel.Launch
import proofs.«419918_j39608188403815_2_alg».proof.Proof.Gen.Kernel.Skeleton
import proofs.«419918_j39608188403815_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/
/-- No operation of this stretch allocates. -/
theorem hostOps0_fresh : (hostOps0 : List (HloOp τ sig (Elt F))).Forall fun op => op.fresh = ∅ := by
  simp only [List.Forall]; repeat' constructor
/-- No operation of this stretch allocates. -/
theorem hostOps0_1_fresh : (hostOps0_1 : List (HloOp τ sig (Elt F))).Forall fun op => op.fresh = ∅ := by
  simp only [List.Forall]; repeat' constructor
/-- No operation of this stretch allocates. -/
theorem hostOps0_2_fresh : (hostOps0_2 : List (HloOp τ sig (Elt F))).Forall fun op => op.fresh = ∅ := by
  simp only [List.Forall]; repeat' constructor
/-- No operation of this stretch allocates. -/
theorem hostOps0_3_fresh : (hostOps0_3 : List (HloOp τ sig (Elt F))).Forall fun op => op.fresh = ∅ := by
  simp only [List.Forall]; repeat' constructor
/-- No operation of this stretch allocates. -/
theorem hostOps0_4_fresh : (hostOps0_4 : List (HloOp τ sig (Elt F))).Forall fun op => op.fresh = ∅ := by
  simp only [List.Forall]; repeat' constructor
/-- No operation of this stretch allocates. -/
theorem hostOps0_5_fresh : (hostOps0_5 : List (HloOp τ sig (Elt F))).Forall fun op => op.fresh = ∅ := by
  simp only [List.Forall]; repeat' constructor
/-- No operation of this stretch allocates. -/
theorem hostOps0_6_fresh : (hostOps0_6 : List (HloOp τ sig (Elt F))).Forall fun op => op.fresh = ∅ := by
  simp only [List.Forall]; repeat' constructor
/-- No operation of this stretch allocates. -/
theorem hostOps0_7_fresh : (hostOps0_7 : List (HloOp τ sig (Elt F))).Forall fun op => op.fresh = ∅ := by
  simp only [List.Forall]; repeat' constructor
/-- No operation of this stretch allocates. -/
theorem hostOps0_8_fresh : (hostOps0_8 : List (HloOp τ sig (Elt F))).Forall fun op => op.fresh = ∅ := by
  simp only [List.Forall]; repeat' constructor
/-- No operation of this stretch allocates. -/
theorem hostOps0_9_fresh : (hostOps0_9 : List (HloOp τ sig (Elt F))).Forall fun op => op.fresh = ∅ := by
  simp only [List.Forall]; repeat' constructor
/-- No operation of this stretch allocates. -/
theorem hostOps0_10_fresh : (hostOps0_10 : List (HloOp τ sig (Elt F))).Forall fun op => op.fresh = ∅ := by
  simp only [List.Forall]; repeat' constructor
/-- No operation of this stretch allocates. -/
theorem hostOps0_11_fresh : (hostOps0_11 : List (HloOp τ sig (Elt F))).Forall fun op => op.fresh = ∅ := by
  simp only [List.Forall]; repeat' constructor
/-- No operation of this stretch allocates. -/
theorem hostOps0_12_fresh : (hostOps0_12 : List (HloOp τ sig (Elt F))).Forall fun op => op.fresh = ∅ := by
  simp only [List.Forall]; repeat' constructor
/-- No operation of this stretch allocates. -/
theorem hostOps0_13_fresh : (hostOps0_13 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor

/-- @main around the region: the host operations before it, the region, the host operations after it; it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [prefixOps, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [prefixOps, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- The operations after the region touch the pipeline's arrays and the bypassing buffers only: each one's buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

set_option maxHeartbeats 1600000 in
/-- No host operation before the region writes the argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 1600000 in
/-- No host operation before the region writes the argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 1600000 in
/-- No host operation before the region writes the argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes the argument array 0, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [prefixOps, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes the argument array 2, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [prefixOps, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched the block index has not moved), for any proof data whose array is the region-entry contents and whose body
    leaves the block in place; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched the block index has not moved), for any proof data whose array is the region-entry contents and whose body
    leaves the block in place; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched the block index has not moved), for any proof data whose array is the region-entry contents and whose body
    leaves the block in place; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched the block index has not moved), for any proof data whose array is the region-entry contents and whose body
    leaves the block in place; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the frame post
    read at the argument arrays (the staged input through the window's array, the two arrays no window stages through
    the post's second clause) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c)⟩) h

/-! ## The body's branch conditions -/

/-- The condition of the body's first conditional (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 256): decided over the grid. -/
theorem hcond0_0 : ∀ t : Fin cfg0.N, cond0_0 (grid0.coords t) ↔ t.val % 256 = 0 :=
  (by decide +kernel : ∀ t : Fin grid0.N, cond0_0 (grid0.coords t) ↔ t.val % 256 = 0)

/-- The condition of the body's second conditional (the copy of the accumulator to the output block). -/
abbrev cond0_1 (i : grid0.Coords) : Prop := k0_cond2 i = 1#1
/-- It holds at the points ≡ 255 (mod 256): decided over the grid. -/
theorem hcond0_1 : ∀ t : Fin cfg0.N, cond0_1 (grid0.coords t) ↔ t.val % 256 = 255 :=
  (by decide +kernel : ∀ t : Fin grid0.N, cond0_1 (grid0.coords t) ↔ t.val % 256 = 255)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points of case A the output window 4 is idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the output window 4 is idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the output window 4 is live: the case stores into it. -/
theorem liveAt0_4_C : ∀ t : Fin cfg0.N, ¬cond0_0 (grid0.coords t) → cond0_1 (grid0.coords t) → cfg0.idle 4 (grid0.coords t) = false := by decide +kernel

/-! ## The staging and scratch memrefs the runs are stated over -/

/-- One staging buffer of output window 4, through which its contents are stated (the choice does not matter). -/
abbrev VO0_4 : View sig .tc .vmem S1x256x8192 .f32 := (Memref.whole cc0_stg4_0 : Memref sig .tc .vmem S1x256x8192 .f32).view
/-- Each window's current staging memref at point t, spelled as the pipeline passes it, and its wholeness. -/
abbrev ms0_0 (t : Fin cfg0.N) : Memref sig .tc .vmem S1x256x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x8192 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S256x8192 .f32 := Memref.whole cc0_scratch0
/-- The scratch accumulator the kernel carries between points, as a view: what it holds is stated through it. -/
abbrev VS0_0 : View sig .tc .vmem S256x8192 .f32 := scM0_0.view

/-- The frame kit's invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BKRunA.lean ====
/-
  The whole-body run of the kernel in case A of its frame certificate: the body's triple over its skeleton, the pieces
  each buffer ends with being the witness.
-/
import proofs.«419918_j39608188403815_2_alg».proof.Proof.BKFrameKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch accumulator, as pieces (last first),
    in case A (the first conditional taken, the second not: the points with grid coordinate 1 equal to 0), with the proof
    that on whole staging memrefs (the four inputs' at their contents, the output's, idle here, at contents handed back
    untouched, the scratch at anything) the body runs to the continuation holding the inputs' and the output's as they
    were and the scratch with its pieces written: the accumulator is reset to zero and the point's product added. -/
noncomputable def kernelRun0_A (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) :
    Σ' (L4 : List (View.Piece (Elt F) S1x256x8192 .f32)), { LS0 : List (View.Piece (Elt F) S256x8192 .f32) //
      ∀ (xi4 : Vec F S1x256x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__scatter_gather_kernel i arg2 harg2 arg3 harg3 arg4 harg4 arg5 harg5 arg6 harg6 arg7 harg7) K } := by
  refine ⟨[], ?_, fun xi4 E K => ?run⟩
  case run =>
    simp only [cc0__scatter_gather_kernel_eq_skeleton]; unfold cc0__scatter_gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.BKRunB.lean ====
/-
  The whole-body run of the kernel in case B of its frame certificate: the body's triple over its skeleton, the pieces
  each buffer ends with being the witness.
-/
import proofs.«419918_j39608188403815_2_alg».proof.Proof.BKRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch accumulator, as pieces (last first),
    in case B (neither conditional taken: grid coordinate 1 strictly between 0 and 255), with the proof that on whole
    staging memrefs (the four inputs' at their contents, the output's, idle here, at contents handed back untouched, the
    scratch at the contents the point before left) the body runs to the continuation holding the inputs' and the
    output's as they were and the scratch with its pieces written: the point's product is added to the accumulator. -/
noncomputable def kernelRun0_B (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) :
    Σ' (L4 : List (View.Piece (Elt F) S1x256x8192 .f32)), { LS0 : List (View.Piece (Elt F) S256x8192 .f32) //
      ∀ (xi4 : Vec F S1x256x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__scatter_gather_kernel i arg2 harg2 arg3 harg3 arg4 harg4 arg5 harg5 arg6 harg6 arg7 harg7) K } := by
  refine ⟨[], ?_, fun xi4 E K => ?run⟩
  case run =>
    simp only [cc0__scatter_gather_kernel_eq_skeleton]; unfold cc0__scatter_gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.BKRunC.lean ====
/-
  The whole-body run of the kernel in case C of its frame certificate: the body's triple over its skeleton, the pieces
  each buffer ends with being the witness.
-/
import proofs.«419918_j39608188403815_2_alg».proof.Proof.BKRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch accumulator, as pieces (last first),
    in case C (the first conditional not taken, the second taken: grid coordinate 1 equal to 255), with the proof that
    on whole staging memrefs (the four inputs' at their contents, the output's at anything, the scratch at the contents
    the point before left) the body runs to the continuation holding the inputs' as they were and the output's and the
    scratch with their pieces written: the point's product is added to the accumulator, which is then copied out. -/
noncomputable def kernelRun0_C (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) :
    Σ' (L4 : List (View.Piece (Elt F) S1x256x8192 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__scatter_gather_kernel i arg2 harg2 arg3 harg3 arg4 harg4 arg5 harg5 arg6 harg6 arg7 harg7) K } := by
  refine ⟨?_, ?_, fun E K => ?run⟩
  case run =>
    simp only [cc0__scatter_gather_kernel_eq_skeleton]; unfold cc0__scatter_gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.BKFrame.lean ====
/-
  The frame certificate of the kernel program's one region: what the output block's staging buffer and the
  accumulator hold case by case and point by point, the pipeline's proof data, the body obligation at every point,
  the run of the whole program around the region, and the frame claim (the program terminates without fault and
  its argument arrays end unchanged), at any carrier of the floating-point values.

  The grid is 8 x 256. Along a row of 256 points the accumulator is reset at the first point, added to at every
  point, and copied to the output block at the last, which is the only point where that block is written back.
-/
import proofs.«419918_j39608188403815_2_alg».proof.Proof.BKRunC

-- membership in a rectangle of production extents: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first point of a row of the grid (the accumulator is reset, then added to) nothing is stored into the output block: the window is idle there and not
    written back, so this reading of no pieces over junk is a placeholder that nothing consults. -/
def out0_A_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) : Vec F S1x256x8192 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- At the first point of a row of the grid (the accumulator is reset, then added to) the pieces stored into the accumulator, which is carried from point to
    point, tile it, so they cover it. -/
theorem scover0_A_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) (y : S256x8192.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x8192.size (by sl_kernel_rfl) y

/-- What that point leaves in the accumulator: its pieces read back over junk. -/
def sout0_A_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) : Vec F S256x8192 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- At an inner point of a row of the grid (the accumulator is added to) nothing is stored into the output block: the window is idle there and not
    written back, so this reading of no pieces over junk is a placeholder that nothing consults. -/
def out0_B_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) : Vec F S1x256x8192 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- At an inner point of a row of the grid (the accumulator is added to) the pieces stored into the accumulator, which is carried from point to
    point, tile it, so they cover it. -/
theorem scover0_B_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) (y : S256x8192.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x8192.size (by sl_kernel_rfl) y

/-- What that point leaves in the accumulator: its pieces read back over junk. -/
def sout0_B_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) : Vec F S256x8192 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- At the last point of a row of the grid (the accumulator is added to, then copied out) the stored pieces tile the output block, so they cover it. -/
theorem cover0_C_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) (y : S1x256x8192.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x256x8192.size (by sl_kernel_rfl) y

/-- What that point leaves in the output block's staging buffer: its pieces read back over junk. -/
def out0_C_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) : Vec F S1x256x8192 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- At the last point of a row of the grid (the accumulator is added to, then copied out) the pieces stored into the accumulator, which is carried from point to
    point, tile it, so they cover it. -/
theorem scover0_C_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) (y : S256x8192.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x8192.size (by sl_kernel_rfl) y

/-- What that point leaves in the accumulator: its pieces read back over junk. -/
def sout0_C_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) : Vec F S256x8192 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

/-- THE ACCUMULATION. What the output block's staging buffer and the accumulator hold after the body at position n
    (a pair: the output block, then the accumulator): the case the closed forms select at n (period 256: the first
    point of a row, the last, or an inner one), run at the point's memrefs and input blocks, the accumulator
    taken at what position n - 1 left in it. An assignment of the two conditions that no point meets is no case. -/
def outsAt0 (c : Dev nD) : (n : ℕ) → n < cfg0.N → Vec F S1x256x8192 .f32 × Vec F S256x8192 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 256 = 0 then
      if h1 : (n + 1) % 256 = 255 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 256 = 255 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- The accumulation at the first point of a row: that case's contents. -/
theorem outsAt0_A (c : Dev nD) (t : Fin cfg0.N) (h0 : t.val % 256 = 0) (h1 : ¬t.val % 256 = 255) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- The accumulation at an inner point of a row: that case's contents, over what the point before left. -/
theorem outsAt0_B (c : Dev nD) (t : Fin cfg0.N) (h0 : ¬t.val % 256 = 0) (h1 : ¬t.val % 256 = 255) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at the last point of a row: that case's contents, over what the point before left. -/
theorem outsAt0_C (c : Dev nD) (t : Fin cfg0.N) (h0 : ¬t.val % 256 = 0) (h1 : t.val % 256 = 255) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the launch's own (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core c: the arrays as the region finds them; after the body at point t
    each input's buffer at its block and the output block's at the accumulation's first component; the invariant
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (the definition projected, so that the fold over the
    host operations before the region is never unfolded to check it). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not: the two validity
    rows are fetched only at the first point of a row of the grid, and at the other points of the row their block
    index has not moved, so the buffer still holds this point's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t (the precondition of the library's body obligation, window by window), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; the closed forms say which of the three cases the
    point is in; the invariant hands the body the accumulator at what the point before left (at anything at the
    very first point) and the generator register at some state, so the case's run applies; the accumulator comes
    back at this point's contents (its pieces cover it), the output block's buffer untouched where the window is
    idle and at the copied accumulator at the last point of a row (its pieces cover it); the core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  by_cases h0 : t.val % 256 = 0
  · by_cases h1 : t.val % 256 = 255
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 256 = 255
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's own back: the accumulator's named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the
    library computes from the proof data and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs (terminates, no fault) and its three argument arrays end unchanged, at any
    carrier of the floating-point values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KV.lean ====
/-
  The kernel program's buffer contents when its one region is entered: the launch contents after the host
  operations that precede the region (the validity windows, the mask, each point's bin index, the reported
  coordinates), as a valuation and read at a TensorCore reference.
-/
import proofs.«419918_j39608188403815_2_alg».proof.Proof.Gen.KernelIdeal.Launch

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The stretches of host operations before the region, in order (the program's own and its callees'). -/
abbrev prefixOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13]

/-- Core c's TensorCore buffer contents when the region is entered. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.KFrameKit.lean ====
/-
  The frame kit of the kernel program's one pipelined region: @main around the region (the host operations before it,
  the region, the host operations after it), the argument arrays read back after the run, each window's block at a
  point, the body's two branch conditions decided over the grid, where the output window is idle, and the staging and
  scratch memrefs the whole-body runs are stated over.
-/
import proofs.«419918_j39608188403815_2_alg».proof.Proof.KV
import proofs.«419918_j39608188403815_2_alg».proof.Proof.Gen.KernelIdeal.Launch
import proofs.«419918_j39608188403815_2_alg».proof.Proof.Gen.KernelIdeal.Skeleton
import proofs.«419918_j39608188403815_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/
/-- No operation of this stretch allocates. -/
theorem hostOps0_fresh : (hostOps0 : List (HloOp τ sig (Elt F))).Forall fun op => op.fresh = ∅ := by
  simp only [List.Forall]; repeat' constructor
/-- No operation of this stretch allocates. -/
theorem hostOps0_1_fresh : (hostOps0_1 : List (HloOp τ sig (Elt F))).Forall fun op => op.fresh = ∅ := by
  simp only [List.Forall]; repeat' constructor
/-- No operation of this stretch allocates. -/
theorem hostOps0_2_fresh : (hostOps0_2 : List (HloOp τ sig (Elt F))).Forall fun op => op.fresh = ∅ := by
  simp only [List.Forall]; repeat' constructor
/-- No operation of this stretch allocates. -/
theorem hostOps0_3_fresh : (hostOps0_3 : List (HloOp τ sig (Elt F))).Forall fun op => op.fresh = ∅ := by
  simp only [List.Forall]; repeat' constructor
/-- No operation of this stretch allocates. -/
theorem hostOps0_4_fresh : (hostOps0_4 : List (HloOp τ sig (Elt F))).Forall fun op => op.fresh = ∅ := by
  simp only [List.Forall]; repeat' constructor
/-- No operation of this stretch allocates. -/
theorem hostOps0_5_fresh : (hostOps0_5 : List (HloOp τ sig (Elt F))).Forall fun op => op.fresh = ∅ := by
  simp only [List.Forall]; repeat' constructor
/-- No operation of this stretch allocates. -/
theorem hostOps0_6_fresh : (hostOps0_6 : List (HloOp τ sig (Elt F))).Forall fun op => op.fresh = ∅ := by
  simp only [List.Forall]; repeat' constructor
/-- No operation of this stretch allocates. -/
theorem hostOps0_7_fresh : (hostOps0_7 : List (HloOp τ sig (Elt F))).Forall fun op => op.fresh = ∅ := by
  simp only [List.Forall]; repeat' constructor
/-- No operation of this stretch allocates. -/
theorem hostOps0_8_fresh : (hostOps0_8 : List (HloOp τ sig (Elt F))).Forall fun op => op.fresh = ∅ := by
  simp only [List.Forall]; repeat' constructor
/-- No operation of this stretch allocates. -/
theorem hostOps0_9_fresh : (hostOps0_9 : List (HloOp τ sig (Elt F))).Forall fun op => op.fresh = ∅ := by
  simp only [List.Forall]; repeat' constructor
/-- No operation of this stretch allocates. -/
theorem hostOps0_10_fresh : (hostOps0_10 : List (HloOp τ sig (Elt F))).Forall fun op => op.fresh = ∅ := by
  simp only [List.Forall]; repeat' constructor
/-- No operation of this stretch allocates. -/
theorem hostOps0_11_fresh : (hostOps0_11 : List (HloOp τ sig (Elt F))).Forall fun op => op.fresh = ∅ := by
  simp only [List.Forall]; repeat' constructor
/-- No operation of this stretch allocates. -/
theorem hostOps0_12_fresh : (hostOps0_12 : List (HloOp τ sig (Elt F))).Forall fun op => op.fresh = ∅ := by
  simp only [List.Forall]; repeat' constructor
/-- No operation of this stretch allocates. -/
theorem hostOps0_13_fresh : (hostOps0_13 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor

/-- @main around the region: the host operations before it, the region, the host operations after it; it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [prefixOps, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [prefixOps, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- The operations after the region touch the pipeline's arrays and the bypassing buffers only: each one's buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

set_option maxHeartbeats 1600000 in
/-- No host operation before the region writes the argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 1600000 in
/-- No host operation before the region writes the argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 1600000 in
/-- No host operation before the region writes the argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes the argument array 0, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [prefixOps, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes the argument array 2, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [prefixOps, hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched the block index has not moved), for any proof data whose array is the region-entry contents and whose body
    leaves the block in place; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched the block index has not moved), for any proof data whose array is the region-entry contents and whose body
    leaves the block in place; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched the block index has not moved), for any proof data whose array is the region-entry contents and whose body
    leaves the block in place; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched the block index has not moved), for any proof data whose array is the region-entry contents and whose body
    leaves the block in place; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the frame post
    read at the argument arrays (the staged input through the window's array, the two arrays no window stages through
    the post's second clause) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c)⟩) h

/-! ## The body's branch conditions -/

/-- The condition of the body's first conditional (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 256): decided over the grid. -/
theorem hcond0_0 : ∀ t : Fin cfg0.N, cond0_0 (grid0.coords t) ↔ t.val % 256 = 0 :=
  (by decide +kernel : ∀ t : Fin grid0.N, cond0_0 (grid0.coords t) ↔ t.val % 256 = 0)

/-- The condition of the body's second conditional (the copy of the accumulator to the output block). -/
abbrev cond0_1 (i : grid0.Coords) : Prop := k0_cond2 i = 1#1
/-- It holds at the points ≡ 255 (mod 256): decided over the grid. -/
theorem hcond0_1 : ∀ t : Fin cfg0.N, cond0_1 (grid0.coords t) ↔ t.val % 256 = 255 :=
  (by decide +kernel : ∀ t : Fin grid0.N, cond0_1 (grid0.coords t) ↔ t.val % 256 = 255)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points of case A the output window 4 is idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the output window 4 is idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the output window 4 is live: the case stores into it. -/
theorem liveAt0_4_C : ∀ t : Fin cfg0.N, ¬cond0_0 (grid0.coords t) → cond0_1 (grid0.coords t) → cfg0.idle 4 (grid0.coords t) = false := by decide +kernel

/-! ## The staging and scratch memrefs the runs are stated over -/

/-- One staging buffer of output window 4, through which its contents are stated (the choice does not matter). -/
abbrev VO0_4 : View sig .tc .vmem S1x256x8192 .f32 := (Memref.whole cc0_stg4_0 : Memref sig .tc .vmem S1x256x8192 .f32).view
/-- Each window's current staging memref at point t, spelled as the pipeline passes it, and its wholeness. -/
abbrev ms0_0 (t : Fin cfg0.N) : Memref sig .tc .vmem S1x256x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x8192 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S256x8192 .f32 := Memref.whole cc0_scratch0
/-- The scratch accumulator the kernel carries between points, as a view: what it holds is stated through it. -/
abbrev VS0_0 : View sig .tc .vmem S256x8192 .f32 := scM0_0.view

/-- The frame kit's invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KRunA.lean ====
/-
  The whole-body run of the kernel in case A of its frame certificate: the body's triple over its skeleton, the pieces
  each buffer ends with being the witness.
-/
import proofs.«419918_j39608188403815_2_alg».proof.Proof.KFrameKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch accumulator, as pieces (last first),
    in case A (the first conditional taken, the second not: the points with grid coordinate 1 equal to 0), with the proof
    that on whole staging memrefs (the four inputs' at their contents, the output's, idle here, at contents handed back
    untouched, the scratch at anything) the body runs to the continuation holding the inputs' and the output's as they
    were and the scratch with its pieces written: the accumulator is reset to zero and the point's product added. -/
noncomputable def kernelRun0_A (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) :
    Σ' (L4 : List (View.Piece (Elt F) S1x256x8192 .f32)), { LS0 : List (View.Piece (Elt F) S256x8192 .f32) //
      ∀ (xi4 : Vec F S1x256x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__scatter_gather_kernel i arg2 harg2 arg3 harg3 arg4 harg4 arg5 harg5 arg6 harg6 arg7 harg7) K } := by
  refine ⟨[], ?_, fun xi4 E K => ?run⟩
  case run =>
    simp only [cc0__scatter_gather_kernel_eq_skeleton]; unfold cc0__scatter_gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KRunB.lean ====
/-
  The whole-body run of the kernel in case B of its frame certificate: the body's triple over its skeleton, the pieces
  each buffer ends with being the witness.
-/
import proofs.«419918_j39608188403815_2_alg».proof.Proof.KRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch accumulator, as pieces (last first),
    in case B (neither conditional taken: grid coordinate 1 strictly between 0 and 255), with the proof that on whole
    staging memrefs (the four inputs' at their contents, the output's, idle here, at contents handed back untouched, the
    scratch at the contents the point before left) the body runs to the continuation holding the inputs' and the
    output's as they were and the scratch with its pieces written: the point's product is added to the accumulator. -/
noncomputable def kernelRun0_B (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) :
    Σ' (L4 : List (View.Piece (Elt F) S1x256x8192 .f32)), { LS0 : List (View.Piece (Elt F) S256x8192 .f32) //
      ∀ (xi4 : Vec F S1x256x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__scatter_gather_kernel i arg2 harg2 arg3 harg3 arg4 harg4 arg5 harg5 arg6 harg6 arg7 harg7) K } := by
  refine ⟨[], ?_, fun xi4 E K => ?run⟩
  case run =>
    simp only [cc0__scatter_gather_kernel_eq_skeleton]; unfold cc0__scatter_gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KRunC.lean ====
/-
  The whole-body run of the kernel in case C of its frame certificate: the body's triple over its skeleton, the pieces
  each buffer ends with being the witness.
-/
import proofs.«419918_j39608188403815_2_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch accumulator, as pieces (last first),
    in case C (the first conditional not taken, the second taken: grid coordinate 1 equal to 255), with the proof that
    on whole staging memrefs (the four inputs' at their contents, the output's at anything, the scratch at the contents
    the point before left) the body runs to the continuation holding the inputs' as they were and the output's and the
    scratch with their pieces written: the point's product is added to the accumulator, which is then copied out. -/
noncomputable def kernelRun0_C (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) :
    Σ' (L4 : List (View.Piece (Elt F) S1x256x8192 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__scatter_gather_kernel i arg2 harg2 arg3 harg3 arg4 harg4 arg5 harg5 arg6 harg6 arg7 harg7) K } := by
  refine ⟨?_, ?_, fun E K => ?run⟩
  case run =>
    simp only [cc0__scatter_gather_kernel_eq_skeleton]; unfold cc0__scatter_gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KFrame.lean ====
/-
  The frame certificate of the kernel program's one region: what the output block's staging buffer and the
  accumulator hold case by case and point by point, the pipeline's proof data, the body obligation at every point,
  the run of the whole program around the region, and the frame claim (the program terminates without fault and
  its argument arrays end unchanged), at any carrier of the floating-point values.

  The grid is 8 x 256. Along a row of 256 points the accumulator is reset at the first point, added to at every
  point, and copied to the output block at the last, which is the only point where that block is written back.
-/
import proofs.«419918_j39608188403815_2_alg».proof.Proof.KRunC

-- membership in a rectangle of production extents: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first point of a row of the grid (the accumulator is reset, then added to) nothing is stored into the output block: the window is idle there and not
    written back, so this reading of no pieces over junk is a placeholder that nothing consults. -/
def out0_A_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) : Vec F S1x256x8192 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- At the first point of a row of the grid (the accumulator is reset, then added to) the pieces stored into the accumulator, which is carried from point to
    point, tile it, so they cover it. -/
theorem scover0_A_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) (y : S256x8192.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x8192.size (by sl_kernel_rfl) y

/-- What that point leaves in the accumulator: its pieces read back over junk. -/
def sout0_A_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) : Vec F S256x8192 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- At an inner point of a row of the grid (the accumulator is added to) nothing is stored into the output block: the window is idle there and not
    written back, so this reading of no pieces over junk is a placeholder that nothing consults. -/
def out0_B_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) : Vec F S1x256x8192 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- At an inner point of a row of the grid (the accumulator is added to) the pieces stored into the accumulator, which is carried from point to
    point, tile it, so they cover it. -/
theorem scover0_B_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) (y : S256x8192.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x8192.size (by sl_kernel_rfl) y

/-- What that point leaves in the accumulator: its pieces read back over junk. -/
def sout0_B_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) : Vec F S256x8192 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- At the last point of a row of the grid (the accumulator is added to, then copied out) the stored pieces tile the output block, so they cover it. -/
theorem cover0_C_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) (y : S1x256x8192.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x256x8192.size (by sl_kernel_rfl) y

/-- What that point leaves in the output block's staging buffer: its pieces read back over junk. -/
def out0_C_4 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) : Vec F S1x256x8192 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- At the last point of a row of the grid (the accumulator is added to, then copied out) the pieces stored into the accumulator, which is carried from point to
    point, tile it, so they cover it. -/
theorem scover0_C_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) (y : S256x8192.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x8192.size (by sl_kernel_rfl) y

/-- What that point leaves in the accumulator: its pieces read back over junk. -/
def sout0_C_0 (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) : Vec F S256x8192 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

/-- THE ACCUMULATION. What the output block's staging buffer and the accumulator hold after the body at position n
    (a pair: the output block, then the accumulator): the case the closed forms select at n (period 256: the first
    point of a row, the last, or an inner one), run at the point's memrefs and input blocks, the accumulator
    taken at what position n - 1 left in it. An assignment of the two conditions that no point meets is no case. -/
def outsAt0 (c : Dev nD) : (n : ℕ) → n < cfg0.N → Vec F S1x256x8192 .f32 × Vec F S256x8192 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 256 = 0 then
      if h1 : (n + 1) % 256 = 255 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 256 = 255 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- The accumulation at the first point of a row: that case's contents. -/
theorem outsAt0_A (c : Dev nD) (t : Fin cfg0.N) (h0 : t.val % 256 = 0) (h1 : ¬t.val % 256 = 255) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- The accumulation at an inner point of a row: that case's contents, over what the point before left. -/
theorem outsAt0_B (c : Dev nD) (t : Fin cfg0.N) (h0 : ¬t.val % 256 = 0) (h1 : ¬t.val % 256 = 255) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at the last point of a row: that case's contents, over what the point before left. -/
theorem outsAt0_C (c : Dev nD) (t : Fin cfg0.N) (h0 : ¬t.val % 256 = 0) (h1 : t.val % 256 = 255) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the launch's own (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core c: the arrays as the region finds them; after the body at point t
    each input's buffer at its block and the output block's at the accumulation's first component; the invariant
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (the definition projected, so that the fold over the
    host operations before the region is never unfolded to check it). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not: the two validity
    rows are fetched only at the first point of a row of the grid, and at the other points of the row their block
    index has not moved, so the buffer still holds this point's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t (the precondition of the library's body obligation, window by window), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; the closed forms say which of the three cases the
    point is in; the invariant hands the body the accumulator at what the point before left (at anything at the
    very first point) and the generator register at some state, so the case's run applies; the accumulator comes
    back at this point's contents (its pieces cover it), the output block's buffer untouched where the window is
    idle and at the copied accumulator at the last point of a row (its pieces cover it); the core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  by_cases h0 : t.val % 256 = 0
  · by_cases h1 : t.val % 256 = 255
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 256 = 255
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's own back: the accumulator's named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the
    library computes from the proof data and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs (terminates, no fault) and its three argument arrays end unchanged, at any
    carrier of the floating-point values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The mathematics both programs compute, stated once over plain arrays and imported by no program.

  Configuration: kernel size 3, stride 2, dilation 1, padding 1 over a 512 x 512 grid, so the candidate output
  coordinates are g(i) = 0 + i * 2 for i < 256, the index start offset is 0, the kernel start offset -1, the kernel end
  offset 1 and the index end offset 1.

  * The validity window of batch b along dimension d is [start, end) with
      start = max(0, floor((mn - 1 - 0) / 2) * 2 + 0),   end = min(gmx + 1, (floor((mx + 1 - 0) / 2) + 1) * 2 + 0),
    mn and mx the batch's least and greatest coordinate along d, gmx the greatest coordinate along d over all batches;
    all arithmetic is that of 32-bit words (it wraps), floor division as jnp lowers it (truncating division corrected
    by one when the signs differ and the remainder is not zero).
  * mask[b, i, j] = valid(b, 0, i) and valid(b, 1, j).
  * out_coords[b, i, j, :] = (b, floor((g(i) - 0) / 2), floor((g(j) - 0) / 2)).
  * out_feats[b, i, j, c] = (sum over the points n of batch b whose coordinates are exactly (g(i), g(j)) of
    feats[b, n, c]) * mask[b, i, j], the mask read as 0 or 1.  On the extended reals 0 * x = 0 and 1 * x = x for
    every x, so this needs no finiteness.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S2 : Shape := ⟨1, ![2]⟩
abbrev S8x2 : Shape := ⟨2, ![8, 2]⟩
abbrev S524288x2 : Shape := ⟨2, ![524288, 2]⟩
abbrev S8x65536x2 : Shape := ⟨3, ![8, 65536, 2]⟩
abbrev S8x65536x32 : Shape := ⟨3, ![8, 65536, 32]⟩
abbrev S8x256x256 : Shape := ⟨3, ![8, 256, 256]⟩
abbrev S8x256x256x3 : Shape := ⟨4, ![8, 256, 256, 3]⟩
abbrev S8x256x256x32 : Shape := ⟨4, ![8, 256, 256, 32]⟩

/-! ## Words -/

/-- The sign of a word read signed: 0, -1 or 1. -/
def signW (x : BitVec 32) : BitVec 32 := if x = 0 then 0 else if x.msb then -1 else 1

/-- Floor division of words as jnp lowers it: the truncating quotient, less one when the signs differ and the
    remainder is not zero. -/
def fdivW (x y : BitVec 32) : BitVec 32 :=
  Scalar.select (IntOp.andi (IntOp.cmpi .ne (signW x) (signW y)) (IntOp.cmpi .ne (IntOp.remsi .host x y) 0#32))
    (IntOp.subi (IntOp.divsi .host x y) 1#32) (IntOp.divsi .host x y)

/-- The i-th candidate output coordinate, 0 + i * 2. -/
def gW (i : Nat) : BitVec 32 := IntOp.addi 0#32 (IntOp.muli (BitVec.ofNat 32 i) 2#32)

/-- Where a batch's window starts along one dimension, from its least coordinate there. -/
def startW (mn : BitVec 32) : BitVec 32 :=
  IntOp.maxsi 0#32 (IntOp.addi (IntOp.muli (fdivW (IntOp.subi (IntOp.addi mn 4294967295#32) 0#32) 2#32) 2#32) 0#32)

/-- Where it ends, from the greatest coordinate there over all batches and the batch's own greatest. -/
def endW (gmx mx : BitVec 32) : BitVec 32 :=
  IntOp.minsi (IntOp.addi gmx 1#32)
    (IntOp.addi (IntOp.muli (IntOp.addi (fdivW (IntOp.subi (IntOp.addi mx 1#32) 0#32) 2#32) 1#32) 2#32) 0#32)

/-- Candidate i lies in the window. -/
def validW (mn mx gmx : BitVec 32) (i : Nat) : BitVec 1 :=
  IntOp.andi (IntOp.cmpi .sge (gW i) (startW mn)) (IntOp.cmpi .slt (gW i) (endW gmx mx))

/-- The remainder of words as jnp lowers it: the truncating remainder (of a divisor made 1 where it is 0), plus the
    divisor when the remainder is not zero and its sign differs from the divisor's. -/
def remW (x y : BitVec 32) : BitVec 32 :=
  let y' := Scalar.select (IntOp.cmpi .eq y 0#32) 1#32 y
  let r := IntOp.remsi .host x y'
  Scalar.select (IntOp.andi (IntOp.cmpi .ne (IntOp.cmpi .slt r 0#32) (IntOp.cmpi .slt y' 0#32)) (IntOp.cmpi .ne r 0#32))
    (IntOp.addi r y') r

/-- The bin of a coordinate on the stride-2 grid: (x - 0) / 2 when (x - 0) is even and that quotient lies in
    [0, 256), else the sentinel -1. -/
def binW (x : BitVec 32) : BitVec 32 :=
  let q := Scalar.select (IntOp.cmpi .eq (remW (IntOp.subi x 0#32) 2#32) 0#32) (fdivW (IntOp.subi x 0#32) 2#32) 4294967295#32
  Scalar.select (IntOp.andi (IntOp.cmpi .sge q 0#32) (IntOp.cmpi .slt q 256#32)) q 4294967295#32

/-- A word's one-hot entry at column i, as the real 0 or 1. -/
def ohE (w : BitVec 32) (i : Nat) : EReal := if w = BitVec.ofNat 32 i then 1 else 0

/-- The output coordinate a candidate is reported as: floor((g(i) - 0) / 2). -/
def adjW (i : Nat) : BitVec 32 := fdivW (IntOp.subi (gW i) 0#32) 2#32

/-! ## The three reductions of the coordinates both programs take -/

/-- Each batch's least coordinate along each dimension. -/
def mnOf (coords : IVec S8x65536x2 32) : IVec S8x2 32 :=
  Host.reduce (axes := [1]) IntOp.minsi coords (constantI S_ 32 2147483647#32)
/-- Each batch's greatest coordinate along each dimension. -/
def mxOf (coords : IVec S8x65536x2 32) : IVec S8x2 32 :=
  Host.reduce (axes := [1]) IntOp.maxsi coords (constantI S_ 32 2147483648#32)
/-- The greatest coordinate along each dimension over all batches. -/
def gmxOf (coords : IVec S8x65536x2 32) : IVec S2 32 :=
  Host.reduce (axes := [0]) IntOp.maxsi (shapeCast S524288x2 coords (by decide)) (constantI S_ 32 2147483648#32)

/-! ## The results -/

/-- Candidate i of dimension d is valid for batch b. -/
def validBit (coords : IVec S8x65536x2 32) (b : Fin 8) (d : Fin 2) (i : Fin 256) : BitVec 1 :=
  validW (mnOf coords (ix2 b d)) (mxOf coords (ix2 b d)) (gmxOf coords (ix1 d)) i.val

/-- mask[b, i, j]. -/
def maskBit (coords : IVec S8x65536x2 32) (b : Fin 8) (i j : Fin 256) : BitVec 1 :=
  IntOp.andi (validBit coords b 0 i) (validBit coords b 1 j)

/-- The mask array. -/
def mask (coords : IVec S8x65536x2 32) : IVec S8x256x256 1 := fun idx => maskBit coords (idx 0) (idx 1) (idx 2)

/-- out_coords[b, i, j, k]. -/
def outCoordsAt (b : Fin 8) (i j : Fin 256) (k : Fin 3) : BitVec 32 :=
  match k with
  | ⟨0, _⟩ => BitVec.ofNat 32 b.val
  | ⟨1, _⟩ => adjW i.val
  | ⟨2, _⟩ => adjW j.val

/-- The out_coords array. -/
def outCoords : IVec S8x256x256x3 32 := fun idx => outCoordsAt (idx 0) (idx 1) (idx 2) (idx 3)

/-- Point n of batch b sits exactly on candidate cell (i, j). -/
def Hits (coords : IVec S8x65536x2 32) (b : Fin 8) (n : Fin 65536) (i j : Fin 256) : Prop :=
  coords (ix3 b n (0 : Fin 2)) = BitVec.ofNat 32 (2 * i.val) ∧ coords (ix3 b n (1 : Fin 2)) = BitVec.ofNat 32 (2 * j.val)

instance (coords : IVec S8x65536x2 32) (b : Fin 8) (n : Fin 65536) (i j : Fin 256) : Decidable (Hits coords b n i j) := by
  unfold Hits; infer_instance

/-- A bit read as the real 0 or 1. -/
def bitE (x : BitVec 1) : EReal := if x = 1#1 then 1 else 0

/-- out_feats[b, i, j, c] over the extended reals. -/
def featsAt (coords : IVec S8x65536x2 32) (feats : FVec Ideal S8x65536x32 .f32) (b : Fin 8) (i j : Fin 256) (c : Fin 32) : EReal :=
  (∑ n : Fin 65536, if Hits coords b n i j then (feats (ix3 b n c) : EReal) else 0) * bitE (maskBit coords b i j)

/-- The out_feats array. -/
def feats (coords : IVec S8x65536x2 32) (fts : FVec Ideal S8x65536x32 .f32) : FVec Ideal S8x256x256x32 .f32 :=
  fun idx => featsAt coords fts (idx 0) (idx 1) (idx 2) (idx 3)

/-- Every coordinate is non-negative read signed: the domain on which the scatter's index is in range from below. -/
def NonNeg (coords : IVec S8x65536x2 32) : Prop := ∀ idx, 0 ≤ (coords idx).toInt

end Cert.Spec

end
-- ==== Proof.KPay.lean ====
/-
  The kernel body's arithmetic read at one index over the extended reals.

  One grid step takes a tile of 256 points of one batch: their features v3 [1,256,32], the words of their
  first and second bin index v6, v8 [1,256,1], and the validity rows of the batch v23, v26 [1,1,256].  It forms
  the one-hot matrix of the first bin index with the validity of each column folded in (a [256,256] matrix,
  point by column), the [256,256,32] product of the second one-hot matrix (again with validity) with the
  features, laid out row-major as [256,8192], contracts the two over the points into the [256,8192]
  accumulator, and on the last step copies the accumulator out under a leading unit axis.

  Over the extended reals every conversion between float formats is the identity and the conversion of a
  word to a float is its integer value, so each of these values has a closed form at an index given by its
  coordinates.
-/
import proofs.«419918_j39608188403815_2_alg».proof.Proof.Gen.KernelIdeal.Skeleton
import proofs.«419918_j39608188403815_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen
open scoped BigOperators

/-! ## Words and layouts at an index -/

/-- The conversion of the widened bit of a word comparison: 1 when the words are equal, else 0. -/
theorem sitofp_cmpi_eq (w y : BitVec 32) :
    (FloatOps.sitofp (F := Ideal) .f32 ((IntOp.cmpi .eq w y).setWidth 32) : EReal) = if w = y then 1 else 0 := by
  by_cases h : w = y
  · subst h
    rw [if_pos rfl]
    have e : (IntOp.cmpi .eq w w).setWidth 32 = 1#32 := by simp [IntOp.cmpi]
    rw [e]
    show (((1#32 : BitVec 32).toInt : ℝ) : EReal) = 1
    have : (1#32 : BitVec 32).toInt = 1 := by decide
    rw [this]
    simp
  · rw [if_neg h]
    have hb : (w == y) = false := beq_eq_false_iff_ne.mpr h
    have e : (IntOp.cmpi .eq w y).setWidth 32 = 0#32 := by
      show BitVec.setWidth 32 (BitVec.ofBool (w == y)) = 0#32
      rw [hb]
      decide
    rw [e]
    show (((0#32 : BitVec 32).toInt : ℝ) : EReal) = 0
    have : (0#32 : BitVec 32).toInt = 0 := by decide
    rw [this]
    simp

section Layouts
variable {α : Type}

/-- An [a, 1] column broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a, b] array cast to [a, b, 1] reads, at (p, c, u), the operand at (p, c). -/
theorem shapeCast_ab_ab1_apply {a b : ℕ} (x : (⟨2, ![a, b]⟩ : Shape).Idx → α)
    (h : (⟨2, ![a, b]⟩ : Shape).ShapeCasts ⟨3, ![a, b, 1]⟩) (p : Fin a) (c : Fin b) (u : Fin 1) :
    shapeCast ⟨3, ![a, b, 1]⟩ x h (ix3 p c u) = x (ix2 p c) :=
  shapeCast_apply x h _ _ (by
    have hu : u.val = 0 := by omega
    rw [Shape.rowMajor_val_three, Shape.rowMajor_val_two]
    show p.val * b + c.val = (p.val * b + c.val) * 1 + u.val
    rw [hu, Nat.mul_one, Nat.add_zero])

/-- An [a, b] array cast to [a, 1, b] reads, at (p, u, c), the operand at (p, c). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An [a, b, 1] array broadcast to [a, b, d] reads, at (p, c, e), the operand at (p, c, 0). -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (c : Fin b) (e : Fin d) :
    broadcastTo ⟨3, ![a, b, d]⟩ v h (ix3 p c e) = v (ix3 p c (0 : Fin 1)) := by
  refine broadcastTo_apply v h (ix3 p c e) (ix3 p c (0 : Fin 1)) fun ax => ?_
  match ax with
  | ⟨0, _⟩ =>
    show p.val = if a = 1 then 0 else p.val
    split
    · have := p.isLt; omega
    · rfl
  | ⟨1, _⟩ =>
    show c.val = if b = 1 then 0 else c.val
    split
    · have := c.isLt; omega
    · rfl
  | ⟨2, _⟩ => rfl

/-- An [a, 1, d] array broadcast to [a, b, d] reads, at (p, c, e), the operand at (p, 0, e). -/
theorem broadcastTo_a1d_abd_apply {a b d : ℕ} (v : (⟨3, ![a, 1, d]⟩ : Shape).Idx → α)
    (h : (⟨3, ![a, 1, d]⟩ : Shape).Broadcasts ⟨3, ![a, b, d]⟩) (p : Fin a) (c : Fin b) (e : Fin d) :
    broadcastTo ⟨3, ![a, b, d]⟩ v h (ix3 p c e) = v (ix3 p (0 : Fin 1) e) := by
  refine broadcastTo_apply v h (ix3 p c e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if d = 1 then 0 else e.val
    split
    · have := e.isLt; omega
    · rfl

/-- An [a, b, d] array cast row-major to [a, b * d] reads, at (p, c * d + e), the operand at (p, c, e). -/
theorem shapeCast_abd_aBD_apply {a b d n : ℕ} (x : (⟨3, ![a, b, d]⟩ : Shape).Idx → α)
    (h : (⟨3, ![a, b, d]⟩ : Shape).ShapeCasts ⟨2, ![a, n]⟩) (hn : n = b * d) (p : Fin a) (c : Fin b) (e : Fin d)
    (hlt : c.val * d + e.val < n) :
    shapeCast ⟨2, ![a, n]⟩ x h (ix2 p ⟨c.val * d + e.val, hlt⟩) = x (ix3 p c e) :=
  shapeCast_apply x h _ _ (by
    rw [Shape.rowMajor_val_three, Shape.rowMajor_val_two]
    show (p.val * b + c.val) * d + e.val = p.val * n + (c.val * d + e.val)
    rw [hn, Nat.add_mul, Nat.mul_assoc, Nat.add_assoc])

end Layouts

/-! ## The contraction's operand indices

  The contraction runs over axis 0 of both operands; the result's row is the left operand's axis 1 and its
  column the right operand's axis 1. -/

theorem lhs_dot_0 (i : S256x8192.Idx) (q : dot_S256x256_S256x8192_S256x8192_0_0_1_1_n_n.contr.Idx) :
    (dot_S256x256_S256x8192_S256x8192_0_0_1_1_n_n.lhsIdx i q 0).val = (q ⟨0, by decide⟩).val :=
  dot_S256x256_S256x8192_S256x8192_0_0_1_1_n_n.lhsIdx_val_of_single rfl i q

theorem lhs_dot_1 (i : S256x8192.Idx) (q : dot_S256x256_S256x8192_S256x8192_0_0_1_1_n_n.contr.Idx) :
    (dot_S256x256_S256x8192_S256x8192_0_0_1_1_n_n.lhsIdx i q 1).val = (i 0).val := by
  unfold DotDims.lhsIdx
  rw [dif_neg (show ¬(1 : Fin S256x256.rank) ∈ dot_S256x256_S256x8192_S256x8192_0_0_1_1_n_n.lhsBatch by decide),
    dif_pos (show (1 : Fin S256x256.rank) ∈ dot_S256x256_S256x8192_S256x8192_0_0_1_1_n_n.lhsNonContracting by decide)]
  rfl

theorem rhs_dot_0 (i : S256x8192.Idx) (q : dot_S256x256_S256x8192_S256x8192_0_0_1_1_n_n.contr.Idx) :
    (dot_S256x256_S256x8192_S256x8192_0_0_1_1_n_n.rhsIdx i q 0).val = (q ⟨0, by decide⟩).val :=
  dot_S256x256_S256x8192_S256x8192_0_0_1_1_n_n.rhsIdx_val_of_single rfl i q

theorem rhs_dot_1 (i : S256x8192.Idx) (q : dot_S256x256_S256x8192_S256x8192_0_0_1_1_n_n.contr.Idx) :
    (dot_S256x256_S256x8192_S256x8192_0_0_1_1_n_n.rhsIdx i q 1).val = (i 1).val := by
  unfold DotDims.rhsIdx
  rw [dif_neg (show ¬(1 : Fin S256x8192.rank) ∈ dot_S256x256_S256x8192_S256x8192_0_0_1_1_n_n.rhsBatch by decide),
    dif_pos (show (1 : Fin S256x8192.rank) ∈ dot_S256x256_S256x8192_S256x8192_0_0_1_1_n_n.rhsNonContracting by decide)]
  rfl

/-! ## The five values -/

/-- Column j of row-major position j * 32 + c of a row of 8192. -/
theorem col_lt (j : Fin 256) (c : Fin 32) : j.val * 32 + c.val < 8192 := by
  have := j.isLt; have := c.isLt; omega

/-- The first one-hot matrix with validity: at (point n, column i) the one-hot entry of point n's first bin
    index at i, times the validity of column i. -/
theorem pay4_apply (v6 : Vec Ideal S1x256x1 .i32) (v23 : Vec Ideal S1x1x256 .f32) (n i : Fin 256) :
    k0_pay4 (F := Ideal) v6 v23 (ix2 n i)
      = Cert.Spec.ohE (v6 (ix3 (0 : Fin 1) n (0 : Fin 1))) i.val * v23 (ix3 (0 : Fin 1) (0 : Fin 1) i) := by
  unfold k0_pay4
  dsimp only
  rw [mulf_apply, truncf_apply, sitofp_apply, extui_apply]
  rw [broadcastTo_1b_ab_apply, truncf_apply, shapeCast_1ab_ab_apply]
  show FloatOps.sitofp (F := Ideal) .f32 ((IntOp.cmpi .eq
      (broadcastTo S256x256 (shapeCast S256x1 v6 shapeCasts_S1x256x1_S256x1) broadcasts_S256x1_S256x256 (ix2 n i))
      (broadcastTo S256x256 (iota .tc S1x256 32 [1] iota_S1x256_d1_w32) broadcasts_S1x256_S256x256 (ix2 n i))).setWidth 32) * _ = _
  rw [broadcastTo_a1_ab_apply, shapeCast_1ab_ab_apply, broadcastTo_1b_ab_apply, iota_single_apply, sitofp_cmpi_eq]
  rfl

/-- The second one-hot matrix with validity times the features, a [256,256,32] product laid out row-major as
    [256,8192]: at (point n, position j * 32 + c) the entry of point n's second bin index at j, times the
    validity of column j, times channel c of point n's features. -/
theorem pay5_apply (v3 : Vec Ideal S1x256x32 .f32) (v8 : Vec Ideal S1x256x1 .i32) (v26 : Vec Ideal S1x1x256 .f32)
    (n j : Fin 256) (c : Fin 32) :
    k0_pay5 (F := Ideal) v3 v8 v26 (ix2 n ⟨j.val * 32 + c.val, col_lt j c⟩)
      = (Cert.Spec.ohE (v8 (ix3 (0 : Fin 1) n (0 : Fin 1))) j.val * v26 (ix3 (0 : Fin 1) (0 : Fin 1) j))
          * v3 (ix3 (0 : Fin 1) n c) := by
  unfold k0_pay5
  dsimp only
  rw [shapeCast_abd_aBD_apply _ _ rfl n j c (col_lt j c), mulf_apply,
    broadcastTo_ab1_abd_apply, shapeCast_ab_ab1_apply,
    broadcastTo_a1d_abd_apply, shapeCast_ab_a1b_apply, truncf_apply, shapeCast_1ab_ab_apply]
  exact congrArg (· * v3 (ix3 (0 : Fin 1) n c)) (pay4_apply v8 v26 n j)

/-- The accumulation: the accumulator's entry plus the sum over the points of the two matrices' products. -/
theorem pay1_apply (v30 : FVec Ideal S256x256 .bf16) (v38 : FVec Ideal S256x8192 .bf16) (v40 : Vec Ideal S256x8192 .f32)
    (i : Fin 256) (q : Fin 8192) :
    k0_pay1 (F := Ideal) v30 v38 (constant (F := Ideal) S256x8192 .f32 0x00000000#32) v40 (ix2 i q)
      = v40 (ix2 i q) + ∑ n : Fin 256, v30 (ix2 n i) * v38 (ix2 n q) := by
  unfold k0_pay1
  rw [shapeCast_self, addf_apply]
  congr 1
  simp only [matmul]
  rw [Ideal.matmul_constant_zero_apply,
    ← Equiv.sum_comp (contrEquiv1 dot_S256x256_S256x8192_S256x8192_0_0_1_1_n_n 256 rfl rfl).symm]
  refine Finset.sum_congr rfl fun k _ => ?_
  have hk := contrEquiv1_symm_val dot_S256x256_S256x8192_S256x8192_0_0_1_1_n_n 256 rfl rfl k
  have el : dot_S256x256_S256x8192_S256x8192_0_0_1_1_n_n.lhsIdx (ix2 i q)
      ((contrEquiv1 dot_S256x256_S256x8192_S256x8192_0_0_1_1_n_n 256 rfl rfl).symm k) = ix2 k i :=
    funext fun a => Fin.ext (by
      match a with
      | ⟨0, _⟩ => exact (lhs_dot_0 _ _).trans hk
      | ⟨1, _⟩ => exact lhs_dot_1 _ _)
  have er : dot_S256x256_S256x8192_S256x8192_0_0_1_1_n_n.rhsIdx (ix2 i q)
      ((contrEquiv1 dot_S256x256_S256x8192_S256x8192_0_0_1_1_n_n 256 rfl rfl).symm k) = ix2 k q :=
    funext fun a => Fin.ext (by
      match a with
      | ⟨0, _⟩ => exact (rhs_dot_0 _ _).trans hk
      | ⟨1, _⟩ => exact rhs_dot_1 _ _)
  rw [el, er]

/-- The accumulator's initial value is zero everywhere. -/
theorem pay3_apply (i : Fin 256) (q : Fin 8192) : k0_pay3 (F := Ideal) (ix2 i q) = 0 := by
  unfold k0_pay3
  rw [shapeCast_self, broadcast_apply]
  show Ideal.ofBits .f32 0x00000000#32 = 0
  exact Ideal.ofBits_zero_f32

/-- The copy out: the accumulator under a leading unit axis. -/
theorem pay2_apply (v48 : Vec Ideal S256x8192 .f32) (i : Fin 256) (q : Fin 8192) :
    k0_pay2 (F := Ideal) v48 (ix3 (0 : Fin 1) i q) = v48 (ix2 i q) := by
  unfold k0_pay2
  exact shapeCast_ab_1ab_apply v48 _ (0 : Fin 1) i q

end Cert.KernelIdeal.Hand

end
-- ==== Proof.KPieces.lean ====
/-
  What each case of the body leaves in the accumulator and in the output block, as the named arithmetic of the
  contents handed to it.

  Every case ends with ONE store that covers the accumulator: the update, by the point's four input blocks, of what
  the accumulator held when it was loaded.  At the first point of a row that is the zero the case itself stored just
  before; at the other points it is what the point before left.  The last point of a row then stores the output
  block whole: the updated accumulator under a leading unit axis.
-/
import proofs.«419918_j39608188403815_2_alg».proof.Proof.KFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The whole-shape rectangles' offsets are zero -/

theorem offs2_zero : (![0, 0] : Fin 2 → Nat) = fun _ => 0 := funext fun a => by fin_cases a <;> rfl
theorem offs3_zero : (![0, 0, 0] : Fin 3 → Nat) = fun _ => 0 := funext fun a => by fin_cases a <;> rfl

/-- The first point of a row: the accumulator is stored zero, read back, and left at the update of that zero by
    the point's four input blocks. -/
theorem sout0_A_0_eq (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : cond0_0 i) (hc1 : ¬cond0_1 i)
    (x0 : Vec F S1x256x32 .f32) (x1 : Vec F S1x256x2 .i32) (x2 : Vec F S1x1x256 .f32) (x3 : Vec F S1x1x256 .f32) :
    sout0_A_0 c i arg2 harg2 arg3 harg3 arg4 harg4 arg5 harg5 arg6 harg6 arg7 harg7 hc0 hc1 x0 x1 x2 x3
      = k0_pay1
        (k0_pay4 (View.ld (Val := Elt F) (e' := .i32) x1 (Rect.unit (s := S1x256x2) ![0, 0, 0] S1x256x1.size inb_S1x256x2_S1x256x1_0_0_0)) x2)
        (k0_pay5 x0 (View.ld (Val := Elt F) (e' := .i32) x1 (Rect.unit (s := S1x256x2) ![0, 0, 1] S1x256x1.size inb_S1x256x2_S1x256x1_0_0_1)) x3)
        (constant S256x8192 .f32 0x00000000#32) (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x8192) offs2_zero, View.readCov_unit_zero (S := S256x8192) _ offs2_zero]
  simp only [View.readAt_eq_ld, harg2.read_unread, harg3.read_unread, harg4.read_unread, harg5.read_unread,
    View.ld_unit_zero (S := S1x256x32) offs3_zero, View.ld_unit_zero (S := S1x1x256) offs3_zero, View.ld_unit_zero (S := S256x8192) offs2_zero]

/-- An inner point of a row: the accumulator, handed at xs0, is left at its update by the point's four input blocks. -/
theorem sout0_B_0_eq (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : ¬cond0_1 i)
    (x0 : Vec F S1x256x32 .f32) (x1 : Vec F S1x256x2 .i32) (x2 : Vec F S1x1x256 .f32) (x3 : Vec F S1x1x256 .f32) (xs0 : Vec F S256x8192 .f32) :
    sout0_B_0 c i arg2 harg2 arg3 harg3 arg4 harg4 arg5 harg5 arg6 harg6 arg7 harg7 hc0 hc1 x0 x1 x2 x3 xs0
      = k0_pay1
        (k0_pay4 (View.ld (Val := Elt F) (e' := .i32) x1 (Rect.unit (s := S1x256x2) ![0, 0, 0] S1x256x1.size inb_S1x256x2_S1x256x1_0_0_0)) x2)
        (k0_pay5 x0 (View.ld (Val := Elt F) (e' := .i32) x1 (Rect.unit (s := S1x256x2) ![0, 0, 1] S1x256x1.size inb_S1x256x2_S1x256x1_0_0_1)) x3)
        (constant S256x8192 .f32 0x00000000#32) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero offs2_zero]
  simp only [View.readAt_eq_ld, harg2.read_unread, harg3.read_unread, harg4.read_unread, harg5.read_unread, harg7.read_unread,
    View.ld_unit_zero (S := S1x256x32) offs3_zero, View.ld_unit_zero (S := S1x1x256) offs3_zero, View.ld_unit_zero (S := S256x8192) offs2_zero]

/-- The last point of a row: the accumulator, handed at xs0, is left at its update by the point's four input blocks. -/
theorem sout0_C_0_eq (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) :
    sout0_C_0 c i arg2 harg2 arg3 harg3 arg4 harg4 arg5 harg5 arg6 harg6 arg7 harg7 hc0 hc1 x0 x1 x2 x3 xs0
      = k0_pay1
        (k0_pay4 (View.ld (Val := Elt F) (e' := .i32) x1 (Rect.unit (s := S1x256x2) ![0, 0, 0] S1x256x1.size inb_S1x256x2_S1x256x1_0_0_0)) x2)
        (k0_pay5 x0 (View.ld (Val := Elt F) (e' := .i32) x1 (Rect.unit (s := S1x256x2) ![0, 0, 1] S1x256x1.size inb_S1x256x2_S1x256x1_0_0_1)) x3)
        (constant S256x8192 .f32 0x00000000#32) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero offs2_zero]
  simp only [View.readAt_eq_ld, harg2.read_unread, harg3.read_unread, harg4.read_unread, harg5.read_unread, harg7.read_unread,
    View.ld_unit_zero (S := S1x256x32) offs3_zero, View.ld_unit_zero (S := S1x1x256) offs3_zero, View.ld_unit_zero (S := S256x8192) offs2_zero]

/-- The last point of a row: the output block is left at that updated accumulator under a leading unit axis. -/
theorem out0_C_4_eq (c : Dev nD) (i : grid0.Coords) (arg2 : Memref sig .tc .vmem S1x256x32 .f32) (harg2 : arg2.IsWhole) (arg3 : Memref sig .tc .vmem S1x256x2 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x256x8192 .f32) (harg6 : arg6.IsWhole) (arg7 : Memref sig .tc .vmem S256x8192 .f32) (harg7 : arg7.IsWhole) (hc0 : ¬cond0_0 i) (hc1 : cond0_1 i)
    (x0 : Vec F S1x256x32 .f32) (x1 : Vec F S1x256x2 .i32) (x2 : Vec F S1x1x256 .f32) (x3 : Vec F S1x1x256 .f32) (xs0 : Vec F S256x8192 .f32) :
    out0_C_4 c i arg2 harg2 arg3 harg3 arg4 harg4 arg5 harg5 arg6 harg6 arg7 harg7 hc0 hc1 x0 x1 x2 x3 xs0
      = k0_pay2 (k0_pay1
        (k0_pay4 (View.ld (Val := Elt F) (e' := .i32) x1 (Rect.unit (s := S1x256x2) ![0, 0, 0] S1x256x1.size inb_S1x256x2_S1x256x1_0_0_0)) x2)
        (k0_pay5 x0 (View.ld (Val := Elt F) (e' := .i32) x1 (Rect.unit (s := S1x256x2) ![0, 0, 1] S1x256x1.size inb_S1x256x2_S1x256x1_0_0_1)) x3)
        (constant S256x8192 .f32 0x00000000#32) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero offs3_zero]
  simp only [View.readAt_eq_ld, harg2.read_unread, harg3.read_unread, harg4.read_unread, harg5.read_unread, harg7.read_unread, View.readCov_unit_zero (S := S256x8192) _ offs2_zero,
    View.ld_unit_zero (S := S1x256x32) offs3_zero, View.ld_unit_zero (S := S1x1x256) offs3_zero, View.ld_unit_zero (S := S256x8192) offs2_zero]

end Cert.KernelIdeal.Hand

end
-- ==== Proof.KAccum.lean ====
/-
  The kernel's output array after the run.

  One grid step adds to the [256, 8192] accumulator the product, contracted over the step's 256 points, of the
  masked one-hot matrix of the points' first bin index with the masked one-hot matrix of their second bin index
  times their features.  Along a row of the grid (one batch, 256 steps) the accumulator is reset at the first
  step and copied to the batch's output block at the last, so that block ends holding, at row i and column
  j * 32 + c, the sum over the batch's 65536 points of the two masked one-hot entries times the point's
  feature c.
-/
import proofs.«419918_j39608188403815_2_alg».proof.Proof.KPay
import proofs.«419918_j39608188403815_2_alg».proof.Proof.KFrameKit
import proofs.«419918_j39608188403815_2_alg».proof.Proof.KPieces

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## One step's update of the accumulator -/

section Update

variable {F : FTy → Type} [FloatOps F]

/-- The first column of the bin-index block, and the second. -/
abbrev rcol0 : Rect S1x256x2 := Rect.unit (s := S1x256x2) ![0, 0, 0] S1x256x1.size inb_S1x256x2_S1x256x1_0_0_0
abbrev rcol1 : Rect S1x256x2 := Rect.unit (s := S1x256x2) ![0, 0, 1] S1x256x1.size inb_S1x256x2_S1x256x1_0_0_1

/-- One step's new accumulator from the step's four input blocks and the accumulator before it. -/
def upd (x0 : Vec F S1x256x32 .f32) (x1 : Vec F S1x256x2 .i32) (x2 x3 : Vec F S1x1x256 .f32)
    (a : Vec F S256x8192 .f32) : Vec F S256x8192 .f32 :=
  k0_pay1 (k0_pay4 (View.ld (Val := Elt F) (e' := .i32) x1 rcol0) x2)
    (k0_pay5 x0 (View.ld (Val := Elt F) (e' := .i32) x1 rcol1) x3) (constant S256x8192 .f32 0x00000000#32) a

end Update

/-- The first column of the bin-index block read at point n. -/
theorem ld_col0 (x1 : Vec Ideal S1x256x2 .i32) (n : Fin 256) :
    View.ld (Val := Elt Ideal) (e' := .i32) x1 rcol0 (ix3 (0 : Fin 1) n (0 : Fin 1)) = x1 (ix3 (0 : Fin 1) n (0 : Fin 2)) := by
  show x1 _ = x1 _
  congr 1
  funext a
  apply Fin.ext
  match a with
  | ⟨0, _⟩ => rfl
  | ⟨1, _⟩ => show 0 + 1 * n.val = n.val; omega
  | ⟨2, _⟩ => rfl

/-- The second column of the bin-index block read at point n. -/
theorem ld_col1 (x1 : Vec Ideal S1x256x2 .i32) (n : Fin 256) :
    View.ld (Val := Elt Ideal) (e' := .i32) x1 rcol1 (ix3 (0 : Fin 1) n (0 : Fin 1)) = x1 (ix3 (0 : Fin 1) n (1 : Fin 2)) := by
  show x1 _ = x1 _
  congr 1
  funext a
  apply Fin.ext
  match a with
  | ⟨0, _⟩ => rfl
  | ⟨1, _⟩ => show 0 + 1 * n.val = n.val; omega
  | ⟨2, _⟩ => rfl

/-- The update at row i and column j * 32 + c: the entry before plus the sum over the step's points of the two
    masked one-hot entries times the feature. -/
theorem upd_apply (x0 : Vec Ideal S1x256x32 .f32) (x1 : Vec Ideal S1x256x2 .i32) (x2 x3 : Vec Ideal S1x1x256 .f32)
    (a : Vec Ideal S256x8192 .f32) (i j : Fin 256) (cc : Fin 32) :
    upd (F := Ideal) x0 x1 x2 x3 a (ix2 i ⟨j.val * 32 + cc.val, col_lt j cc⟩)
      = a (ix2 i ⟨j.val * 32 + cc.val, col_lt j cc⟩)
        + ∑ n : Fin 256, (Cert.Spec.ohE (x1 (ix3 (0 : Fin 1) n (0 : Fin 2))) i.val * x2 (ix3 (0 : Fin 1) (0 : Fin 1) i))
            * ((Cert.Spec.ohE (x1 (ix3 (0 : Fin 1) n (1 : Fin 2))) j.val * x3 (ix3 (0 : Fin 1) (0 : Fin 1) j))
                * x0 (ix3 (0 : Fin 1) n cc)) := by
  unfold upd
  rw [pay1_apply]
  congr 1
  refine Finset.sum_congr rfl fun n _ => ?_
  rw [pay4_apply, pay5_apply, ld_col0, ld_col1]

/-! ## The sums over a batch's points, chunk by chunk -/

section Sums

variable (A : FVec Ideal S8x65536x32 .f32) (B : IVec S8x65536x2 32) (R0 R1 : FVec Ideal S8x1x256 .f32)

/-- Point p of batch b at cell (i, j) and channel c: the two masked one-hot entries times the feature. -/
def ptTerm (b : Fin 8) (i j : Fin 256) (cc : Fin 32) (p : Fin 65536) : EReal :=
  (Cert.Spec.ohE (B (ix3 b p (0 : Fin 2))) i.val * R0 (ix3 b (0 : Fin 1) i))
    * ((Cert.Spec.ohE (B (ix3 b p (1 : Fin 2))) j.val * R1 (ix3 b (0 : Fin 1) j)) * A (ix3 b p cc))

theorem chunk_lt (k n : Fin 256) : k.val * 256 + n.val < 65536 := by
  have := k.isLt; have := n.isLt; omega

/-- The sum over the 256 points of chunk k. -/
def chunkSum (b : Fin 8) (i j : Fin 256) (cc : Fin 32) (k : Fin 256) : EReal :=
  ∑ n : Fin 256, ptTerm A B R0 R1 b i j cc ⟨k.val * 256 + n.val, chunk_lt k n⟩

/-- The sum over the chunks up to chunk number k. -/
def partialSum (b : Fin 8) (i j : Fin 256) (cc : Fin 32) (k : ℕ) : EReal :=
  ∑ k' : Fin 256, if k'.val ≤ k then chunkSum A B R0 R1 b i j cc k' else 0

theorem partialSum_zero (b : Fin 8) (i j : Fin 256) (cc : Fin 32) :
    partialSum A B R0 R1 b i j cc 0 = chunkSum A B R0 R1 b i j cc (0 : Fin 256) := by
  unfold partialSum
  rw [Finset.sum_eq_single (0 : Fin 256)]
  · exact if_pos (by simp)
  · intro k' _ hk'
    rw [if_neg]
    intro h
    exact hk' (Fin.ext (Nat.le_zero.mp h))
  · intro h; exact absurd (Finset.mem_univ _) h

theorem partialSum_succ (b : Fin 8) (i j : Fin 256) (cc : Fin 32) (k : ℕ) (hk : k + 1 < 256) :
    partialSum A B R0 R1 b i j cc (k + 1)
      = partialSum A B R0 R1 b i j cc k + chunkSum A B R0 R1 b i j cc ⟨k + 1, hk⟩ := by
  unfold partialSum
  have e : chunkSum A B R0 R1 b i j cc ⟨k + 1, hk⟩
      = ∑ k' : Fin 256, if k' = ⟨k + 1, hk⟩ then chunkSum A B R0 R1 b i j cc k' else 0 := by
    rw [Finset.sum_ite_eq', if_pos (Finset.mem_univ _)]
  rw [e, ← Finset.sum_add_distrib]
  refine Finset.sum_congr rfl fun k' _ => ?_
  by_cases h1 : k'.val ≤ k
  · rw [if_pos (Nat.le_succ_of_le h1), if_pos h1, if_neg, add_zero]
    intro h; have := congrArg Fin.val h; simp only at this; omega
  · by_cases h2 : k' = ⟨k + 1, hk⟩
    · subst h2; rw [if_pos (Nat.le_refl _), if_neg h1, if_pos rfl, zero_add]
    · rw [if_neg, if_neg h1, if_neg, add_zero]
      · exact h2
      · intro h; apply h2; apply Fin.ext; simp only; omega

theorem partialSum_last (b : Fin 8) (i j : Fin 256) (cc : Fin 32) :
    partialSum A B R0 R1 b i j cc 255 = ∑ k : Fin 256, chunkSum A B R0 R1 b i j cc k := by
  unfold partialSum
  refine Finset.sum_congr rfl fun k' _ => ?_
  rw [if_pos]
  have := k'.isLt; omega

/-- One step's update over blocks that are chunk k of batch b of the arrays: the entry before plus chunk k's sum. -/
theorem upd_chunk (x0 : Vec Ideal S1x256x32 .f32) (x1 : Vec Ideal S1x256x2 .i32) (x2 x3 : Vec Ideal S1x1x256 .f32)
    (A : FVec Ideal S8x65536x32 .f32) (B : IVec S8x65536x2 32) (R0 R1 : FVec Ideal S8x1x256 .f32)
    (b : Fin 8) (k : Fin 256)
    (h0 : ∀ (n : Fin 256) (cc : Fin 32), x0 (ix3 (0 : Fin 1) n cc) = A (ix3 b ⟨k.val * 256 + n.val, chunk_lt k n⟩ cc))
    (h1 : ∀ (n : Fin 256) (d : Fin 2), x1 (ix3 (0 : Fin 1) n d) = B (ix3 b ⟨k.val * 256 + n.val, chunk_lt k n⟩ d))
    (h2 : ∀ i : Fin 256, x2 (ix3 (0 : Fin 1) (0 : Fin 1) i) = R0 (ix3 b (0 : Fin 1) i))
    (h3 : ∀ i : Fin 256, x3 (ix3 (0 : Fin 1) (0 : Fin 1) i) = R1 (ix3 b (0 : Fin 1) i))
    (a : Vec Ideal S256x8192 .f32) (i j : Fin 256) (cc : Fin 32) :
    upd (F := Ideal) x0 x1 x2 x3 a (ix2 i ⟨j.val * 32 + cc.val, col_lt j cc⟩)
      = a (ix2 i ⟨j.val * 32 + cc.val, col_lt j cc⟩) + chunkSum A B R0 R1 b i j cc k := by
  rw [upd_apply]
  congr 1
  unfold chunkSum ptTerm
  refine Finset.sum_congr rfl fun n _ => ?_
  rw [h0, h1, h1, h2, h3]

end Sums

/-! ## The blocks of a grid point, read off the arrays -/

section Blocks

variable {F : FTy → Type} [FloatOps F]
variable (m : (ℓ : Loc nD τ sig) → Buf (Elt F) ℓ)

/-- The four input blocks at a grid point, and the four arrays they are blocks of, at their literal types. -/
abbrev blk0 (c : Dev nD) (t : Fin cfg0.N) : Vec F S1x256x32 .f32 := iblk m c 0 t
abbrev blk1 (c : Dev nD) (t : Fin cfg0.N) : Vec F S1x256x2 .i32 := iblk m c 1 t
abbrev blk2 (c : Dev nD) (t : Fin cfg0.N) : Vec F S1x1x256 .f32 := iblk m c 2 t
abbrev blk3 (c : Dev nD) (t : Fin cfg0.N) : Vec F S1x1x256 .f32 := iblk m c 3 t
abbrev arr0 (c : Dev nD) : Vec F S8x65536x32 .f32 := V m c main_arg1
abbrev arr1 (c : Dev nD) : Vec F S8x65536x2 .i32 := V m c main_v73
abbrev arr2 (c : Dev nD) : Vec F S8x1x256 .f32 := V m c main_v56
abbrev arr3 (c : Dev nD) : Vec F S8x1x256 .f32 := V m c main_v58

/-- The printed index maps over the grid: point t = b * 256 + k reads chunk k of batch b of the features and of
    the bin indices, batch b's two validity rows, and writes batch b's output block. -/
theorem idx_facts : ∀ t : Fin cfg0.N,
    win0_0.index t (0 : Fin 3) = t.val / 256 ∧ win0_0.index t (1 : Fin 3) = t.val % 256 ∧ win0_0.index t (2 : Fin 3) = 0
    ∧ win0_1.index t (0 : Fin 3) = t.val / 256 ∧ win0_1.index t (1 : Fin 3) = t.val % 256 ∧ win0_1.index t (2 : Fin 3) = 0
    ∧ win0_2.index t (0 : Fin 3) = t.val / 256 ∧ win0_2.index t (1 : Fin 3) = 0 ∧ win0_2.index t (2 : Fin 3) = 0
    ∧ win0_3.index t (0 : Fin 3) = t.val / 256 ∧ win0_3.index t (1 : Fin 3) = 0 ∧ win0_3.index t (2 : Fin 3) = 0
    ∧ win0_4.index t (0 : Fin 3) = t.val / 256 ∧ win0_4.index t (1 : Fin 3) = 0 ∧ win0_4.index t (2 : Fin 3) = 0 :=
  (by decide +kernel : ∀ t : Fin grid0.N, _)

/-- The features' block at point b * 256 + k holds the features of chunk k of batch b. -/
theorem blk0_apply (c : Dev nD) (t : Fin cfg0.N) (b : Fin 8) (k : Fin 256) (ht : t.val = b.val * 256 + k.val)
    (n : Fin 256) (cc : Fin 32) :
    blk0 m c t (ix3 (0 : Fin 1) n cc) = arr0 m c (ix3 b ⟨k.val * 256 + n.val, chunk_lt k n⟩ cc) := by
  obtain ⟨e0, e1, e2, -⟩ := idx_facts t
  have hk := k.isLt
  show iblk m c 0 t (ix3 (0 : Fin 1) n cc) = _
  unfold iblk
  rw [View.read_apply]
  show V m c main_arg1 _ = V m c main_arg1 _
  congr 1
  funext a
  apply Fin.ext
  match a with
  | ⟨0, _⟩ => show win0_0.index t (0 : Fin 3) * 1 + 1 * 0 = b.val; omega
  | ⟨1, _⟩ => show win0_0.index t (1 : Fin 3) * 256 + 1 * n.val = k.val * 256 + n.val; omega
  | ⟨2, _⟩ => show win0_0.index t (2 : Fin 3) * 32 + 1 * cc.val = cc.val; omega

/-- The bin-index block at point b * 256 + k holds the bin indices of chunk k of batch b. -/
theorem blk1_apply (c : Dev nD) (t : Fin cfg0.N) (b : Fin 8) (k : Fin 256) (ht : t.val = b.val * 256 + k.val)
    (n : Fin 256) (d : Fin 2) :
    blk1 m c t (ix3 (0 : Fin 1) n d) = arr1 m c (ix3 b ⟨k.val * 256 + n.val, chunk_lt k n⟩ d) := by
  obtain ⟨-, -, -, e0, e1, e2, -⟩ := idx_facts t
  have hk := k.isLt
  show iblk m c 1 t (ix3 (0 : Fin 1) n d) = _
  unfold iblk
  rw [View.read_apply]
  show V m c main_v73 _ = V m c main_v73 _
  congr 1
  funext a
  apply Fin.ext
  match a with
  | ⟨0, _⟩ => show win0_1.index t (0 : Fin 3) * 1 + 1 * 0 = b.val; omega
  | ⟨1, _⟩ => show win0_1.index t (1 : Fin 3) * 256 + 1 * n.val = k.val * 256 + n.val; omega
  | ⟨2, _⟩ => show win0_1.index t (2 : Fin 3) * 2 + 1 * d.val = d.val; omega

/-- The first validity row's block at point b * 256 + k is batch b's row. -/
theorem blk2_apply (c : Dev nD) (t : Fin cfg0.N) (b : Fin 8) (k : Fin 256) (ht : t.val = b.val * 256 + k.val)
    (i : Fin 256) :
    blk2 m c t (ix3 (0 : Fin 1) (0 : Fin 1) i) = arr2 m c (ix3 b (0 : Fin 1) i) := by
  obtain ⟨-, -, -, -, -, -, e0, e1, e2, -⟩ := idx_facts t
  have hk := k.isLt
  show iblk m c 2 t (ix3 (0 : Fin 1) (0 : Fin 1) i) = _
  unfold iblk
  rw [View.read_apply]
  show V m c main_v56 _ = V m c main_v56 _
  congr 1
  funext a
  apply Fin.ext
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 256 + 1 * i.val = i.val; omega

/-- The second validity row's block at point b * 256 + k is batch b's row. -/
theorem blk3_apply (c : Dev nD) (t : Fin cfg0.N) (b : Fin 8) (k : Fin 256) (ht : t.val = b.val * 256 + k.val)
    (i : Fin 256) :
    blk3 m c t (ix3 (0 : Fin 1) (0 : Fin 1) i) = arr3 m c (ix3 b (0 : Fin 1) i) := by
  obtain ⟨-, -, -, -, -, -, -, -, -, e0, e1, e2, -⟩ := idx_facts t
  have hk := k.isLt
  show iblk m c 3 t (ix3 (0 : Fin 1) (0 : Fin 1) i) = _
  unfold iblk
  rw [View.read_apply]
  show V m c main_v58 _ = V m c main_v58 _
  congr 1
  funext a
  apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 256 + 1 * i.val = i.val; omega

end Blocks

/-- One step's update at point b * 256 + k, read off the arrays: the entry before plus chunk k's sum. -/
theorem upd_blocks (m : (ℓ : Loc nD τ sig) → Buf (Elt Ideal) ℓ) (c : Dev nD) (t : Fin cfg0.N) (b : Fin 8) (k : Fin 256)
    (ht : t.val = b.val * 256 + k.val) (a : Vec Ideal S256x8192 .f32) (i j : Fin 256) (cc : Fin 32) :
    upd (F := Ideal) (blk0 m c t) (blk1 m c t) (blk2 m c t) (blk3 m c t) a (ix2 i ⟨j.val * 32 + cc.val, col_lt j cc⟩)
      = a (ix2 i ⟨j.val * 32 + cc.val, col_lt j cc⟩)
        + chunkSum (arr0 m c) (arr1 m c) (arr2 m c) (arr3 m c) b i j cc k :=
  upd_chunk (blk0 m c t) (blk1 m c t) (blk2 m c t) (blk3 m c t) (arr0 m c) (arr1 m c) (arr2 m c) (arr3 m c) b k
    (fun n cc => blk0_apply m c t b k ht n cc) (fun n d => blk1_apply m c t b k ht n d)
    (fun i => blk2_apply m c t b k ht i) (fun i => blk3_apply m c t b k ht i) a i j cc

/-! ## The accumulator after each point -/

section Accumulation

variable {F : FTy → Type} [FloatOps F]
variable (m : (ℓ : Loc nD τ sig) → Buf (Elt F) ℓ)

/-- The accumulator after the point at position n: the point's update of the zero block at the first point of
    a row of the grid, of what the point before left at the others. -/
def acc (c : Dev nD) : (n : ℕ) → n < cfg0.N → Vec F S256x8192 .f32
  | 0, h => upd (blk0 m c ⟨0, h⟩) (blk1 m c ⟨0, h⟩) (blk2 m c ⟨0, h⟩) (blk3 m c ⟨0, h⟩) (k0_pay3 (F := F))
  | n + 1, h => upd (blk0 m c ⟨n + 1, h⟩) (blk1 m c ⟨n + 1, h⟩) (blk2 m c ⟨n + 1, h⟩) (blk3 m c ⟨n + 1, h⟩)
      (if (n + 1) % 256 = 0 then k0_pay3 (F := F) else acc c n (Nat.lt_of_succ_lt h))

theorem acc_zero (c : Dev nD) (h : 0 < cfg0.N) :
    acc m c 0 h = upd (blk0 m c ⟨0, h⟩) (blk1 m c ⟨0, h⟩) (blk2 m c ⟨0, h⟩) (blk3 m c ⟨0, h⟩) (k0_pay3 (F := F)) := rfl

theorem acc_succ (c : Dev nD) (n : ℕ) (h : n + 1 < cfg0.N) :
    acc m c (n + 1) h = upd (blk0 m c ⟨n + 1, h⟩) (blk1 m c ⟨n + 1, h⟩) (blk2 m c ⟨n + 1, h⟩) (blk3 m c ⟨n + 1, h⟩)
      (if (n + 1) % 256 = 0 then k0_pay3 (F := F) else acc m c n (Nat.lt_of_succ_lt h)) := rfl

/-- The accumulator after the first point of a row: the point's update of the zero block. -/
theorem snd_A (c : Dev nD) (t : Fin cfg0.N) (h0 : t.val % 256 = 0) (h1 : ¬t.val % 256 = 255) :
    (outsAt0 m c t.val t.isLt).2
      = upd (blk0 m c t) (blk1 m c t) (blk2 m c t) (blk3 m c t) (k0_pay3 (F := F)) := by
  rw [outsAt0_A m c t h0 h1]
  dsimp only
  exact sout0_A_0_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (blk0 m c t) (blk1 m c t) (blk2 m c t) (blk3 m c t)

/-- After an inner point of a row: the point's update of what the point before left. -/
theorem snd_B (c : Dev nD) (t : Fin cfg0.N) (h0 : ¬t.val % 256 = 0) (h1 : ¬t.val % 256 = 255) :
    (outsAt0 m c t.val t.isLt).2
      = upd (blk0 m c t) (blk1 m c t) (blk2 m c t) (blk3 m c t)
          (outsAt0 m c (t.val - 1) (Nat.lt_of_le_of_lt (Nat.sub_le _ _) t.isLt)).2 := by
  rw [outsAt0_B m c t h0 h1]
  dsimp only
  exact sout0_B_0_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) (fun h => h1 ((hcond0_1 t).mp h))
    (blk0 m c t) (blk1 m c t) (blk2 m c t) (blk3 m c t)
    (outsAt0 m c (t.val - 1) (Nat.lt_of_le_of_lt (Nat.sub_le _ _) t.isLt)).2

/-- After the last point of a row: the point's update of what the point before left. -/
theorem snd_C (c : Dev nD) (t : Fin cfg0.N) (h0 : ¬t.val % 256 = 0) (h1 : t.val % 256 = 255) :
    (outsAt0 m c t.val t.isLt).2
      = upd (blk0 m c t) (blk1 m c t) (blk2 m c t) (blk3 m c t)
          (outsAt0 m c (t.val - 1) (Nat.lt_of_le_of_lt (Nat.sub_le _ _) t.isLt)).2 := by
  rw [outsAt0_C m c t h0 h1]
  dsimp only
  exact sout0_C_0_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (blk0 m c t) (blk1 m c t) (blk2 m c t) (blk3 m c t)
    (outsAt0 m c (t.val - 1) (Nat.lt_of_le_of_lt (Nat.sub_le _ _) t.isLt)).2

/-- At the last point of a row the output block is the accumulator the point leaves, under a leading unit axis. -/
theorem fst_C (c : Dev nD) (t : Fin cfg0.N) (h0 : ¬t.val % 256 = 0) (h1 : t.val % 256 = 255) :
    (outsAt0 m c t.val t.isLt).1 = k0_pay2 (outsAt0 m c t.val t.isLt).2 := by
  rw [snd_C m c t h0 h1, outsAt0_C m c t h0 h1]
  dsimp only
  exact out0_C_4_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (blk0 m c t) (blk1 m c t) (blk2 m c t) (blk3 m c t)
    (outsAt0 m c (t.val - 1) (Nat.lt_of_le_of_lt (Nat.sub_le _ _) t.isLt)).2

/-- The accumulator component of the point-by-point contents is the recursion above: by induction on the
    position, the case by the position's residue modulo 256. -/
theorem outs_snd (c : Dev nD) : ∀ (n : ℕ) (h : n < cfg0.N), (outsAt0 m c n h).2 = acc m c n h
  | 0, h => (snd_A m c ⟨0, h⟩ (Nat.zero_mod _) (by show ¬(0 % 256 = 255); decide)).trans (acc_zero m c h).symm
  | n + 1, h => by
    by_cases h0 : (n + 1) % 256 = 0
    · have h1 : ¬(n + 1) % 256 = 255 := by omega
      rw [snd_A m c ⟨n + 1, h⟩ h0 h1, acc_succ, if_pos h0]
    · rw [acc_succ, if_neg h0, ← outs_snd c n (Nat.lt_of_succ_lt h)]
      by_cases h1 : (n + 1) % 256 = 255
      · exact snd_C m c ⟨n + 1, h⟩ h0 h1
      · exact snd_B m c ⟨n + 1, h⟩ h0 h1

end Accumulation

/-! ## The accumulator and the output array as sums -/

/-- After point b * 256 + k the accumulator holds, at row i and column j * 32 + c, the sum of the chunks up to
    chunk k of batch b. -/
theorem acc_apply (m : (ℓ : Loc nD τ sig) → Buf (Elt Ideal) ℓ) (c : Dev nD) :
    ∀ (n : ℕ) (h : n < cfg0.N) (b : Fin 8) (k : Fin 256) (hn : n = b.val * 256 + k.val) (i j : Fin 256) (cc : Fin 32),
      acc m c n h (ix2 i ⟨j.val * 32 + cc.val, col_lt j cc⟩)
        = partialSum (arr0 m c) (arr1 m c) (arr2 m c) (arr3 m c) b i j cc k.val
  | 0, h, b, k, hn, i, j, cc => by
    have hb : b = 0 := Fin.ext (by show b.val = 0; omega)
    have hk : k = 0 := Fin.ext (by show k.val = 0; omega)
    subst hb hk
    rw [acc_zero, upd_blocks m c ⟨0, h⟩ 0 0 rfl, pay3_apply, zero_add]
    exact (partialSum_zero _ _ _ _ _ _ _ _).symm
  | n + 1, h, b, k, hn, i, j, cc => by
    rw [acc_succ, upd_blocks m c ⟨n + 1, h⟩ b k hn]
    have hk := k.isLt
    by_cases h0 : (n + 1) % 256 = 0
    · have hk0 : k = 0 := Fin.ext (by show k.val = 0; omega)
      subst hk0
      rw [if_pos h0, pay3_apply, zero_add]
      exact (partialSum_zero _ _ _ _ _ _ _ _).symm
    · obtain ⟨k', hk'⟩ : ∃ k', k.val = k' + 1 := ⟨k.val - 1, by omega⟩
      rw [if_neg h0, acc_apply m c n (Nat.lt_of_succ_lt h) b ⟨k', by omega⟩ (by show n = b.val * 256 + k'; omega) i j cc]
      show partialSum _ _ _ _ b i j cc k' + _ = _
      rw [hk', partialSum_succ _ _ _ _ b i j cc k' (by omega)]
      congr 2
      exact Fin.ext hk'

/-- The output array after the run: at batch b, row i and column q, the sum over all 256 chunks of batch b at
    cell (i, q / 32) and channel q % 32. -/
def outArr (A : FVec Ideal S8x65536x32 .f32) (B : IVec S8x65536x2 32) (R0 R1 : FVec Ideal S8x1x256 .f32) :
    Vec Ideal S8x256x8192 .f32 := fun idx =>
  ∑ k : Fin 256, chunkSum A B R0 R1 (idx 0) (idx 1)
    ⟨(idx 2).val / 32, by have h : (idx 2).val < 8192 := (idx 2).isLt; omega⟩
    ⟨(idx 2).val % 32, Nat.mod_lt _ (by decide)⟩ k

theorem outArr_apply (A : FVec Ideal S8x65536x32 .f32) (B : IVec S8x65536x2 32) (R0 R1 : FVec Ideal S8x1x256 .f32)
    (b : Fin 8) (i j : Fin 256) (cc : Fin 32) :
    outArr A B R0 R1 (ix3 b i ⟨j.val * 32 + cc.val, col_lt j cc⟩) = ∑ k : Fin 256, chunkSum A B R0 R1 b i j cc k := by
  have hc := cc.isLt
  have ej : (⟨(j.val * 32 + cc.val) / 32, by have := j.isLt; omega⟩ : Fin 256) = j := Fin.ext (by show (j.val * 32 + cc.val) / 32 = j.val; omega)
  have ec : (⟨(j.val * 32 + cc.val) % 32, Nat.mod_lt _ (by decide)⟩ : Fin 32) = cc := Fin.ext (by show (j.val * 32 + cc.val) % 32 = cc.val; omega)
  show (∑ k : Fin 256, chunkSum A B R0 R1 b i ⟨(j.val * 32 + cc.val) / 32, _⟩ ⟨(j.val * 32 + cc.val) % 32, _⟩ k) = _
  rw [ej, ec]

section Final

variable (m : (ℓ : Loc nD τ sig) → Buf (Elt Ideal) ℓ)

/-- What the last point of a row writes back is batch b's block of the output array's closed form. -/
theorem flushed_eq (c : Dev nD) (t : Fin cfg0.N) (hf : (cfg0.win 4).flush t = true) :
    (dats m 0 c).flushed 4 t
      = ((cfg0.win 4).blk t).view.read (Elt Ideal) (outArr (arr0 m c) (arr1 m c) (arr2 m c) (arr3 m c)) := by
  have h1 : t.val % 256 = 255 := (flush0_4 t).mp hf
  have h0 : ¬t.val % 256 = 0 := by omega
  have hN : t.val < 2048 := lt_of_lt_of_eq t.isLt (show cfg0.N = 2048 from N_0)
  obtain ⟨-, -, -, -, -, -, -, -, -, -, -, -, e0, e1, e2⟩ := idx_facts t
  show (cfg0.win 4).cut (grid0.coords t) ((dats m 0 c).after 4 t) = _
  rw [after0_4, fst_C m c t h0 h1, outs_snd m c t.val t.isLt]
  refine funext fun (y : S1x256x8192.Idx) => ?_
  obtain ⟨u, i, q, rfl⟩ : ∃ (u : Fin 1) (i : Fin 256) (q : Fin 8192), y = ix3 u i q := ⟨y 0, y 1, y 2, eq_ix3 y⟩
  obtain rfl : u = 0 := Subsingleton.elim _ _
  have hq := q.isLt
  obtain ⟨j, cc, rfl⟩ : ∃ (j : Fin 256) (cc : Fin 32), q = ⟨j.val * 32 + cc.val, col_lt j cc⟩ :=
    ⟨⟨q.val / 32, by omega⟩, ⟨q.val % 32, Nat.mod_lt _ (by decide)⟩, Fin.ext (by show q.val = q.val / 32 * 32 + q.val % 32; omega)⟩
  rw [View.read_apply]
  show k0_pay2 (acc m c t.val t.isLt) (ix3 (0 : Fin 1) i ⟨j.val * 32 + cc.val, col_lt j cc⟩)
    = outArr (arr0 m c) (arr1 m c) (arr2 m c) (arr3 m c) (((cfg0.win 4).blk t).view.emb (ix3 (0 : Fin 1) i ⟨j.val * 32 + cc.val, col_lt j cc⟩))
  have hemb : ((cfg0.win 4).blk t).view.emb (ix3 (0 : Fin 1) i ⟨j.val * 32 + cc.val, col_lt j cc⟩)
      = (ix3 (⟨t.val / 256, by omega⟩ : Fin 8) i ⟨j.val * 32 + cc.val, col_lt j cc⟩ : S8x256x8192.Idx) := by
    funext a
    apply Fin.ext
    match a with
    | ⟨0, _⟩ => show win0_4.index t (0 : Fin 3) * 1 + 1 * 0 = t.val / 256; omega
    | ⟨1, _⟩ => show win0_4.index t (1 : Fin 3) * 256 + 1 * i.val = i.val; omega
    | ⟨2, _⟩ => show win0_4.index t (2 : Fin 3) * 8192 + 1 * (j.val * 32 + cc.val) = j.val * 32 + cc.val; omega
  rw [hemb, outArr_apply, pay2_apply,
    acc_apply m c t.val t.isLt ⟨t.val / 256, by omega⟩ ⟨255, by decide⟩ (by show t.val = t.val / 256 * 256 + 255; omega) i j cc,
    partialSum_last]

/-- Every entry of the output array lies in the block some last point of a row writes back: batch b's at the
    point b * 256 + 255. -/
theorem cover (c : Dev nD) (idx : ((cfg0.win 4).arr.view.loc (c.tc : Thread nD τ)).2.ty.Idx) :
    ∃ t : Fin cfg0.N, (cfg0.win 4).flush t = true ∧ idx ∈ ((cfg0.win 4).blk t).view.set := by
  have hb : (idx 0).val < 8 := (idx 0).isLt
  have hi : (idx 1).val < 256 := (idx 1).isLt
  have hq : (idx 2).val < 8192 := (idx 2).isLt
  have hlt : (idx 0).val * 256 + 255 < cfg0.N := by rw [show cfg0.N = 2048 from N_0]; omega
  refine ⟨⟨(idx 0).val * 256 + 255, hlt⟩, (flush0_4 _).mpr (by show ((idx 0).val * 256 + 255) % 256 = 255; omega), ?_⟩
  obtain ⟨-, -, -, -, -, -, -, -, -, -, -, -, e0, e1, e2⟩ := idx_facts ⟨(idx 0).val * 256 + 255, hlt⟩
  have e0' : win0_4.index ⟨(idx 0).val * 256 + 255, hlt⟩ (0 : Fin 3) = (idx 0).val := by rw [e0]; show ((idx 0).val * 256 + 255) / 256 = _; omega
  show idx ∈ ((View.whole main_v77).slice (win0_4.rect ⟨(idx 0).val * 256 + 255, hlt⟩)).set
  rw [View.set_slice_whole, Rect.mem_set_unit]
  intro a
  match a with
  | ⟨0, _⟩ =>
    show win0_4.index ⟨(idx 0).val * 256 + 255, hlt⟩ (0 : Fin 3) * 1 ≤ (idx 0).val
      ∧ (idx 0).val < win0_4.index ⟨(idx 0).val * 256 + 255, hlt⟩ (0 : Fin 3) * 1 + 1
    omega
  | ⟨1, _⟩ =>
    show win0_4.index ⟨(idx 0).val * 256 + 255, hlt⟩ (1 : Fin 3) * 256 ≤ (idx 1).val
      ∧ (idx 1).val < win0_4.index ⟨(idx 0).val * 256 + 255, hlt⟩ (1 : Fin 3) * 256 + 256
    omega
  | ⟨2, _⟩ =>
    show win0_4.index ⟨(idx 0).val * 256 + 255, hlt⟩ (2 : Fin 3) * 8192 ≤ (idx 2).val
      ∧ (idx 2).val < win0_4.index ⟨(idx 0).val * 256 + 255, hlt⟩ (2 : Fin 3) * 8192 + 8192
    omega

/-- The output array after the run is its closed form. -/
theorem final_v77 (c : Dev nD) :
    (dats m 0 c).arrAt 4 cfg0.N = outArr (arr0 m c) (arr1 m c) (arr2 m c) (arr3 m c) :=
  (dats m 0 c).arrAt_eq_of_cover 4 (outArr (arr0 m c) (arr1 m c) (arr2 m c) (arr3 m c)) (flushed_eq m c) (cover c)

end Final

end Cert.KernelIdeal.Hand

end
-- ==== Proof.KPrefix.lean ====
/-
  The kernel program's host prefix read index by index: before its one region the program computes, from the
  coordinates alone and in 32-bit integer arithmetic, each point's bin index on the stride-2 grid and the
  reported coordinate of every candidate.  Each of these buffers is the shared specification's word function,
  at every index.
-/
import proofs.«419918_j39608188403815_2_alg».proof.Proof.KV
import proofs.«419918_j39608188403815_2_alg».proof.Proof.Spec
import Idealize.ShloMosaic.Lib.StableHlo.Run
import Idealize.ShloMosaic.Lib.ValueIdx
import Idealize.ShloMosaic.Lib.ValueLayout
import Idealize.ShloMosaic.Lib.IdealHost

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The coordinates at launch, as core c holds them. -/
abbrev coordsOf (c : Dev nD) : IVec Cert.Spec.S8x65536x2 32 := m ((c : Thread nD τ).loc main_arg0)

/-- Each point's bin index: every operation of the chain is pointwise in the point, the divisor, the zeros, the
    bound 256 and the sentinel are broadcast scalars, so at one point the chain is the specification's bin of that
    point's coordinate (the remainder test, the floor quotient, the range test), operation for operation. -/
theorem V_main_v73 (c : Dev nD) (b : Fin 8) (n : Fin 65536) (d : Fin 2) :
    (V m c main_v73 : IVec Cert.Spec.S8x65536x2 32) (ix3 b n d) = Cert.Spec.binW (coordsOf m c (ix3 b n d)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [StableHlo.TRef.ofBuf, StableHlo.TRef.toBuf, cast_eq, id]
  simp only [select, andi, cmpi, signi, subi, addi, muli, Host.remsi, Host.divsi, constantI_apply, iotaInDim_apply]
  rfl

/-- The reported coordinate of candidate i: the composed operations are pointwise in the candidate, the constants
    are broadcast scalars, and the candidate's own word is the iota's entry; what is left is the specification's
    floor division of 0 + i * 2 - 0 by 2, operation for operation. -/
theorem V_main_v76 (c : Dev nD) (i : Fin 256) :
    (V m c main_v76 : IVec S256 32) (ix1 i) = Cert.Spec.adjW i.val := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [StableHlo.TRef.ofBuf, StableHlo.TRef.toBuf, cast_eq, id]
  simp only [select, andi, cmpi, signi, subi, addi, muli, Host.remsi, Host.divsi, constantI_apply, iotaInDim_apply]
  rfl

end Cert.KernelIdeal.Hand

end
-- ==== Proof.KTail.lean ====
/-
  The kernel program's host tail read buffer by buffer: after its one region the program reshapes the region's
  output array to [8, 256, 256, 32] and assembles the reported coordinates (the batch number and the two candidates'
  reported coordinates, concatenated along a last axis of three); every buffer the tail does not write, and that is
  no window's array, is as it was when the region was entered.  All of it is stated over any proof data of the
  pipeline, whose only part read here is what the region leaves in the output window's array.
-/
import proofs.«419918_j39608188403815_2_alg».proof.Proof.KPrefix
import proofs.«419918_j39608188403815_2_alg».proof.Proof.Spec
import Idealize.ShloMosaic.Lib.Pipeline.FrameSuffix
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)
variable (dats : (p : Fin 1) → (c : Dev nD) → Pipeline.Dat τ (Elt F) Unit ℕ (UR sig nD τ) ℕ (cfgs p) c)

/-- Core c's buffer contents after the host operations that follow the region. -/
abbrev T (c : Dev nD) (b : Ref sig .tc) : Buf (Elt F) ((c.tc : Thread nD τ).loc b) :=
  Pipeline.afterTail₀ cfgs dats 0 (V0 m) [hostOps1] c b

/-! ### Buffers the tail leaves alone -/

/-- The mask is as the prefix left it: the tail does not write it and it is no window's array. -/
theorem tail_v54 (c : Dev nD) : T m dats c main_v54 = V m c main_v54 := by
  unfold T Pipeline.afterTail₀
  show StableHlo.after hostOps1 _ (Proc.devRef .tc main_v54) = _
  after_results
  exact Pipeline.withArrays_of_ne spec0 c _ _ main_v54 (by decide)

/-- The coordinates are as at launch. -/
theorem tail_arg0 (c : Dev nD) : T m dats c main_arg0 = V m c main_arg0 := by
  unfold T Pipeline.afterTail₀
  show StableHlo.after hostOps1 _ (Proc.devRef .tc main_arg0) = _
  after_results
  exact Pipeline.withArrays_of_ne spec0 c _ _ main_arg0 (by decide)

/-- The third argument is as at launch. -/
theorem tail_arg2 (c : Dev nD) : T m dats c main_arg2 = V m c main_arg2 := by
  unfold T Pipeline.afterTail₀
  show StableHlo.after hostOps1 _ (Proc.devRef .tc main_arg2) = _
  after_results
  exact Pipeline.withArrays_of_ne spec0 c _ _ main_arg2 (by decide)

/-! ### The reshaped output -/

/-- The reshaped output: the output window's array is what the region leaves there, and a reshape keeps the
    row-major position, so entry (b, i, j, cc) of the result is entry (b, i, j * 32 + cc) of that array:
    ((b * 256 + i) * 256 + j) * 32 + cc = (b * 256 + i) * 8192 + (j * 32 + cc). -/
theorem tail_v78 (c : Dev nD) (b : Fin 8) (i j : Fin 256) (cc : Fin 32) :
    (T m dats c main_v78 : FVec F S8x256x256x32 .f32) (ix4 b i j cc)
      = ((dats 0 c).arrAt 4 cfg0.N : FVec F S8x256x8192 .f32) (ix3 b i ⟨j.val * 32 + cc.val, by omega⟩) := by
  unfold T Pipeline.afterTail₀
  show StableHlo.after hostOps1 _ (Proc.devRef .tc main_v78) (ix4 b i j cc) = _
  after_results
  have e : (Pipeline.withArrays (cfgs 0).spec c (V0 m c) (fun w => (dats 0 c).arrAt w (cfgs 0).N) (Proc.devRef .tc main_v77) : FVec F S8x256x8192 .f32)
      = (dats 0 c).arrAt 4 cfg0.N :=
    Pipeline.withArrays_arr (τ := τ) (cfgs 0).spec launch0.win.arr_inj c (V0 m c) (fun w => (dats 0 c).arrAt w (cfgs 0).N) 4
  show shapeCast S8x256x256x32 (Pipeline.withArrays (cfgs 0).spec c (V0 m c) (fun w => (dats 0 c).arrAt w (cfgs 0).N) (Proc.devRef .tc main_v77) : FVec F S8x256x8192 .f32) shapeCasts_S8x256x8192_S8x256x256x32 (ix4 b i j cc) = _
  rw [e]
  refine shapeCast_apply _ _ _ (ix3 b i ⟨j.val * 32 + cc.val, by omega⟩) ?_
  rw [Shape.rowMajor_val_three, Shape.rowMajor_val_four]
  show ((b.val * 256 + i.val) * 8192 + (j.val * 32 + cc.val)) = ((b.val * 256 + i.val) * 256 + j.val) * 32 + cc.val
  omega

/-! ### The tail's broadcasts read at an index -/

/-- A rank-3 array given a last unit axis. -/
private theorem bc_last {α : Type} (x : S8x256x256.Idx → α) (b : Fin 8) (i j : Fin 256) (z : Fin 1) :
    broadcastInDim S8x256x256x1 ![0, 1, 2] bcast_S8x256x256_S8x256x256x1_0_1_2 x (ix4 b i j z) = x (ix3 b i j) :=
  broadcastInDim_apply _ _ x _ (ix3 b i j) (fun a => by fin_cases a <;> rfl)

/-- A column of batch numbers over the grid. -/
private theorem bc_batch {α : Type} (x : S8x1x1.Idx → α) (b : Fin 8) (i j : Fin 256) :
    broadcastInDim S8x256x256 ![0, 1, 2] bcast_S8x1x1_S8x256x256_0_1_2 x (ix3 b i j) = x (ix3 b (0 : Fin 1) (0 : Fin 1)) :=
  broadcastInDim_apply _ _ x _ (ix3 b (0 : Fin 1) (0 : Fin 1)) (fun a => by fin_cases a <;> rfl)

private theorem bc_batch0 {α : Type} (x : S8.Idx → α) (b : Fin 8) (z w : Fin 1) :
    broadcastInDim S8x1x1 ![0] bcast_S8_S8x1x1_0 x (ix3 b z w) = x (ix1 b) :=
  broadcastInDim_apply _ _ x _ (ix1 b) (fun a => by fin_cases a <;> rfl)

/-- A row of candidates along the first grid axis. -/
private theorem bc_rows {α : Type} (x : S1x256x1.Idx → α) (b : Fin 8) (i j : Fin 256) :
    broadcastInDim S8x256x256 ![0, 1, 2] bcast_S1x256x1_S8x256x256_0_1_2 x (ix3 b i j) = x (ix3 (0 : Fin 1) i (0 : Fin 1)) :=
  broadcastInDim_apply _ _ x _ (ix3 (0 : Fin 1) i (0 : Fin 1)) (fun a => by fin_cases a <;> rfl)

private theorem bc_rows0 {α : Type} (x : S256.Idx → α) (z w : Fin 1) (i : Fin 256) :
    broadcastInDim S1x256x1 ![1] bcast_S256_S1x256x1_1 x (ix3 z i w) = x (ix1 i) :=
  broadcastInDim_apply _ _ x _ (ix1 i) (fun a => by fin_cases a <;> rfl)

/-- A row of candidates along the second grid axis. -/
private theorem bc_cols {α : Type} (x : S1x1x256.Idx → α) (b : Fin 8) (i j : Fin 256) :
    broadcastInDim S8x256x256 ![0, 1, 2] bcast_S1x1x256_S8x256x256_0_1_2 x (ix3 b i j) = x (ix3 (0 : Fin 1) (0 : Fin 1) j) :=
  broadcastInDim_apply _ _ x _ (ix3 (0 : Fin 1) (0 : Fin 1) j) (fun a => by fin_cases a <;> rfl)

private theorem bc_cols0 {α : Type} (x : S256.Idx → α) (z w : Fin 1) (j : Fin 256) :
    broadcastInDim S1x1x256 ![2] bcast_S256_S1x1x256_2 x (ix3 z w j) = x (ix1 j) :=
  broadcastInDim_apply _ _ x _ (ix1 j) (fun a => by fin_cases a <;> rfl)

/-- The concatenation's three operands, by position. -/
private theorem opnd_0 : (![main_v86, main_v87, main_v88] 0 : Ref sig .tc) = main_v86 := rfl
private theorem opnd_1 : (![main_v86, main_v87, main_v88] 1 : Ref sig .tc) = main_v87 := rfl
private theorem opnd_2 : (![main_v86, main_v87, main_v88] 2 : Ref sig .tc) = main_v88 := rfl

/-! ### The reported coordinates -/

/-- The reported coordinates: the three pieces of the concatenation along the last axis are the batch number
    (an iota over the batch, broadcast over the grid), the first candidate's reported coordinate and the second's
    (the prefix's array of reported coordinates, which the tail does not write and which is no window's array,
    broadcast along the other grid axis); entry k of the last axis reads piece k. -/
theorem tail_v89 (c : Dev nD) : (T m dats c main_v89 : IVec S8x256x256x3 32) = Cert.Spec.outCoords := by
  unfold T Pipeline.afterTail₀
  show StableHlo.after hostOps1 _ (Proc.devRef .tc main_v89) = _
  after_results
  dsimp only [opnd_0, opnd_1, opnd_2]
  repeat (first
    | rw [StableHlo.unary_result] | rw [StableHlo.nullary_result]
    | (rw [StableHlo.unary_result_ne]; rotate_left; decide)
    | (rw [StableHlo.nullary_result_ne]; rotate_left; decide)
    | (rw [StableHlo.reshape_result_ne]; rotate_left; decide))
  have e76 : (Pipeline.withArrays (cfgs 0).spec c (V0 m c) (fun w => (dats 0 c).arrAt w (cfgs 0).N) (Proc.devRef .tc main_v76) : IVec S256 32)
      = V m c main_v76 :=
    Pipeline.withArrays_of_ne (τ := τ) (cfgs 0).spec c (V0 m c) (fun w => (dats 0 c).arrAt w (cfgs 0).N) main_v76 (by decide)
  rw [e76]
  funext idx
  obtain ⟨b, i, j, k, rfl⟩ : ∃ b i j k, idx = ix4 b i j k := ⟨idx 0, idx 1, idx 2, idx 3, eq_ix4 idx⟩
  show _ = Cert.Spec.outCoordsAt b i j k
  match k with
  | ⟨0, _⟩ =>
    refine (concatenate_apply_piece (3 : Fin S8x256x256x3.rank) _ _ _ 0 (by show (0 : Nat) < 3; omega) S8x256x256x1 _ rfl rfl 0 rfl
      (ix4 b i j (0 : Fin 1)) (fun a ha => ?_) rfl).trans ?_
    · fin_cases a <;> first | rfl | exact absurd rfl ha
    · rw [bc_last, bc_batch, bc_batch0]; rfl
  | ⟨1, _⟩ =>
    refine (concatenate_apply_piece (3 : Fin S8x256x256x3.rank) _ _ _ 1 (by show (1 : Nat) < 3; omega) S8x256x256x1 _ rfl rfl 1 rfl
      (ix4 b i j (0 : Fin 1)) (fun a ha => ?_) rfl).trans ?_
    · fin_cases a <;> first | rfl | exact absurd rfl ha
    · rw [bc_last, bc_rows, bc_rows0]; exact V_main_v76 m c i
  | ⟨2, _⟩ =>
    refine (concatenate_apply_piece (3 : Fin S8x256x256x3.rank) _ _ _ 2 (by show (2 : Nat) < 3; omega) S8x256x256x1 _ rfl rfl 2 rfl
      (ix4 b i j (0 : Fin 1)) (fun a ha => ?_) rfl).trans ?_
    · fin_cases a <;> first | rfl | exact absurd rfl ha
    · rw [bc_last, bc_cols, bc_cols0]; exact V_main_v76 m c j

end Cert.KernelIdeal.Hand

end
-- ==== Proof.KPrefixMask.lean ====
/-
  The kernel program's host prefix, the part that computes the validity windows and the mask, read index by index:
  before its one region the program computes from the coordinates alone, in 32-bit integer arithmetic, where each
  batch's window starts and ends along both dimensions, whether each candidate lies in it (as a bit, and as that
  bit converted to a float), and the mask.  Each of these buffers is the shared specification's word function of
  the coordinates, at every index.

  The prefix is read stretch by stretch over an arbitrary valuation: what the first two stretches leave (the
  candidates, the greatest coordinates plus one, the floor quotient of the least coordinates), what the next two
  make of those (the window starts, the other floor quotient), what the fifth makes of those (the validity bits, the
  mask, the bits as floats), and that the remaining stretches write none of these buffers.
-/
import proofs.«419918_j39608188403815_2_alg».proof.Proof.KV
import proofs.«419918_j39608188403815_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]

/-! ## The layout operations of the mask chain, read at an index -/

section Layout

variable {α : Type}

theorem bc_S256_S1x256x1 (h : S256.BroadcastsInDim S1x256x1 (![1] : Fin 1 → Fin S1x256x1.rank)) (x : S256.Idx → α)
    (u : Fin 1) (i : Fin 256) (v : Fin 1) : broadcastInDim S1x256x1 ![1] h x (ix3 u i v) = x (ix1 i) :=
  broadcastInDim_apply _ h x _ _ (fun a => by fin_cases a <;> rfl)

theorem bc_S1x256x1_S8x256x2 (h : S1x256x1.BroadcastsInDim S8x256x2 (![0, 1, 2] : Fin 3 → Fin S8x256x2.rank))
    (x : S1x256x1.Idx → α) (b : Fin 8) (i : Fin 256) (d : Fin 2) :
    broadcastInDim S8x256x2 ![0, 1, 2] h x (ix3 b i d) = x (ix3 (0 : Fin 1) i (0 : Fin 1)) :=
  broadcastInDim_apply _ h x _ _ (fun a => by fin_cases a <;> rfl)

theorem bc_S8x2_S8x1x2 (h : S8x2.BroadcastsInDim S8x1x2 (![0, 2] : Fin 2 → Fin S8x1x2.rank)) (x : S8x2.Idx → α)
    (b : Fin 8) (u : Fin 1) (d : Fin 2) : broadcastInDim S8x1x2 ![0, 2] h x (ix3 b u d) = x (ix2 b d) :=
  broadcastInDim_apply _ h x _ _ (fun a => by fin_cases a <;> rfl)

theorem bc_S8x1x2_S8x256x2 (h : S8x1x2.BroadcastsInDim S8x256x2 (![0, 1, 2] : Fin 3 → Fin S8x256x2.rank))
    (x : S8x1x2.Idx → α) (b : Fin 8) (i : Fin 256) (d : Fin 2) :
    broadcastInDim S8x256x2 ![0, 1, 2] h x (ix3 b i d) = x (ix3 b (0 : Fin 1) d) :=
  broadcastInDim_apply _ h x _ _ (fun a => by fin_cases a <;> rfl)

theorem bc_S2_S1x2 (h : S2.BroadcastsInDim S1x2 (![1] : Fin 1 → Fin S1x2.rank)) (x : S2.Idx → α)
    (u : Fin 1) (d : Fin 2) : broadcastInDim S1x2 ![1] h x (ix2 u d) = x (ix1 d) :=
  broadcastInDim_apply _ h x _ _ (fun a => by fin_cases a <;> rfl)

theorem bc_S1x2_S8x2 (h : S1x2.BroadcastsInDim S8x2 (![0, 1] : Fin 2 → Fin S8x2.rank)) (x : S1x2.Idx → α)
    (b : Fin 8) (d : Fin 2) : broadcastInDim S8x2 ![0, 1] h x (ix2 b d) = x (ix2 (0 : Fin 1) d) :=
  broadcastInDim_apply _ h x _ _ (fun a => by fin_cases a <;> rfl)

theorem sl0_S8x256x2_S8x256x1 (h : S8x256x2.Slices ![0, 0, 0] S8x256x1) (x : S8x256x2.Idx → α)
    (b : Fin 8) (i : Fin 256) (u : Fin 1) :
    extractStridedSlice S8x256x1 ![0, 0, 0] x h (ix3 b i u) = x (ix3 b i (0 : Fin 2)) :=
  extractStridedSlice_apply _ x h _ _ (fun a => by
    have hu : u.val = 0 := by omega
    fin_cases a
    · show b.val = 0 + b.val; omega
    · show i.val = 0 + i.val; omega
    · show (0 : Nat) = 0 + u.val; omega)

theorem sl1_S8x256x2_S8x256x1 (h : S8x256x2.Slices ![0, 0, 1] S8x256x1) (x : S8x256x2.Idx → α)
    (b : Fin 8) (i : Fin 256) (u : Fin 1) :
    extractStridedSlice S8x256x1 ![0, 0, 1] x h (ix3 b i u) = x (ix3 b i (1 : Fin 2)) :=
  extractStridedSlice_apply _ x h _ _ (fun a => by
    have hu : u.val = 0 := by omega
    fin_cases a
    · show b.val = 0 + b.val; omega
    · show i.val = 0 + i.val; omega
    · show (1 : Nat) = 1 + u.val; omega)

theorem rs_S8x256x1_S8x256 (h : S8x256x1.ShapeCasts S8x256) (x : S8x256x1.Idx → α) (b : Fin 8) (i : Fin 256) :
    shapeCast S8x256 x h (ix2 b i) = x (ix3 b i (0 : Fin 1)) :=
  shapeCast_apply x h _ _ (by
    rw [Shape.rowMajor_val_three, Shape.rowMajor_val_two]
    show (b.val * 256 + i.val) * 1 + 0 = b.val * 256 + i.val
    omega)

theorem rs_S8x256_S8x1x256 (h : S8x256.ShapeCasts S8x1x256) (x : S8x256.Idx → α) (b : Fin 8) (u : Fin 1)
    (i : Fin 256) : shapeCast S8x1x256 x h (ix3 b u i) = x (ix2 b i) :=
  shapeCast_apply x h _ _ (by
    have hu : u.val = 0 := by omega
    rw [Shape.rowMajor_val_three, Shape.rowMajor_val_two]
    show b.val * 256 + i.val = (b.val * 1 + u.val) * 256 + i.val
    omega)

theorem bc_S8x256_S8x256x1 (h : S8x256.BroadcastsInDim S8x256x1 (![0, 1] : Fin 2 → Fin S8x256x1.rank))
    (x : S8x256.Idx → α) (b : Fin 8) (i : Fin 256) (u : Fin 1) :
    broadcastInDim S8x256x1 ![0, 1] h x (ix3 b i u) = x (ix2 b i) :=
  broadcastInDim_apply _ h x _ _ (fun a => by fin_cases a <;> rfl)

theorem bc_S8x256_S8x1x256 (h : S8x256.BroadcastsInDim S8x1x256 (![0, 2] : Fin 2 → Fin S8x1x256.rank))
    (x : S8x256.Idx → α) (b : Fin 8) (u : Fin 1) (j : Fin 256) :
    broadcastInDim S8x1x256 ![0, 2] h x (ix3 b u j) = x (ix2 b j) :=
  broadcastInDim_apply _ h x _ _ (fun a => by fin_cases a <;> rfl)

theorem bc_S8x256x1_S8x256x256 (h : S8x256x1.BroadcastsInDim S8x256x256 (![0, 1, 2] : Fin 3 → Fin S8x256x256.rank))
    (x : S8x256x1.Idx → α) (b : Fin 8) (i j : Fin 256) :
    broadcastInDim S8x256x256 ![0, 1, 2] h x (ix3 b i j) = x (ix3 b i (0 : Fin 1)) :=
  broadcastInDim_apply _ h x _ _ (fun a => by fin_cases a <;> rfl)

theorem bc_S8x1x256_S8x256x256 (h : S8x1x256.BroadcastsInDim S8x256x256 (![0, 1, 2] : Fin 3 → Fin S8x256x256.rank))
    (x : S8x1x256.Idx → α) (b : Fin 8) (i j : Fin 256) :
    broadcastInDim S8x256x256 ![0, 1, 2] h x (ix3 b i j) = x (ix3 b (0 : Fin 1) j) :=
  broadcastInDim_apply _ h x _ _ (fun a => by fin_cases a <;> rfl)

end Layout

/-! ## The stretches, each over an arbitrary valuation -/

section Stages

variable (W : Valuation τ sig (Elt F))

/-- The coordinates as a valuation holds them. -/
abbrev crd : IVec Cert.Spec.S8x65536x2 32 := W (Proc.devRef .tc main_arg0)

/-! ### The first stretch: the candidates, the three reductions, the least coordinates less one -/

theorem S0_v4 (i : Fin 256) :
    (StableHlo.after hostOps0 W (Proc.devRef .tc main_v4) : IVec S256 32) (ix1 i) = Cert.Spec.gW i.val := by
  simp only [hostOps0]
  after_results_simp
  rfl

theorem S0_v8 (d : Fin 2) :
    (StableHlo.after hostOps0 W (Proc.devRef .tc main_v8) : IVec S2 32) (ix1 d)
      = IntOp.addi (Cert.Spec.gmxOf (crd W) (ix1 d)) 1#32 := by
  simp only [hostOps0]
  after_results_simp
  rfl

theorem S0_v10 (b : Fin 8) (d : Fin 2) :
    (StableHlo.after hostOps0 W (Proc.devRef .tc main_v10) : IVec S8x2 32) (ix2 b d) = Cert.Spec.mxOf (crd W) (ix2 b d) := by
  simp only [hostOps0]
  after_results_simp
  rfl

theorem S0_v14 (b : Fin 8) (d : Fin 2) :
    (StableHlo.after hostOps0 W (Proc.devRef .tc main_v14) : IVec S8x2 32) (ix2 b d)
      = IntOp.subi (IntOp.addi (Cert.Spec.mnOf (crd W) (ix2 b d)) 4294967295#32) 0#32 := by
  simp only [hostOps0]
  after_results_simp
  rfl

theorem S0_c7 (j : S_.Idx) : (StableHlo.after hostOps0 W (Proc.devRef .tc main_c_7) : IVec S_ 32) j = 2#32 := by
  simp only [hostOps0]
  after_results_simp
  rfl

/-! ### The second stretch: the floor quotient by the scalar the first stretch left -/

theorem S1_v15 (hc : ∀ j, (W (Proc.devRef .tc main_c_7) : IVec S_ 32) j = 2#32) (b : Fin 8) (d : Fin 2) :
    (StableHlo.after hostOps0_1 W (Proc.devRef .tc main_v15) : IVec S8x2 32) (ix2 b d)
      = Cert.Spec.fdivW ((W (Proc.devRef .tc main_v14) : IVec S8x2 32) (ix2 b d)) 2#32 := by
  simp only [hostOps0_1]
  after_results_simp
  simp only [StableHlo.TRef.ofBuf, StableHlo.TRef.toBuf, cast_eq, id]
  simp only [select, andi, cmpi, signi, subi, Host.remsi, Host.divsi, broadcastInDim, constantI, hc]
  rfl

theorem S1_v4 : StableHlo.after hostOps0_1 W (Proc.devRef .tc main_v4) = W (Proc.devRef .tc main_v4) := by
  simp only [hostOps0_1]
  after_results_simp

theorem S1_v8 : StableHlo.after hostOps0_1 W (Proc.devRef .tc main_v8) = W (Proc.devRef .tc main_v8) := by
  simp only [hostOps0_1]
  after_results_simp

theorem S1_v10 : StableHlo.after hostOps0_1 W (Proc.devRef .tc main_v10) = W (Proc.devRef .tc main_v10) := by
  simp only [hostOps0_1]
  after_results_simp

/-! ### The third stretch: the window starts, the greatest coordinates plus one laid out, the greatest plus one -/

theorem S2_v4 : StableHlo.after hostOps0_2 W (Proc.devRef .tc main_v4) = W (Proc.devRef .tc main_v4) := by
  simp only [hostOps0_2]
  after_results_simp

theorem S2_v21 (b : Fin 8) (d : Fin 2) :
    (StableHlo.after hostOps0_2 W (Proc.devRef .tc main_v21) : IVec S8x2 32) (ix2 b d)
      = IntOp.maxsi 0#32 (IntOp.addi (IntOp.muli ((W (Proc.devRef .tc main_v15) : IVec S8x2 32) (ix2 b d)) 2#32) 0#32) := by
  simp only [hostOps0_2]
  after_results_simp
  rfl

theorem S2_v22 (u : Fin 1) (d : Fin 2) :
    (StableHlo.after hostOps0_2 W (Proc.devRef .tc main_v22) : IVec S1x2 32) (ix2 u d)
      = (W (Proc.devRef .tc main_v8) : IVec S2 32) (ix1 d) := by
  simp only [hostOps0_2]
  after_results_simp
  exact bc_S2_S1x2 _ _ u d

theorem S2_v26 (b : Fin 8) (d : Fin 2) :
    (StableHlo.after hostOps0_2 W (Proc.devRef .tc main_v26) : IVec S8x2 32) (ix2 b d)
      = IntOp.subi (IntOp.addi ((W (Proc.devRef .tc main_v10) : IVec S8x2 32) (ix2 b d)) 1#32) 0#32 := by
  simp only [hostOps0_2]
  after_results_simp
  rfl

theorem S2_c13 (j : S_.Idx) : (StableHlo.after hostOps0_2 W (Proc.devRef .tc main_c_13) : IVec S_ 32) j = 2#32 := by
  simp only [hostOps0_2]
  after_results_simp
  rfl

/-! ### The fourth stretch: the other floor quotient -/

theorem S3_v27 (hc : ∀ j, (W (Proc.devRef .tc main_c_13) : IVec S_ 32) j = 2#32) (b : Fin 8) (d : Fin 2) :
    (StableHlo.after hostOps0_3 W (Proc.devRef .tc main_v27) : IVec S8x2 32) (ix2 b d)
      = Cert.Spec.fdivW ((W (Proc.devRef .tc main_v26) : IVec S8x2 32) (ix2 b d)) 2#32 := by
  simp only [hostOps0_3]
  after_results_simp
  simp only [StableHlo.TRef.ofBuf, StableHlo.TRef.toBuf, cast_eq, id]
  simp only [select, andi, cmpi, signi, subi, Host.remsi, Host.divsi, broadcastInDim, constantI, hc]
  rfl

theorem S3_v4 : StableHlo.after hostOps0_3 W (Proc.devRef .tc main_v4) = W (Proc.devRef .tc main_v4) := by
  simp only [hostOps0_3]
  after_results_simp

theorem S3_v21 : StableHlo.after hostOps0_3 W (Proc.devRef .tc main_v21) = W (Proc.devRef .tc main_v21) := by
  simp only [hostOps0_3]
  after_results_simp

theorem S3_v22 : StableHlo.after hostOps0_3 W (Proc.devRef .tc main_v22) = W (Proc.devRef .tc main_v22) := by
  simp only [hostOps0_3]
  after_results_simp

/-! ### The fifth stretch: the validity bits -/

/-- Candidate i of dimension d lies in batch b's window, from the buffers a valuation holds: the candidates, the
    window starts, the greatest coordinates plus one, the floor quotients for the ends. -/
def validAt (b : Fin 8) (d : Fin 2) (i : Fin 256) : BitVec 1 :=
  IntOp.andi
    (IntOp.cmpi .sge ((W (Proc.devRef .tc main_v4) : IVec S256 32) (ix1 i)) ((W (Proc.devRef .tc main_v21) : IVec S8x2 32) (ix2 b d)))
    (IntOp.cmpi .slt ((W (Proc.devRef .tc main_v4) : IVec S256 32) (ix1 i))
      (IntOp.minsi ((W (Proc.devRef .tc main_v22) : IVec S1x2 32) (ix2 (0 : Fin 1) d))
        (IntOp.addi (IntOp.muli (IntOp.addi ((W (Proc.devRef .tc main_v27) : IVec S8x2 32) (ix2 b d)) 1#32) 2#32) 0#32)))

/-- The validity bits as the fifth stretch computes them from the buffers a valuation holds: candidate against
    window start and window end, the end being the lesser of the greatest coordinate plus one and the batch's own
    bound. -/
def valid45 : IVec S8x256x2 1 :=
  andi
    (cmpi .sge
      (broadcastInDim S8x256x2 ![0, 1, 2] bcast_S1x256x1_S8x256x2_0_1_2
        (broadcastInDim S1x256x1 ![1] bcast_S256_S1x256x1_1 (W (Proc.devRef .tc main_v4) : IVec S256 32)))
      (broadcastInDim S8x256x2 ![0, 1, 2] bcast_S8x1x2_S8x256x2_0_1_2
        (broadcastInDim S8x1x2 ![0, 2] bcast_S8x2_S8x1x2_0_2 (W (Proc.devRef .tc main_v21) : IVec S8x2 32))))
    (cmpi .slt
      (broadcastInDim S8x256x2 ![0, 1, 2] bcast_S1x256x1_S8x256x2_0_1_2
        (broadcastInDim S1x256x1 ![1] bcast_S256_S1x256x1_1 (W (Proc.devRef .tc main_v4) : IVec S256 32)))
      (broadcastInDim S8x256x2 ![0, 1, 2] bcast_S8x1x2_S8x256x2_0_1_2
        (broadcastInDim S8x1x2 ![0, 2] bcast_S8x2_S8x1x2_0_2
          (minsi (broadcastInDim S8x2 ![0, 1] bcast_S1x2_S8x2_0_1 (W (Proc.devRef .tc main_v22) : IVec S1x2 32))
            (addi
              (muli
                (addi (W (Proc.devRef .tc main_v27) : IVec S8x2 32) (broadcastInDim S8x2 ![] bcast_S_S8x2 (constantI S_ 32 1#32)))
                (broadcastInDim S8x2 ![] bcast_S_S8x2 (constantI S_ 32 2#32)))
              (broadcastInDim S8x2 ![] bcast_S_S8x2 (constantI S_ 32 0#32)))))))

/-- Read at one batch, candidate and dimension: the candidate is broadcast along the batch and the dimension, the
    start and the end along the candidates. -/
theorem valid45_apply (b : Fin 8) (i : Fin 256) (d : Fin 2) : valid45 W (ix3 b i d) = validAt W b d i := by
  unfold valid45 validAt
  simp only [andi, cmpi]
  rw [bc_S1x256x1_S8x256x2, bc_S256_S1x256x1]
  rw [bc_S8x1x2_S8x256x2, bc_S8x2_S8x1x2]
  rw [bc_S8x1x2_S8x256x2, bc_S8x2_S8x1x2]
  simp only [minsi]
  rw [bc_S1x2_S8x2]
  rfl

theorem C_v45 (b : Fin 8) (i : Fin 256) (d : Fin 2) :
    (StableHlo.after hostOps0_4 W (Proc.devRef .tc main_v45) : IVec S8x256x2 1) (ix3 b i d) = validAt W b d i := by
  simp only [hostOps0_4]
  after_results_simp
  exact valid45_apply W b i d

/-- Dimension 0's bits as an array over batch and candidate. -/
theorem valid47_apply (h : S8x256x1.ShapeCasts S8x256) (b : Fin 8) (i : Fin 256) :
    shapeCast S8x256 (extractStridedSlice S8x256x1 ![0, 0, 0] (valid45 W) slices_S8x256x2_S8x256x1_0_0_0) h (ix2 b i)
      = validAt W b 0 i :=
  (rs_S8x256x1_S8x256 h _ b i).trans ((sl0_S8x256x2_S8x256x1 _ _ b i 0).trans (valid45_apply W b i 0))

/-- Dimension 1's bits as an array over batch and candidate. -/
theorem valid49_apply (h : S8x256x1.ShapeCasts S8x256) (b : Fin 8) (i : Fin 256) :
    shapeCast S8x256 (extractStridedSlice S8x256x1 ![0, 0, 1] (valid45 W) slices_S8x256x2_S8x256x1_0_0_1) h (ix2 b i)
      = validAt W b 1 i :=
  (rs_S8x256x1_S8x256 h _ b i).trans ((sl1_S8x256x2_S8x256x1 _ _ b i 0).trans (valid45_apply W b i 1))

theorem C_v54 (b : Fin 8) (i j : Fin 256) :
    (StableHlo.after hostOps0_4 W (Proc.devRef .tc main_v54) : IVec S8x256x256 1) (ix3 b i j)
      = IntOp.andi (validAt W b 0 i) (validAt W b 1 j) := by
  simp only [hostOps0_4]
  after_results_simp
  refine congrArg₂ IntOp.andi ?_ ?_
  · refine (bc_S8x256x1_S8x256x256 _ _ b i j).trans ?_
    refine (bc_S8x256_S8x256x1 _ _ b i 0).trans ?_
    exact valid47_apply W shapeCasts_S8x256x1_S8x256 b i
  · refine (bc_S8x1x256_S8x256x256 _ _ b i j).trans ?_
    refine (bc_S8x256_S8x1x256 _ _ b 0 j).trans ?_
    exact valid49_apply W shapeCasts_S8x256x1_S8x256 b j

theorem C_v56 (b : Fin 8) (i : Fin 256) :
    (StableHlo.after hostOps0_4 W (Proc.devRef .tc main_v56) : FVec F S8x1x256 .f32) (ix3 b (0 : Fin 1) i)
      = FloatOps.uitofp .f32 (validAt W b 0 i) := by
  simp only [hostOps0_4]
  after_results_simp
  refine (rs_S8x256_S8x1x256 shapeCasts_S8x256_S8x1x256 _ b 0 i).trans ?_
  exact congrArg (FloatOps.uitofp .f32) (valid47_apply W shapeCasts_S8x256x1_S8x256 b i)

theorem C_v58 (b : Fin 8) (i : Fin 256) :
    (StableHlo.after hostOps0_4 W (Proc.devRef .tc main_v58) : FVec F S8x1x256 .f32) (ix3 b (0 : Fin 1) i)
      = FloatOps.uitofp .f32 (validAt W b 1 i) := by
  simp only [hostOps0_4]
  after_results_simp
  refine (rs_S8x256_S8x1x256 shapeCasts_S8x256_S8x1x256 _ b 0 i).trans ?_
  exact congrArg (FloatOps.uitofp .f32) (valid49_apply W shapeCasts_S8x256x1_S8x256 b i)

/-! ### The four stretches composed: the validity bit of the specification -/

theorem validAt_spec (b : Fin 8) (d : Fin 2) (i : Fin 256) :
    validAt (StableHlo.after hostOps0_3 (StableHlo.after hostOps0_2 (StableHlo.after hostOps0_1 (StableHlo.after hostOps0 W)))) b d i
      = Cert.Spec.validBit (crd W) b d i := by
  unfold validAt
  rw [S3_v4, S3_v21, S3_v22, S3_v27 _ (S2_c13 _), S2_v4, S2_v21, S2_v22, S2_v26, S1_v4, S1_v8, S1_v10,
    S1_v15 _ (S0_c7 _), S0_v4, S0_v8, S0_v10, S0_v14]
  rfl

end Stages

/-- A bit converted to a float is the real 0 or 1. -/
theorem uitofp_f32_bit (v : BitVec 1) : (FloatOps.uitofp .f32 v : Ideal .f32) = Cert.Spec.bitE v := by
  rcases BitVec.eq_zero_or_eq_one v with h | h <;> subst h
  · show (((0#1 : BitVec 1).toNat : ℝ) : EReal) = Cert.Spec.bitE 0#1
    simp [Cert.Spec.bitE]
  · show (((1#1 : BitVec 1).toNat : ℝ) : EReal) = Cert.Spec.bitE 1#1
    simp [Cert.Spec.bitE]

/-! ## The stretches after the fifth write none of these buffers -/

section Tail

variable (W : Valuation τ sig (Elt F))

/-- What the stretches after the fifth make of a valuation. -/
abbrev stT : Valuation τ sig (Elt F) :=
  StableHlo.after hostOps0_13 (StableHlo.after hostOps0_12 (StableHlo.after hostOps0_11 (StableHlo.after hostOps0_10
    (StableHlo.after hostOps0_9 (StableHlo.after hostOps0_8 (StableHlo.after hostOps0_7 (StableHlo.after hostOps0_6
    (StableHlo.after hostOps0_5 W))))))))

theorem T_v54 : stT W (Proc.devRef .tc main_v54) = W (Proc.devRef .tc main_v54) := by
  simp only [stT, hostOps0_5, hostOps0_6, hostOps0_7, hostOps0_8, hostOps0_9, hostOps0_10, hostOps0_11, hostOps0_12, hostOps0_13]
  after_results_simp

theorem T_v56 : stT W (Proc.devRef .tc main_v56) = W (Proc.devRef .tc main_v56) := by
  simp only [stT, hostOps0_5, hostOps0_6, hostOps0_7, hostOps0_8, hostOps0_9, hostOps0_10, hostOps0_11, hostOps0_12, hostOps0_13]
  after_results_simp

theorem T_v58 : stT W (Proc.devRef .tc main_v58) = W (Proc.devRef .tc main_v58) := by
  simp only [stT, hostOps0_5, hostOps0_6, hostOps0_7, hostOps0_8, hostOps0_9, hostOps0_10, hostOps0_11, hostOps0_12, hostOps0_13]
  after_results_simp

end Tail

/-! ## The region-entry contents -/

variable (m : (ℓ : Loc nD τ sig) → Buf (Elt F) ℓ)

/-- The region-entry contents are the fourteen stretches applied in order to the launch contents. -/
theorem V0_nested (c : Dev nD) :
    V0 m c = stT (StableHlo.after hostOps0_4 (StableHlo.after hostOps0_3 (StableHlo.after hostOps0_2
      (StableHlo.after hostOps0_1 (StableHlo.after hostOps0 (fun b => m (c, b))))))) := by
  simp only [V0, prefixOps, List.flatten_cons, List.flatten_nil, List.append_nil, StableHlo.after_append]

/-- The mask. -/
theorem V_main_v54 (c : Dev nD) (b : Fin 8) (i j : Fin 256) :
    (V m c main_v54 : IVec Cert.Spec.S8x256x256 1) (ix3 b i j)
      = Cert.Spec.maskBit (m ((c : Thread nD τ).loc main_arg0) : IVec Cert.Spec.S8x65536x2 32) b i j := by
  show (V0 m c (Proc.devRef .tc main_v54) : IVec S8x256x256 1) (ix3 b i j) = _
  rw [V0_nested, T_v54, C_v54, validAt_spec, validAt_spec]
  rfl

/-- Dimension 0's validity bits, converted to floats: 0 or 1 on the extended reals. -/
theorem V_main_v56 (m : (ℓ : Loc nD τ sig) → Buf (Elt Ideal) ℓ) (c : Dev nD) (b : Fin 8) (i : Fin 256) :
    (V m c main_v56 : FVec Ideal S8x1x256 .f32) (ix3 b (0 : Fin 1) i)
      = Cert.Spec.bitE (Cert.Spec.validBit (m ((c : Thread nD τ).loc main_arg0) : IVec Cert.Spec.S8x65536x2 32) b 0 i) := by
  show (V0 m c (Proc.devRef .tc main_v56) : FVec Ideal S8x1x256 .f32) (ix3 b (0 : Fin 1) i) = _
  rw [V0_nested, T_v56, C_v56, validAt_spec]
  exact uitofp_f32_bit _

/-- Dimension 1's validity bits, converted to floats. -/
theorem V_main_v58 (m : (ℓ : Loc nD τ sig) → Buf (Elt Ideal) ℓ) (c : Dev nD) (b : Fin 8) (i : Fin 256) :
    (V m c main_v58 : FVec Ideal S8x1x256 .f32) (ix3 b (0 : Fin 1) i)
      = Cert.Spec.bitE (Cert.Spec.validBit (m ((c : Thread nD τ).loc main_arg0) : IVec Cert.Spec.S8x65536x2 32) b 1 i) := by
  show (V0 m c (Proc.devRef .tc main_v58) : FVec Ideal S8x1x256 .f32) (ix3 b (0 : Fin 1) i) = _
  rw [V0_nested, T_v58, C_v58, validAt_spec]
  exact uitofp_f32_bit _

end Cert.KernelIdeal.Hand

end
-- ==== Proof.Bridge.lean ====
/-
  Pure algebra over the shared specification's functions: what the bin of a non-negative coordinate is, what a
  one-hot entry of that bin says, how a sum over 65536 points splits into 256 chunks of 256, and how one term of
  the kernel's product form equals the reference's term.  On the extended reals 0 * x = 0 and 1 * x = x for every
  x, infinities included, so none of this needs finiteness.
-/
import proofs.«419918_j39608188403815_2_alg».proof.Proof.Spec
import Mathlib.Data.EReal.Basic
import Mathlib.Algebra.BigOperators.Fin

noncomputable section

namespace Cert.Bridge

open Idealize.ShloMosaic

/-! ## Words: a non-negative word halves and leaves a remainder as its value does -/

/-- A word that is non-negative read signed has its top bit clear. -/
theorem msb_false_of_nonneg {x : BitVec 32} (hx : 0 ≤ x.toInt) : x.msb = false := by
  rw [BitVec.msb_eq_toInt]
  simpa using hx

/-- Such a word's value is below 2^31. -/
theorem toNat_lt_of_nonneg {x : BitVec 32} (hx : 0 ≤ x.toInt) : x.toNat < 2 ^ 31 := by
  have h := BitVec.msb_eq_false_iff_two_mul_lt.1 (msb_false_of_nonneg hx)
  omega

/-- The division by 2 meets no corner. -/
theorem not_corner_two (x : BitVec 32) : ¬ IntOp.SDivCorner x 2#32 := by
  intro hc
  rcases hc with hc | ⟨_, hc⟩ <;> exact absurd hc (by decide)

/-- The truncating remainder by 2 of a non-negative word is its value's. -/
theorem remsi_two {x : BitVec 32} (hx : 0 ≤ x.toInt) :
    IntOp.remsi .host x 2#32 = BitVec.ofNat 32 (x.toNat % 2) := by
  have hm := msb_false_of_nonneg hx
  have h2 : (2#32 : BitVec 32).msb = false := by decide
  unfold IntOp.remsi
  rw [if_neg (not_corner_two x), BitVec.srem_eq, hm, h2]
  apply BitVec.eq_of_toNat_eq
  have h2n : (2#32 : BitVec 32).toNat = 2 := rfl
  show (x % 2#32).toNat = _
  rw [BitVec.toNat_umod, h2n, BitVec.toNat_ofNat]
  omega

/-- The truncating quotient by 2 of a non-negative word is its value's. -/
theorem divsi_two {x : BitVec 32} (hx : 0 ≤ x.toInt) :
    IntOp.divsi .host x 2#32 = BitVec.ofNat 32 (x.toNat / 2) := by
  have hm := msb_false_of_nonneg hx
  have h2 : (2#32 : BitVec 32).msb = false := by decide
  unfold IntOp.divsi
  rw [if_neg (not_corner_two x), BitVec.sdiv_eq, hm, h2]
  apply BitVec.eq_of_toNat_eq
  have h2n : (2#32 : BitVec 32).toNat = 2 := rfl
  show (x / 2#32).toNat = _
  rw [BitVec.toNat_udiv, h2n, BitVec.toNat_ofNat]
  have := toNat_lt_of_nonneg hx
  omega

/-- The floor quotient by 2 of a non-negative word: the signs differ only at 0, where the remainder is 0, so no
    correction is made. -/
theorem fdivW_two {x : BitVec 32} (hx : 0 ≤ x.toInt) :
    Cert.Spec.fdivW x 2#32 = BitVec.ofNat 32 (x.toNat / 2) := by
  have hm := msb_false_of_nonneg hx
  have hc : IntOp.andi (IntOp.cmpi .ne (Cert.Spec.signW x) (Cert.Spec.signW 2#32))
      (IntOp.cmpi .ne (IntOp.remsi .host x 2#32) 0#32) = 0#1 := by
    by_cases h0 : x = 0
    · subst h0; decide
    · have hs : Cert.Spec.signW x = 1 := by
        unfold Cert.Spec.signW
        rw [if_neg h0, hm]
        rfl
      have hs2 : Cert.Spec.signW 2#32 = 1 := by decide
      rw [hs, hs2]
      generalize IntOp.cmpi .ne (IntOp.remsi .host x 2#32) 0#32 = c
      have : IntOp.cmpi .ne (1 : BitVec 32) 1 = 0#1 := by decide
      rw [this]
      revert c; decide
  unfold Cert.Spec.fdivW
  rw [hc, divsi_two hx]
  rfl

/-- The floor remainder by 2 of a non-negative word: the truncating remainder is already non-negative. -/
theorem remW_two {x : BitVec 32} (hx : 0 ≤ x.toInt) :
    Cert.Spec.remW x 2#32 = BitVec.ofNat 32 (x.toNat % 2) := by
  unfold Cert.Spec.remW
  have hy : Scalar.select (IntOp.cmpi .eq (2#32 : BitVec 32) 0#32) 1#32 2#32 = 2#32 := by decide
  simp only [hy]
  rw [remsi_two hx]
  rcases Nat.mod_two_eq_zero_or_one x.toNat with h | h <;> rw [h] <;> decide

/-- The bin of a non-negative coordinate: half its value when that is even and the half is below 256, else the
    sentinel. -/
theorem binW_nonneg {x : BitVec 32} (hx : 0 ≤ x.toInt) :
    Cert.Spec.binW x
      = if x.toNat % 2 = 0 ∧ x.toNat / 2 < 256 then BitVec.ofNat 32 (x.toNat / 2) else 4294967295#32 := by
  have hn := toNat_lt_of_nonneg hx
  have hsub : IntOp.subi x 0#32 = x := by simp [IntOp.subi]
  unfold Cert.Spec.binW
  simp only [hsub]
  rw [remW_two hx, fdivW_two hx]
  rcases Nat.mod_two_eq_zero_or_one x.toNat with h | h
  · rw [h]
    have hq : Scalar.select (IntOp.cmpi .eq (BitVec.ofNat 32 0) 0#32) (BitVec.ofNat 32 (x.toNat / 2)) 4294967295#32
        = BitVec.ofNat 32 (x.toNat / 2) := by
      have : IntOp.cmpi .eq (BitVec.ofNat 32 0) 0#32 = 1#1 := by decide
      rw [this]; rfl
    rw [hq]
    -- the half is below 2^30, so it reads the same signed and unsigned
    have hd : (BitVec.ofNat 32 (x.toNat / 2)).toNat = x.toNat / 2 := by
      rw [BitVec.toNat_ofNat]; exact Nat.mod_eq_of_lt (by omega)
    have hdm : (BitVec.ofNat 32 (x.toNat / 2)).msb = false :=
      BitVec.msb_eq_false_iff_two_mul_lt.2 (by rw [hd]; omega)
    have hdi : (BitVec.ofNat 32 (x.toNat / 2)).toInt = ((x.toNat / 2 : Nat) : Int) := by
      rw [BitVec.toInt_eq_msb_cond, hdm, hd]; simp
    have hge : IntOp.cmpi .sge (BitVec.ofNat 32 (x.toNat / 2)) 0#32 = 1#1 := by
      show BitVec.ofBool ((0#32 : BitVec 32).sle _) = 1#1
      rw [BitVec.sle, hdi, show (0#32 : BitVec 32).toInt = 0 from by decide,
        decide_eq_true (by omega : (0 : Int) ≤ ((x.toNat / 2 : Nat) : Int))]
      rfl
    have h256 : (256#32 : BitVec 32).toInt = 256 := by decide
    by_cases hlt : x.toNat / 2 < 256
    · have hl : IntOp.cmpi .slt (BitVec.ofNat 32 (x.toNat / 2)) 256#32 = 1#1 := by
        show BitVec.ofBool (BitVec.slt _ (256#32 : BitVec 32)) = 1#1
        rw [BitVec.slt, hdi, h256, decide_eq_true (by omega : ((x.toNat / 2 : Nat) : Int) < 256)]
        rfl
      rw [hge, hl, if_pos ⟨rfl, hlt⟩]
      rfl
    · have hl : IntOp.cmpi .slt (BitVec.ofNat 32 (x.toNat / 2)) 256#32 = 0#1 := by
        show BitVec.ofBool (BitVec.slt _ (256#32 : BitVec 32)) = 0#1
        rw [BitVec.slt, hdi, h256, decide_eq_false (by omega : ¬ ((x.toNat / 2 : Nat) : Int) < 256)]
        rfl
      rw [hge, hl, if_neg (fun hh => hlt hh.2)]
      rfl
  · rw [h, if_neg (fun hh => by omega)]
    -- an odd value: the inner choice is the sentinel whatever the quotient, and the sentinel is out of range
    have hq : ∀ d : BitVec 32,
        Scalar.select (IntOp.cmpi .eq (BitVec.ofNat 32 1) 0#32) d 4294967295#32 = 4294967295#32 := fun d => by
      have : IntOp.cmpi .eq (BitVec.ofNat 32 1) 0#32 = 0#1 := by decide
      rw [this]; rfl
    rw [hq]
    decide

/-- For a non-negative coordinate the bin is i exactly when the coordinate is 2 i. -/
theorem bin_hit (x : BitVec 32) (hx : 0 ≤ x.toInt) (i : Fin 256) :
    Cert.Spec.binW x = BitVec.ofNat 32 i.val ↔ x = BitVec.ofNat 32 (2 * i.val) := by
  have hn := toNat_lt_of_nonneg hx
  have hi := i.isLt
  rw [binW_nonneg hx]
  constructor
  · intro h
    by_cases hc : x.toNat % 2 = 0 ∧ x.toNat / 2 < 256
    · rw [if_pos hc] at h
      have h' := congrArg BitVec.toNat h
      simp only [BitVec.toNat_ofNat] at h'
      apply BitVec.eq_of_toNat_eq
      rw [BitVec.toNat_ofNat]
      omega
    · rw [if_neg hc] at h
      have h' := congrArg BitVec.toNat h
      simp only [BitVec.toNat_ofNat] at h'
      have : (4294967295#32 : BitVec 32).toNat = 4294967295 := by decide
      omega
  · intro h
    have h' := congrArg BitVec.toNat h
    simp only [BitVec.toNat_ofNat] at h'
    have hv : x.toNat = 2 * i.val := by omega
    rw [if_pos ⟨by omega, by omega⟩]
    congr 1
    omega

/-- The one-hot entry of a non-negative coordinate's bin at column i is 1 exactly when the coordinate is 2 i. -/
theorem ohE_bin (x : BitVec 32) (hx : 0 ≤ x.toInt) (i : Fin 256) :
    Cert.Spec.ohE (Cert.Spec.binW x) i.val = if x = BitVec.ofNat 32 (2 * i.val) then (1 : EReal) else 0 := by
  unfold Cert.Spec.ohE
  by_cases h : x = BitVec.ofNat 32 (2 * i.val)
  · rw [if_pos h, if_pos ((bin_hit x hx i).2 h)]
  · rw [if_neg h, if_neg (fun hh => h ((bin_hit x hx i).1 hh))]

/-! ## Sums -/

/-- Point k * 256 + n of 65536 is point n of chunk k. -/
def chunkEquiv : Fin 256 × Fin 256 ≃ Fin 65536 where
  toFun p := ⟨p.1.val * 256 + p.2.val, by omega⟩
  invFun n := (⟨n.val / 256, by omega⟩, ⟨n.val % 256, by omega⟩)
  left_inv p := by
    apply Prod.ext <;> apply Fin.ext <;> simp only [] <;> omega
  right_inv n := by
    apply Fin.ext; simp only []; omega

/-- A sum over 65536 points is the sum over 256 chunks of the sums over each chunk's 256 points. -/
theorem sum_chunks (f : Fin 65536 → EReal) :
    ∑ k : Fin 256, ∑ n : Fin 256, f ⟨k.val * 256 + n.val, by omega⟩ = ∑ n : Fin 65536, f n := by
  rw [← Fintype.sum_prod_type' (fun (k n : Fin 256) => f ⟨k.val * 256 + n.val, by omega⟩)]
  exact Fintype.sum_equiv chunkEquiv _ _ (fun _ => rfl)

/-- A bit read as a real is 0 or 1 as the bit is. -/
theorem bitE_zero : Cert.Spec.bitE 0#1 = 0 := by simp [Cert.Spec.bitE]
theorem bitE_one : Cert.Spec.bitE 1#1 = 1 := by simp [Cert.Spec.bitE]

/-- One term of the product form: the two one-hot entries times the two validity bits times the feature is the
    feature where the point sits on the cell (else 0), times the conjunction of the bits. -/
theorem kernel_term (x0 x1 : BitVec 32) (h0 : 0 ≤ x0.toInt) (h1 : 0 ≤ x1.toInt) (i j : Fin 256) (vi vj : BitVec 1)
    (f : EReal) :
    (Cert.Spec.ohE (Cert.Spec.binW x0) i.val * Cert.Spec.bitE vi)
        * ((Cert.Spec.ohE (Cert.Spec.binW x1) j.val * Cert.Spec.bitE vj) * f)
      = (if x0 = BitVec.ofNat 32 (2 * i.val) ∧ x1 = BitVec.ofNat 32 (2 * j.val) then f else 0)
        * Cert.Spec.bitE (IntOp.andi vi vj) := by
  rw [ohE_bin x0 h0 i, ohE_bin x1 h1 j]
  have a00 : IntOp.andi (0#1 : BitVec 1) 0#1 = 0#1 := by decide
  have a01 : IntOp.andi (0#1 : BitVec 1) 1#1 = 0#1 := by decide
  have a10 : IntOp.andi (1#1 : BitVec 1) 0#1 = 0#1 := by decide
  have a11 : IntOp.andi (1#1 : BitVec 1) 1#1 = 1#1 := by decide
  rcases BitVec.eq_zero_or_eq_one vi with rfl | rfl <;> rcases BitVec.eq_zero_or_eq_one vj with rfl | rfl <;>
    by_cases e0 : x0 = BitVec.ofNat 32 (2 * i.val) <;> by_cases e1 : x1 = BitVec.ofNat 32 (2 * j.val) <;>
    simp only [a00, a01, a10, a11, bitE_zero, bitE_one, e0, e1, if_true, if_false, and_self, and_true, and_false,
      false_and, true_and, mul_zero, zero_mul, mul_one, one_mul]

/-- A bit's 0 or 1 factors out of a sum. -/
theorem sum_mul_bit {ι : Type} [Fintype ι] (g : ι → EReal) (v : BitVec 1) :
    ∑ n, g n * Cert.Spec.bitE v = (∑ n, g n) * Cert.Spec.bitE v := by
  rcases BitVec.eq_zero_or_eq_one v with rfl | rfl
  · simp only [bitE_zero, mul_zero, Finset.sum_const_zero]
  · simp only [bitE_one, mul_one]

/-- A left fold by addition from an initial value is the initial value plus the sum of the list. -/
theorem foldl_add_eq {ι : Type} (a : ι → EReal) (l : List ι) (init : EReal) :
    l.foldl (fun r k => r + a k) init = init + (l.map a).sum := by
  induction l generalizing init with
  | nil => simp
  | cons b l ih => rw [List.foldl_cons, ih, List.map_cons, List.sum_cons, add_assoc]

/-- A left fold by addition from 0 over all of Fin n is the sum. -/
theorem foldl_add_finRange {n : Nat} (a : Fin n → EReal) :
    (List.finRange n).foldl (fun r k => r + a k) 0 = ∑ k, a k := by
  rw [foldl_add_eq, zero_add, Fin.sum_univ_def]

/-! ## The reference's index wrap and the candidate coordinates -/

/-- The reference's negative-index wrap is the identity on a non-negative coordinate. -/
theorem wrap_nonneg (x : BitVec 32) (hx : 0 ≤ x.toInt) :
    Scalar.select (IntOp.cmpi .slt x 0#32) (IntOp.addi x 512#32) x = x := by
  have hc : IntOp.cmpi .slt x 0#32 = 0#1 := by
    show BitVec.ofBool (x.slt 0#32) = 0#1
    rw [BitVec.slt, show (0#32 : BitVec 32).toInt = 0 from by decide]
    have : ¬ x.toInt < 0 := by omega
    simp [this]
  rw [hc]
  rfl

/-- The i-th candidate output coordinate is the word 2 i. -/
theorem gW_val (i : Fin 256) : Cert.Spec.gW i.val = BitVec.ofNat 32 (2 * i.val) := by
  have hi := i.isLt
  unfold Cert.Spec.gW IntOp.addi IntOp.muli
  apply BitVec.eq_of_toNat_eq
  simp only [BitVec.toNat_add, BitVec.toNat_mul, BitVec.toNat_ofNat]
  omega

/-- Read signed, it is 2 i. -/
theorem gW_toInt (i : Fin 256) : (Cert.Spec.gW i.val).toInt = 2 * i.val := by
  have hi := i.isLt
  rw [gW_val]
  have hn : (BitVec.ofNat 32 (2 * i.val)).toNat = 2 * i.val := by
    rw [BitVec.toNat_ofNat]; exact Nat.mod_eq_of_lt (by omega)
  have hm : (BitVec.ofNat 32 (2 * i.val)).msb = false :=
    BitVec.msb_eq_false_iff_two_mul_lt.2 (by rw [hn]; omega)
  rw [BitVec.toInt_eq_msb_cond, hm, hn]
  simp

end Cert.Bridge

end
-- ==== Proof.KAlgebra.lean ====
/-
  The kernel's sum in product form, chunk by chunk, is the specification's out_feats entry: each term (the two one-hot
  entries of the point's bins, each times its validity bit, times the feature) is the feature where the point sits
  exactly on the candidate cell, else 0, times the mask bit; the double sum over 256 chunks of 256 points is the sum
  over the batch's 65536 points; and the mask bit, constant in the point, comes out of the sum.
-/
import proofs.«419918_j39608188403815_2_alg».proof.Proof.Spec
import proofs.«419918_j39608188403815_2_alg».proof.Proof.Bridge

noncomputable section

namespace Cert.Bridge

open Idealize.ShloMosaic Idealize.ShloMosaic.ValueIdx

/-- Point n of chunk k is a point of the batch. -/
theorem chunk_lt (k n : Fin 256) : k.val * 256 + n.val < 65536 := by omega

/-- One term of the product form at a point of the batch: the feature where the point hits the cell, else 0, times
    the mask bit. -/
theorem point_term (coords : IVec Cert.Spec.S8x65536x2 32) (fts : FVec Ideal Cert.Spec.S8x65536x32 .f32)
    (hnn : Cert.Spec.NonNeg coords) (b : Fin 8) (i j : Fin 256) (c : Fin 32) (n : Fin 65536) :
    (Cert.Spec.ohE (Cert.Spec.binW (coords (ix3 b n (0 : Fin 2)))) i.val * Cert.Spec.bitE (Cert.Spec.validBit coords b 0 i))
        * ((Cert.Spec.ohE (Cert.Spec.binW (coords (ix3 b n (1 : Fin 2)))) j.val * Cert.Spec.bitE (Cert.Spec.validBit coords b 1 j))
          * (fts (ix3 b n c) : EReal))
      = (if Cert.Spec.Hits coords b n i j then (fts (ix3 b n c) : EReal) else 0) * Cert.Spec.bitE (Cert.Spec.maskBit coords b i j) := by
  rw [kernel_term (coords (ix3 b n (0 : Fin 2))) (coords (ix3 b n (1 : Fin 2))) (hnn _) (hnn _) i j
    (Cert.Spec.validBit coords b 0 i) (Cert.Spec.validBit coords b 1 j) (fts (ix3 b n c) : EReal)]
  unfold Cert.Spec.maskBit
  congr 1

/-- The sum over the 256 chunks of the sum over each chunk's 256 points of the product form is out_feats[b, i, j, c]. -/
theorem chunk_sum_eq_featsAt (coords : IVec Cert.Spec.S8x65536x2 32) (fts : FVec Ideal Cert.Spec.S8x65536x32 .f32)
    (hnn : Cert.Spec.NonNeg coords) (b : Fin 8) (i j : Fin 256) (c : Fin 32) :
    (∑ k : Fin 256, ∑ n : Fin 256,
      (Cert.Spec.ohE (Cert.Spec.binW (coords (ix3 b ⟨k.val * 256 + n.val, chunk_lt k n⟩ (0 : Fin 2)))) i.val * Cert.Spec.bitE (Cert.Spec.validBit coords b 0 i))
        * ((Cert.Spec.ohE (Cert.Spec.binW (coords (ix3 b ⟨k.val * 256 + n.val, chunk_lt k n⟩ (1 : Fin 2)))) j.val * Cert.Spec.bitE (Cert.Spec.validBit coords b 1 j))
          * (fts (ix3 b ⟨k.val * 256 + n.val, chunk_lt k n⟩ c) : EReal)))
      = Cert.Spec.featsAt coords fts b i j c := by
  have h := sum_chunks (fun n : Fin 65536 =>
    (Cert.Spec.ohE (Cert.Spec.binW (coords (ix3 b n (0 : Fin 2)))) i.val * Cert.Spec.bitE (Cert.Spec.validBit coords b 0 i))
        * ((Cert.Spec.ohE (Cert.Spec.binW (coords (ix3 b n (1 : Fin 2)))) j.val * Cert.Spec.bitE (Cert.Spec.validBit coords b 1 j))
          * (fts (ix3 b n c) : EReal)))
  refine h.trans ?_
  unfold Cert.Spec.featsAt
  rw [← sum_mul_bit]
  exact Finset.sum_congr rfl (fun n _ => point_term coords fts hnn b i j c n)

end Cert.Bridge

end
-- ==== Proof.KValue.lean ====
/-
  The kernel program's four results.  After its one region the output array holds, for every batch, candidate
  row and column-and-channel, the sum over all 65536 points of the batch of the product of the two masked one-hot
  entries and the point's feature; the host operations after the region reshape that array to
  [8, 256, 256, 32] and assemble the reported coordinates.  Read with the prefix's buffers this is the shared
  specification's out_feats, out_coords and mask.
-/
import proofs.«419918_j39608188403815_2_alg».proof.Proof.KAccum
import proofs.«419918_j39608188403815_2_alg».proof.Proof.KTail
import proofs.«419918_j39608188403815_2_alg».proof.Proof.KPrefixMask
import proofs.«419918_j39608188403815_2_alg».proof.Proof.KAlgebra

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The output array's closed form over arrays that are the specification's word functions of the coordinates
    (the bin indices, the two validity rows as 0 or 1) and the features: out_feats of the specification. -/
theorem outArr_spec (A : FVec Ideal S8x65536x32 .f32) (B : IVec S8x65536x2 32) (R0 R1 : FVec Ideal S8x1x256 .f32)
    (coords : IVec Cert.Spec.S8x65536x2 32) (fts : FVec Ideal Cert.Spec.S8x65536x32 .f32)
    (hnn : Cert.Spec.NonNeg coords) (b : Fin 8) (i j : Fin 256) (cc : Fin 32)
    (hA : ∀ p : Fin 65536, A (ix3 b p cc) = fts (ix3 b p cc))
    (hB : ∀ (p : Fin 65536) (d : Fin 2), B (ix3 b p d) = Cert.Spec.binW (coords (ix3 b p d)))
    (h0 : R0 (ix3 b (0 : Fin 1) i) = Cert.Spec.bitE (Cert.Spec.validBit coords b 0 i))
    (h1 : R1 (ix3 b (0 : Fin 1) j) = Cert.Spec.bitE (Cert.Spec.validBit coords b 1 j)) :
    outArr A B R0 R1 (ix3 b i ⟨j.val * 32 + cc.val, col_lt j cc⟩) = Cert.Spec.featsAt coords fts b i j cc := by
  rw [outArr_apply]
  unfold chunkSum ptTerm
  simp only [hA, hB, h0, h1]
  exact Cert.Bridge.chunk_sum_eq_featsAt coords fts hnn b i j cc

section Run

variable (m : (ℓ : Loc nD τ sig) → Buf (Elt Ideal) ℓ) (ρ : Dev nD → PrngReg)

/-- The mask buffer, as the prefix left it, is the specification's mask. -/
theorem V_mask (c : Dev nD) :
    (V m c main_v54 : IVec Cert.Spec.S8x256x256 1) = Cert.Spec.mask (m ((c.tc : Thread nD τ).loc main_arg0)) := by
  funext idx
  obtain ⟨b, i, j, rfl⟩ : ∃ (b : Fin 8) (i j : Fin 256), idx = ix3 b i j := ⟨idx 0, idx 1, idx 2, eq_ix3 idx⟩
  exact V_main_v54 m c b i j

/-- The reshaped output after the host tail is the specification's out_feats. -/
theorem tail_feats (c : Dev nD) (hnn : Cert.Spec.NonNeg (m ((c.tc : Thread nD τ).loc main_arg0))) :
    (T m (dats m) c main_v78 : FVec Ideal S8x256x256x32 .f32)
      = Cert.Spec.feats (m ((c.tc : Thread nD τ).loc main_arg0)) (m ((c.tc : Thread nD τ).loc main_arg1)) := by
  funext idx
  obtain ⟨b, i, j, cc, rfl⟩ : ∃ (b : Fin 8) (i j : Fin 256) (cc : Fin 32), idx = ix4 b i j cc :=
    ⟨idx 0, idx 1, idx 2, idx 3, eq_ix4 idx⟩
  refine (tail_v78 m (dats m) c b i j cc).trans ?_
  rw [final_v77 m c]
  exact outArr_spec (arr0 m c) (arr1 m c) (arr2 m c) (arr3 m c) (m ((c.tc : Thread nD τ).loc main_arg0))
    (m ((c.tc : Thread nD τ).loc main_arg1)) hnn b i j cc
    (fun p => congrFun (V_main_arg1 m c) (ix3 b p cc)) (fun p d => V_main_v73 m c b p d)
    (V_main_v56 m c b i) (V_main_v58 m c b j)

/-- The kernel program's run at the ideal instance: every weakly fair execution terminates with the reported
    coordinates, the mask and the scattered features at the specification's values of the launch coordinates and
    features, and the arguments unchanged. -/
theorem run_value (hnn : ∀ c : Dev nD, Cert.Spec.NonNeg (m ((c.tc : Thread nD τ).loc main_arg0))) :
    θ_run defs (onTc (τ := τ) (main (F := Ideal))) ⟨m, fun _ => 0, ρ⟩ (fun r => ∀ c : Dev nD,
      r.2.mem ((c.tc : Thread nD τ).loc main_v89) = Cert.Spec.outCoords
      ∧ r.2.mem ((c.tc : Thread nD τ).loc main_v54) = Cert.Spec.mask (m ((c.tc : Thread nD τ).loc main_arg0))
      ∧ r.2.mem ((c.tc : Thread nD τ).loc main_v78)
          = Cert.Spec.feats (m ((c.tc : Thread nD τ).loc main_arg0)) (m ((c.tc : Thread nD τ).loc main_arg1))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    have harg2 := ((h c).2 main_arg2 (Pipeline.mem_restRefs_of main_arg2 (by decide) (by decide))).trans (W_main_arg2 m (dats m) c)
    ⟨((h c).2 main_v89 (Pipeline.mem_restRefs_of main_v89 (by decide) (by decide))).trans (tail_v89 m (dats m) c),
      ((h c).2 main_v54 (Pipeline.mem_restRefs_of main_v54 (by decide) (by decide))).trans
        ((tail_v54 m (dats m) c).trans (V_mask m c)),
      ((h c).2 main_v78 (Pipeline.mem_restRefs_of main_v78 (by decide) (by decide))).trans (tail_feats m c (hnn c)),
      harg2,
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      harg2⟩) (run_main m ρ)

end Run

end Cert.KernelIdeal.Hand

end
-- ==== Proof.RefOps.lean ====
/-
  The reference program's @main as lists of its 286 host operations, one list per printed window of @main and
  their concatenation.  Where @main calls an outlined function, the function's operations stand in the call's place,
  read over that call's buffer record (and so on for the calls the function itself makes): inlining the callee, as
  the compiler does before anything runs.  A table read off the printed program; it states nothing.
-/
import proofs.«419918_j39608188403815_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 112 of 286: window `main_part0` of @main, its calls inlined. -/
abbrev ops0 : List (HloOp τ sig (Elt F)) :=
  [ StableHlo.nullary main_c (constantI S_ 32 3#32),
    StableHlo.unary main_c main_v0 (broadcastInDim S2 ![] bcast_S_S2 : (⟨S_, .i32⟩ : BufTy).Contents (Elt F) → (⟨S2, .i32⟩ : BufTy).Contents (Elt F)),
    StableHlo.nullary main_c_0 (constantI S_ 32 2#32),
    StableHlo.unary main_c_0 main_v1 (broadcastInDim S2 ![] bcast_S_S2 : (⟨S_, .i32⟩ : BufTy).Contents (Elt F) → (⟨S2, .i32⟩ : BufTy).Contents (Elt F)),
    StableHlo.nullary main_c_1 (constantI S_ 32 1#32),
    StableHlo.unary main_c_1 main_v2 (broadcastInDim S2 ![] bcast_S_S2 : (⟨S_, .i32⟩ : BufTy).Contents (Elt F) → (⟨S2, .i32⟩ : BufTy).Contents (Elt F)),
    StableHlo.nullary main_c_2 (constantI S_ 32 1#32),
    StableHlo.unary main_c_2 main_v3 (broadcastInDim S2 ![] bcast_S_S2 : (⟨S_, .i32⟩ : BufTy).Contents (Elt F) → (⟨S2, .i32⟩ : BufTy).Contents (Elt F)),
    StableHlo.nullary main_c_3 (constantI S_ 32 1#32),
    StableHlo.unary main_c_3 main_v4 (broadcastInDim S2 ![] bcast_S_S2 : (⟨S_, .i32⟩ : BufTy).Contents (Elt F) → (⟨S2, .i32⟩ : BufTy).Contents (Elt F)),
    StableHlo.binary main_v0 main_v4 main_v5 (subi : (⟨S2, .i32⟩ : BufTy).Contents (Elt F) → (⟨S2, .i32⟩ : BufTy).Contents (Elt F) → (⟨S2, .i32⟩ : BufTy).Contents (Elt F)),
    StableHlo.nullary main_c_4 (constantI S_ 32 2#32),
    StableHlo.TRef.unary (.of main_c_4 : StableHlo.TRef sig ⟨S_, .i32⟩) main_call0.v0 id,
    StableHlo.TRef.unary main_call0.v0 main_call0.v1 (broadcastInDim S2 ![] bcast_S_S2),
    StableHlo.TRef.binary (.of main_v5 : StableHlo.TRef sig ⟨S2, .i32⟩) main_call0.v1 main_call0.v2 Host.divsi,
    StableHlo.TRef.unary (.of main_v5 : StableHlo.TRef sig ⟨S2, .i32⟩) main_call0.v3 signi,
    StableHlo.TRef.unary main_call0.v0 main_call0.v4 signi,
    StableHlo.TRef.unary main_call0.v4 main_call0.v5 (broadcastInDim S2 ![] bcast_S_S2),
    StableHlo.TRef.binary main_call0.v3 main_call0.v5 main_call0.v6 (cmpi .ne),
    StableHlo.TRef.unary main_call0.v0 main_call0.v7 (broadcastInDim S2 ![] bcast_S_S2),
    StableHlo.TRef.binary (.of main_v5 : StableHlo.TRef sig ⟨S2, .i32⟩) main_call0.v7 main_call0.v8 Host.remsi,
    StableHlo.TRef.nullary main_call0.c (constantI S_ 32 0#32),
    StableHlo.TRef.unary main_call0.c main_call0.v9 (broadcastInDim S2 ![] bcast_S_S2),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2 ![] bcast_S_S2),
    StableHlo.TRef.binary main_call0.v2 main_call0.v12 main_call0.v13 subi,
    StableHlo.TRef.ternary main_call0.v11 main_call0.v13 main_call0.v2 main_call0.call0.v0 select,
    StableHlo.binary main_v2 main_v6 main_v7 (muli : (⟨S2, .i32⟩ : BufTy).Contents (Elt F) → (⟨S2, .i32⟩ : BufTy).Contents (Elt F) → (⟨S2, .i32⟩ : BufTy).Contents (Elt F)),
    StableHlo.nullary main_c_5 (constantI S_ 32 2#32),
    StableHlo.TRef.unary (.of main_c_5 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S2 ![] bcast_S_S2),
    StableHlo.TRef.binary (.of main_v0 : StableHlo.TRef sig ⟨S2, .i32⟩) main_call1.v3 main_call1.v4 Host.remsi,
    StableHlo.TRef.nullary main_call1.c_1 (constantI S_ 32 0#32),
    StableHlo.TRef.unary main_call1.c_1 main_call1.v5 (broadcastInDim S2 ![] bcast_S_S2),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S2 ![] bcast_S_S2),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S2 ![] bcast_S_S2),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S2 ![] bcast_S_S2),
    StableHlo.TRef.binary main_call1.v4 main_call1.v13 main_call1.v14 addi,
    StableHlo.TRef.ternary main_call1.v12 main_call1.v14 main_call1.v4 main_call1.v15 select,
    StableHlo.binary main_v7 main_v8 main_v9 (muli : (⟨S2, .i32⟩ : BufTy).Contents (Elt F) → (⟨S2, .i32⟩ : BufTy).Contents (Elt F) → (⟨S2, .i32⟩ : BufTy).Contents (Elt F)),
    StableHlo.nullary main_c_6 (constantI S_ 32 1#32),
    StableHlo.unary main_c_6 main_v10 (broadcastInDim S2 ![] bcast_S_S2 : (⟨S_, .i32⟩ : BufTy).Contents (Elt F) → (⟨S2, .i32⟩ : BufTy).Contents (Elt F)),
    StableHlo.binary main_v0 main_v10 main_v11 (subi : (⟨S2, .i32⟩ : BufTy).Contents (Elt F) → (⟨S2, .i32⟩ : BufTy).Contents (Elt F) → (⟨S2, .i32⟩ : BufTy).Contents (Elt F)),
    StableHlo.binary main_v2 main_v11 main_v12 (muli : (⟨S2, .i32⟩ : BufTy).Contents (Elt F) → (⟨S2, .i32⟩ : BufTy).Contents (Elt F) → (⟨S2, .i32⟩ : BufTy).Contents (Elt F)),
    StableHlo.nullary main_c_7 (constantI S_ 32 1#32),
    StableHlo.unary main_c_7 main_v13 (broadcastInDim S2 ![] bcast_S_S2 : (⟨S_, .i32⟩ : BufTy).Contents (Elt F) → (⟨S2, .i32⟩ : BufTy).Contents (Elt F)),
    StableHlo.binary main_v12 main_v13 main_v14 (addi : (⟨S2, .i32⟩ : BufTy).Contents (Elt F) → (⟨S2, .i32⟩ : BufTy).Contents (Elt F) → (⟨S2, .i32⟩ : BufTy).Contents (Elt F)),
    StableHlo.binary main_v9 main_v14 main_v15 (subi : (⟨S2, .i32⟩ : BufTy).Contents (Elt F) → (⟨S2, .i32⟩ : BufTy).Contents (Elt F) → (⟨S2, .i32⟩ : BufTy).Contents (Elt F)),
    StableHlo.nullary main_c_8 (constantI S_ 32 1#32),
    StableHlo.unary main_c_8 main_v16 (broadcastInDim S2 ![] bcast_S_S2 : (⟨S_, .i32⟩ : BufTy).Contents (Elt F) → (⟨S2, .i32⟩ : BufTy).Contents (Elt F)),
    StableHlo.binary main_v15 main_v16 main_v17 (addi : (⟨S2, .i32⟩ : BufTy).Contents (Elt F) → (⟨S2, .i32⟩ : BufTy).Contents (Elt F) → (⟨S2, .i32⟩ : BufTy).Contents (Elt F)),
    StableHlo.binary main_v9 main_v3 main_v18 (subi : (⟨S2, .i32⟩ : BufTy).Contents (Elt F) → (⟨S2, .i32⟩ : BufTy).Contents (Elt F) → (⟨S2, .i32⟩ : BufTy).Contents (Elt F)),
    StableHlo.binary main_v9 main_v3 main_v19 (addi : (⟨S2, .i32⟩ : BufTy).Contents (Elt F) → (⟨S2, .i32⟩ : BufTy).Contents (Elt F) → (⟨S2, .i32⟩ : BufTy).Contents (Elt F)),
    StableHlo.binary main_v19 main_v14 main_v20 (subi : (⟨S2, .i32⟩ : BufTy).Contents (Elt F) → (⟨S2, .i32⟩ : BufTy).Contents (Elt F) → (⟨S2, .i32⟩ : BufTy).Contents (Elt F)),
    StableHlo.nullary main_c_9 (constantI S_ 32 2#32),
    StableHlo.unary main_c_9 main_v21 (broadcastInDim S2 ![] bcast_S_S2 : (⟨S_, .i32⟩ : BufTy).Contents (Elt F) → (⟨S2, .i32⟩ : BufTy).Contents (Elt F)),
    StableHlo.binary main_v20 main_v21 main_v22 (addi : (⟨S2, .i32⟩ : BufTy).Contents (Elt F) → (⟨S2, .i32⟩ : BufTy).Contents (Elt F) → (⟨S2, .i32⟩ : BufTy).Contents (Elt F)),
    StableHlo.reshape main_arg0 main_v23 rfl shapeCasts_S8x65536x2_S524288x2,
    StableHlo.nullary main_c_10 (constantI S_ 32 2147483648#32),
    StableHlo.binary main_v23 main_c_10 main_v24 ((fun x v => Host.reduce IntOp.maxsi x v reducesTo_S524288x2_S2_d0 h_S_) : (⟨S524288x2, .i32⟩ : BufTy).Contents (Elt F) → (⟨S_, .i32⟩ : BufTy).Contents (Elt F) → (⟨S2, .i32⟩ : BufTy).Contents (Elt F)),
    StableHlo.binary main_v24 main_v22 main_v25 (addi : (⟨S2, .i32⟩ : BufTy).Contents (Elt F) → (⟨S2, .i32⟩ : BufTy).Contents (Elt F) → (⟨S2, .i32⟩ : BufTy).Contents (Elt F)),
    StableHlo.nullary main_c_11 (constantI S_ 32 2147483647#32),
    StableHlo.binary main_arg0 main_c_11 main_v26 ((fun x v => Host.reduce IntOp.minsi x v reducesTo_S8x65536x2_S8x2_d1 h_S_) : (⟨S8x65536x2, .i32⟩ : BufTy).Contents (Elt F) → (⟨S_, .i32⟩ : BufTy).Contents (Elt F) → (⟨S8x2, .i32⟩ : BufTy).Contents (Elt F)),
    StableHlo.nullary main_c_12 (constantI S_ 32 2147483648#32),
    StableHlo.binary main_arg0 main_c_12 main_v27 ((fun x v => Host.reduce IntOp.maxsi x v reducesTo_S8x65536x2_S8x2_d1 h_S_) : (⟨S8x65536x2, .i32⟩ : BufTy).Contents (Elt F) → (⟨S_, .i32⟩ : BufTy).Contents (Elt F) → (⟨S8x2, .i32⟩ : BufTy).Contents (Elt F)),
    StableHlo.unary main_v17 main_v28 (broadcastInDim S1x2 ![1] bcast_S2_S1x2_1 : (⟨S2, .i32⟩ : BufTy).Contents (Elt F) → (⟨S1x2, .i32⟩ : BufTy).Contents (Elt F)),
    StableHlo.unary main_v28 main_v29 (broadcastInDim S8x2 ![0, 1] bcast_S1x2_S8x2_0_1 : (⟨S1x2, .i32⟩ : BufTy).Contents (Elt F) → (⟨S8x2, .i32⟩ : BufTy).Contents (Elt F)),
    StableHlo.binary main_v26 main_v29 main_v30 (addi : (⟨S8x2, .i32⟩ : BufTy).Contents (Elt F) → (⟨S8x2, .i32⟩ : BufTy).Contents (Elt F) → (⟨S8x2, .i32⟩ : BufTy).Contents (Elt F)),
    StableHlo.unary main_v18 main_v31 (broadcastInDim S1x2 ![1] bcast_S2_S1x2_1 : (⟨S2, .i32⟩ : BufTy).Contents (Elt F) → (⟨S1x2, .i32⟩ : BufTy).Contents (Elt F)),
    StableHlo.unary main_v31 main_v32 (broadcastInDim S8x2 ![0, 1] bcast_S1x2_S8x2_0_1 : (⟨S1x2, .i32⟩ : BufTy).Contents (Elt F) → (⟨S8x2, .i32⟩ : BufTy).Contents (Elt F)),
    StableHlo.binary main_v30 main_v32 main_v33 (subi : (⟨S8x2, .i32⟩ : BufTy).Contents (Elt F) → (⟨S8x2, .i32⟩ : BufTy).Contents (Elt F) → (⟨S8x2, .i32⟩ : BufTy).Contents (Elt F)),
    StableHlo.TRef.unary (.of main_v1 : StableHlo.TRef sig ⟨S2, .i32⟩) main_call2.v0 (broadcastInDim S1x2 ![1] bcast_S2_S1x2_1),
    StableHlo.TRef.unary main_call2.v0 main_call2.v1 (broadcastInDim S8x2 ![0, 1] bcast_S1x2_S8x2_0_1),
    StableHlo.TRef.binary (.of main_v33 : StableHlo.TRef sig ⟨S8x2, .i32⟩) main_call2.v1 main_call2.v2 Host.divsi,
    StableHlo.TRef.unary (.of main_v33 : StableHlo.TRef sig ⟨S8x2, .i32⟩) main_call2.v3 signi,
    StableHlo.TRef.unary main_call2.v0 main_call2.v4 signi,
    StableHlo.TRef.unary main_call2.v4 main_call2.v5 (broadcastInDim S8x2 ![0, 1] bcast_S1x2_S8x2_0_1),
    StableHlo.TRef.binary main_call2.v3 main_call2.v5 main_call2.v6 (cmpi .ne),
    StableHlo.TRef.unary main_call2.v0 main_call2.v7 (broadcastInDim S8x2 ![0, 1] bcast_S1x2_S8x2_0_1),
    StableHlo.TRef.binary (.of main_v33 : StableHlo.TRef sig ⟨S8x2, .i32⟩) main_call2.v7 main_call2.v8 Host.remsi,
    StableHlo.TRef.nullary main_call2.c (constantI S_ 32 0#32),
    StableHlo.TRef.unary main_call2.c main_call2.v9 (broadcastInDim S8x2 ![] bcast_S_S8x2),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S8x2 ![] bcast_S_S8x2),
    StableHlo.TRef.binary main_call2.v2 main_call2.v12 main_call2.v13 subi,
    StableHlo.TRef.ternary main_call2.v11 main_call2.v13 main_call2.v2 main_call2.call0.v0 select,
    StableHlo.unary main_v1 main_v35 (broadcastInDim S1x2 ![1] bcast_S2_S1x2_1 : (⟨S2, .i32⟩ : BufTy).Contents (Elt F) → (⟨S1x2, .i32⟩ : BufTy).Contents (Elt F)),
    StableHlo.unary main_v35 main_v36 (broadcastInDim S8x2 ![0, 1] bcast_S1x2_S8x2_0_1 : (⟨S1x2, .i32⟩ : BufTy).Contents (Elt F) → (⟨S8x2, .i32⟩ : BufTy).Contents (Elt F)),
    StableHlo.binary main_v34 main_v36 main_v37 (muli : (⟨S8x2, .i32⟩ : BufTy).Contents (Elt F) → (⟨S8x2, .i32⟩ : BufTy).Contents (Elt F) → (⟨S8x2, .i32⟩ : BufTy).Contents (Elt F)),
    StableHlo.unary main_v18 main_v38 (broadcastInDim S1x2 ![1] bcast_S2_S1x2_1 : (⟨S2, .i32⟩ : BufTy).Contents (Elt F) → (⟨S1x2, .i32⟩ : BufTy).Contents (Elt F)),
    StableHlo.unary main_v38 main_v39 (broadcastInDim S8x2 ![0, 1] bcast_S1x2_S8x2_0_1 : (⟨S1x2, .i32⟩ : BufTy).Contents (Elt F) → (⟨S8x2, .i32⟩ : BufTy).Contents (Elt F)),
    StableHlo.binary main_v37 main_v39 main_v40 (addi : (⟨S8x2, .i32⟩ : BufTy).Contents (Elt F) → (⟨S8x2, .i32⟩ : BufTy).Contents (Elt F) → (⟨S8x2, .i32⟩ : BufTy).Contents (Elt F)),
    StableHlo.unary main_v18 main_v41 (broadcastInDim S1x2 ![1] bcast_S2_S1x2_1 : (⟨S2, .i32⟩ : BufTy).Contents (Elt F) → (⟨S1x2, .i32⟩ : BufTy).Contents (Elt F)),
    StableHlo.unary main_v41 main_v42 (broadcastInDim S8x2 ![0, 1] bcast_S1x2_S8x2_0_1 : (⟨S1x2, .i32⟩ : BufTy).Contents (Elt F) → (⟨S8x2, .i32⟩ : BufTy).Contents (Elt F)),
    StableHlo.binary main_v42 main_v40 main_v43 (maxsi : (⟨S8x2, .i32⟩ : BufTy).Contents (Elt F) → (⟨S8x2, .i32⟩ : BufTy).Contents (Elt F) → (⟨S8x2, .i32⟩ : BufTy).Contents (Elt F)),
    StableHlo.unary main_v9 main_v44 (broadcastInDim S1x2 ![1] bcast_S2_S1x2_1 : (⟨S2, .i32⟩ : BufTy).Contents (Elt F) → (⟨S1x2, .i32⟩ : BufTy).Contents (Elt F)),
    StableHlo.unary main_v44 main_v45 (broadcastInDim S8x2 ![0, 1] bcast_S1x2_S8x2_0_1 : (⟨S1x2, .i32⟩ : BufTy).Contents (Elt F) → (⟨S8x2, .i32⟩ : BufTy).Contents (Elt F)) ]

/-- Operations 113 … 198 of 286: window `main_part1` of @main, its calls inlined. -/
abbrev ops1 : List (HloOp τ sig (Elt F)) :=
  [ StableHlo.binary main_v27 main_v45 main_v46 (addi : (⟨S8x2, .i32⟩ : BufTy).Contents (Elt F) → (⟨S8x2, .i32⟩ : BufTy).Contents (Elt F) → (⟨S8x2, .i32⟩ : BufTy).Contents (Elt F)),
    StableHlo.unary main_v18 main_v47 (broadcastInDim S1x2 ![1] bcast_S2_S1x2_1 : (⟨S2, .i32⟩ : BufTy).Contents (Elt F) → (⟨S1x2, .i32⟩ : BufTy).Contents (Elt F)),
    StableHlo.unary main_v47 main_v48 (broadcastInDim S8x2 ![0, 1] bcast_S1x2_S8x2_0_1 : (⟨S1x2, .i32⟩ : BufTy).Contents (Elt F) → (⟨S8x2, .i32⟩ : BufTy).Contents (Elt F)),
    StableHlo.binary main_v46 main_v48 main_v49 (subi : (⟨S8x2, .i32⟩ : BufTy).Contents (Elt F) → (⟨S8x2, .i32⟩ : BufTy).Contents (Elt F) → (⟨S8x2, .i32⟩ : BufTy).Contents (Elt F)),
    StableHlo.TRef.unary (.of main_v1 : StableHlo.TRef sig ⟨S2, .i32⟩) main_call3.v0 (broadcastInDim S1x2 ![1] bcast_S2_S1x2_1),
    StableHlo.TRef.unary main_call3.v0 main_call3.v1 (broadcastInDim S8x2 ![0, 1] bcast_S1x2_S8x2_0_1),
    StableHlo.TRef.binary (.of main_v49 : StableHlo.TRef sig ⟨S8x2, .i32⟩) main_call3.v1 main_call3.v2 Host.divsi,
    StableHlo.TRef.unary (.of main_v49 : StableHlo.TRef sig ⟨S8x2, .i32⟩) main_call3.v3 signi,
    StableHlo.TRef.unary main_call3.v0 main_call3.v4 signi,
    StableHlo.TRef.unary main_call3.v4 main_call3.v5 (broadcastInDim S8x2 ![0, 1] bcast_S1x2_S8x2_0_1),
    StableHlo.TRef.binary main_call3.v3 main_call3.v5 main_call3.v6 (cmpi .ne),
    StableHlo.TRef.unary main_call3.v0 main_call3.v7 (broadcastInDim S8x2 ![0, 1] bcast_S1x2_S8x2_0_1),
    StableHlo.TRef.binary (.of main_v49 : StableHlo.TRef sig ⟨S8x2, .i32⟩) main_call3.v7 main_call3.v8 Host.remsi,
    StableHlo.TRef.nullary main_call3.c (constantI S_ 32 0#32),
    StableHlo.TRef.unary main_call3.c main_call3.v9 (broadcastInDim S8x2 ![] bcast_S_S8x2),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S8x2 ![] bcast_S_S8x2),
    StableHlo.TRef.binary main_call3.v2 main_call3.v12 main_call3.v13 subi,
    StableHlo.TRef.ternary main_call3.v11 main_call3.v13 main_call3.v2 main_call3.call0.v0 select,
    StableHlo.nullary main_c_13 (constantI S_ 32 1#32),
    StableHlo.unary main_c_13 main_v51 (broadcastInDim S8x2 ![] bcast_S_S8x2 : (⟨S_, .i32⟩ : BufTy).Contents (Elt F) → (⟨S8x2, .i32⟩ : BufTy).Contents (Elt F)),
    StableHlo.binary main_v50 main_v51 main_v52 (addi : (⟨S8x2, .i32⟩ : BufTy).Contents (Elt F) → (⟨S8x2, .i32⟩ : BufTy).Contents (Elt F) → (⟨S8x2, .i32⟩ : BufTy).Contents (Elt F)),
    StableHlo.unary main_v1 main_v53 (broadcastInDim S1x2 ![1] bcast_S2_S1x2_1 : (⟨S2, .i32⟩ : BufTy).Contents (Elt F) → (⟨S1x2, .i32⟩ : BufTy).Contents (Elt F)),
    StableHlo.unary main_v53 main_v54 (broadcastInDim S8x2 ![0, 1] bcast_S1x2_S8x2_0_1 : (⟨S1x2, .i32⟩ : BufTy).Contents (Elt F) → (⟨S8x2, .i32⟩ : BufTy).Contents (Elt F)),
    StableHlo.binary main_v52 main_v54 main_v55 (muli : (⟨S8x2, .i32⟩ : BufTy).Contents (Elt F) → (⟨S8x2, .i32⟩ : BufTy).Contents (Elt F) → (⟨S8x2, .i32⟩ : BufTy).Contents (Elt F)),
    StableHlo.unary main_v18 main_v56 (broadcastInDim S1x2 ![1] bcast_S2_S1x2_1 : (⟨S2, .i32⟩ : BufTy).Contents (Elt F) → (⟨S1x2, .i32⟩ : BufTy).Contents (Elt F)),
    StableHlo.unary main_v56 main_v57 (broadcastInDim S8x2 ![0, 1] bcast_S1x2_S8x2_0_1 : (⟨S1x2, .i32⟩ : BufTy).Contents (Elt F) → (⟨S8x2, .i32⟩ : BufTy).Contents (Elt F)),
    StableHlo.binary main_v55 main_v57 main_v58 (addi : (⟨S8x2, .i32⟩ : BufTy).Contents (Elt F) → (⟨S8x2, .i32⟩ : BufTy).Contents (Elt F) → (⟨S8x2, .i32⟩ : BufTy).Contents (Elt F)),
    StableHlo.unary main_v25 main_v59 (broadcastInDim S1x2 ![1] bcast_S2_S1x2_1 : (⟨S2, .i32⟩ : BufTy).Contents (Elt F) → (⟨S1x2, .i32⟩ : BufTy).Contents (Elt F)),
    StableHlo.unary main_v59 main_v60 (broadcastInDim S8x2 ![0, 1] bcast_S1x2_S8x2_0_1 : (⟨S1x2, .i32⟩ : BufTy).Contents (Elt F) → (⟨S8x2, .i32⟩ : BufTy).Contents (Elt F)),
    StableHlo.binary main_v60 main_v58 main_v61 (minsi : (⟨S8x2, .i32⟩ : BufTy).Contents (Elt F) → (⟨S8x2, .i32⟩ : BufTy).Contents (Elt F) → (⟨S8x2, .i32⟩ : BufTy).Contents (Elt F)),
    StableHlo.unary main_v18 main_v62 (broadcastInDim S1x2 ![1] bcast_S2_S1x2_1 : (⟨S2, .i32⟩ : BufTy).Contents (Elt F) → (⟨S1x2, .i32⟩ : BufTy).Contents (Elt F)),
    StableHlo.nullary main_v63 (iotaInDim S256 32 0),
    StableHlo.unary main_v63 main_v64 (broadcastInDim S256x1 ![0] bcast_S256_S256x1_0 : (⟨S256, .i32⟩ : BufTy).Contents (Elt F) → (⟨S256x1, .i32⟩ : BufTy).Contents (Elt F)),
    StableHlo.unary main_v1 main_v65 (broadcastInDim S1x2 ![1] bcast_S2_S1x2_1 : (⟨S2, .i32⟩ : BufTy).Contents (Elt F) → (⟨S1x2, .i32⟩ : BufTy).Contents (Elt F)),
    StableHlo.unary main_v64 main_v66 (broadcastInDim S256x2 ![0, 1] bcast_S256x1_S256x2_0_1 : (⟨S256x1, .i32⟩ : BufTy).Contents (Elt F) → (⟨S256x2, .i32⟩ : BufTy).Contents (Elt F)),
    StableHlo.unary main_v65 main_v67 (broadcastInDim S256x2 ![0, 1] bcast_S1x2_S256x2_0_1 : (⟨S1x2, .i32⟩ : BufTy).Contents (Elt F) → (⟨S256x2, .i32⟩ : BufTy).Contents (Elt F)),
    StableHlo.binary main_v66 main_v67 main_v68 (muli : (⟨S256x2, .i32⟩ : BufTy).Contents (Elt F) → (⟨S256x2, .i32⟩ : BufTy).Contents (Elt F) → (⟨S256x2, .i32⟩ : BufTy).Contents (Elt F)),
    StableHlo.unary main_v62 main_v69 (broadcastInDim S256x2 ![0, 1] bcast_S1x2_S256x2_0_1 : (⟨S1x2, .i32⟩ : BufTy).Contents (Elt F) → (⟨S256x2, .i32⟩ : BufTy).Contents (Elt F)),
    StableHlo.binary main_v69 main_v68 main_v70 (addi : (⟨S256x2, .i32⟩ : BufTy).Contents (Elt F) → (⟨S256x2, .i32⟩ : BufTy).Contents (Elt F) → (⟨S256x2, .i32⟩ : BufTy).Contents (Elt F)),
    StableHlo.unary main_v70 main_v71 (broadcastInDim S1x256x2 ![1, 2] bcast_S256x2_S1x256x2_1_2 : (⟨S256x2, .i32⟩ : BufTy).Contents (Elt F) → (⟨S1x256x2, .i32⟩ : BufTy).Contents (Elt F)),
    StableHlo.unary main_v43 main_v72 (broadcastInDim S8x1x2 ![0, 2] bcast_S8x2_S8x1x2_0_2 : (⟨S8x2, .i32⟩ : BufTy).Contents (Elt F) → (⟨S8x1x2, .i32⟩ : BufTy).Contents (Elt F)),
    StableHlo.unary main_v71 main_v73 (broadcastInDim S8x256x2 ![0, 1, 2] bcast_S1x256x2_S8x256x2_0_1_2 : (⟨S1x256x2, .i32⟩ : BufTy).Contents (Elt F) → (⟨S8x256x2, .i32⟩ : BufTy).Contents (Elt F)),
    StableHlo.unary main_v72 main_v74 (broadcastInDim S8x256x2 ![0, 1, 2] bcast_S8x1x2_S8x256x2_0_1_2 : (⟨S8x1x2, .i32⟩ : BufTy).Contents (Elt F) → (⟨S8x256x2, .i32⟩ : BufTy).Contents (Elt F)),
    StableHlo.binary main_v73 main_v74 main_v75 (cmpi .sge : (⟨S8x256x2, .i32⟩ : BufTy).Contents (Elt F) → (⟨S8x256x2, .i32⟩ : BufTy).Contents (Elt F) → (⟨S8x256x2, .i1⟩ : BufTy).Contents (Elt F)),
    StableHlo.unary main_v70 main_v76 (broadcastInDim S1x256x2 ![1, 2] bcast_S256x2_S1x256x2_1_2 : (⟨S256x2, .i32⟩ : BufTy).Contents (Elt F) → (⟨S1x256x2, .i32⟩ : BufTy).Contents (Elt F)),
    StableHlo.unary main_v61 main_v77 (broadcastInDim S8x1x2 ![0, 2] bcast_S8x2_S8x1x2_0_2 : (⟨S8x2, .i32⟩ : BufTy).Contents (Elt F) → (⟨S8x1x2, .i32⟩ : BufTy).Contents (Elt F)),
    StableHlo.unary main_v76 main_v78 (broadcastInDim S8x256x2 ![0, 1, 2] bcast_S1x256x2_S8x256x2_0_1_2 : (⟨S1x256x2, .i32⟩ : BufTy).Contents (Elt F) → (⟨S8x256x2, .i32⟩ : BufTy).Contents (Elt F)),
    StableHlo.unary main_v77 main_v79 (broadcastInDim S8x256x2 ![0, 1, 2] bcast_S8x1x2_S8x256x2_0_1_2 : (⟨S8x1x2, .i32⟩ : BufTy).Contents (Elt F) → (⟨S8x256x2, .i32⟩ : BufTy).Contents (Elt F)),
    StableHlo.binary main_v78 main_v79 main_v80 (cmpi .slt : (⟨S8x256x2, .i32⟩ : BufTy).Contents (Elt F) → (⟨S8x256x2, .i32⟩ : BufTy).Contents (Elt F) → (⟨S8x256x2, .i1⟩ : BufTy).Contents (Elt F)),
    StableHlo.binary main_v75 main_v80 main_v81 (andi : (⟨S8x256x2, .i1⟩ : BufTy).Contents (Elt F) → (⟨S8x256x2, .i1⟩ : BufTy).Contents (Elt F) → (⟨S8x256x2, .i1⟩ : BufTy).Contents (Elt F)),
    StableHlo.unary main_v81 main_v82 ((extractStridedSlice S8x256x1 ![0, 0, 0] · slices_S8x256x2_S8x256x1_0_0_0) : (⟨S8x256x2, .i1⟩ : BufTy).Contents (Elt F) → (⟨S8x256x1, .i1⟩ : BufTy).Contents (Elt F)),
    StableHlo.reshape main_v82 main_v83 rfl shapeCasts_S8x256x1_S8x256,
    StableHlo.unary main_v83 main_v84 (broadcastInDim S8x256x1 ![0, 1] bcast_S8x256_S8x256x1_0_1 : (⟨S8x256, .i1⟩ : BufTy).Contents (Elt F) → (⟨S8x256x1, .i1⟩ : BufTy).Contents (Elt F)),
    StableHlo.unary main_v81 main_v85 ((extractStridedSlice S8x256x1 ![0, 0, 1] · slices_S8x256x2_S8x256x1_0_0_1) : (⟨S8x256x2, .i1⟩ : BufTy).Contents (Elt F) → (⟨S8x256x1, .i1⟩ : BufTy).Contents (Elt F)),
    StableHlo.reshape main_v85 main_v86 rfl shapeCasts_S8x256x1_S8x256,
    StableHlo.unary main_v86 main_v87 (broadcastInDim S8x1x256 ![0, 2] bcast_S8x256_S8x1x256_0_2 : (⟨S8x256, .i1⟩ : BufTy).Contents (Elt F) → (⟨S8x1x256, .i1⟩ : BufTy).Contents (Elt F)),
    StableHlo.unary main_v84 main_v88 (broadcastInDim S8x256x256 ![0, 1, 2] bcast_S8x256x1_S8x256x256_0_1_2 : (⟨S8x256x1, .i1⟩ : BufTy).Contents (Elt F) → (⟨S8x256x256, .i1⟩ : BufTy).Contents (Elt F)),
    StableHlo.unary main_v87 main_v89 (broadcastInDim S8x256x256 ![0, 1, 2] bcast_S8x1x256_S8x256x256_0_1_2 : (⟨S8x1x256, .i1⟩ : BufTy).Contents (Elt F) → (⟨S8x256x256, .i1⟩ : BufTy).Contents (Elt F)),
    StableHlo.binary main_v88 main_v89 main_v90 (andi : (⟨S8x256x256, .i1⟩ : BufTy).Contents (Elt F) → (⟨S8x256x256, .i1⟩ : BufTy).Contents (Elt F) → (⟨S8x256x256, .i1⟩ : BufTy).Contents (Elt F)),
    StableHlo.unary main_v70 main_v91 ((extractStridedSlice S256x1 ![0, 0] · slices_S256x2_S256x1_0_0) : (⟨S256x2, .i32⟩ : BufTy).Contents (Elt F) → (⟨S256x1, .i32⟩ : BufTy).Contents (Elt F)),
    StableHlo.reshape main_v91 main_v92 rfl shapeCasts_S256x1_S256,
    StableHlo.nullary main_c_14 (constantI S_ 32 0#32),
    StableHlo.nullary main_c_15 (constantI S_ 32 511#32),
    StableHlo.TRef.unary (.of main_c_14 : StableHlo.TRef sig ⟨S_, .i32⟩) main_call4.v0 id,
    StableHlo.TRef.unary main_call4.v0 main_call4.v1 (broadcastInDim S256 ![] bcast_S_S256),
    StableHlo.TRef.binary main_call4.v1 (.of main_v92 : StableHlo.TRef sig ⟨S256, .i32⟩) main_call4.v2 maxsi,
    StableHlo.TRef.unary (.of main_c_15 : StableHlo.TRef sig ⟨S_, .i32⟩) main_call4.v3 id,
    StableHlo.TRef.unary main_call4.v3 main_call4.v4 (broadcastInDim S256 ![] bcast_S_S256),
    StableHlo.TRef.binary main_call4.v4 main_call4.v2 main_call4.v5 minsi,
    StableHlo.unary main_v70 main_v94 ((extractStridedSlice S256x1 ![0, 1] · slices_S256x2_S256x1_0_1) : (⟨S256x2, .i32⟩ : BufTy).Contents (Elt F) → (⟨S256x1, .i32⟩ : BufTy).Contents (Elt F)),
    StableHlo.reshape main_v94 main_v95 rfl shapeCasts_S256x1_S256,
    StableHlo.nullary main_c_16 (constantI S_ 32 0#32),
    StableHlo.nullary main_c_17 (constantI S_ 32 511#32),
    StableHlo.TRef.unary (.of main_c_16 : StableHlo.TRef sig ⟨S_, .i32⟩) main_call5.v0 id,
    StableHlo.TRef.unary main_call5.v0 main_call5.v1 (broadcastInDim S256 ![] bcast_S_S256),
    StableHlo.TRef.binary main_call5.v1 (.of main_v95 : StableHlo.TRef sig ⟨S256, .i32⟩) main_call5.v2 maxsi,
    StableHlo.TRef.unary (.of main_c_17 : StableHlo.TRef sig ⟨S_, .i32⟩) main_call5.v3 id,
    StableHlo.TRef.unary main_call5.v3 main_call5.v4 (broadcastInDim S256 ![] bcast_S_S256),
    StableHlo.TRef.binary main_call5.v4 main_call5.v2 main_call5.v5 minsi,
    StableHlo.nullary main_v97 (iotaInDim S8 32 0),
    StableHlo.unary main_v97 main_v98 (broadcastInDim S8x1 ![0] bcast_S8_S8x1_0 : (⟨S8, .i32⟩ : BufTy).Contents (Elt F) → (⟨S8x1, .i32⟩ : BufTy).Contents (Elt F)),
    StableHlo.unary main_v98 main_v99 (broadcastInDim S8x65536 ![0, 1] bcast_S8x1_S8x65536_0_1 : (⟨S8x1, .i32⟩ : BufTy).Contents (Elt F) → (⟨S8x65536, .i32⟩ : BufTy).Contents (Elt F)),
    StableHlo.nullary main_cst (constant S_ .f32 0x00000000#32) ]

/-- Operations 199 … 273 of 286: window `main_part2` of @main, its calls inlined. -/
abbrev ops2 : List (HloOp τ sig (Elt F)) :=
  [ StableHlo.unary main_cst main_v100 (broadcastInDim S8x512x512x32 ![] bcast_S_S8x512x512x32 : (⟨S_, .f32⟩ : BufTy).Contents (Elt F) → (⟨S8x512x512x32, .f32⟩ : BufTy).Contents (Elt F)),
    StableHlo.unary main_arg0 main_v101 ((extractStridedSlice S8x65536x1 ![0, 0, 0] · slices_S8x65536x2_S8x65536x1_0_0_0) : (⟨S8x65536x2, .i32⟩ : BufTy).Contents (Elt F) → (⟨S8x65536x1, .i32⟩ : BufTy).Contents (Elt F)),
    StableHlo.reshape main_v101 main_v102 rfl shapeCasts_S8x65536x1_S8x65536,
    StableHlo.unary main_arg0 main_v103 ((extractStridedSlice S8x65536x1 ![0, 0, 1] · slices_S8x65536x2_S8x65536x1_0_0_1) : (⟨S8x65536x2, .i32⟩ : BufTy).Contents (Elt F) → (⟨S8x65536x1, .i32⟩ : BufTy).Contents (Elt F)),
    StableHlo.reshape main_v103 main_v104 rfl shapeCasts_S8x65536x1_S8x65536,
    StableHlo.nullary main_c_18 (constantI S_ 32 0#32),
    StableHlo.unary main_c_18 main_v105 (broadcastInDim S8x65536 ![] bcast_S_S8x65536 : (⟨S_, .i32⟩ : BufTy).Contents (Elt F) → (⟨S8x65536, .i32⟩ : BufTy).Contents (Elt F)),
    StableHlo.binary main_v99 main_v105 main_v106 (cmpi .slt : (⟨S8x65536, .i32⟩ : BufTy).Contents (Elt F) → (⟨S8x65536, .i32⟩ : BufTy).Contents (Elt F) → (⟨S8x65536, .i1⟩ : BufTy).Contents (Elt F)),
    StableHlo.nullary main_c_19 (constantI S_ 32 8#32),
    StableHlo.unary main_c_19 main_v107 (broadcastInDim S8x65536 ![] bcast_S_S8x65536 : (⟨S_, .i32⟩ : BufTy).Contents (Elt F) → (⟨S8x65536, .i32⟩ : BufTy).Contents (Elt F)),
    StableHlo.binary main_v99 main_v107 main_v108 (addi : (⟨S8x65536, .i32⟩ : BufTy).Contents (Elt F) → (⟨S8x65536, .i32⟩ : BufTy).Contents (Elt F) → (⟨S8x65536, .i32⟩ : BufTy).Contents (Elt F)),
    StableHlo.ternary main_v106 main_v108 main_v99 main_v109 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    StableHlo.nullary main_c_20 (constantI S_ 32 0#32),
    StableHlo.unary main_c_20 main_v110 (broadcastInDim S8x65536 ![] bcast_S_S8x65536 : (⟨S_, .i32⟩ : BufTy).Contents (Elt F) → (⟨S8x65536, .i32⟩ : BufTy).Contents (Elt F)),
    StableHlo.binary main_v102 main_v110 main_v111 (cmpi .slt : (⟨S8x65536, .i32⟩ : BufTy).Contents (Elt F) → (⟨S8x65536, .i32⟩ : BufTy).Contents (Elt F) → (⟨S8x65536, .i1⟩ : BufTy).Contents (Elt F)),
    StableHlo.nullary main_c_21 (constantI S_ 32 512#32),
    StableHlo.unary main_c_21 main_v112 (broadcastInDim S8x65536 ![] bcast_S_S8x65536 : (⟨S_, .i32⟩ : BufTy).Contents (Elt F) → (⟨S8x65536, .i32⟩ : BufTy).Contents (Elt F)),
    StableHlo.binary main_v102 main_v112 main_v113 (addi : (⟨S8x65536, .i32⟩ : BufTy).Contents (Elt F) → (⟨S8x65536, .i32⟩ : BufTy).Contents (Elt F) → (⟨S8x65536, .i32⟩ : BufTy).Contents (Elt F)),
    StableHlo.ternary main_v111 main_v113 main_v102 main_v114 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    StableHlo.nullary main_c_22 (constantI S_ 32 0#32),
    StableHlo.unary main_c_22 main_v115 (broadcastInDim S8x65536 ![] bcast_S_S8x65536 : (⟨S_, .i32⟩ : BufTy).Contents (Elt F) → (⟨S8x65536, .i32⟩ : BufTy).Contents (Elt F)),
    StableHlo.binary main_v104 main_v115 main_v116 (cmpi .slt : (⟨S8x65536, .i32⟩ : BufTy).Contents (Elt F) → (⟨S8x65536, .i32⟩ : BufTy).Contents (Elt F) → (⟨S8x65536, .i1⟩ : BufTy).Contents (Elt F)),
    StableHlo.nullary main_c_23 (constantI S_ 32 512#32),
    StableHlo.unary main_c_23 main_v117 (broadcastInDim S8x65536 ![] bcast_S_S8x65536 : (⟨S_, .i32⟩ : BufTy).Contents (Elt F) → (⟨S8x65536, .i32⟩ : BufTy).Contents (Elt F)),
    StableHlo.binary main_v104 main_v117 main_v118 (addi : (⟨S8x65536, .i32⟩ : BufTy).Contents (Elt F) → (⟨S8x65536, .i32⟩ : BufTy).Contents (Elt F) → (⟨S8x65536, .i32⟩ : BufTy).Contents (Elt F)),
    StableHlo.ternary main_v116 main_v118 main_v104 main_v119 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    StableHlo.unary main_v109 main_v120 (broadcastInDim S8x65536x1 ![0, 1] bcast_S8x65536_S8x65536x1_0_1 : (⟨S8x65536, .i32⟩ : BufTy).Contents (Elt F) → (⟨S8x65536x1, .i32⟩ : BufTy).Contents (Elt F)),
    StableHlo.unary main_v114 main_v121 (broadcastInDim S8x65536x1 ![0, 1] bcast_S8x65536_S8x65536x1_0_1 : (⟨S8x65536, .i32⟩ : BufTy).Contents (Elt F) → (⟨S8x65536x1, .i32⟩ : BufTy).Contents (Elt F)),
    StableHlo.unary main_v119 main_v122 (broadcastInDim S8x65536x1 ![0, 1] bcast_S8x65536_S8x65536x1_0_1 : (⟨S8x65536, .i32⟩ : BufTy).Contents (Elt F) → (⟨S8x65536x1, .i32⟩ : BufTy).Contents (Elt F)),
    StableHlo.nary ![main_v120, main_v121, main_v122] main_v123 (fun u => concatenate S8x65536x3 2 [⟨S8x65536x1, u 0⟩, ⟨S8x65536x1, u 1⟩, ⟨S8x65536x1, u 2⟩] concatenates_S8x65536x1_S8x65536x1_S8x65536x1_S8x65536x3_d2),
    StableHlo.ternary main_v100 main_v123 main_arg1 main_v124 ((fun x i u => Host.scatterAdd scatter_S8x512x512x32_S8x65536x3_S8x65536x32_2_012_012_2 x i u) : (⟨S8x512x512x32, .f32⟩ : BufTy).Contents (Elt F) → (⟨S8x65536x3, .i32⟩ : BufTy).Contents (Elt F) → (⟨S8x65536x32, .f32⟩ : BufTy).Contents (Elt F) → (⟨S8x512x512x32, .f32⟩ : BufTy).Contents (Elt F)),
    StableHlo.nullary main_c_24 (constantI S_ 32 0#32),
    StableHlo.unary main_c_24 main_v125 (broadcastInDim S256 ![] bcast_S_S256 : (⟨S_, .i32⟩ : BufTy).Contents (Elt F) → (⟨S256, .i32⟩ : BufTy).Contents (Elt F)),
    StableHlo.binary main_v93 main_v125 main_v126 (cmpi .slt : (⟨S256, .i32⟩ : BufTy).Contents (Elt F) → (⟨S256, .i32⟩ : BufTy).Contents (Elt F) → (⟨S256, .i1⟩ : BufTy).Contents (Elt F)),
    StableHlo.nullary main_c_25 (constantI S_ 32 512#32),
    StableHlo.unary main_c_25 main_v127 (broadcastInDim S256 ![] bcast_S_S256 : (⟨S_, .i32⟩ : BufTy).Contents (Elt F) → (⟨S256, .i32⟩ : BufTy).Contents (Elt F)),
    StableHlo.binary main_v93 main_v127 main_v128 (addi : (⟨S256, .i32⟩ : BufTy).Contents (Elt F) → (⟨S256, .i32⟩ : BufTy).Contents (Elt F) → (⟨S256, .i32⟩ : BufTy).Contents (Elt F)),
    StableHlo.ternary main_v126 main_v128 main_v93 main_v129 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v129 main_v130 (broadcastInDim S256x1 ![0] bcast_S256_S256x1_0 : (⟨S256, .i32⟩ : BufTy).Contents (Elt F) → (⟨S256x1, .i32⟩ : BufTy).Contents (Elt F)),
    StableHlo.binary main_v124 main_v130 main_v131 ((fun x i => Host.gather gather_S8x512x512x32_S256x1_S8x256x512x32_023_1_n_n_1_1_8151232 x i) : (⟨S8x512x512x32, .f32⟩ : BufTy).Contents (Elt F) → (⟨S256x1, .i32⟩ : BufTy).Contents (Elt F) → (⟨S8x256x512x32, .f32⟩ : BufTy).Contents (Elt F)),
    StableHlo.nullary main_c_26 (constantI S_ 32 0#32),
    StableHlo.unary main_c_26 main_v132 (broadcastInDim S256 ![] bcast_S_S256 : (⟨S_, .i32⟩ : BufTy).Contents (Elt F) → (⟨S256, .i32⟩ : BufTy).Contents (Elt F)),
    StableHlo.binary main_v96 main_v132 main_v133 (cmpi .slt : (⟨S256, .i32⟩ : BufTy).Contents (Elt F) → (⟨S256, .i32⟩ : BufTy).Contents (Elt F) → (⟨S256, .i1⟩ : BufTy).Contents (Elt F)),
    StableHlo.nullary main_c_27 (constantI S_ 32 512#32),
    StableHlo.unary main_c_27 main_v134 (broadcastInDim S256 ![] bcast_S_S256 : (⟨S_, .i32⟩ : BufTy).Contents (Elt F) → (⟨S256, .i32⟩ : BufTy).Contents (Elt F)),
    StableHlo.binary main_v96 main_v134 main_v135 (addi : (⟨S256, .i32⟩ : BufTy).Contents (Elt F) → (⟨S256, .i32⟩ : BufTy).Contents (Elt F) → (⟨S256, .i32⟩ : BufTy).Contents (Elt F)),
    StableHlo.ternary main_v133 main_v135 main_v96 main_v136 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v136 main_v137 (broadcastInDim S256x1 ![0] bcast_S256_S256x1_0 : (⟨S256, .i32⟩ : BufTy).Contents (Elt F) → (⟨S256x1, .i32⟩ : BufTy).Contents (Elt F)),
    StableHlo.binary main_v131 main_v137 main_v138 ((fun x i => Host.gather gather_S8x256x512x32_S256x1_S8x256x256x32_013_2_n_n_2_1_8256132 x i) : (⟨S8x256x512x32, .f32⟩ : BufTy).Contents (Elt F) → (⟨S256x1, .i32⟩ : BufTy).Contents (Elt F) → (⟨S8x256x256x32, .f32⟩ : BufTy).Contents (Elt F)),
    StableHlo.unary main_v90 main_v139 (broadcastInDim S8x256x256x1 ![0, 1, 2] bcast_S8x256x256_S8x256x256x1_0_1_2 : (⟨S8x256x256, .i1⟩ : BufTy).Contents (Elt F) → (⟨S8x256x256x1, .i1⟩ : BufTy).Contents (Elt F)),
    StableHlo.unary main_v139 main_v140 (uitofp .f32 : (⟨S8x256x256x1, .i1⟩ : BufTy).Contents (Elt F) → (⟨S8x256x256x1, .f32⟩ : BufTy).Contents (Elt F)),
    StableHlo.unary main_v140 main_v141 (broadcastInDim S8x256x256x32 ![0, 1, 2, 3] bcast_S8x256x256x1_S8x256x256x32_0_1_2_3 : (⟨S8x256x256x1, .f32⟩ : BufTy).Contents (Elt F) → (⟨S8x256x256x32, .f32⟩ : BufTy).Contents (Elt F)),
    StableHlo.binary main_v138 main_v141 main_v142 (mulf : (⟨S8x256x256x32, .f32⟩ : BufTy).Contents (Elt F) → (⟨S8x256x256x32, .f32⟩ : BufTy).Contents (Elt F) → (⟨S8x256x256x32, .f32⟩ : BufTy).Contents (Elt F)),
    StableHlo.unary main_v18 main_v143 (broadcastInDim S1x2 ![1] bcast_S2_S1x2_1 : (⟨S2, .i32⟩ : BufTy).Contents (Elt F) → (⟨S1x2, .i32⟩ : BufTy).Contents (Elt F)),
    StableHlo.unary main_v143 main_v144 (broadcastInDim S256x2 ![0, 1] bcast_S1x2_S256x2_0_1 : (⟨S1x2, .i32⟩ : BufTy).Contents (Elt F) → (⟨S256x2, .i32⟩ : BufTy).Contents (Elt F)),
    StableHlo.binary main_v70 main_v144 main_v145 (subi : (⟨S256x2, .i32⟩ : BufTy).Contents (Elt F) → (⟨S256x2, .i32⟩ : BufTy).Contents (Elt F) → (⟨S256x2, .i32⟩ : BufTy).Contents (Elt F)),
    StableHlo.unary main_v1 main_v146 (broadcastInDim S1x2 ![1] bcast_S2_S1x2_1 : (⟨S2, .i32⟩ : BufTy).Contents (Elt F) → (⟨S1x2, .i32⟩ : BufTy).Contents (Elt F)),
    StableHlo.TRef.unary (.of main_v146 : StableHlo.TRef sig ⟨S1x2, .i32⟩) main_call6.v0 (broadcastInDim S256x2 ![0, 1] bcast_S1x2_S256x2_0_1),
    StableHlo.TRef.binary (.of main_v145 : StableHlo.TRef sig ⟨S256x2, .i32⟩) main_call6.v0 main_call6.v1 Host.divsi,
    StableHlo.TRef.unary (.of main_v145 : StableHlo.TRef sig ⟨S256x2, .i32⟩) main_call6.v2 signi,
    StableHlo.TRef.unary (.of main_v146 : StableHlo.TRef sig ⟨S1x2, .i32⟩) main_call6.v3 signi,
    StableHlo.TRef.unary main_call6.v3 main_call6.v4 (broadcastInDim S256x2 ![0, 1] bcast_S1x2_S256x2_0_1),
    StableHlo.TRef.binary main_call6.v2 main_call6.v4 main_call6.v5 (cmpi .ne),
    StableHlo.TRef.unary (.of main_v146 : StableHlo.TRef sig ⟨S1x2, .i32⟩) main_call6.v6 (broadcastInDim S256x2 ![0, 1] bcast_S1x2_S256x2_0_1),
    StableHlo.TRef.binary (.of main_v145 : StableHlo.TRef sig ⟨S256x2, .i32⟩) main_call6.v6 main_call6.v7 Host.remsi,
    StableHlo.TRef.nullary main_call6.c (constantI S_ 32 0#32),
    StableHlo.TRef.unary main_call6.c main_call6.v8 (broadcastInDim S256x2 ![] bcast_S_S256x2),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S256x2 ![] bcast_S_S256x2),
    StableHlo.TRef.binary main_call6.v1 main_call6.v11 main_call6.v12 subi,
    StableHlo.TRef.ternary main_call6.v10 main_call6.v12 main_call6.v1 main_call6.call0.v0 select,
    StableHlo.nullary main_v148 (iotaInDim S8 32 0),
    StableHlo.unary main_v148 main_v149 (broadcastInDim S8x1x1 ![0] bcast_S8_S8x1x1_0 : (⟨S8, .i32⟩ : BufTy).Contents (Elt F) → (⟨S8x1x1, .i32⟩ : BufTy).Contents (Elt F)) ]

/-- Operations 274 … 286 of 286: window `main_part3` of @main, its calls inlined. -/
abbrev ops3 : List (HloOp τ sig (Elt F)) :=
  [ StableHlo.unary main_v149 main_v150 (broadcastInDim S8x256x256 ![0, 1, 2] bcast_S8x1x1_S8x256x256_0_1_2 : (⟨S8x1x1, .i32⟩ : BufTy).Contents (Elt F) → (⟨S8x256x256, .i32⟩ : BufTy).Contents (Elt F)),
    StableHlo.unary main_v147 main_v151 ((extractStridedSlice S256x1 ![0, 0] · slices_S256x2_S256x1_0_0) : (⟨S256x2, .i32⟩ : BufTy).Contents (Elt F) → (⟨S256x1, .i32⟩ : BufTy).Contents (Elt F)),
    StableHlo.reshape main_v151 main_v152 rfl shapeCasts_S256x1_S256,
    StableHlo.unary main_v152 main_v153 (broadcastInDim S1x256x1 ![1] bcast_S256_S1x256x1_1 : (⟨S256, .i32⟩ : BufTy).Contents (Elt F) → (⟨S1x256x1, .i32⟩ : BufTy).Contents (Elt F)),
    StableHlo.unary main_v153 main_v154 (broadcastInDim S8x256x256 ![0, 1, 2] bcast_S1x256x1_S8x256x256_0_1_2 : (⟨S1x256x1, .i32⟩ : BufTy).Contents (Elt F) → (⟨S8x256x256, .i32⟩ : BufTy).Contents (Elt F)),
    StableHlo.unary main_v147 main_v155 ((extractStridedSlice S256x1 ![0, 1] · slices_S256x2_S256x1_0_1) : (⟨S256x2, .i32⟩ : BufTy).Contents (Elt F) → (⟨S256x1, .i32⟩ : BufTy).Contents (Elt F)),
    StableHlo.reshape main_v155 main_v156 rfl shapeCasts_S256x1_S256,
    StableHlo.unary main_v156 main_v157 (broadcastInDim S1x1x256 ![2] bcast_S256_S1x1x256_2 : (⟨S256, .i32⟩ : BufTy).Contents (Elt F) → (⟨S1x1x256, .i32⟩ : BufTy).Contents (Elt F)),
    StableHlo.unary main_v157 main_v158 (broadcastInDim S8x256x256 ![0, 1, 2] bcast_S1x1x256_S8x256x256_0_1_2 : (⟨S1x1x256, .i32⟩ : BufTy).Contents (Elt F) → (⟨S8x256x256, .i32⟩ : BufTy).Contents (Elt F)),
    StableHlo.unary main_v150 main_v159 (broadcastInDim S8x256x256x1 ![0, 1, 2] bcast_S8x256x256_S8x256x256x1_0_1_2 : (⟨S8x256x256, .i32⟩ : BufTy).Contents (Elt F) → (⟨S8x256x256x1, .i32⟩ : BufTy).Contents (Elt F)),
    StableHlo.unary main_v154 main_v160 (broadcastInDim S8x256x256x1 ![0, 1, 2] bcast_S8x256x256_S8x256x256x1_0_1_2 : (⟨S8x256x256, .i32⟩ : BufTy).Contents (Elt F) → (⟨S8x256x256x1, .i32⟩ : BufTy).Contents (Elt F)),
    StableHlo.unary main_v158 main_v161 (broadcastInDim S8x256x256x1 ![0, 1, 2] bcast_S8x256x256_S8x256x256x1_0_1_2 : (⟨S8x256x256, .i32⟩ : BufTy).Contents (Elt F) → (⟨S8x256x256x1, .i32⟩ : BufTy).Contents (Elt F)),
    StableHlo.nary ![main_v159, main_v160, main_v161] main_v162 (fun u => concatenate S8x256x256x3 3 [⟨S8x256x256x1, u 0⟩, ⟨S8x256x256x1, u 1⟩, ⟨S8x256x256x1, u 2⟩] concatenates_S8x256x256x1_S8x256x256x1_S8x256x256x1_S8x256x256x3_d3) ]

/-- @main's 286 operations, in order. -/
abbrev ops : List (HloOp τ sig (Elt F)) :=
  ops0 ++ (ops1 ++ (ops2 ++ ops3))

end Cert.ReferenceIdeal.Hand

end
-- ==== Proof.RefRun.lean ====
/-
  The reference program's run, read back as a fold.  The program is a host program with no kernel: @main is a straight
  line of host operations, seven of them calls of outlined functions, some of which call a selection helper in turn.
  Inlining every call (which is what unfolding the callee's definition at its call site does) leaves one line of 286
  operations, listed window by window in the module imported below.  Here:

  * each printed window of @main IS the line of its operations: both sides are the same right-nested chain of steps
    once the callees' definitions and the sequencing are unfolded, so the equation holds by computation;
  * @main, the windows one after the other, is the line of the concatenated list (the line of a concatenation is the
    lines in sequence);
  * every operation touches TensorCore references only, and the signature scopes no buffer and no semaphore;
  * hence every weakly fair execution of @main terminates, and in every final state each TensorCore buffer holds the
    fold of the operations' results over the launch contents.
-/
import proofs.«419918_j39608188403815_2_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each window is the line of its operations

Both sides unfold to the same chain: on the left the printed statements, a call's statements being its callee's body
at the call's operands and buffer record; on the right one step per list element.  The two sides are one term up to
the unfolding of definitions. -/

/-- Statements 1 … 60 of @main, the three calls among them (and the calls those make) inlined. -/
theorem main_part0_eq (c : Dev nD) : main_part0 (F := F) c = seq ops0 := by
  chain_rfl

/-- Statements 61 … 120, three calls inlined. -/
theorem main_part1_eq (c : Dev nD) : main_part1 (F := F) c = seq ops1 := by
  chain_rfl

/-- Statements 121 … 180, one call inlined. -/
theorem main_part2_eq (c : Dev nD) : main_part2 (F := F) c = seq ops2 := by
  chain_rfl

/-- Statements 181 … 194. -/
theorem main_part3_eq (c : Dev nD) : main_part3 (F := F) c = seq ops3 := by
  chain_rfl

/-- @main is the line of all 286 operations: the line of a concatenation is the lines in sequence, and each is its
    window. -/
theorem main_eq (c : Dev nD) : main (F := F) c = seq ops := by
  simp only [ops, seq_append, ← main_part0_eq c, ← main_part1_eq c, ← main_part2_eq c, ← main_part3_eq c]
  rfl

/-! ## Nothing is scoped, and every operation stays on the TensorCore's references -/

theorem scopedRefs_eq : (Finset.univ.filter fun b : Ref sig .tc => b.isScoped) = ∅ := by decide
theorem scopedSems_eq : (Finset.univ.filter fun sm : SemLoc sig => sm.isScoped .tc) = ∅ := by decide

/- An operation built over TensorCore references reads and writes only those, whatever its arity: the conjunction
   over a literal list is that fact once per element. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- An operation of the whole list is an operation of one of the four. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! ## The fold, window by window -/

/-- The fold over two lists in a row is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole list is the folds over the four windows' lists, in order. -/
theorem after_ops (V : Valuation τ sig (Elt F)) :
    after ops V = after ops3 (after ops2 (after ops1 (after ops0 V))) := by
  simp only [ops, after_app]

/-! ## The run -/

/-- At the compiled mesh, for any float values, from any memory with zero counters: every weakly fair execution of
    @main on the TensorCores terminates, and every final state has each TensorCore buffer at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefNary.lean ====
/-
  A three-piece concatenation among the reference's operations: the operation's result with each operand's
  contents at its own reference, so that reading the fold of an operation list at one buffer goes on through the
  concatenation's operands; and that reading as one rewriting pass.
-/
import proofs.«419918_j39608188403815_2_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo

/-- Three values, one per index below 3, each of its own type. -/
def vec3 {α : Fin 3 → Type} (p : α 0) (q : α 1) (r : α 2) : (k : Fin 3) → α k :=
  fun k => match k with
    | ⟨0, _⟩ => p
    | ⟨1, _⟩ => q
    | ⟨2, _⟩ => r

theorem vec3_0 {α : Fin 3 → Type} (p : α 0) (q : α 1) (r : α 2) : vec3 p q r 0 = p := rfl
theorem vec3_1 {α : Fin 3 → Type} (p : α 0) (q : α 1) (r : α 2) : vec3 p q r 1 = q := rfl
theorem vec3_2 {α : Fin 3 → Type} (p : α 0) (q : α 1) (r : α 2) : vec3 p q r 2 = r := rfl

section Nary3
variable {Val : EltTy → Type} {x a b y : Ref sig .tc}

/-- An operation over three operand references: its result buffer holds the function's value at the operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (vec3 (α := fun k => ((![x, a, b] : Fin 3 → Ref sig .tc) k).ty.Contents Val)
          (F (Proc.devRef .tc x)) (F (Proc.devRef .tc a)) (F (Proc.devRef .tc b))) := by
  rw [nary_result]; congr 1; funext k; fin_cases k <;> rfl

/-- The same, stated for the rewriting pass (the result reference left out of the pattern's index). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (vec3 (α := fun k => ((![x, a, b] : Fin 3 → Ref sig .tc) k).ty.Contents Val)
          (F (Proc.devRef .tc x)) (F (Proc.devRef .tc a)) (F (Proc.devRef .tc b))) :=
  nary3_result f hxs hy F

end Nary3

/-- The fold of a list of operations read at one reference, as one rewriting pass: each operation's result at its
    own reference is its function's value, at any other reference what was there; a three-piece concatenation's
    operands are read on. -/
macro "fold_results" : tactic =>
  `(tactic| (simp (disch := decide) only [after_cons, after_nil, vec3_0, vec3_1, vec3_2,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- The same, one rewrite at a time, for what the single pass leaves: the pass does not enter a concatenation's
    operand list, so after it the three operands still stand as the fold read at their references. -/
macro "fold_rest" : tactic =>
  `(tactic| (repeat (first
      | rw [vec3_0] | rw [vec3_1] | rw [vec3_2]
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

end Cert.ReferenceIdeal.Hand

end
-- ==== Proof.RefMask.lean ====
/-
  The reference program's integer results: the validity mask and the reported coordinates, and the candidate grid
  they are computed from.

  All of it is arithmetic on 32-bit words, the same whatever the float values are.  The program first computes
  its configuration from two-entry vectors (kernel size 3, stride 2, dilation 1, padding 1): the kernel origin 1,
  the dilated kernel size 3, the kernel start offset -1, the index start offset 0 and the index end offset 1.
  Those are closed terms and are read off by evaluation.  With them as literal words, each batch's window start
  and end, the candidate grid 0 + i * 2, the validity bits and the mask are, index by index, the word functions
  of the shared specification; the reported coordinates are the batch number and the two candidates' floor
  quotients by the stride.

  The operation list is read in stretches: what a stretch computes is stated for any contents it may start from,
  with the earlier stretches' values as hypotheses, and the stretches are then chained.
-/
import proofs.«419918_j39608188403815_2_alg».proof.Proof.RefOps
import proofs.«419918_j39608188403815_2_alg».proof.Proof.RefRun
import proofs.«419918_j39608188403815_2_alg».proof.Proof.RefNary
import proofs.«419918_j39608188403815_2_alg».proof.Proof.Spec
import Idealize.ShloMosaic.Lib.Pipeline.Value
import Idealize.ShloMosaic.Lib.ValueLayout
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

/-! ## Layout operations read at an index

Each lemma reads one broadcast, slice or reshape of the program at an index given by its coordinates: it is the
operand at the coordinates the operation keeps. -/
section Reads
variable {α : Type}

/-- A two-entry vector made a one-row matrix. -/
theorem bc_2_12 (h : (⟨1, ![2]⟩ : Shape).BroadcastsInDim ⟨2, ![1, 2]⟩ (![1] : Fin 1 → Fin 2)) (x : (⟨1, ![2]⟩ : Shape).Idx → α) (a : Fin 1) (d : Fin 2) :
    broadcastInDim ⟨2, ![1, 2]⟩ (![1] : Fin 1 → Fin 2) h x (ix2 a d) = x (ix1 d) :=
  broadcastInDim_apply _ h x _ (ix1 d) (by intro a; fin_cases a <;> rfl)

/-- A one-row matrix repeated down m rows. -/
theorem bc_12_m2 {m : Nat} (h : (⟨2, ![1, 2]⟩ : Shape).BroadcastsInDim ⟨2, ![m, 2]⟩ (![0, 1] : Fin 2 → Fin 2)) (x : (⟨2, ![1, 2]⟩ : Shape).Idx → α) (b : Fin m) (d : Fin 2) :
    broadcastInDim ⟨2, ![m, 2]⟩ (![0, 1] : Fin 2 → Fin 2) h x (ix2 b d) = x (ix2 0 d) :=
  broadcastInDim_apply _ h x _ (ix2 0 d) (by intro a; fin_cases a <;> rfl)

/-- A vector made a one-column matrix. -/
theorem bc_256_2561 (h : (⟨1, ![256]⟩ : Shape).BroadcastsInDim ⟨2, ![256, 1]⟩ (![0] : Fin 1 → Fin 2)) (x : (⟨1, ![256]⟩ : Shape).Idx → α) (i : Fin 256) (a : Fin 1) :
    broadcastInDim ⟨2, ![256, 1]⟩ (![0] : Fin 1 → Fin 2) h x (ix2 i a) = x (ix1 i) :=
  broadcastInDim_apply _ h x _ (ix1 i) (by intro a; fin_cases a <;> rfl)

/-- A one-column matrix repeated along two columns. -/
theorem bc_2561_2562 (h : (⟨2, ![256, 1]⟩ : Shape).BroadcastsInDim ⟨2, ![256, 2]⟩ (![0, 1] : Fin 2 → Fin 2)) (x : (⟨2, ![256, 1]⟩ : Shape).Idx → α) (i : Fin 256) (d : Fin 2) :
    broadcastInDim ⟨2, ![256, 2]⟩ (![0, 1] : Fin 2 → Fin 2) h x (ix2 i d) = x (ix2 i 0) :=
  broadcastInDim_apply _ h x _ (ix2 i 0) (by intro a; fin_cases a <;> rfl)

/-- A matrix given a leading unit axis. -/
theorem bc_2562_12562 (h : (⟨2, ![256, 2]⟩ : Shape).BroadcastsInDim ⟨3, ![1, 256, 2]⟩ (![1, 2] : Fin 2 → Fin 3)) (x : (⟨2, ![256, 2]⟩ : Shape).Idx → α) (a : Fin 1) (i : Fin 256) (d : Fin 2) :
    broadcastInDim ⟨3, ![1, 256, 2]⟩ (![1, 2] : Fin 2 → Fin 3) h x (ix3 a i d) = x (ix2 i d) :=
  broadcastInDim_apply _ h x _ (ix2 i d) (by intro a; fin_cases a <;> rfl)

/-- The grid repeated over the eight batches. -/
theorem bc_12562_82562 (h : (⟨3, ![1, 256, 2]⟩ : Shape).BroadcastsInDim ⟨3, ![8, 256, 2]⟩ (![0, 1, 2] : Fin 3 → Fin 3)) (x : (⟨3, ![1, 256, 2]⟩ : Shape).Idx → α) (b : Fin 8) (i : Fin 256) (d : Fin 2) :
    broadcastInDim ⟨3, ![8, 256, 2]⟩ (![0, 1, 2] : Fin 3 → Fin 3) h x (ix3 b i d) = x (ix3 0 i d) :=
  broadcastInDim_apply _ h x _ (ix3 0 i d) (by intro a; fin_cases a <;> rfl)

/-- A per-batch pair given a middle unit axis. -/
theorem bc_82_812 (h : (⟨2, ![8, 2]⟩ : Shape).BroadcastsInDim ⟨3, ![8, 1, 2]⟩ (![0, 2] : Fin 2 → Fin 3)) (x : (⟨2, ![8, 2]⟩ : Shape).Idx → α) (b : Fin 8) (a : Fin 1) (d : Fin 2) :
    broadcastInDim ⟨3, ![8, 1, 2]⟩ (![0, 2] : Fin 2 → Fin 3) h x (ix3 b a d) = x (ix2 b d) :=
  broadcastInDim_apply _ h x _ (ix2 b d) (by intro a; fin_cases a <;> rfl)

/-- A per-batch pair repeated over the 256 candidates. -/
theorem bc_812_82562 (h : (⟨3, ![8, 1, 2]⟩ : Shape).BroadcastsInDim ⟨3, ![8, 256, 2]⟩ (![0, 1, 2] : Fin 3 → Fin 3)) (x : (⟨3, ![8, 1, 2]⟩ : Shape).Idx → α) (b : Fin 8) (i : Fin 256) (d : Fin 2) :
    broadcastInDim ⟨3, ![8, 256, 2]⟩ (![0, 1, 2] : Fin 3 → Fin 3) h x (ix3 b i d) = x (ix3 b 0 d) :=
  broadcastInDim_apply _ h x _ (ix3 b 0 d) (by intro a; fin_cases a <;> rfl)

/-- A per-batch row given a trailing unit axis. -/
theorem bc_8256_82561 (h : (⟨2, ![8, 256]⟩ : Shape).BroadcastsInDim ⟨3, ![8, 256, 1]⟩ (![0, 1] : Fin 2 → Fin 3)) (x : (⟨2, ![8, 256]⟩ : Shape).Idx → α) (b : Fin 8) (i : Fin 256) (a : Fin 1) :
    broadcastInDim ⟨3, ![8, 256, 1]⟩ (![0, 1] : Fin 2 → Fin 3) h x (ix3 b i a) = x (ix2 b i) :=
  broadcastInDim_apply _ h x _ (ix2 b i) (by intro a; fin_cases a <;> rfl)

/-- A per-batch row given a middle unit axis. -/
theorem bc_8256_81256 (h : (⟨2, ![8, 256]⟩ : Shape).BroadcastsInDim ⟨3, ![8, 1, 256]⟩ (![0, 2] : Fin 2 → Fin 3)) (x : (⟨2, ![8, 256]⟩ : Shape).Idx → α) (b : Fin 8) (a : Fin 1) (j : Fin 256) :
    broadcastInDim ⟨3, ![8, 1, 256]⟩ (![0, 2] : Fin 2 → Fin 3) h x (ix3 b a j) = x (ix2 b j) :=
  broadcastInDim_apply _ h x _ (ix2 b j) (by intro a; fin_cases a <;> rfl)

/-- A per-batch column repeated along the rows. -/
theorem bc_82561_8256256 (h : (⟨3, ![8, 256, 1]⟩ : Shape).BroadcastsInDim ⟨3, ![8, 256, 256]⟩ (![0, 1, 2] : Fin 3 → Fin 3)) (x : (⟨3, ![8, 256, 1]⟩ : Shape).Idx → α) (b : Fin 8) (i j : Fin 256) :
    broadcastInDim ⟨3, ![8, 256, 256]⟩ (![0, 1, 2] : Fin 3 → Fin 3) h x (ix3 b i j) = x (ix3 b i 0) :=
  broadcastInDim_apply _ h x _ (ix3 b i 0) (by intro a; fin_cases a <;> rfl)

/-- A per-batch row repeated down the columns. -/
theorem bc_81256_8256256 (h : (⟨3, ![8, 1, 256]⟩ : Shape).BroadcastsInDim ⟨3, ![8, 256, 256]⟩ (![0, 1, 2] : Fin 3 → Fin 3)) (x : (⟨3, ![8, 1, 256]⟩ : Shape).Idx → α) (b : Fin 8) (i j : Fin 256) :
    broadcastInDim ⟨3, ![8, 256, 256]⟩ (![0, 1, 2] : Fin 3 → Fin 3) h x (ix3 b i j) = x (ix3 b 0 j) :=
  broadcastInDim_apply _ h x _ (ix3 b 0 j) (by intro a; fin_cases a <;> rfl)

/-- The batch numbers given two unit axes. -/
theorem bc_8_811 (h : (⟨1, ![8]⟩ : Shape).BroadcastsInDim ⟨3, ![8, 1, 1]⟩ (![0] : Fin 1 → Fin 3)) (x : (⟨1, ![8]⟩ : Shape).Idx → α) (b : Fin 8) (a a' : Fin 1) :
    broadcastInDim ⟨3, ![8, 1, 1]⟩ (![0] : Fin 1 → Fin 3) h x (ix3 b a a') = x (ix1 b) :=
  broadcastInDim_apply _ h x _ (ix1 b) (by intro a; fin_cases a <;> rfl)

/-- A per-batch word repeated over the grid. -/
theorem bc_811_8256256 (h : (⟨3, ![8, 1, 1]⟩ : Shape).BroadcastsInDim ⟨3, ![8, 256, 256]⟩ (![0, 1, 2] : Fin 3 → Fin 3)) (x : (⟨3, ![8, 1, 1]⟩ : Shape).Idx → α) (b : Fin 8) (i j : Fin 256) :
    broadcastInDim ⟨3, ![8, 256, 256]⟩ (![0, 1, 2] : Fin 3 → Fin 3) h x (ix3 b i j) = x (ix3 b 0 0) :=
  broadcastInDim_apply _ h x _ (ix3 b 0 0) (by intro a; fin_cases a <;> rfl)

/-- A vector laid along the middle axis. -/
theorem bc_256_12561 (h : (⟨1, ![256]⟩ : Shape).BroadcastsInDim ⟨3, ![1, 256, 1]⟩ (![1] : Fin 1 → Fin 3)) (x : (⟨1, ![256]⟩ : Shape).Idx → α) (a : Fin 1) (i : Fin 256) (a' : Fin 1) :
    broadcastInDim ⟨3, ![1, 256, 1]⟩ (![1] : Fin 1 → Fin 3) h x (ix3 a i a') = x (ix1 i) :=
  broadcastInDim_apply _ h x _ (ix1 i) (by intro a; fin_cases a <;> rfl)

/-- A middle-axis vector repeated over batches and columns. -/
theorem bc_12561_8256256 (h : (⟨3, ![1, 256, 1]⟩ : Shape).BroadcastsInDim ⟨3, ![8, 256, 256]⟩ (![0, 1, 2] : Fin 3 → Fin 3)) (x : (⟨3, ![1, 256, 1]⟩ : Shape).Idx → α) (b : Fin 8) (i j : Fin 256) :
    broadcastInDim ⟨3, ![8, 256, 256]⟩ (![0, 1, 2] : Fin 3 → Fin 3) h x (ix3 b i j) = x (ix3 0 i 0) :=
  broadcastInDim_apply _ h x _ (ix3 0 i 0) (by intro a; fin_cases a <;> rfl)

/-- A vector laid along the last axis. -/
theorem bc_256_11256 (h : (⟨1, ![256]⟩ : Shape).BroadcastsInDim ⟨3, ![1, 1, 256]⟩ (![2] : Fin 1 → Fin 3)) (x : (⟨1, ![256]⟩ : Shape).Idx → α) (a a' : Fin 1) (j : Fin 256) :
    broadcastInDim ⟨3, ![1, 1, 256]⟩ (![2] : Fin 1 → Fin 3) h x (ix3 a a' j) = x (ix1 j) :=
  broadcastInDim_apply _ h x _ (ix1 j) (by intro a; fin_cases a <;> rfl)

/-- A last-axis vector repeated over batches and rows. -/
theorem bc_11256_8256256 (h : (⟨3, ![1, 1, 256]⟩ : Shape).BroadcastsInDim ⟨3, ![8, 256, 256]⟩ (![0, 1, 2] : Fin 3 → Fin 3)) (x : (⟨3, ![1, 1, 256]⟩ : Shape).Idx → α) (b : Fin 8) (i j : Fin 256) :
    broadcastInDim ⟨3, ![8, 256, 256]⟩ (![0, 1, 2] : Fin 3 → Fin 3) h x (ix3 b i j) = x (ix3 0 0 j) :=
  broadcastInDim_apply _ h x _ (ix3 0 0 j) (by intro a; fin_cases a <;> rfl)

/-- A grid of words given a trailing unit axis. -/
theorem bc_8256256_82562561 (h : (⟨3, ![8, 256, 256]⟩ : Shape).BroadcastsInDim ⟨4, ![8, 256, 256, 1]⟩ (![0, 1, 2] : Fin 3 → Fin 4)) (x : (⟨3, ![8, 256, 256]⟩ : Shape).Idx → α) (b : Fin 8) (i j : Fin 256) (a : Fin 1) :
    broadcastInDim ⟨4, ![8, 256, 256, 1]⟩ (![0, 1, 2] : Fin 3 → Fin 4) h x (ix4 b i j a) = x (ix3 b i j) :=
  broadcastInDim_apply _ h x _ (ix3 b i j) (by intro a; fin_cases a <;> rfl)

/-- A scalar repeated to any shape. -/
theorem bc_scalar {T : Shape} (h : (⟨0, ![]⟩ : Shape).BroadcastsInDim T (![] : Fin 0 → Fin T.rank))
    (x : (⟨0, ![]⟩ : Shape).Idx → α) (j : T.Idx) : broadcastInDim T (![] : Fin 0 → Fin T.rank) h x j = x ix0 :=
  broadcastInDim_scalar_apply h x j
/-- A scalar repeated over a two-entry vector. -/
theorem bc_s_2 (h : (⟨0, ![]⟩ : Shape).BroadcastsInDim ⟨1, ![2]⟩ (![] : Fin 0 → Fin 1)) (x : (⟨0, ![]⟩ : Shape).Idx → α)
    (j : (⟨1, ![2]⟩ : Shape).Idx) : broadcastInDim ⟨1, ![2]⟩ (![] : Fin 0 → Fin 1) h x j = x ix0 :=
  broadcastInDim_scalar_apply h x j
/-- A scalar repeated over the per-batch pairs. -/
theorem bc_s_82 (h : (⟨0, ![]⟩ : Shape).BroadcastsInDim ⟨2, ![8, 2]⟩ (![] : Fin 0 → Fin 2)) (x : (⟨0, ![]⟩ : Shape).Idx → α)
    (j : (⟨2, ![8, 2]⟩ : Shape).Idx) : broadcastInDim ⟨2, ![8, 2]⟩ (![] : Fin 0 → Fin 2) h x j = x ix0 :=
  broadcastInDim_scalar_apply h x j
/-- A scalar repeated over the 256 candidates. -/
theorem bc_s_256 (h : (⟨0, ![]⟩ : Shape).BroadcastsInDim ⟨1, ![256]⟩ (![] : Fin 0 → Fin 1)) (x : (⟨0, ![]⟩ : Shape).Idx → α)
    (j : (⟨1, ![256]⟩ : Shape).Idx) : broadcastInDim ⟨1, ![256]⟩ (![] : Fin 0 → Fin 1) h x j = x ix0 :=
  broadcastInDim_scalar_apply h x j
/-- A scalar repeated over the grid's two columns. -/
theorem bc_s_2562 (h : (⟨0, ![]⟩ : Shape).BroadcastsInDim ⟨2, ![256, 2]⟩ (![] : Fin 0 → Fin 2)) (x : (⟨0, ![]⟩ : Shape).Idx → α)
    (j : (⟨2, ![256, 2]⟩ : Shape).Idx) : broadcastInDim ⟨2, ![256, 2]⟩ (![] : Fin 0 → Fin 2) h x j = x ix0 :=
  broadcastInDim_scalar_apply h x j

/-- One of the two columns of the per-batch validity bits. -/
theorem slice_82562 (k : Nat) (hk : k < 2) (h : (⟨3, ![8, 256, 2]⟩ : Shape).Slices ![0, 0, k] ⟨3, ![8, 256, 1]⟩)
    (x : (⟨3, ![8, 256, 2]⟩ : Shape).Idx → α) (b : Fin 8) (i : Fin 256) (a : Fin 1) :
    extractStridedSlice ⟨3, ![8, 256, 1]⟩ ![0, 0, k] x h (ix3 b i a) = x (ix3 b i ⟨k, hk⟩) :=
  extractStridedSlice_apply _ x h _ (ix3 b i ⟨k, hk⟩) (by intro c; fin_cases c <;> simp [ix3] <;> omega)

/-- One of the two columns of the grid. -/
theorem slice_2562 (k : Nat) (hk : k < 2) (h : (⟨2, ![256, 2]⟩ : Shape).Slices ![0, k] ⟨2, ![256, 1]⟩)
    (x : (⟨2, ![256, 2]⟩ : Shape).Idx → α) (i : Fin 256) (a : Fin 1) :
    extractStridedSlice ⟨2, ![256, 1]⟩ ![0, k] x h (ix2 i a) = x (ix2 i ⟨k, hk⟩) :=
  extractStridedSlice_apply _ x h _ (ix2 i ⟨k, hk⟩) (by intro c; fin_cases c <;> simp [ix2] <;> omega)

/-- Dropping a trailing unit axis of a rank-3 array. -/
theorem cast_82561_8256 (h : (⟨3, ![8, 256, 1]⟩ : Shape).ShapeCasts ⟨2, ![8, 256]⟩)
    (x : (⟨3, ![8, 256, 1]⟩ : Shape).Idx → α) (b : Fin 8) (i : Fin 256) :
    shapeCast ⟨2, ![8, 256]⟩ x h (ix2 b i) = x (ix3 b i 0) :=
  shapeCast_apply x h _ (ix3 b i 0) (by rw [Shape.rowMajor_val_three, Shape.rowMajor_val_two]; simp [ix2, ix3])

/-- Dropping a trailing unit axis of a rank-2 array. -/
theorem cast_2561_256 (h : (⟨2, ![256, 1]⟩ : Shape).ShapeCasts ⟨1, ![256]⟩)
    (x : (⟨2, ![256, 1]⟩ : Shape).Idx → α) (i : Fin 256) :
    shapeCast ⟨1, ![256]⟩ x h (ix1 i) = x (ix2 i 0) :=
  shapeCast_apply x h _ (ix2 i 0) (by rw [Shape.rowMajor_val_two, Shape.rowMajor_val_one]; simp [ix1, ix2])

end Reads

section Concat
variable {α : Type}

/-- The three single-column pieces laid side by side, read at column k: piece k at its one column. -/
theorem concat3_at (x0 x1 x2 : (⟨4, ![8, 256, 256, 1]⟩ : Shape).Idx → α)
    (h : Shape.Concatenates (([⟨⟨4, ![8, 256, 256, 1]⟩, x0⟩, ⟨⟨4, ![8, 256, 256, 1]⟩, x1⟩, ⟨⟨4, ![8, 256, 256, 1]⟩, x2⟩] :
      List ((s : Shape) × (s.Idx → α))).map (·.1)) ⟨4, ![8, 256, 256, 3]⟩ 3)
    (b : Fin 8) (i j : Fin 256) (k : Fin 3) :
    concatenate ⟨4, ![8, 256, 256, 3]⟩ 3 [⟨⟨4, ![8, 256, 256, 1]⟩, x0⟩, ⟨⟨4, ![8, 256, 256, 1]⟩, x1⟩, ⟨⟨4, ![8, 256, 256, 1]⟩, x2⟩] h (ix4 b i j k)
      = (match k with | ⟨0, _⟩ => x0 | ⟨1, _⟩ => x1 | ⟨2, _⟩ => x2) (ix4 b i j 0) := by
  fin_cases k
  · exact concatenate_apply_piece _ _ h _ 0 (by simp) _ x0 rfl rfl 0 rfl (ix4 b i j 0)
      (by intro c hc; fin_cases c <;> first | rfl | exact absurd rfl hc) rfl
  · exact concatenate_apply_piece _ _ h _ 1 (by simp) _ x1 rfl rfl 1 rfl (ix4 b i j 0)
      (by intro c hc; fin_cases c <;> first | rfl | exact absurd rfl hc) rfl
  · exact concatenate_apply_piece _ _ h _ 2 (by simp) _ x2 rfl rfl 2 rfl (ix4 b i j 0)
      (by intro c hc; fin_cases c <;> first | rfl | exact absurd rfl hc) rfl

end Concat

/-- Clipping a candidate to [0, 511] changes nothing: 2 i is at most 510. -/
theorem clip_gW : ∀ i : Fin 256, IntOp.minsi 511#32 (IntOp.maxsi 0#32 (Cert.Spec.gW i.val)) = Cert.Spec.gW i.val := by
  decide

/-! ## The program cut into stretches

The first printed window holds the configuration's constants (its first 70 operations, through the index end
offset) and then the three reductions of the coordinates and each batch's window start; the second holds the window
ends, the candidate grid with the validity bits, the mask, and the clipped grid columns. -/

/-- The operations computing the configuration's constants. -/
abbrev opsK : List (HloOp τ sig (Elt F)) := ops0.take 70
/-- The reductions of the coordinates and the window starts. -/
abbrev opsA : List (HloOp τ sig (Elt F)) := ops0.drop 70
/-- The window ends. -/
abbrev opsB1 : List (HloOp τ sig (Elt F)) := ops1.take 33
/-- The candidate grid and the validity bits. -/
abbrev opsB2 : List (HloOp τ sig (Elt F)) := (ops1.drop 33).take 20
/-- The mask. -/
abbrev opsB3 : List (HloOp τ sig (Elt F)) := ((ops1.drop 33).drop 20).take 9
/-- The rest of the second window (the clipped grid columns and the scatter's batch indices). -/
abbrev opsB4 : List (HloOp τ sig (Elt F)) := ((ops1.drop 33).drop 20).drop 9

theorem after_ops0 (V : Valuation τ sig (Elt F)) : after ops0 V = after opsA (after opsK V) := by
  rw [← after_append]; exact congrArg (fun l => after l V) (List.take_append_drop 70 ops0).symm

theorem after_ops1 (V : Valuation τ sig (Elt F)) :
    after ops1 V = after opsB4 (after opsB3 (after opsB2 (after opsB1 V))) := by
  rw [← after_append, ← after_append, ← after_append]
  refine congrArg (fun l => after l V) ?_
  show ops1 = ops1.take 33 ++ ((ops1.drop 33).take 20 ++ (((ops1.drop 33).drop 20).take 9 ++ ((ops1.drop 33).drop 20).drop 9))
  rw [List.take_append_drop, List.take_append_drop, List.take_append_drop]

theorem after_ops_cut (V : Valuation τ sig (Elt F)) :
    after ops V = after ops3 (after ops2 (after opsB4 (after opsB3 (after opsB2 (after opsB1 (after opsA (after opsK V))))))) := by
  rw [← after_ops1, ← after_ops0]
  simp only [ops, after_append]

attribute [local irreducible] Host.reduce

/-! ## The constants -/

/-- The kernel origin, as the program computes it: 1 * floor((3 - 1) / 2) * (3 mod 2). -/
private def wOrigin : BitVec 32 :=
  IntOp.muli (IntOp.muli 1#32 (Cert.Spec.fdivW (IntOp.subi 3#32 1#32) 2#32)) (Cert.Spec.remW 3#32 2#32)
/-- The dilated kernel size: 1 * (3 - 1) + 1. -/
private def wDks : BitVec 32 := IntOp.addi (IntOp.muli 1#32 (IntOp.subi 3#32 1#32)) 1#32

set_option maxRecDepth 8192 in
/-- The stride vector is 2 in both entries. -/
theorem K_v1 (V : Valuation τ sig (Elt F)) : after opsK V (main_v1 : DevRef τ sig) = fun _ => 2#32 := by
  refine funext fun (idx : S2.Idx) => ?_
  simp only [opsK, ops0, List.take_succ_cons, List.take_zero]
  after_results_simp
  simp only [broadcastInDim, constantI]

set_option maxRecDepth 8192 in
/-- The kernel origin is 1. -/
theorem K_v9 (V : Valuation τ sig (Elt F)) : after opsK V (main_v9 : DevRef τ sig) = fun _ => 1#32 := by
  refine funext fun (idx : S2.Idx) => ?_
  simp only [opsK, ops0, List.take_succ_cons, List.take_zero]
  after_results_simp
  simp only [TRef.toBuf, TRef.ofBuf, cast_eq, id, muli, subi, addi, Host.divsi, Host.remsi, signi, cmpi, andi, select, broadcastInDim, constantI]
  show wOrigin = 1#32
  decide

set_option maxRecDepth 8192 in
/-- The kernel start offset is -1. -/
theorem K_v17 (V : Valuation τ sig (Elt F)) : after opsK V (main_v17 : DevRef τ sig) = fun _ => 4294967295#32 := by
  refine funext fun (idx : S2.Idx) => ?_
  simp only [opsK, ops0, List.take_succ_cons, List.take_zero]
  after_results_simp
  simp only [TRef.toBuf, TRef.ofBuf, cast_eq, id, muli, subi, addi, Host.divsi, Host.remsi, signi, cmpi, andi, select, broadcastInDim, constantI]
  show IntOp.addi (IntOp.subi wOrigin wDks) 1#32 = 4294967295#32
  decide

set_option maxRecDepth 8192 in
/-- The index start offset is 0. -/
theorem K_v18 (V : Valuation τ sig (Elt F)) : after opsK V (main_v18 : DevRef τ sig) = fun _ => 0#32 := by
  refine funext fun (idx : S2.Idx) => ?_
  simp only [opsK, ops0, List.take_succ_cons, List.take_zero]
  after_results_simp
  simp only [TRef.toBuf, TRef.ofBuf, cast_eq, id, muli, subi, addi, Host.divsi, Host.remsi, signi, cmpi, andi, select, broadcastInDim, constantI]
  show IntOp.subi wOrigin 1#32 = 0#32
  decide

set_option maxRecDepth 8192 in
/-- The index end offset is 1. -/
theorem K_v22 (V : Valuation τ sig (Elt F)) : after opsK V (main_v22 : DevRef τ sig) = fun _ => 1#32 := by
  refine funext fun (idx : S2.Idx) => ?_
  simp only [opsK, ops0, List.take_succ_cons, List.take_zero]
  after_results_simp
  simp only [TRef.toBuf, TRef.ofBuf, cast_eq, id, muli, subi, addi, Host.divsi, Host.remsi, signi, cmpi, andi, select, broadcastInDim, constantI]
  show IntOp.addi (IntOp.subi (IntOp.addi wOrigin 1#32) wDks) 2#32 = 1#32
  decide

set_option maxRecDepth 8192 in
/-- The constants' operations leave the coordinates alone. -/
theorem K_arg0 (V : Valuation τ sig (Elt F)) : after opsK V (main_arg0 : DevRef τ sig) = V (main_arg0 : DevRef τ sig) := by
  simp only [opsK, ops0, List.take_succ_cons, List.take_zero]
  after_results_simp

/-! ## The reductions and the window starts -/

set_option maxRecDepth 8192 in
/-- Each batch's greatest coordinate is the specification's reduction. -/
theorem A_v27 (W : Valuation τ sig (Elt F)) :
    after opsA W (main_v27 : DevRef τ sig) = Cert.Spec.mxOf (W (main_arg0 : DevRef τ sig)) := by
  simp only [opsA, ops0, List.drop_succ_cons, List.drop_zero]
  after_results_simp
  rfl

set_option maxRecDepth 8192 in
/-- The index end: the greatest coordinate over all batches, plus the index end offset. -/
theorem A_v25 (W : Valuation τ sig (Elt F)) (h22 : W (main_v22 : DevRef τ sig) = fun _ => 1#32) (d : Fin 2) :
    after opsA W (main_v25 : DevRef τ sig) (ix1 d)
      = IntOp.addi (Cert.Spec.gmxOf (W (main_arg0 : DevRef τ sig)) (ix1 d)) 1#32 := by
  simp only [opsA, ops0, List.drop_succ_cons, List.drop_zero]
  after_results_simp
  simp only [addi, h22]
  rfl

set_option maxRecDepth 8192 in
/-- The kernel origin repeated over the batches. -/
theorem A_v45 (W : Valuation τ sig (Elt F)) (h9 : W (main_v9 : DevRef τ sig) = fun _ => 1#32) (b : Fin 8) (d : Fin 2) :
    after opsA W (main_v45 : DevRef τ sig) (ix2 b d) = 1#32 := by
  simp only [opsA, ops0, List.drop_succ_cons, List.drop_zero]
  after_results_simp
  simp only [bc_12_m2, bc_2_12, h9]

set_option maxRecDepth 8192 in
theorem A_v1 (W : Valuation τ sig (Elt F)) : after opsA W (main_v1 : DevRef τ sig) = W (main_v1 : DevRef τ sig) := by
  simp only [opsA, ops0, List.drop_succ_cons, List.drop_zero]
  after_results_simp

set_option maxRecDepth 8192 in
theorem A_v18 (W : Valuation τ sig (Elt F)) : after opsA W (main_v18 : DevRef τ sig) = W (main_v18 : DevRef τ sig) := by
  simp only [opsA, ops0, List.drop_succ_cons, List.drop_zero]
  after_results_simp

/-- The three reductions of the coordinates (and the index end). -/
abbrev opsA1 : List (HloOp τ sig (Elt F)) := (ops0.drop 70).take 8
/-- The window starts, from the reductions. -/
abbrev opsA2 : List (HloOp τ sig (Elt F)) := (ops0.drop 70).drop 8

theorem after_opsA (W : Valuation τ sig (Elt F)) : after opsA W = after opsA2 (after opsA1 W) := by
  rw [← after_append]; exact congrArg (fun l => after l W) (List.take_append_drop 8 (ops0.drop 70)).symm

set_option maxRecDepth 8192 in
/-- Each batch's least coordinate is the specification's reduction. -/
theorem A1_v26 (W : Valuation τ sig (Elt F)) :
    after opsA1 W (main_v26 : DevRef τ sig) = Cert.Spec.mnOf (W (main_arg0 : DevRef τ sig)) := by
  simp only [opsA1, ops0, List.drop_succ_cons, List.drop_zero, List.take_succ_cons, List.take_zero]
  after_results_simp
  rfl

set_option maxRecDepth 8192 in
theorem A1_v17 (W : Valuation τ sig (Elt F)) : after opsA1 W (main_v17 : DevRef τ sig) = W (main_v17 : DevRef τ sig) := by
  simp only [opsA1, ops0, List.drop_succ_cons, List.drop_zero, List.take_succ_cons, List.take_zero]
  after_results_simp

set_option maxRecDepth 8192 in
theorem A1_v18 (W : Valuation τ sig (Elt F)) : after opsA1 W (main_v18 : DevRef τ sig) = W (main_v18 : DevRef τ sig) := by
  simp only [opsA1, ops0, List.drop_succ_cons, List.drop_zero, List.take_succ_cons, List.take_zero]
  after_results_simp

set_option maxRecDepth 8192 in
theorem A1_v1 (W : Valuation τ sig (Elt F)) : after opsA1 W (main_v1 : DevRef τ sig) = W (main_v1 : DevRef τ sig) := by
  simp only [opsA1, ops0, List.drop_succ_cons, List.drop_zero, List.take_succ_cons, List.take_zero]
  after_results_simp

/-- The three stretches of the window-start computation: the least coordinate less one, its floor quotient by
    the stride, and the quotient brought back to the grid and bounded below by zero. -/
abbrev opsA2a : List (HloOp τ sig (Elt F)) := (ops0.drop 78).take 6
abbrev opsA2b : List (HloOp τ sig (Elt F)) := (ops0.drop 84).take 17
abbrev opsA2c : List (HloOp τ sig (Elt F)) := ops0.drop 101

set_option maxRecDepth 8192 in
theorem opsA2_split : (opsA2 : List (HloOp τ sig (Elt F))) = opsA2a ++ (opsA2b ++ opsA2c) := by
  simp only [opsA2, opsA2a, opsA2b, opsA2c, ops0, List.drop_succ_cons, List.drop_zero, List.take_succ_cons, List.take_zero,
    List.cons_append, List.nil_append]

set_option maxRecDepth 8192 in
/-- The first stretch leaves the least coordinate plus the kernel start offset -1, less the index start offset 0. -/
theorem A2a_v33 (W : Valuation τ sig (Elt F))
    (h17 : W (main_v17 : DevRef τ sig) = fun _ => 4294967295#32)
    (h18 : W (main_v18 : DevRef τ sig) = fun _ => 0#32) (b : Fin 8) (d : Fin 2) :
    after opsA2a W (main_v33 : DevRef τ sig) (ix2 b d)
      = IntOp.subi (IntOp.addi (W (main_v26 : DevRef τ sig) (ix2 b d)) 4294967295#32) 0#32 := by
  simp only [opsA2a, ops0, List.drop_succ_cons, List.drop_zero, List.take_succ_cons, List.take_zero]
  after_results_simp
  simp only [h17, h18]
  rfl

set_option maxRecDepth 8192 in
theorem A2a_v1 (W : Valuation τ sig (Elt F)) : after opsA2a W (main_v1 : DevRef τ sig) = W (main_v1 : DevRef τ sig) := by
  simp only [opsA2a, ops0, List.drop_succ_cons, List.drop_zero, List.take_succ_cons, List.take_zero]
  after_results_simp

set_option maxRecDepth 8192 in
theorem A2a_v18 (W : Valuation τ sig (Elt F)) : after opsA2a W (main_v18 : DevRef τ sig) = W (main_v18 : DevRef τ sig) := by
  simp only [opsA2a, ops0, List.drop_succ_cons, List.drop_zero, List.take_succ_cons, List.take_zero]
  after_results_simp

set_option maxRecDepth 8192 in
/-- The second stretch is the floor quotient by the stride. -/
theorem A2b_v34 (W : Valuation τ sig (Elt F))
    (h1 : W (main_v1 : DevRef τ sig) = fun _ => 2#32) (b : Fin 8) (d : Fin 2) :
    after opsA2b W (main_v34 : DevRef τ sig) (ix2 b d)
      = Cert.Spec.fdivW (W (main_v33 : DevRef τ sig) (ix2 b d)) 2#32 := by
  simp only [opsA2b, ops0, List.drop_succ_cons, List.drop_zero, List.take_succ_cons, List.take_zero]
  after_results_simp
  simp only [StableHlo.TRef.ofBuf, StableHlo.TRef.toBuf, cast_eq, id]
  simp only [select, andi, cmpi, signi, subi, Host.remsi, Host.divsi, broadcastInDim, constantI, h1]
  rfl

set_option maxRecDepth 8192 in
theorem A2b_v1 (W : Valuation τ sig (Elt F)) : after opsA2b W (main_v1 : DevRef τ sig) = W (main_v1 : DevRef τ sig) := by
  simp only [opsA2b, ops0, List.drop_succ_cons, List.drop_zero, List.take_succ_cons, List.take_zero]
  after_results_simp

set_option maxRecDepth 8192 in
theorem A2b_v18 (W : Valuation τ sig (Elt F)) : after opsA2b W (main_v18 : DevRef τ sig) = W (main_v18 : DevRef τ sig) := by
  simp only [opsA2b, ops0, List.drop_succ_cons, List.drop_zero, List.take_succ_cons, List.take_zero]
  after_results_simp

set_option maxRecDepth 8192 in
/-- The third stretch brings the quotient back to the grid and bounds it below by the index start offset 0. -/
theorem A2c_v43 (W : Valuation τ sig (Elt F))
    (h18 : W (main_v18 : DevRef τ sig) = fun _ => 0#32)
    (h1 : W (main_v1 : DevRef τ sig) = fun _ => 2#32) (b : Fin 8) (d : Fin 2) :
    after opsA2c W (main_v43 : DevRef τ sig) (ix2 b d)
      = IntOp.maxsi 0#32 (IntOp.addi (IntOp.muli (W (main_v34 : DevRef τ sig) (ix2 b d)) 2#32) 0#32) := by
  simp only [opsA2c, ops0, List.drop_succ_cons, List.drop_zero, List.take_succ_cons, List.take_zero]
  after_results_simp
  simp only [h18, h1]
  rfl

/-- Where a batch's window starts along one dimension, from the batch's least coordinate there: the stride-2 grid
    point at or below that coordinate less one, and never below zero, as the shared specification has it. -/
theorem A2_v43 (W : Valuation τ sig (Elt F))
    (h17 : W (main_v17 : DevRef τ sig) = fun _ => 4294967295#32)
    (h18 : W (main_v18 : DevRef τ sig) = fun _ => 0#32)
    (h1 : W (main_v1 : DevRef τ sig) = fun _ => 2#32) (b : Fin 8) (d : Fin 2) :
    after opsA2 W (main_v43 : DevRef τ sig) (ix2 b d)
      = Cert.Spec.startW (W (main_v26 : DevRef τ sig) (ix2 b d)) := by
  rw [opsA2_split, StableHlo.after_append, StableHlo.after_append]
  rw [A2c_v43 _ ((A2b_v18 _).trans ((A2a_v18 W).trans h18)) ((A2b_v1 _).trans ((A2a_v1 W).trans h1)) b d,
    A2b_v34 _ ((A2a_v1 W).trans h1) b d, A2a_v33 W h17 h18 b d]
  rfl

/-- Each batch's window start along each dimension. -/
theorem A_v43 (W : Valuation τ sig (Elt F))
    (h17 : W (main_v17 : DevRef τ sig) = fun _ => 4294967295#32)
    (h18 : W (main_v18 : DevRef τ sig) = fun _ => 0#32)
    (h1 : W (main_v1 : DevRef τ sig) = fun _ => 2#32) (b : Fin 8) (d : Fin 2) :
    after opsA W (main_v43 : DevRef τ sig) (ix2 b d)
      = Cert.Spec.startW (Cert.Spec.mnOf (W (main_arg0 : DevRef τ sig)) (ix2 b d)) := by
  rw [after_opsA, A2_v43 _ (by rw [A1_v17, h17]) (by rw [A1_v18, h18]) (by rw [A1_v1, h1]) b d, A1_v26]

/-! ## The window ends -/

set_option maxRecDepth 8192 in
/-- Where a batch's window ends along one dimension: the least of the greatest coordinate over all batches plus one
    and of the stride-2 grid point after the batch's own greatest coordinate, as the shared specification has it. -/
theorem B1_v61 (W : Valuation τ sig (Elt F))
    (h18 : W (main_v18 : DevRef τ sig) = fun _ => 0#32)
    (h1 : W (main_v1 : DevRef τ sig) = fun _ => 2#32) (b : Fin 8) (d : Fin 2) (gmx : BitVec 32)
    (h45 : W (main_v45 : DevRef τ sig) (ix2 b d) = 1#32)
    (h25 : W (main_v25 : DevRef τ sig) (ix1 d) = IntOp.addi gmx 1#32) :
    after opsB1 W (main_v61 : DevRef τ sig) (ix2 b d)
      = Cert.Spec.endW gmx (W (main_v27 : DevRef τ sig) (ix2 b d)) := by
  simp only [opsB1, ops1, List.take_succ_cons, List.take_zero]
  after_results_simp
  simp only [TRef.toBuf, TRef.ofBuf, cast_eq, id, muli, subi, addi, maxsi, minsi, Host.divsi, Host.remsi, signi, cmpi, andi, select,
    bc_12_m2, bc_2_12, bc_scalar, constantI, h18, h1, h45, h25]
  rfl

set_option maxRecDepth 8192 in
theorem B1_v43 (W : Valuation τ sig (Elt F)) : after opsB1 W (main_v43 : DevRef τ sig) = W (main_v43 : DevRef τ sig) := by
  simp only [opsB1, ops1, List.drop_succ_cons, List.drop_zero, List.take_succ_cons, List.take_zero]
  after_results_simp

set_option maxRecDepth 8192 in
theorem B1_v18 (W : Valuation τ sig (Elt F)) : after opsB1 W (main_v18 : DevRef τ sig) = W (main_v18 : DevRef τ sig) := by
  simp only [opsB1, ops1, List.drop_succ_cons, List.drop_zero, List.take_succ_cons, List.take_zero]
  after_results_simp

set_option maxRecDepth 8192 in
theorem B1_v1 (W : Valuation τ sig (Elt F)) : after opsB1 W (main_v1 : DevRef τ sig) = W (main_v1 : DevRef τ sig) := by
  simp only [opsB1, ops1, List.drop_succ_cons, List.drop_zero, List.take_succ_cons, List.take_zero]
  after_results_simp

/-! ## The candidate grid and the validity bits -/

set_option maxRecDepth 8192 in
/-- Candidate i of either dimension is 0 + i * 2. -/
theorem B2_v70 (W : Valuation τ sig (Elt F))
    (h18 : W (main_v18 : DevRef τ sig) = fun _ => 0#32)
    (h1 : W (main_v1 : DevRef τ sig) = fun _ => 2#32) (i : Fin 256) (d : Fin 2) :
    after opsB2 W (main_v70 : DevRef τ sig) (ix2 i d) = Cert.Spec.gW i.val := by
  simp only [opsB2, ops1, List.drop_succ_cons, List.drop_zero, List.take_succ_cons, List.take_zero]
  after_results_simp
  simp only [TRef.toBuf, TRef.ofBuf, cast_eq, id, muli, subi, addi, maxsi, minsi, Host.divsi, Host.remsi, signi, cmpi, andi, select, bc_2_12, bc_12_m2, bc_256_2561, bc_2561_2562, bc_2562_12562, bc_12562_82562, bc_82_812, bc_812_82562, bc_8256_82561, bc_8256_81256, bc_82561_8256256, bc_81256_8256256, h18, h1]
  rfl

set_option maxRecDepth 8192 in
/-- Candidate i is valid along dimension d for batch b when it lies between the batch's window start and end. -/
theorem B2_v81 (W : Valuation τ sig (Elt F))
    (h18 : W (main_v18 : DevRef τ sig) = fun _ => 0#32)
    (h1 : W (main_v1 : DevRef τ sig) = fun _ => 2#32) (b : Fin 8) (i : Fin 256) (d : Fin 2) (s e : BitVec 32)
    (h43 : W (main_v43 : DevRef τ sig) (ix2 b d) = s) (h61 : W (main_v61 : DevRef τ sig) (ix2 b d) = e) :
    after opsB2 W (main_v81 : DevRef τ sig) (ix3 b i d)
      = IntOp.andi (IntOp.cmpi .sge (Cert.Spec.gW i.val) s) (IntOp.cmpi .slt (Cert.Spec.gW i.val) e) := by
  simp only [opsB2, ops1, List.drop_succ_cons, List.drop_zero, List.take_succ_cons, List.take_zero]
  after_results_simp
  simp only [TRef.toBuf, TRef.ofBuf, cast_eq, id, muli, subi, addi, maxsi, minsi, Host.divsi, Host.remsi, signi, cmpi, andi, select, bc_2_12, bc_12_m2, bc_256_2561, bc_2561_2562, bc_2562_12562, bc_12562_82562, bc_82_812, bc_812_82562, bc_8256_82561, bc_8256_81256, bc_82561_8256256, bc_81256_8256256, h18, h1, h43, h61]
  rfl

/-! ## The mask -/

set_option maxRecDepth 8192 in
/-- The mask at (b, i, j): candidate i valid along dimension 0 and candidate j valid along dimension 1. -/
theorem B3_v90 (W : Valuation τ sig (Elt F)) (b : Fin 8) (i j : Fin 256) :
    after opsB3 W (main_v90 : DevRef τ sig) (ix3 b i j)
      = IntOp.andi (W (main_v81 : DevRef τ sig) (ix3 b i 0)) (W (main_v81 : DevRef τ sig) (ix3 b j 1)) := by
  simp only [opsB3, ops1, List.drop_succ_cons, List.drop_zero, List.take_succ_cons, List.take_zero]
  after_results_simp
  simp only [TRef.toBuf, TRef.ofBuf, cast_eq, id, muli, subi, addi, maxsi, minsi, Host.divsi, Host.remsi, signi, cmpi, andi, select, bc_2_12, bc_12_m2, bc_256_2561, bc_2561_2562, bc_2562_12562, bc_12562_82562, bc_82_812, bc_812_82562, bc_8256_82561, bc_8256_81256, bc_82561_8256256, bc_81256_8256256]
  refine congrArg₂ IntOp.andi ?_ ?_
  · exact (cast_82561_8256 _ _ b i).trans (slice_82562 0 (by decide) _ _ b i 0)
  · exact (cast_82561_8256 _ _ b j).trans (slice_82562 1 (by decide) _ _ b j 0)

/-- The stride vector after the whole first window. -/
theorem O_v1 (V : Valuation τ sig (Elt F)) : after ops0 V (main_v1 : DevRef τ sig) = fun _ => 2#32 := by
  rw [after_ops0, A_v1, K_v1]

/-- The index start offset after the whole first window. -/
theorem O_v18 (V : Valuation τ sig (Elt F)) : after ops0 V (main_v18 : DevRef τ sig) = fun _ => 0#32 := by
  rw [after_ops0, A_v18, K_v18]

set_option maxRecDepth 8192 in
theorem B4_v90 (W : Valuation τ sig (Elt F)) : after opsB4 W (main_v90 : DevRef τ sig) = W (main_v90 : DevRef τ sig) := by
  simp only [opsB4, ops1, List.drop_succ_cons, List.drop_zero, List.take_succ_cons, List.take_zero]
  after_results_simp

set_option maxRecDepth 8192 in
theorem C_v90 (W : Valuation τ sig (Elt F)) : after ops2 W (main_v90 : DevRef τ sig) = W (main_v90 : DevRef τ sig) := by
  simp only [ops2]
  after_results_simp

set_option maxRecDepth 8192 in
theorem D_v90 (W : Valuation τ sig (Elt F)) : after ops3 W (main_v90 : DevRef τ sig) = W (main_v90 : DevRef τ sig) := by
  simp only [ops3]
  after_results_simp

/-- The mask is the specification's, of the coordinates argument. -/
theorem ref_v90 (V : Valuation τ sig (Elt F)) :
    StableHlo.after ops V (main_v90 : DevRef τ sig) = Cert.Spec.mask (V (main_arg0 : DevRef τ sig)) := by
  rw [after_ops_cut, D_v90, C_v90, B4_v90]
  -- the stride and the index start offset, where the window ends and the grid are computed
  have h18A : after opsA (after opsK V) (main_v18 : DevRef τ sig) = fun _ => 0#32 := by rw [A_v18, K_v18]
  have h1A : after opsA (after opsK V) (main_v1 : DevRef τ sig) = fun _ => 2#32 := by rw [A_v1, K_v1]
  have h18B : after opsB1 (after opsA (after opsK V)) (main_v18 : DevRef τ sig) = fun _ => 0#32 := by rw [B1_v18, h18A]
  have h1B : after opsB1 (after opsA (after opsK V)) (main_v1 : DevRef τ sig) = fun _ => 2#32 := by rw [B1_v1, h1A]
  -- each batch's window
  have h43 : ∀ (b : Fin 8) (d : Fin 2), after opsB1 (after opsA (after opsK V)) (main_v43 : DevRef τ sig) (ix2 b d)
      = Cert.Spec.startW (Cert.Spec.mnOf (V (main_arg0 : DevRef τ sig)) (ix2 b d)) := by
    intro b d
    rw [B1_v43, A_v43 _ (K_v17 V) (K_v18 V) (K_v1 V) b d, K_arg0]
  have h61 : ∀ (b : Fin 8) (d : Fin 2), after opsB1 (after opsA (after opsK V)) (main_v61 : DevRef τ sig) (ix2 b d)
      = Cert.Spec.endW (Cert.Spec.gmxOf (V (main_arg0 : DevRef τ sig)) (ix1 d))
          (Cert.Spec.mxOf (V (main_arg0 : DevRef τ sig)) (ix2 b d)) := by
    intro b d
    rw [B1_v61 _ h18A h1A b d (Cert.Spec.gmxOf (V (main_arg0 : DevRef τ sig)) (ix1 d)) (A_v45 _ (K_v9 V) b d)
      (by rw [A_v25 _ (K_v22 V) d, K_arg0]), A_v27, K_arg0]
  -- the validity bits
  have hv : ∀ (b : Fin 8) (d : Fin 2) (i : Fin 256),
      after opsB2 (after opsB1 (after opsA (after opsK V))) (main_v81 : DevRef τ sig) (ix3 b i d)
        = Cert.Spec.validBit (V (main_arg0 : DevRef τ sig)) b d i := by
    intro b d i
    rw [B2_v81 _ h18B h1B b i d _ _ (h43 b d) (h61 b d)]
    rfl
  -- the mask, coordinate by coordinate
  have key : ∀ (b : Fin 8) (i j : Fin 256),
      after opsB3 (after opsB2 (after opsB1 (after opsA (after opsK V)))) (main_v90 : DevRef τ sig) (ix3 b i j)
        = Cert.Spec.maskBit (V (main_arg0 : DevRef τ sig)) b i j := by
    intro b i j
    rw [B3_v90, hv, hv]
    rfl
  funext idx
  exact (congrArg (after opsB3 (after opsB2 (after opsB1 (after opsA (after opsK V)))) (main_v90 : DevRef τ sig))
    (eq_ix3 idx)).trans (key (idx 0) (idx 1) (idx 2))

/-! ## The candidate grid

The grid is 0 + i * 2 in both columns: the index start offset main_v18 is the constant 0 (the kernel origin
1 * floor(3 - 1, 2) * (3 mod 2) = 1 less the padding 1) and the stride main_v1 the constant 2; both are closed
two-entry terms, read off by evaluation.  Its two columns clipped to [0, 511] are the grid again, 2 i being at
most 510. -/

set_option maxHeartbeats 1000000 in
/-- The grid, from the two constants, over any contents that hold them. -/
theorem grid_of (W : Valuation τ sig (Elt F)) (h1 : W (main_v1 : DevRef τ sig) = fun _ => 2#32)
    (h18 : W (main_v18 : DevRef τ sig) = fun _ => 0#32) :
    StableHlo.after ops1 W (main_v70 : DevRef τ sig) = fun idx => Cert.Spec.gW (idx 0).val := by
  simp only [ops1]
  after_results_simp
  rw [h1, h18]
  refine funext fun (idx : S256x2.Idx) => ?_
  rfl

set_option maxHeartbeats 1000000 in
/-- Column 0 of the grid, clipped. -/
theorem grid_col0_of (W : Valuation τ sig (Elt F)) (h1 : W (main_v1 : DevRef τ sig) = fun _ => 2#32)
    (h18 : W (main_v18 : DevRef τ sig) = fun _ => 0#32) :
    StableHlo.after ops1 W (main_v93 : DevRef τ sig) = fun idx => Cert.Spec.gW (idx 0).val := by
  simp only [ops1]
  after_results_simp
  rw [h1, h18]
  refine funext fun (idx : S256.Idx) => ?_
  simp only [TRef.ofBuf, TRef.toBuf, cast_cast, cast_eq, id]
  obtain ⟨i, rfl⟩ : ∃ i, idx = ix1 i := ⟨idx 0, eq_ix1 idx⟩
  show IntOp.minsi 511#32 (IntOp.maxsi 0#32 (shapeCast (⟨1, ![256]⟩ : Shape)
      (extractStridedSlice (⟨2, ![256, 1]⟩ : Shape) ![0, 0] (fun k : S256x2.Idx => Cert.Spec.gW (k 0).val) slices_S256x2_S256x1_0_0)
      shapeCasts_S256x1_S256 (ix1 i))) = Cert.Spec.gW i.val
  rw [cast_2561_256, slice_2562 0 (by omega)]
  exact clip_gW i

set_option maxHeartbeats 1000000 in
/-- Column 1 of the grid, clipped. -/
theorem grid_col1_of (W : Valuation τ sig (Elt F)) (h1 : W (main_v1 : DevRef τ sig) = fun _ => 2#32)
    (h18 : W (main_v18 : DevRef τ sig) = fun _ => 0#32) :
    StableHlo.after ops1 W (main_v96 : DevRef τ sig) = fun idx => Cert.Spec.gW (idx 0).val := by
  simp only [ops1]
  after_results_simp
  rw [h1, h18]
  refine funext fun (idx : S256.Idx) => ?_
  simp only [TRef.ofBuf, TRef.toBuf, cast_cast, cast_eq, id]
  obtain ⟨i, rfl⟩ : ∃ i, idx = ix1 i := ⟨idx 0, eq_ix1 idx⟩
  show IntOp.minsi 511#32 (IntOp.maxsi 0#32 (shapeCast (⟨1, ![256]⟩ : Shape)
      (extractStridedSlice (⟨2, ![256, 1]⟩ : Shape) ![0, 1] (fun k : S256x2.Idx => Cert.Spec.gW (k 0).val) slices_S256x2_S256x1_0_1)
      shapeCasts_S256x1_S256 (ix1 i))) = Cert.Spec.gW i.val
  rw [cast_2561_256, slice_2562 1 (by omega)]
  exact clip_gW i

/-- The later operations write none of the three. -/
theorem keep2_v70 (W : Valuation τ sig (Elt F)) : StableHlo.after ops2 W (main_v70 : DevRef τ sig) = W (main_v70 : DevRef τ sig) := by
  simp only [ops2]; after_results_simp
theorem keep3_v70 (W : Valuation τ sig (Elt F)) : StableHlo.after ops3 W (main_v70 : DevRef τ sig) = W (main_v70 : DevRef τ sig) := by
  simp only [ops3]; after_results_simp
theorem keep2_v93 (W : Valuation τ sig (Elt F)) : StableHlo.after ops2 W (main_v93 : DevRef τ sig) = W (main_v93 : DevRef τ sig) := by
  simp only [ops2]; after_results_simp
theorem keep3_v93 (W : Valuation τ sig (Elt F)) : StableHlo.after ops3 W (main_v93 : DevRef τ sig) = W (main_v93 : DevRef τ sig) := by
  simp only [ops3]; after_results_simp
theorem keep2_v96 (W : Valuation τ sig (Elt F)) : StableHlo.after ops2 W (main_v96 : DevRef τ sig) = W (main_v96 : DevRef τ sig) := by
  simp only [ops2]; after_results_simp
theorem keep3_v96 (W : Valuation τ sig (Elt F)) : StableHlo.after ops3 W (main_v96 : DevRef τ sig) = W (main_v96 : DevRef τ sig) := by
  simp only [ops3]; after_results_simp

/-- The candidate grid: both columns of row i hold 0 + i * 2. -/
theorem ref_v70 (V : Valuation τ sig (Elt F)) :
    StableHlo.after ops V (main_v70 : DevRef τ sig) = fun idx => Cert.Spec.gW (idx 0).val := by
  rw [after_ops, keep3_v70, keep2_v70, grid_of _ (O_v1 V) (O_v18 V)]

/-- The first column of the grid clipped to [0, 511]: the clip changes nothing, 2 i being at most 510. -/
theorem ref_v93 (V : Valuation τ sig (Elt F)) :
    StableHlo.after ops V (main_v93 : DevRef τ sig) = fun idx => Cert.Spec.gW (idx 0).val := by
  rw [after_ops, keep3_v93, keep2_v93, grid_col0_of _ (O_v1 V) (O_v18 V)]

/-- The second column of the grid clipped to [0, 511]. -/
theorem ref_v96 (V : Valuation τ sig (Elt F)) :
    StableHlo.after ops V (main_v96 : DevRef τ sig) = fun idx => Cert.Spec.gW (idx 0).val := by
  rw [after_ops, keep3_v96, keep2_v96, grid_col1_of _ (O_v1 V) (O_v18 V)]

/-! ## The reported coordinates

The three columns of the result are the batch number and, for the candidate rows i and j, the floor quotient of the
candidate coordinate less the index start offset by the stride.  The offset (0) and the stride (2) are closed words of
the program's configuration; the candidate coordinate is the grid's. -/

/-- The stride vector: both entries 2. -/
theorem rc_v1 (V : Valuation τ sig (Elt F)) :
    StableHlo.after ops V (main_v1 : DevRef τ sig) = fun _ => 2#32 := by
  rw [after_ops]
  after_results_simp
  rfl

set_option maxRecDepth 8192 in
set_option maxHeartbeats 1000000 in
/-- The index start offset, ((3 - 1) // 2) * (3 mod 2) - 1 entrywise: both entries 0. -/
theorem rc_v18 (V : Valuation τ sig (Elt F)) :
    StableHlo.after ops V (main_v18 : DevRef τ sig) = fun _ => 0#32 := by
  refine funext fun (idx : S2.Idx) => ?_
  rw [after_ops]
  after_results_simp
  simp only [TRef.toBuf, TRef.ofBuf, cast_eq, id, muli, subi, addi, Host.divsi, Host.remsi, signi, cmpi, andi, select, broadcastInDim, constantI]
  show IntOp.subi (IntOp.muli (IntOp.muli 1#32 (Cert.Spec.fdivW (IntOp.subi 3#32 1#32) 2#32)) (Cert.Spec.remW 3#32 2#32)) 1#32 = 0#32
  decide

set_option maxRecDepth 8192 in
set_option maxHeartbeats 4000000 in
/-- The floor quotient of the shifted grid by the stride, as the program composes it from the grid, the offset and
    the stride: the quotient, less one where the signs differ and the remainder is not zero. -/
theorem rc_v147_of (V : Valuation τ sig (Elt F)) :
    StableHlo.after ops V (main_v147 : DevRef τ sig)
      = (let x : IVec S256x2 32 := subi (StableHlo.after ops V (main_v70 : DevRef τ sig))
            (broadcastInDim S256x2 ![0, 1] bcast_S1x2_S256x2_0_1 (broadcastInDim S1x2 ![1] bcast_S2_S1x2_1 (StableHlo.after ops V (main_v18 : DevRef τ sig))))
         let y : IVec S1x2 32 := broadcastInDim S1x2 ![1] bcast_S2_S1x2_1 (StableHlo.after ops V (main_v1 : DevRef τ sig))
         let q : IVec S256x2 32 := Host.divsi x (broadcastInDim S256x2 ![0, 1] bcast_S1x2_S256x2_0_1 y)
         select (andi (cmpi .ne (signi x) (broadcastInDim S256x2 ![0, 1] bcast_S1x2_S256x2_0_1 (signi y)))
                   (cmpi .ne (Host.remsi x (broadcastInDim S256x2 ![0, 1] bcast_S1x2_S256x2_0_1 y)) (broadcastInDim S256x2 ![] bcast_S_S256x2 (constantI S_ 32 0#32))))
           (subi q (broadcastInDim S256x2 ![] bcast_S_S256x2 (constantI S_ 32 1#32))) q) := by
  rw [after_ops]
  after_results_simp
  simp only [TRef.toBuf, TRef.ofBuf, cast_eq, id]

/-- Both columns of row i of the floor quotient hold floor((g(i) - 0) / 2): with the grid g(i) in both columns, the
    offset 0 and the stride 2, the program's quotient-and-correction is the specification's floor division, entry by
    entry. -/
theorem rc_v147 (V : Valuation τ sig (Elt F)) :
    StableHlo.after ops V (main_v147 : DevRef τ sig) = fun idx => Cert.Spec.adjW (idx 0).val := by
  rw [rc_v147_of, ref_v70, rc_v18, rc_v1]
  funext idx
  rfl

set_option maxRecDepth 8192 in
set_option maxHeartbeats 4000000 in
/-- The reported coordinates as the program composes them from the floor quotient: the batch number, row i's
    quotient and row j's quotient, each spread over the grid and laid side by side as three columns. -/
theorem rc_v162_of (V : Valuation τ sig (Elt F)) :
    StableHlo.after ops V (main_v162 : DevRef τ sig)
      = (let q : IVec S256x2 32 := StableHlo.after ops V (main_v147 : DevRef τ sig)
         let c0 : IVec S8x256x256x1 32 := broadcastInDim S8x256x256x1 ![0, 1, 2] bcast_S8x256x256_S8x256x256x1_0_1_2
           (broadcastInDim S8x256x256 ![0, 1, 2] bcast_S8x1x1_S8x256x256_0_1_2 (broadcastInDim S8x1x1 ![0] bcast_S8_S8x1x1_0 (iotaInDim S8 32 0)))
         let c1 : IVec S8x256x256x1 32 := broadcastInDim S8x256x256x1 ![0, 1, 2] bcast_S8x256x256_S8x256x256x1_0_1_2
           (broadcastInDim S8x256x256 ![0, 1, 2] bcast_S1x256x1_S8x256x256_0_1_2 (broadcastInDim S1x256x1 ![1] bcast_S256_S1x256x1_1
             (shapeCast S256 (extractStridedSlice S256x1 ![0, 0] q slices_S256x2_S256x1_0_0) shapeCasts_S256x1_S256)))
         let c2 : IVec S8x256x256x1 32 := broadcastInDim S8x256x256x1 ![0, 1, 2] bcast_S8x256x256_S8x256x256x1_0_1_2
           (broadcastInDim S8x256x256 ![0, 1, 2] bcast_S1x1x256_S8x256x256_0_1_2 (broadcastInDim S1x1x256 ![2] bcast_S256_S1x1x256_2
             (shapeCast S256 (extractStridedSlice S256x1 ![0, 1] q slices_S256x2_S256x1_0_1) shapeCasts_S256x1_S256)))
         concatenate S8x256x256x3 3 [⟨S8x256x256x1, c0⟩, ⟨S8x256x256x1, c1⟩, ⟨S8x256x256x1, c2⟩]
           concatenates_S8x256x256x1_S8x256x256x1_S8x256x256x1_S8x256x256x3_d3) := by
  rw [after_ops]
  fold_results
  rfl

/-- The reported coordinates are the specification's: read at (b, i, j, k), column k of the three pieces laid side by
    side is the batch number b, row i's floor quotient, or row j's. -/
theorem ref_v162 (V : Valuation τ sig (Elt F)) :
    StableHlo.after ops V (main_v162 : DevRef τ sig) = Cert.Spec.outCoords := by
  rw [rc_v162_of, rc_v147]
  refine funext fun (idx : S8x256x256x3.Idx) => ?_
  obtain ⟨b, i, j, k, rfl⟩ : ∃ b i j k, idx = ix4 b i j k := ⟨_, _, _, _, eq_ix4 idx⟩
  show _ = Cert.Spec.outCoordsAt b i j k
  dsimp only
  rw [concat3_at]
  fin_cases k
  · dsimp only
    rw [bc_8256256_82562561, bc_811_8256256, bc_8_811]
    rfl
  · dsimp only
    rw [bc_8256256_82562561, bc_12561_8256256, bc_256_12561, cast_2561_256, slice_2562 0 (by omega)]
    rfl
  · dsimp only
    rw [bc_8256256_82562561, bc_11256_8256256, bc_256_11256, cast_2561_256, slice_2562 1 (by omega)]
    rfl

/-! ## The arguments are left alone -/

/-- No operation writes an argument: every one of the 286 results is another buffer, so the fold leaves the
    argument's contents as they were. -/
theorem ref_arg0 (V : Valuation τ sig (Elt F)) :
    StableHlo.after ops V (main_arg0 : DevRef τ sig) = V (main_arg0 : DevRef τ sig) := by
  rw [after_ops]
  after_results_simp

theorem ref_arg1 (V : Valuation τ sig (Elt F)) :
    StableHlo.after ops V (main_arg1 : DevRef τ sig) = V (main_arg1 : DevRef τ sig) := by
  rw [after_ops]
  after_results_simp

theorem ref_arg2 (V : Valuation τ sig (Elt F)) :
    StableHlo.after ops V (main_arg2 : DevRef τ sig) = V (main_arg2 : DevRef τ sig) := by
  rw [after_ops]
  after_results_simp

end Cert.ReferenceIdeal.Hand

end
-- ==== Proof.LibScatterGather.lean ====
/-
  The host's scatter and gather read at an index, for the dimension numbers of a segment sum and of a row take.

  A scatter's update lands at the operand index "start + window coordinate" when that is inside the operand on every
  axis. For a segment sum over a rank-1 operand (every axis inserted, the index column read signed) update `e` lands
  at the node its index word names, or nowhere; over a rank-2 operand (rows inserted, the columns one window) update
  `(e, c)` lands at `(node, c)`. A row take's gather reads, at `(e, c)`, the operand at the row its start word names
  (read signed, clamped into the table) and column `c`. A 32-bit word read signed equals a natural below `2 ^ 31`
  exactly when the word is that natural's: the conditions are stated on the words.
-/
import Idealize.ShloMosaic.Lib.ValueIdx
import Idealize.ShloMosaic.PureOps.Contract

noncomputable section

open scoped BigOperators

namespace Cert.LibScatterGather

open Idealize.ShloMosaic Idealize.ShloMosaic.ValueIdx

/-! ## A word read signed -/

/-- A 32-bit word read signed is the natural `v < 2 ^ 31` exactly when it is `v`'s word. -/
theorem toInt_eq_natCast_iff (w : BitVec 32) (v : Nat) (hv : v < 2 ^ 31) :
    w.toInt = (v : Int) ↔ w = BitVec.ofNat 32 v := by
  have h1 : (BitVec.ofNat 32 v).toNat = v := by rw [BitVec.toNat_ofNat]; omega
  have hofnat : (BitVec.ofNat 32 v).toInt = (v : Int) := by
    rw [BitVec.toInt_eq_toNat_of_lt (by rw [h1]; omega), h1]
  constructor
  · intro h; exact BitVec.eq_of_toInt_eq (h.trans hofnat.symm)
  · rintro rfl; exact hofnat

/-- A word that names a natural below `2 ^ 31` is not negative read signed: the wrap of a negative index (add the
    table's length where the word is below zero) leaves it alone. -/
theorem wrap_select_of_word (w k : BitVec 32) (n : Nat) (hn : n < 2 ^ 31) (hw : w = BitVec.ofNat 32 n) :
    Scalar.select (IntOp.cmpi .slt w 0#32) (IntOp.addi w k) w = w := by
  have ht : w.toInt = (n : Int) := (toInt_eq_natCast_iff w n hn).2 hw
  have hslt : w.slt 0#32 = false := by
    rw [BitVec.slt_eq_decide, ht]
    simp
  have hc : IntOp.cmpi .slt w 0#32 = 0#1 := by
    show BitVec.ofBool (w.slt 0#32) = 0#1
    rw [hslt]; rfl
  rw [hc]
  exact select_zero _ _

/-! ## Where an update lands, for any dimension numbers -/

/-- An update lands at `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have h1 := congrArg (fun f => (f a).val) hf
      simp only at h1
      have h0 := (h a).1
      omega
    · intro hall
      funext a
      apply Fin.ext
      simp only
      rw [hall a]
      exact Int.toNat_natCast _
  · rename_i h
    constructor
    · intro h'; cases h'
    · intro hall
      exfalso
      apply h
      intro a
      rw [hall a]
      exact ⟨Int.natCast_nonneg _, by exact_mod_cast (i a).isLt⟩

/-! ## The segment sum over a rank-1 operand -/

/-- A segment sum's dimension numbers over an operand `[N]`, an index column `[E, 1]` and updates `[E]`. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at node `v` exactly when its index word, read signed, is `v`. -/
theorem scatter1_resultIdx?_iff_toInt {N E w : Nat} (wf : ScatterDims.WF ⟨1, ![N]⟩ ⟨2, ![E, 1]⟩ ⟨1, ![E]⟩ [] [0] [0] 1)
    (idx : IVec ⟨2, ![E, 1]⟩ w) (e : Fin E) (v : Fin N) :
    (scatter1Dims N E wf).resultIdx? (ix1 e) idx = some (ix1 v) ↔ (idx (ix2 e 0)).toInt = (v.val : Int) := by
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have hstart : (scatter1Dims N E wf).start (ix1 e) idx 0 = (idx (ix2 e 0)).toInt := by
    unfold ScatterDims.start
    rw [dif_pos (show (0 : Fin 1) ∈ (scatter1Dims N E wf).scatterDimsToOperandDims from List.mem_singleton.mpr rfl), hsi]
  have hwin : (scatter1Dims N E wf).window (ix1 e) 0 = 0 := by
    unfold ScatterDims.window
    rw [dif_neg (by simp [Shape.kept])]
  rw [resultIdx?_eq_some_iff]
  constructor
  · intro h
    have h0 := h 0
    rw [hstart, hwin] at h0
    simp only [Nat.cast_zero, add_zero] at h0
    exact h0
  · intro h a
    obtain rfl : a = 0 := Subsingleton.elim _ _
    rw [hstart, hwin]
    simp only [Nat.cast_zero, add_zero]
    exact h

/-- Update `e` lands at node `v` exactly when its index word is `v`'s word. -/
theorem scatter1_resultIdx?_iff {N E : Nat} (hN : N ≤ 2 ^ 31) (wf : ScatterDims.WF ⟨1, ![N]⟩ ⟨2, ![E, 1]⟩ ⟨1, ![E]⟩ [] [0] [0] 1)
    (idx : IVec ⟨2, ![E, 1]⟩ 32) (e : Fin E) (v : Fin N) :
    (scatter1Dims N E wf).resultIdx? (ix1 e) idx = some (ix1 v) ↔ idx (ix2 e 0) = BitVec.ofNat 32 v.val := by
  rw [scatter1_resultIdx?_iff_toInt]
  exact toInt_eq_natCast_iff _ _ (by have := v.isLt; omega)

/-- The accumulating scatter over the extended reals, read at node `v`: the operand there plus the updates of the
    edges whose index word is `v`'s. -/
theorem hostScatterAdd1_apply {N E : Nat} (hN : N ≤ 2 ^ 31) (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (v : Fin N) :
    Ideal.hostScatterAdd (scatter1Dims N E wf) x idx upd (ix1 v)
      = x (ix1 v) + ∑ e ∈ Finset.univ.filter (fun e : Fin E => idx (ix2 e 0) = BitVec.ofNat 32 v.val), upd (ix1 e) := by
  unfold Ideal.hostScatterAdd
  congr 1
  refine Finset.sum_bij' (fun j _ => (j 0 : Fin E)) (fun e _ => ix1 e) ?_ ?_ ?_ ?_ ?_
  · intro j hj
    have h := (Finset.mem_filter.1 hj).2
    rw [eq_ix1 j] at h
    exact Finset.mem_filter.2 ⟨Finset.mem_univ _, (scatter1_resultIdx?_iff hN wf idx (j 0) v).1 h⟩
  · intro e he
    exact Finset.mem_filter.2 ⟨Finset.mem_univ _, (scatter1_resultIdx?_iff hN wf idx e v).2 (Finset.mem_filter.1 he).2⟩
  · intro j _; exact (eq_ix1 j).symm
  · intro e _; rfl
  · intro j _; exact congrArg upd (eq_ix1 j)

/-! ## The segment sum over a rank-2 operand -/

/-- A segment sum's dimension numbers over an operand `[N, D]`, an index column `[E, 1]` and updates `[E, D]`. -/
abbrev scatter2Dims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update `(e, c)` lands at `(v, c')` exactly when its index word, read signed, is `v` and the columns agree. -/
theorem scatter2_resultIdx?_iff_toInt {N D E w : Nat} (wf : ScatterDims.WF ⟨2, ![N, D]⟩ ⟨2, ![E, 1]⟩ ⟨2, ![E, D]⟩ [1] [0] [0] 1)
    (idx : IVec ⟨2, ![E, 1]⟩ w) (e : Fin E) (c : Fin D) (v : Fin N) (c' : Fin D) :
    (scatter2Dims N D E wf).resultIdx? (ix2 e c) idx = some (ix2 v c') ↔ (idx (ix2 e 0)).toInt = (v.val : Int) ∧ c = c' := by
  have hsi : (scatter2Dims N D E wf).siIdx (ix2 e c) ⟨List.idxOf (0 : Fin 2) (scatter2Dims N D E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have hstart0 : (scatter2Dims N D E wf).start (ix2 e c) idx 0 = (idx (ix2 e 0)).toInt := by
    unfold ScatterDims.start
    rw [dif_pos (show (0 : Fin 2) ∈ (scatter2Dims N D E wf).scatterDimsToOperandDims from List.mem_singleton.mpr rfl), hsi]
  have hstart1 : (scatter2Dims N D E wf).start (ix2 e c) idx 1 = 0 := by
    unfold ScatterDims.start
    rw [dif_neg (by simp)]
  have hwin0 : (scatter2Dims N D E wf).window (ix2 e c) 0 = 0 := by
    unfold ScatterDims.window
    rw [dif_neg (by simp [Shape.kept])]
  have hwin1 : (scatter2Dims N D E wf).window (ix2 e c) 1 = c.val := by
    unfold ScatterDims.window
    rw [dif_pos (by simp [Shape.kept])]
    rfl
  rw [resultIdx?_eq_some_iff]
  constructor
  · intro h
    have h0 := h 0
    have h1 := h 1
    rw [hstart0, hwin0] at h0
    rw [hstart1, hwin1] at h1
    simp only [Nat.cast_zero, add_zero] at h0
    simp only [zero_add] at h1
    exact ⟨h0, Fin.ext (by exact_mod_cast h1)⟩
  · rintro ⟨h, rfl⟩ a
    match a with
    | ⟨0, _⟩ =>
      show (scatter2Dims N D E wf).start (ix2 e c) idx 0 + ((scatter2Dims N D E wf).window (ix2 e c) 0 : Int) = (v.val : Int)
      rw [hstart0, hwin0]
      simp only [Nat.cast_zero, add_zero]
      exact h
    | ⟨1, _⟩ =>
      show (scatter2Dims N D E wf).start (ix2 e c) idx 1 + ((scatter2Dims N D E wf).window (ix2 e c) 1 : Int) = (c.val : Int)
      rw [hstart1, hwin1]
      simp only [zero_add]

/-- Update `(e, c)` lands at `(v, c')` exactly when its index word is `v`'s word and the columns agree. -/
theorem scatter2_resultIdx?_iff {N D E : Nat} (hN : N ≤ 2 ^ 31) (wf : ScatterDims.WF ⟨2, ![N, D]⟩ ⟨2, ![E, 1]⟩ ⟨2, ![E, D]⟩ [1] [0] [0] 1)
    (idx : IVec ⟨2, ![E, 1]⟩ 32) (e : Fin E) (c : Fin D) (v : Fin N) (c' : Fin D) :
    (scatter2Dims N D E wf).resultIdx? (ix2 e c) idx = some (ix2 v c') ↔ idx (ix2 e 0) = BitVec.ofNat 32 v.val ∧ c = c' := by
  rw [scatter2_resultIdx?_iff_toInt, toInt_eq_natCast_iff _ _ (by have := v.isLt; omega)]

/-- The accumulating scatter over the extended reals, read at `(v, c)`: the operand there plus column `c` of the
    updates of the edges whose index word is `v`'s. -/
theorem hostScatterAdd2_apply {N D E : Nat} (hN : N ≤ 2 ^ 31) (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (v : Fin N) (c : Fin D) :
    Ideal.hostScatterAdd (scatter2Dims N D E wf) x idx upd (ix2 v c)
      = x (ix2 v c) + ∑ e ∈ Finset.univ.filter (fun e : Fin E => idx (ix2 e 0) = BitVec.ofNat 32 v.val), upd (ix2 e c) := by
  unfold Ideal.hostScatterAdd
  congr 1
  have hmem : ∀ j : (⟨2, ![E, D]⟩ : Shape).Idx, (scatter2Dims N D E wf).resultIdx? j idx = some (ix2 v c) →
      idx (ix2 (j 0 : Fin E) 0) = BitVec.ofNat 32 v.val ∧ (j 1 : Fin D) = c := by
    intro j h
    rw [eq_ix2 j] at h
    exact (scatter2_resultIdx?_iff hN wf idx (j 0) (j 1) v c).1 h
  refine Finset.sum_bij' (fun j _ => (j 0 : Fin E)) (fun e _ => ix2 e c) ?_ ?_ ?_ ?_ ?_
  · intro j hj
    exact Finset.mem_filter.2 ⟨Finset.mem_univ _, (hmem j (Finset.mem_filter.1 hj).2).1⟩
  · intro e he
    exact Finset.mem_filter.2 ⟨Finset.mem_univ _,
      (scatter2_resultIdx?_iff hN wf idx e c v c).2 ⟨(Finset.mem_filter.1 he).2, rfl⟩⟩
  · intro j hj
    have hc := (hmem j (Finset.mem_filter.1 hj).2).2
    exact (congrArg (fun q => ix2 (j 0 : Fin E) q) hc.symm).trans (eq_ix2 j).symm
  · intro e _; rfl
  · intro j hj
    have hc := (hmem j (Finset.mem_filter.1 hj).2).2
    exact congrArg upd ((eq_ix2 j).trans (congrArg (fun q => ix2 (j 0 : Fin E) q) hc))

/-! ## The row take -/

/-- A row take's dimension numbers over a table `[N, D]`, a start column `[E, 1]` and a result `[E, D]`. -/
abbrev rowTakeDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The take reads, at `(e, c)`, row "start word read signed, clamped into the table" and column `c`. -/
theorem rowTake_operandIdx {N D E w : Nat} (hN : 0 < N) (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowTakeDims N D E wf).operandIdx (ix2 e c) idx = ix2 ⟨min (idx (ix2 e 0)).toInt.toNat (N - 1), by omega⟩ c := by
  have hsi : (rowTakeDims N D E wf).siIdx (ix2 e c) ⟨List.idxOf (0 : Fin 2) (rowTakeDims N D E wf).startIndexMap,
      List.idxOf_lt_length_iff.2 (List.mem_singleton.mpr rfl)⟩ = ix2 e 0 := by
    funext b; refine Fin.ext ?_
    match b with
    | ⟨0, _⟩ => rfl
    | ⟨1, _⟩ => rfl
  have hb : ∀ a, (rowTakeDims N D E wf).batchCoord (ix2 e c) a = 0 := fun a =>
    GatherDims.batchCoord_eq_zero _ _ _ List.not_mem_nil
  have h0 : ((rowTakeDims N D E wf).operandIdx (ix2 e c) idx 0).val = min (idx (ix2 e 0)).toInt.toNat (N - 1) := by
    show (rowTakeDims N D E wf).start (ix2 e c) idx 0 + (rowTakeDims N D E wf).batchCoord (ix2 e c) 0
      + (rowTakeDims N D E wf).offCoord (ix2 e c) 0 = _
    rw [hb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D E wf).startIndexMap from List.mem_singleton.mpr rfl), hsi]
    rfl
  have h1 : ((rowTakeDims N D E wf).operandIdx (ix2 e c) idx 1).val = c.val := by
    show (rowTakeDims N D E wf).start (ix2 e c) idx 1 + (rowTakeDims N D E wf).batchCoord (ix2 e c) 1
      + (rowTakeDims N D E wf).offCoord (ix2 e c) 1 = _
    have hs : (rowTakeDims N D E wf).start (ix2 e c) idx 1 = 0 := by
      unfold GatherDims.start
      rw [dif_neg (by simp)]
    have ho : (rowTakeDims N D E wf).offCoord (ix2 e c) 1 = c.val := by
      unfold GatherDims.offCoord
      rw [dif_pos (by simp [GatherDims.sKept, Shape.kept])]
      rfl
    rw [hb, hs, ho]
    simp only [Nat.zero_add]
  funext a
  refine Fin.ext ?_
  match a with
  | ⟨0, _⟩ => exact h0
  | ⟨1, _⟩ => exact h1

/-- Where the start word names a row of the table, the take reads that row. -/
theorem rowTake_apply_of_word {α : Type} {N D E : Nat} (hN : N ≤ 2 ^ 31)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (e : Fin E) (c : Fin D) (v : Fin N)
    (hv : idx (ix2 e 0) = BitVec.ofNat 32 v.val) :
    Host.gather (rowTakeDims N D E wf) x idx (ix2 e c) = x (ix2 v c) := by
  have hvN : v.val < 2 ^ 31 := by have := v.isLt; omega
  have ht : (idx (ix2 e 0)).toInt = (v.val : Int) := (toInt_eq_natCast_iff _ _ hvN).2 hv
  unfold Host.gather
  rw [rowTake_operandIdx (by have := v.isLt; omega) wf idx e c]
  congr 2
  apply Fin.ext
  simp only [ht, Int.toNat_natCast]
  have := v.isLt
  omega

end Cert.LibScatterGather

end
-- ==== Proof.LibScatter4.lean ====
/-
  The host's scatter and gather read at an index, for the dimension numbers of a scatter of feature rows onto a
  dense grid and of a take along one axis of that grid.

  Operand [B, H, W, C], scatter indices [M, N, 3] (every index vector names a batch, a row and a column), updates
  [M, N, C] (one feature row per index vector: the three leading operand axes are inserted, the channel axis is the
  one window). Update (m, n, c) lands at (b, x, y, c') exactly when its three index words, read signed, are b, x, y
  and c = c'; an index vector that names a cell outside the grid lands nowhere. The accumulating scatter over the
  extended reals, read at (b, x, y, c), is therefore the operand there plus the sum over all (m, n) whose index
  vector is (b, x, y) of updates (m, n, c). A take along axis 1 (or 2) of a rank-4 operand reads, at (b, g, w, c), the
  operand at the row (column) the g-th start word names, read signed and clamped into the axis.
-/
import Idealize.ShloMosaic.Lib.ValueIdx
import Idealize.ShloMosaic.PureOps.Contract
import proofs.«419918_j39608188403815_2_alg».proof.Proof.LibScatterGather

noncomputable section

open scoped BigOperators

namespace Cert.LibScatter4

open Idealize.ShloMosaic Idealize.ShloMosaic.ValueIdx Cert.LibScatterGather

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Which axes of a rank-4 operand a list of axes leaves -/

theorem mem_012 : ∀ a : Fin 4, a ∈ ([0, 1, 2] : List (Fin 4)) ↔ a ≠ 3 := by decide
theorem kept_012 : ∀ a : Fin 4, a ∈ (List.finRange 4).filter (· ∉ ([0, 1, 2] : List (Fin 4))) ↔ a = 3 := by decide
theorem kept_1 : ∀ a : Fin 4, a ∈ (List.finRange 4).filter (· ∉ ([1] ++ [] : List (Fin 4))) ↔ a ≠ 1 := by decide
theorem kept_2 : ∀ a : Fin 4, a ∈ (List.finRange 4).filter (· ∉ ([2] ++ [] : List (Fin 4))) ↔ a ≠ 2 := by decide

/-! ## The scatter of feature rows onto a rank-4 grid -/

/-- The dimension numbers: operand [B, H, W, C], indices [M, N, 3], updates [M, N, C]. -/
abbrev scatter4Dims (B H W C M N : Nat)
    (wf : ScatterDims.WF ⟨4, ![B, H, W, C]⟩ ⟨3, ![M, N, 3]⟩ ⟨3, ![M, N, C]⟩ [2] [0, 1, 2] [0, 1, 2] 2) :
    ScatterDims ⟨4, ![B, H, W, C]⟩ ⟨3, ![M, N, 3]⟩ ⟨3, ![M, N, C]⟩ where
  updateWindowDims := [2]
  insertedWindowDims := [0, 1, 2]
  scatterDimsToOperandDims := [0, 1, 2]
  indexVectorDim := 2
  wf := wf

section Scatter4
variable {B H W C M N w : Nat}
  (wf : ScatterDims.WF ⟨4, ![B, H, W, C]⟩ ⟨3, ![M, N, 3]⟩ ⟨3, ![M, N, C]⟩ [2] [0, 1, 2] [0, 1, 2] 2)
  (idx : IVec ⟨3, ![M, N, 3]⟩ w) (m : Fin M) (n : Fin N) (c : Fin C)

theorem scatter4_start0 : (scatter4Dims B H W C M N wf).start (ix3 m n c) idx 0 = (idx (ix3 m n 0)).toInt := by
  have hmem : (0 : Fin 4) ∈ (scatter4Dims B H W C M N wf).scatterDimsToOperandDims :=
    (mem_012 0).2 (by decide)
  have hsi : (scatter4Dims B H W C M N wf).siIdx (ix3 m n c)
      ⟨List.idxOf (0 : Fin 4) (scatter4Dims B H W C M N wf).scatterDimsToOperandDims, List.idxOf_lt_length_iff.2 hmem⟩
      = ix3 m n 0 := by
    funext b; refine Fin.ext ?_
    match b with
    | ⟨0, _⟩ => rfl
    | ⟨1, _⟩ => rfl
    | ⟨2, _⟩ => rfl
  unfold ScatterDims.start
  rw [dif_pos hmem, hsi]

theorem scatter4_start1 : (scatter4Dims B H W C M N wf).start (ix3 m n c) idx 1 = (idx (ix3 m n 1)).toInt := by
  have hmem : (1 : Fin 4) ∈ (scatter4Dims B H W C M N wf).scatterDimsToOperandDims :=
    (mem_012 1).2 (by decide)
  have hsi : (scatter4Dims B H W C M N wf).siIdx (ix3 m n c)
      ⟨List.idxOf (1 : Fin 4) (scatter4Dims B H W C M N wf).scatterDimsToOperandDims, List.idxOf_lt_length_iff.2 hmem⟩
      = ix3 m n 1 := by
    funext b; refine Fin.ext ?_
    match b with
    | ⟨0, _⟩ => rfl
    | ⟨1, _⟩ => rfl
    | ⟨2, _⟩ => rfl
  unfold ScatterDims.start
  rw [dif_pos hmem, hsi]

theorem scatter4_start2 : (scatter4Dims B H W C M N wf).start (ix3 m n c) idx 2 = (idx (ix3 m n 2)).toInt := by
  have hmem : (2 : Fin 4) ∈ (scatter4Dims B H W C M N wf).scatterDimsToOperandDims :=
    (mem_012 2).2 (by decide)
  have hsi : (scatter4Dims B H W C M N wf).siIdx (ix3 m n c)
      ⟨List.idxOf (2 : Fin 4) (scatter4Dims B H W C M N wf).scatterDimsToOperandDims, List.idxOf_lt_length_iff.2 hmem⟩
      = ix3 m n 2 := by
    funext b; refine Fin.ext ?_
    match b with
    | ⟨0, _⟩ => rfl
    | ⟨1, _⟩ => rfl
    | ⟨2, _⟩ => rfl
  unfold ScatterDims.start
  rw [dif_pos hmem, hsi]

theorem scatter4_start3 : (scatter4Dims B H W C M N wf).start (ix3 m n c) idx 3 = 0 := by
  unfold ScatterDims.start
  have h : (3 : Fin 4) ∉ (scatter4Dims B H W C M N wf).scatterDimsToOperandDims := fun h => (mem_012 3).1 h rfl
  rw [dif_neg h]

theorem scatter4_window0 : (scatter4Dims B H W C M N wf).window (ix3 m n c) 0 = 0 := by
  unfold ScatterDims.window
  have h : (0 : Fin 4) ∉ (scatter4Dims B H W C M N wf).sKept := fun h => absurd ((kept_012 0).1 h) (by decide)
  rw [dif_neg h]

theorem scatter4_window1 : (scatter4Dims B H W C M N wf).window (ix3 m n c) 1 = 0 := by
  unfold ScatterDims.window
  have h : (1 : Fin 4) ∉ (scatter4Dims B H W C M N wf).sKept := fun h => absurd ((kept_012 1).1 h) (by decide)
  rw [dif_neg h]

theorem scatter4_window2 : (scatter4Dims B H W C M N wf).window (ix3 m n c) 2 = 0 := by
  unfold ScatterDims.window
  have h : (2 : Fin 4) ∉ (scatter4Dims B H W C M N wf).sKept := fun h => absurd ((kept_012 2).1 h) (by decide)
  rw [dif_neg h]

theorem scatter4_window3 : (scatter4Dims B H W C M N wf).window (ix3 m n c) 3 = c.val := by
  unfold ScatterDims.window
  have h : (3 : Fin 4) ∈ (scatter4Dims B H W C M N wf).sKept := (kept_012 3).2 rfl
  rw [dif_pos h]
  rfl

/-- Update (m, n, c) lands at (b, x, y, c') exactly when its index words, read signed, are b, x, y and c = c'. -/
theorem scatter4_resultIdx?_iff_toInt (b : Fin B) (x : Fin H) (y : Fin W) (c' : Fin C) :
    (scatter4Dims B H W C M N wf).resultIdx? (ix3 m n c) idx = some (ix4 b x y c')
      ↔ (idx (ix3 m n 0)).toInt = (b.val : Int) ∧ (idx (ix3 m n 1)).toInt = (x.val : Int)
          ∧ (idx (ix3 m n 2)).toInt = (y.val : Int) ∧ c = c' := by
  rw [resultIdx?_eq_some_iff]
  constructor
  · intro h
    have h0 := h 0
    have h1 := h 1
    have h2 := h 2
    have h3 := h 3
    rw [scatter4_start0, scatter4_window0] at h0
    rw [scatter4_start1, scatter4_window1] at h1
    rw [scatter4_start2, scatter4_window2] at h2
    rw [scatter4_start3, scatter4_window3] at h3
    simp only [Nat.cast_zero, add_zero] at h0 h1 h2
    simp only [zero_add] at h3
    exact ⟨h0, h1, h2, Fin.ext (by exact_mod_cast h3)⟩
  · rintro ⟨h0, h1, h2, rfl⟩ a
    match a with
    | ⟨0, _⟩ =>
      show (scatter4Dims B H W C M N wf).start (ix3 m n c) idx 0 + ((scatter4Dims B H W C M N wf).window (ix3 m n c) 0 : Int) = (b.val : Int)
      rw [scatter4_start0, scatter4_window0]
      simp only [Nat.cast_zero, add_zero]
      exact h0
    | ⟨1, _⟩ =>
      show (scatter4Dims B H W C M N wf).start (ix3 m n c) idx 1 + ((scatter4Dims B H W C M N wf).window (ix3 m n c) 1 : Int) = (x.val : Int)
      rw [scatter4_start1, scatter4_window1]
      simp only [Nat.cast_zero, add_zero]
      exact h1
    | ⟨2, _⟩ =>
      show (scatter4Dims B H W C M N wf).start (ix3 m n c) idx 2 + ((scatter4Dims B H W C M N wf).window (ix3 m n c) 2 : Int) = (y.val : Int)
      rw [scatter4_start2, scatter4_window2]
      simp only [Nat.cast_zero, add_zero]
      exact h2
    | ⟨3, _⟩ =>
      show (scatter4Dims B H W C M N wf).start (ix3 m n c) idx 3 + ((scatter4Dims B H W C M N wf).window (ix3 m n c) 3 : Int) = (c.val : Int)
      rw [scatter4_start3, scatter4_window3]
      simp only [zero_add]

end Scatter4

/-- Update (m, n, c) lands at (b, x, y, c') exactly when its index words are the words of b, x, y and c = c'. -/
theorem scatter4_resultIdx?_iff {B H W C M N : Nat} (hB : B ≤ 2 ^ 31) (hH : H ≤ 2 ^ 31) (hW : W ≤ 2 ^ 31)
    (wf : ScatterDims.WF ⟨4, ![B, H, W, C]⟩ ⟨3, ![M, N, 3]⟩ ⟨3, ![M, N, C]⟩ [2] [0, 1, 2] [0, 1, 2] 2)
    (idx : IVec ⟨3, ![M, N, 3]⟩ 32) (m : Fin M) (n : Fin N) (c : Fin C) (b : Fin B) (x : Fin H) (y : Fin W) (c' : Fin C) :
    (scatter4Dims B H W C M N wf).resultIdx? (ix3 m n c) idx = some (ix4 b x y c')
      ↔ (idx (ix3 m n 0) = BitVec.ofNat 32 b.val ∧ idx (ix3 m n 1) = BitVec.ofNat 32 x.val
          ∧ idx (ix3 m n 2) = BitVec.ofNat 32 y.val) ∧ c = c' := by
  rw [scatter4_resultIdx?_iff_toInt, toInt_eq_natCast_iff _ _ (by have := b.isLt; omega),
    toInt_eq_natCast_iff _ _ (by have := x.isLt; omega), toInt_eq_natCast_iff _ _ (by have := y.isLt; omega)]
  tauto

/-- The accumulating scatter over the extended reals, read at (b, x, y, c): the operand there plus channel c of the
    updates of the index vectors that name the cell (b, x, y). -/
theorem hostScatterAdd4_apply {B H W C M N : Nat} (hB : B ≤ 2 ^ 31) (hH : H ≤ 2 ^ 31) (hW : W ≤ 2 ^ 31)
    (wf : ScatterDims.WF ⟨4, ![B, H, W, C]⟩ ⟨3, ![M, N, 3]⟩ ⟨3, ![M, N, C]⟩ [2] [0, 1, 2] [0, 1, 2] 2)
    (v : (⟨4, ![B, H, W, C]⟩ : Shape).Idx → EReal) (idx : IVec ⟨3, ![M, N, 3]⟩ 32)
    (upd : (⟨3, ![M, N, C]⟩ : Shape).Idx → EReal) (b : Fin B) (x : Fin H) (y : Fin W) (c : Fin C) :
    Ideal.hostScatterAdd (scatter4Dims B H W C M N wf) v idx upd (ix4 b x y c)
      = v (ix4 b x y c) + ∑ m : Fin M, ∑ n : Fin N,
          if idx (ix3 m n 0) = BitVec.ofNat 32 b.val ∧ idx (ix3 m n 1) = BitVec.ofNat 32 x.val
              ∧ idx (ix3 m n 2) = BitVec.ofNat 32 y.val then upd (ix3 m n c) else 0 := by
  unfold Ideal.hostScatterAdd
  congr 1
  rw [Finset.sum_filter, sum_idx3]
  refine Finset.sum_congr rfl fun m _ => Finset.sum_congr rfl fun n _ => ?_
  simp only [scatter4_resultIdx?_iff hB hH hW wf idx m n _ b x y c]
  by_cases hc : idx (ix3 m n 0) = BitVec.ofNat 32 b.val ∧ idx (ix3 m n 1) = BitVec.ofNat 32 x.val
      ∧ idx (ix3 m n 2) = BitVec.ofNat 32 y.val
  · rw [if_pos hc]
    simp only [hc, true_and]
    rw [Finset.sum_ite_eq' Finset.univ c]
    simp
  · rw [if_neg hc]
    simp only [hc, false_and, if_false]
    exact Finset.sum_const_zero

/-! ## A take along axis 1, and along axis 2, of a rank-4 operand -/

/-- Take along axis 1: operand [B, H, W, C], start column [G, 1], result [B, G, W, C]. -/
abbrev take1Dims (B H W C G : Nat)
    (wf : GatherDims.WF ⟨4, ![B, H, W, C]⟩ ⟨2, ![G, 1]⟩ ⟨4, ![B, G, W, C]⟩ [0, 2, 3] [1] [] [1] [] 1 ![B, 1, W, C]) :
    GatherDims ⟨4, ![B, H, W, C]⟩ ⟨2, ![G, 1]⟩ ⟨4, ![B, G, W, C]⟩ where
  offsetDims := [0, 2, 3]
  collapsedSliceDims := [1]
  operandBatchingDims := []
  startIndicesBatchingDims := []
  startIndexMap := [1]
  indexVectorDim := 1
  sliceSizes := ![B, 1, W, C]
  wf := wf

/-- The take reads, at (b, g, y, c), row "g-th start word read signed, clamped into the axis" of the operand. -/
theorem take1_operandIdx {B H W C G w : Nat} (hH : 0 < H)
    (wf : GatherDims.WF ⟨4, ![B, H, W, C]⟩ ⟨2, ![G, 1]⟩ ⟨4, ![B, G, W, C]⟩ [0, 2, 3] [1] [] [1] [] 1 ![B, 1, W, C])
    (idx : IVec ⟨2, ![G, 1]⟩ w) (b : Fin B) (g : Fin G) (y : Fin W) (c : Fin C) :
    (take1Dims B H W C G wf).operandIdx (ix4 b g y c) idx
      = ix4 b ⟨min (idx (ix2 g 0)).toInt.toNat (H - 1), by omega⟩ y c := by
  have hmem : (1 : Fin 4) ∈ (take1Dims B H W C G wf).startIndexMap := List.mem_singleton.mpr rfl
  have hsi : (take1Dims B H W C G wf).siIdx (ix4 b g y c) ⟨List.idxOf (1 : Fin 4) (take1Dims B H W C G wf).startIndexMap,
      List.idxOf_lt_length_iff.2 hmem⟩ = ix2 g 0 := by
    funext a; refine Fin.ext ?_
    match a with
    | ⟨0, _⟩ => rfl
    | ⟨1, _⟩ => rfl
  have hb : ∀ a, (take1Dims B H W C G wf).batchCoord (ix4 b g y c) a = 0 := fun a =>
    GatherDims.batchCoord_eq_zero _ _ _ List.not_mem_nil
  have hs : ∀ a : Fin 4, a ≠ 1 → (take1Dims B H W C G wf).start (ix4 b g y c) idx a = 0 := by
    intro a ha
    unfold GatherDims.start
    rw [dif_neg (by simpa using ha)]
  have h1 : ((take1Dims B H W C G wf).operandIdx (ix4 b g y c) idx 1).val = min (idx (ix2 g 0)).toInt.toNat (H - 1) := by
    show (take1Dims B H W C G wf).start (ix4 b g y c) idx 1 + (take1Dims B H W C G wf).batchCoord (ix4 b g y c) 1
      + (take1Dims B H W C G wf).offCoord (ix4 b g y c) 1 = _
    rw [hb, GatherDims.offCoord_eq_zero _ _ _ (fun h => ((GatherDims.mem_sKept _ _).mp h).1 (List.mem_singleton.mpr rfl))]
    simp only [Nat.add_zero]
    unfold GatherDims.start
    rw [dif_pos hmem, hsi]
    rfl
  have h0 : ((take1Dims B H W C G wf).operandIdx (ix4 b g y c) idx 0).val = b.val := by
    show (take1Dims B H W C G wf).start (ix4 b g y c) idx 0 + (take1Dims B H W C G wf).batchCoord (ix4 b g y c) 0
      + (take1Dims B H W C G wf).offCoord (ix4 b g y c) 0 = _
    have ho : (take1Dims B H W C G wf).offCoord (ix4 b g y c) 0 = b.val := by
      unfold GatherDims.offCoord
      have h : (0 : Fin 4) ∈ (take1Dims B H W C G wf).sKept := (kept_1 0).2 (by decide)
      rw [dif_pos h]
      rfl
    rw [hb, hs 0 (by decide), ho]
    simp only [Nat.zero_add]
  have h2 : ((take1Dims B H W C G wf).operandIdx (ix4 b g y c) idx 2).val = y.val := by
    show (take1Dims B H W C G wf).start (ix4 b g y c) idx 2 + (take1Dims B H W C G wf).batchCoord (ix4 b g y c) 2
      + (take1Dims B H W C G wf).offCoord (ix4 b g y c) 2 = _
    have ho : (take1Dims B H W C G wf).offCoord (ix4 b g y c) 2 = y.val := by
      unfold GatherDims.offCoord
      have h : (2 : Fin 4) ∈ (take1Dims B H W C G wf).sKept := (kept_1 2).2 (by decide)
      rw [dif_pos h]
      rfl
    rw [hb, hs 2 (by decide), ho]
    simp only [Nat.zero_add]
  have h3 : ((take1Dims B H W C G wf).operandIdx (ix4 b g y c) idx 3).val = c.val := by
    show (take1Dims B H W C G wf).start (ix4 b g y c) idx 3 + (take1Dims B H W C G wf).batchCoord (ix4 b g y c) 3
      + (take1Dims B H W C G wf).offCoord (ix4 b g y c) 3 = _
    have ho : (take1Dims B H W C G wf).offCoord (ix4 b g y c) 3 = c.val := by
      unfold GatherDims.offCoord
      have h : (3 : Fin 4) ∈ (take1Dims B H W C G wf).sKept := (kept_1 3).2 (by decide)
      rw [dif_pos h]
      rfl
    rw [hb, hs 3 (by decide), ho]
    simp only [Nat.zero_add]
  funext a
  refine Fin.ext ?_
  match a with
  | ⟨0, _⟩ => exact h0
  | ⟨1, _⟩ => exact h1
  | ⟨2, _⟩ => exact h2
  | ⟨3, _⟩ => exact h3

/-- Where the g-th start word names a row of the operand, the take reads that row. -/
theorem take1_apply_of_word {α : Type} {B H W C G : Nat} (hH : H ≤ 2 ^ 31)
    (wf : GatherDims.WF ⟨4, ![B, H, W, C]⟩ ⟨2, ![G, 1]⟩ ⟨4, ![B, G, W, C]⟩ [0, 2, 3] [1] [] [1] [] 1 ![B, 1, W, C])
    (v : (⟨4, ![B, H, W, C]⟩ : Shape).Idx → α) (idx : IVec ⟨2, ![G, 1]⟩ 32) (b : Fin B) (g : Fin G) (y : Fin W) (c : Fin C)
    (x : Fin H) (hx : idx (ix2 g 0) = BitVec.ofNat 32 x.val) :
    Host.gather (take1Dims B H W C G wf) v idx (ix4 b g y c) = v (ix4 b x y c) := by
  have hxN : x.val < 2 ^ 31 := by have := x.isLt; omega
  have ht : (idx (ix2 g 0)).toInt = (x.val : Int) := (toInt_eq_natCast_iff _ _ hxN).2 hx
  unfold Host.gather
  rw [take1_operandIdx (by have := x.isLt; omega) wf idx b g y c]
  congr 2
  apply Fin.ext
  simp only [ht, Int.toNat_natCast]
  have := x.isLt
  omega

/-- Take along axis 2: operand [B, H, W, C], start column [G, 1], result [B, H, G, C]. -/
abbrev take2Dims (B H W C G : Nat)
    (wf : GatherDims.WF ⟨4, ![B, H, W, C]⟩ ⟨2, ![G, 1]⟩ ⟨4, ![B, H, G, C]⟩ [0, 1, 3] [2] [] [2] [] 1 ![B, H, 1, C]) :
    GatherDims ⟨4, ![B, H, W, C]⟩ ⟨2, ![G, 1]⟩ ⟨4, ![B, H, G, C]⟩ where
  offsetDims := [0, 1, 3]
  collapsedSliceDims := [2]
  operandBatchingDims := []
  startIndicesBatchingDims := []
  startIndexMap := [2]
  indexVectorDim := 1
  sliceSizes := ![B, H, 1, C]
  wf := wf

/-- The take reads, at (b, x, g, c), column "g-th start word read signed, clamped into the axis" of the operand. -/
theorem take2_operandIdx {B H W C G w : Nat} (hW : 0 < W)
    (wf : GatherDims.WF ⟨4, ![B, H, W, C]⟩ ⟨2, ![G, 1]⟩ ⟨4, ![B, H, G, C]⟩ [0, 1, 3] [2] [] [2] [] 1 ![B, H, 1, C])
    (idx : IVec ⟨2, ![G, 1]⟩ w) (b : Fin B) (x : Fin H) (g : Fin G) (c : Fin C) :
    (take2Dims B H W C G wf).operandIdx (ix4 b x g c) idx
      = ix4 b x ⟨min (idx (ix2 g 0)).toInt.toNat (W - 1), by omega⟩ c := by
  have hmem : (2 : Fin 4) ∈ (take2Dims B H W C G wf).startIndexMap := List.mem_singleton.mpr rfl
  have hsi : (take2Dims B H W C G wf).siIdx (ix4 b x g c) ⟨List.idxOf (2 : Fin 4) (take2Dims B H W C G wf).startIndexMap,
      List.idxOf_lt_length_iff.2 hmem⟩ = ix2 g 0 := by
    funext a; refine Fin.ext ?_
    match a with
    | ⟨0, _⟩ => rfl
    | ⟨1, _⟩ => rfl
  have hb : ∀ a, (take2Dims B H W C G wf).batchCoord (ix4 b x g c) a = 0 := fun a =>
    GatherDims.batchCoord_eq_zero _ _ _ List.not_mem_nil
  have hs : ∀ a : Fin 4, a ≠ 2 → (take2Dims B H W C G wf).start (ix4 b x g c) idx a = 0 := by
    intro a ha
    unfold GatherDims.start
    rw [dif_neg (by simpa using ha)]
  have h2 : ((take2Dims B H W C G wf).operandIdx (ix4 b x g c) idx 2).val = min (idx (ix2 g 0)).toInt.toNat (W - 1) := by
    show (take2Dims B H W C G wf).start (ix4 b x g c) idx 2 + (take2Dims B H W C G wf).batchCoord (ix4 b x g c) 2
      + (take2Dims B H W C G wf).offCoord (ix4 b x g c) 2 = _
    rw [hb, GatherDims.offCoord_eq_zero _ _ _ (fun h => ((GatherDims.mem_sKept _ _).mp h).1 (List.mem_singleton.mpr rfl))]
    simp only [Nat.add_zero]
    unfold GatherDims.start
    rw [dif_pos hmem, hsi]
    rfl
  have h0 : ((take2Dims B H W C G wf).operandIdx (ix4 b x g c) idx 0).val = b.val := by
    show (take2Dims B H W C G wf).start (ix4 b x g c) idx 0 + (take2Dims B H W C G wf).batchCoord (ix4 b x g c) 0
      + (take2Dims B H W C G wf).offCoord (ix4 b x g c) 0 = _
    have ho : (take2Dims B H W C G wf).offCoord (ix4 b x g c) 0 = b.val := by
      unfold GatherDims.offCoord
      have h : (0 : Fin 4) ∈ (take2Dims B H W C G wf).sKept := (kept_2 0).2 (by decide)
      rw [dif_pos h]
      rfl
    rw [hb, hs 0 (by decide), ho]
    simp only [Nat.zero_add]
  have h1 : ((take2Dims B H W C G wf).operandIdx (ix4 b x g c) idx 1).val = x.val := by
    show (take2Dims B H W C G wf).start (ix4 b x g c) idx 1 + (take2Dims B H W C G wf).batchCoord (ix4 b x g c) 1
      + (take2Dims B H W C G wf).offCoord (ix4 b x g c) 1 = _
    have ho : (take2Dims B H W C G wf).offCoord (ix4 b x g c) 1 = x.val := by
      unfold GatherDims.offCoord
      have h : (1 : Fin 4) ∈ (take2Dims B H W C G wf).sKept := (kept_2 1).2 (by decide)
      rw [dif_pos h]
      rfl
    rw [hb, hs 1 (by decide), ho]
    simp only [Nat.zero_add]
  have h3 : ((take2Dims B H W C G wf).operandIdx (ix4 b x g c) idx 3).val = c.val := by
    show (take2Dims B H W C G wf).start (ix4 b x g c) idx 3 + (take2Dims B H W C G wf).batchCoord (ix4 b x g c) 3
      + (take2Dims B H W C G wf).offCoord (ix4 b x g c) 3 = _
    have ho : (take2Dims B H W C G wf).offCoord (ix4 b x g c) 3 = c.val := by
      unfold GatherDims.offCoord
      have h : (3 : Fin 4) ∈ (take2Dims B H W C G wf).sKept := (kept_2 3).2 (by decide)
      rw [dif_pos h]
      rfl
    rw [hb, hs 3 (by decide), ho]
    simp only [Nat.zero_add]
  funext a
  refine Fin.ext ?_
  match a with
  | ⟨0, _⟩ => exact h0
  | ⟨1, _⟩ => exact h1
  | ⟨2, _⟩ => exact h2
  | ⟨3, _⟩ => exact h3

/-- Where the g-th start word names a column of the operand, the take reads that column. -/
theorem take2_apply_of_word {α : Type} {B H W C G : Nat} (hW : W ≤ 2 ^ 31)
    (wf : GatherDims.WF ⟨4, ![B, H, W, C]⟩ ⟨2, ![G, 1]⟩ ⟨4, ![B, H, G, C]⟩ [0, 1, 3] [2] [] [2] [] 1 ![B, H, 1, C])
    (v : (⟨4, ![B, H, W, C]⟩ : Shape).Idx → α) (idx : IVec ⟨2, ![G, 1]⟩ 32) (b : Fin B) (x : Fin H) (g : Fin G) (c : Fin C)
    (y : Fin W) (hy : idx (ix2 g 0) = BitVec.ofNat 32 y.val) :
    Host.gather (take2Dims B H W C G wf) v idx (ix4 b x g c) = v (ix4 b x y c) := by
  have hyN : y.val < 2 ^ 31 := by have := y.isLt; omega
  have ht : (idx (ix2 g 0)).toInt = (y.val : Int) := (toInt_eq_natCast_iff _ _ hyN).2 hy
  unfold Host.gather
  rw [take2_operandIdx (by have := y.isLt; omega) wf idx b x g c]
  congr 2
  apply Fin.ext
  simp only [ht, Int.toNat_natCast]
  have := y.isLt
  omega

end Cert.LibScatter4

end
-- ==== Proof.RefFeatsPure.lean ====
/-
  The pieces of the reference's third result, out_feats, over plain arrays: the feature rows scattered onto the dense
  512 x 512 grid of each batch, read back at the candidate cells (2 i, 2 j) and multiplied by the mask.

  The scatter's index vector of point n of batch m is (m, x, y), x and y the point's coordinates, each passed through
  the wrap of a negative index (add the axis length where the word is below zero), which changes nothing: a batch
  number is not negative, and the coordinates are not by the precondition. So the dense grid at cell (b, 2 i, 2 j)
  and channel c is the sum of feats[b, n, c] over the points n of batch b that sit exactly on (2 i, 2 j). The two
  takes read rows 2 i and columns 2 j (the wrapped, clipped candidate coordinates are the words 2 i, 2 j, inside
  the grid), and the mask converted to a float is 0 or 1.
-/
import proofs.«419918_j39608188403815_2_alg».proof.Proof.Gen.ReferenceIdeal
import proofs.«419918_j39608188403815_2_alg».proof.Proof.Spec
import proofs.«419918_j39608188403815_2_alg».proof.Proof.LibScatterGather
import proofs.«419918_j39608188403815_2_alg».proof.Proof.LibScatter4
import proofs.«419918_j39608188403815_2_alg».proof.Proof.Bridge
import Idealize.ShloMosaic.Lib.Pipeline.Value
import Idealize.ShloMosaic.Lib.IdealHost

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

/-! ## The pieces, over plain arrays -/

/-- Column 0 of the coordinates: the slice [8, 65536, 1] at offset 0 of the last axis, reshaped to [8, 65536]. -/
theorem col0_apply (coords : IVec S8x65536x2 32) (hs : S8x65536x2.Slices ![0, 0, 0] S8x65536x1)
    (hc : S8x65536x1.ShapeCasts S8x65536) (m : Fin 8) (n : Fin 65536) :
    shapeCast S8x65536 (extractStridedSlice S8x65536x1 ![0, 0, 0] coords hs) hc (ix2 m n) = coords (ix3 m n 0) := by
  rw [shapeCast_apply _ hc (ix2 m n) (ix3 m n 0) (by
    rw [Shape.rowMajor_val_three, Shape.rowMajor_val_two]
    show (m.val * 65536 + n.val) * 1 + 0 = m.val * 65536 + n.val
    omega)]
  refine extractStridedSlice_apply _ _ hs _ (ix3 m n 0) (fun a => ?_)
  match a with
  | ⟨0, _⟩ => show m.val = 0 + m.val; omega
  | ⟨1, _⟩ => show n.val = 0 + n.val; omega
  | ⟨2, _⟩ => rfl

/-- Column 1 of the coordinates. -/
theorem col1_apply (coords : IVec S8x65536x2 32) (hs : S8x65536x2.Slices ![0, 0, 1] S8x65536x1)
    (hc : S8x65536x1.ShapeCasts S8x65536) (m : Fin 8) (n : Fin 65536) :
    shapeCast S8x65536 (extractStridedSlice S8x65536x1 ![0, 0, 1] coords hs) hc (ix2 m n) = coords (ix3 m n 1) := by
  rw [shapeCast_apply _ hc (ix2 m n) (ix3 m n 0) (by
    rw [Shape.rowMajor_val_three, Shape.rowMajor_val_two]
    show (m.val * 65536 + n.val) * 1 + 0 = m.val * 65536 + n.val
    omega)]
  refine extractStridedSlice_apply _ _ hs _ (ix3 m n 1) (fun a => ?_)
  match a with
  | ⟨0, _⟩ => show m.val = 0 + m.val; omega
  | ⟨1, _⟩ => show n.val = 0 + n.val; omega
  | ⟨2, _⟩ => rfl

/-- A [8, 65536] array given a trailing unit axis reads the same entry. -/
theorem unit_apply {α : Type} (x : S8x65536.Idx → α) (hb : S8x65536.BroadcastsInDim S8x65536x1 ![0, 1]) (m : Fin 8)
    (n : Fin 65536) (k : Fin 1) : broadcastInDim S8x65536x1 ![0, 1] hb x (ix3 m n k) = x (ix2 m n) := by
  refine broadcastInDim_apply _ hb x _ (ix2 m n) (fun a => ?_)
  match a with
  | ⟨0, _⟩ => rfl
  | ⟨1, _⟩ => rfl

/-- Three index columns laid side by side: entry (m, n, k) is column k's entry (m, n). -/
theorem cat3_apply {α : Type} (x0 x1 x2 : S8x65536x1.Idx → α)
    (hc : Shape.Concatenates [S8x65536x1, S8x65536x1, S8x65536x1] S8x65536x3 2) (m : Fin 8) (n : Fin 65536) :
    concatenate S8x65536x3 2 [⟨S8x65536x1, x0⟩, ⟨S8x65536x1, x1⟩, ⟨S8x65536x1, x2⟩] hc (ix3 m n 0) = x0 (ix3 m n 0)
    ∧ concatenate S8x65536x3 2 [⟨S8x65536x1, x0⟩, ⟨S8x65536x1, x1⟩, ⟨S8x65536x1, x2⟩] hc (ix3 m n 1) = x1 (ix3 m n 0)
    ∧ concatenate S8x65536x3 2 [⟨S8x65536x1, x0⟩, ⟨S8x65536x1, x1⟩, ⟨S8x65536x1, x2⟩] hc (ix3 m n 2) = x2 (ix3 m n 0) := by
  refine ⟨?_, ?_, ?_⟩
  · refine concatenate_apply_piece (t := S8x65536x3) 2 [⟨S8x65536x1, x0⟩, ⟨S8x65536x1, x1⟩, ⟨S8x65536x1, x2⟩] hc _ 0
      (show (0 : Nat) < 3 by decide) S8x65536x1 x0 rfl rfl 0 rfl (ix3 m n 0) (fun b hb => ?_) rfl
    match b with
    | ⟨0, _⟩ => rfl
    | ⟨1, _⟩ => rfl
    | ⟨2, _⟩ => exact absurd rfl hb
  · refine concatenate_apply_piece (t := S8x65536x3) 2 [⟨S8x65536x1, x0⟩, ⟨S8x65536x1, x1⟩, ⟨S8x65536x1, x2⟩] hc _ 1
      (show (1 : Nat) < 3 by decide) S8x65536x1 x1 rfl rfl 1 rfl (ix3 m n 0) (fun b hb => ?_) rfl
    match b with
    | ⟨0, _⟩ => rfl
    | ⟨1, _⟩ => rfl
    | ⟨2, _⟩ => exact absurd rfl hb
  · refine concatenate_apply_piece (t := S8x65536x3) 2 [⟨S8x65536x1, x0⟩, ⟨S8x65536x1, x1⟩, ⟨S8x65536x1, x2⟩] hc _ 2
      (show (2 : Nat) < 3 by decide) S8x65536x1 x2 rfl rfl 2 rfl (ix3 m n 0) (fun b hb => ?_) rfl
    match b with
    | ⟨0, _⟩ => rfl
    | ⟨1, _⟩ => rfl
    | ⟨2, _⟩ => exact absurd rfl hb

/-- The wrap of a negative index, elementwise: where the entry is a word the wrap leaves alone, it reads that word. -/
theorem wrap_col (x : IVec S8x65536 32) (K : BitVec 32) (hz : S_.BroadcastsInDim S8x65536 ![]) (j : S8x65536.Idx)
    (v : BitVec 32) (hx : x j = v) (hv : Scalar.select (IntOp.cmpi .slt v 0#32) (IntOp.addi v K) v = v) :
    select (cmpi .slt x (broadcastInDim S8x65536 ![] hz (constantI S_ 32 0#32)))
      (addi x (broadcastInDim S8x65536 ![] hz (constantI S_ 32 K))) x j = v := by
  show Scalar.select (IntOp.cmpi .slt (x j) 0#32) (IntOp.addi (x j) K) (x j) = v
  rw [hx]
  exact hv

/-- A bit converted to a float is 0 or 1. -/
theorem uitofp_bit (x : BitVec 1) : (FloatOps.uitofp (F := Ideal) .f32 x : Ideal .f32) = Cert.Spec.bitE x := by
  rcases BitVec.eq_zero_or_eq_one x with h | h
  · subst h; unfold Cert.Spec.bitE; rw [if_neg (by decide)]; show ((((0#1 : BitVec 1).toNat : ℝ)) : EReal) = 0; simp
  · subst h; unfold Cert.Spec.bitE; rw [if_pos rfl]; show ((((1#1 : BitVec 1).toNat : ℝ)) : EReal) = 1; simp

/-- The mask given a trailing unit axis, converted to a float and spread over the channels: at (b, i, j, c) the
    bit of (b, i, j) as 0 or 1. -/
theorem maskf_apply (msk : IVec S8x256x256 1) (h1 : S8x256x256.BroadcastsInDim S8x256x256x1 ![0, 1, 2])
    (h2 : S8x256x256x1.BroadcastsInDim S8x256x256x32 ![0, 1, 2, 3]) (b : Fin 8) (i j : Fin 256) (c : Fin 32) :
    broadcastInDim S8x256x256x32 ![0, 1, 2, 3] h2
        (uitofp (F := Ideal) .f32 (broadcastInDim S8x256x256x1 ![0, 1, 2] h1 msk)) (ix4 b i j c)
      = Cert.Spec.bitE (msk (ix3 b i j)) := by
  rw [broadcastInDim_apply _ h2 _ (ix4 b i j c) (ix4 b i j 0) (fun a => by
    match a with
    | ⟨0, _⟩ => rfl
    | ⟨1, _⟩ => rfl
    | ⟨2, _⟩ => rfl
    | ⟨3, _⟩ => rfl)]
  show FloatOps.uitofp (F := Ideal) .f32 (broadcastInDim S8x256x256x1 ![0, 1, 2] h1 msk (ix4 b i j 0)) = _
  rw [broadcastInDim_apply _ h1 _ (ix4 b i j 0) (ix3 b i j) (fun a => by
    match a with
    | ⟨0, _⟩ => rfl
    | ⟨1, _⟩ => rfl
    | ⟨2, _⟩ => rfl), uitofp_bit]

/-- Twice a candidate number, as a row or a column of the dense grid. -/
def two (i : Fin 256) : Fin 512 := ⟨2 * i.val, by omega⟩

/-- The wrapped, clipped candidate coordinates as a start column: entry g is the word 2 g. -/
theorem gidx_apply (g0 : IVec S256 32) (hg0 : ∀ g : Fin 256, g0 (ix1 g) = Cert.Spec.gW g.val)
    (hb : S256.BroadcastsInDim S256x1 ![0]) (hz : S_.BroadcastsInDim S256 ![]) (g : Fin 256) :
    broadcastInDim S256x1 ![0] hb (select (cmpi .slt g0 (broadcastInDim S256 ![] hz (constantI S_ 32 0#32)))
      (addi g0 (broadcastInDim S256 ![] hz (constantI S_ 32 512#32))) g0) (ix2 g 0) = BitVec.ofNat 32 (2 * g.val) := by
  rw [broadcastInDim_apply _ hb _ (ix2 g 0) (ix1 g) (fun a => by match a with | ⟨0, _⟩ => rfl)]
  show Scalar.select (IntOp.cmpi .slt (g0 (ix1 g)) 0#32) (IntOp.addi (g0 (ix1 g)) 512#32) (g0 (ix1 g)) = _
  rw [hg0, Cert.Bridge.gW_val]
  exact Cert.LibScatterGather.wrap_select_of_word _ _ (2 * g.val) (by have := g.isLt; omega) rfl

/-- The take along the rows at the candidate coordinates reads row 2 g. -/
theorem take_rows (D : FVec Ideal S8x512x512x32 .f32) (G : IVec S256x1 32)
    (hG : ∀ g : Fin 256, G (ix2 g 0) = BitVec.ofNat 32 (2 * g.val)) (b : Fin 8) (g : Fin 256) (y : Fin 512) (c : Fin 32) :
    Host.gather gather_S8x512x512x32_S256x1_S8x256x512x32_023_1_n_n_1_1_8151232 D G (ix4 b g y c) = D (ix4 b (two g) y c) := by
  show Host.gather (Cert.LibScatter4.take1Dims 8 512 512 32 256
    Gen.gather_S8x512x512x32_S256x1_S8x256x512x32_023_1_n_n_1_1_8151232_wf) D G (ix4 b g y c) = _
  exact Cert.LibScatter4.take1_apply_of_word (by norm_num) _ D G b g y c (two g) (hG g)

/-- The take along the columns at the candidate coordinates reads column 2 g. -/
theorem take_cols (D : FVec Ideal S8x256x512x32 .f32) (G : IVec S256x1 32)
    (hG : ∀ g : Fin 256, G (ix2 g 0) = BitVec.ofNat 32 (2 * g.val)) (b : Fin 8) (x : Fin 256) (g : Fin 256) (c : Fin 32) :
    Host.gather gather_S8x256x512x32_S256x1_S8x256x256x32_013_2_n_n_2_1_8256132 D G (ix4 b x g c) = D (ix4 b x (two g) c) := by
  show Host.gather (Cert.LibScatter4.take2Dims 8 256 512 32 256
    Gen.gather_S8x256x512x32_S256x1_S8x256x256x32_013_2_n_n_2_1_8256132_wf) D G (ix4 b x g c) = _
  exact Cert.LibScatter4.take2_apply_of_word (by norm_num) _ D G b x g c (two g) (hG g)

/-- The dense grid at a candidate cell: the features of the batch's points that sit exactly on it, summed. -/
theorem dense_apply (coords : IVec S8x65536x2 32) (fts : FVec Ideal S8x65536x32 .f32)
    (Z : FVec Ideal S8x512x512x32 .f32) (hZ : ∀ k, Z k = 0) (I3 : IVec S8x65536x3 32)
    (h0 : ∀ m n, I3 (ix3 m n 0) = BitVec.ofNat 32 m.val) (h1 : ∀ m n, I3 (ix3 m n 1) = coords (ix3 m n 0))
    (h2 : ∀ m n, I3 (ix3 m n 2) = coords (ix3 m n 1)) (b : Fin 8) (i j : Fin 256) (c : Fin 32) :
    Host.scatterAdd scatter_S8x512x512x32_S8x65536x3_S8x65536x32_2_012_012_2 Z I3 fts (ix4 b (two i) (two j) c)
      = ∑ n : Fin 65536, if Cert.Spec.Hits coords b n i j then (fts (ix3 b n c) : EReal) else 0 := by
  show Ideal.hostScatterAdd (Cert.LibScatter4.scatter4Dims 8 512 512 32 8 65536
    Gen.scatter_S8x512x512x32_S8x65536x3_S8x65536x32_2_012_012_2_wf) Z I3 fts (ix4 b (two i) (two j) c) = _
  rw [Cert.LibScatter4.hostScatterAdd4_apply (by norm_num) (by norm_num) (by norm_num), hZ, zero_add]
  rw [Finset.sum_eq_single b]
  · refine Finset.sum_congr rfl fun n _ => ?_
    simp only [h0, h1, h2]
    unfold Cert.Spec.Hits
    simp only [true_and, two]
  · intro m _ hm
    refine Finset.sum_eq_zero fun n _ => ?_
    rw [if_neg]
    rintro ⟨hmb, _⟩
    rw [h0] at hmb
    apply hm
    apply Fin.ext
    have h := congrArg BitVec.toNat hmb
    rw [BitVec.toNat_ofNat, BitVec.toNat_ofNat] at h
    have := m.isLt
    have := b.isLt
    omega
  · intro h
    exact absurd (Finset.mem_univ b) h

/-- The whole of out_feats over plain arrays: the product of the two takes of the dense grid and the mask factor,
    given what the index vectors, the start columns and the mask factor read. -/
theorem feats_pure (coords : IVec S8x65536x2 32) (fts : FVec Ideal S8x65536x32 .f32)
    (Z : FVec Ideal S8x512x512x32 .f32) (hZ : ∀ k, Z k = 0) (I3 : IVec S8x65536x3 32)
    (h0 : ∀ m n, I3 (ix3 m n 0) = BitVec.ofNat 32 m.val) (h1 : ∀ m n, I3 (ix3 m n 1) = coords (ix3 m n 0))
    (h2 : ∀ m n, I3 (ix3 m n 2) = coords (ix3 m n 1))
    (G0 : IVec S256x1 32) (hG0 : ∀ g : Fin 256, G0 (ix2 g 0) = BitVec.ofNat 32 (2 * g.val))
    (G1 : IVec S256x1 32) (hG1 : ∀ g : Fin 256, G1 (ix2 g 0) = BitVec.ofNat 32 (2 * g.val))
    (Mf : FVec Ideal S8x256x256x32 .f32)
    (hM : ∀ b i j c, Mf (ix4 b i j c) = Cert.Spec.bitE (Cert.Spec.maskBit coords b i j)) :
    mulf (Host.gather gather_S8x256x512x32_S256x1_S8x256x256x32_013_2_n_n_2_1_8256132
        (Host.gather gather_S8x512x512x32_S256x1_S8x256x512x32_023_1_n_n_1_1_8151232
          (Host.scatterAdd scatter_S8x512x512x32_S8x65536x3_S8x65536x32_2_012_012_2 Z I3 fts) G0) G1) Mf
      = Cert.Spec.feats coords fts := by
  funext idx
  obtain ⟨b, i, j, c, rfl⟩ : ∃ b i j c, idx = ix4 b i j c := ⟨_, _, _, _, eq_ix4 idx⟩
  rw [mulf_apply, take_cols _ _ hG1, take_rows _ _ hG0, dense_apply coords fts Z hZ I3 h0 h1 h2, hM]
  rfl

/-! ## out_feats as one function of plain arrays -/

/-- The wrap of a negative index over a [8, 65536] array of words: K is added where the word is below zero. -/
def wrapW (K : BitVec 32) (x : IVec S8x65536 32) : IVec S8x65536 32 :=
  select (cmpi .slt x (broadcastInDim S8x65536 ![] bcast_S_S8x65536 (constantI S_ 32 0#32)))
    (addi x (broadcastInDim S8x65536 ![] bcast_S_S8x65536 (constantI S_ 32 K))) x

/-- The scatter's index vectors [8, 65536, 3]: the wrapped batch number and the two wrapped coordinate columns,
    each given a trailing unit axis, side by side. -/
def idxCols (bidx : IVec S8x65536 32) (coords : IVec S8x65536x2 32) : IVec S8x65536x3 32 :=
  concatenate S8x65536x3 2
    [⟨S8x65536x1, broadcastInDim S8x65536x1 ![0, 1] bcast_S8x65536_S8x65536x1_0_1 (wrapW 8#32 bidx)⟩,
     ⟨S8x65536x1, broadcastInDim S8x65536x1 ![0, 1] bcast_S8x65536_S8x65536x1_0_1
        (wrapW 512#32 (shapeCast S8x65536 (extractStridedSlice S8x65536x1 ![0, 0, 0] coords slices_S8x65536x2_S8x65536x1_0_0_0)
          shapeCasts_S8x65536x1_S8x65536))⟩,
     ⟨S8x65536x1, broadcastInDim S8x65536x1 ![0, 1] bcast_S8x65536_S8x65536x1_0_1
        (wrapW 512#32 (shapeCast S8x65536 (extractStridedSlice S8x65536x1 ![0, 0, 1] coords slices_S8x65536x2_S8x65536x1_0_0_1)
          shapeCasts_S8x65536x1_S8x65536))⟩]
    concatenates_S8x65536x1_S8x65536x1_S8x65536x1_S8x65536x3_d2

/-- A take's start column [256, 1]: the candidate coordinates, wrapped. -/
def startCol (g : IVec S256 32) : IVec S256x1 32 :=
  broadcastInDim S256x1 ![0] bcast_S256_S256x1_0
    (select (cmpi .slt g (broadcastInDim S256 ![] bcast_S_S256 (constantI S_ 32 0#32)))
      (addi g (broadcastInDim S256 ![] bcast_S_S256 (constantI S_ 32 512#32))) g)

/-- The mask as a float factor [8, 256, 256, 32]. -/
def maskF (msk : IVec S8x256x256 1) : FVec Ideal S8x256x256x32 .f32 :=
  broadcastInDim S8x256x256x32 ![0, 1, 2, 3] bcast_S8x256x256x1_S8x256x256x32_0_1_2_3
    (uitofp (F := Ideal) .f32 (broadcastInDim S8x256x256x1 ![0, 1, 2] bcast_S8x256x256_S8x256x256x1_0_1_2 msk))

/-- out_feats from the arrays its operations read: the zero, the batch numbers, the coordinates, the features, the
    two clipped candidate columns and the mask. -/
def outFeats (zero : FVec Ideal S_ .f32) (bidx : IVec S8x65536 32) (coords : IVec S8x65536x2 32)
    (fts : FVec Ideal S8x65536x32 .f32) (g0 g1 : IVec S256 32) (msk : IVec S8x256x256 1) : FVec Ideal S8x256x256x32 .f32 :=
  mulf (Host.gather gather_S8x256x512x32_S256x1_S8x256x256x32_013_2_n_n_2_1_8256132
      (Host.gather gather_S8x512x512x32_S256x1_S8x256x512x32_023_1_n_n_1_1_8151232
        (Host.scatterAdd scatter_S8x512x512x32_S8x65536x3_S8x65536x32_2_012_012_2
          (broadcastInDim S8x512x512x32 ![] bcast_S_S8x512x512x32 zero) (idxCols bidx coords) fts)
        (startCol g0)) (startCol g1)) (maskF msk)

/-- A row of batch numbers spread over the points: entry (m, n) is the word m. -/
theorem bidx_apply (h1 : S8x1.BroadcastsInDim S8x65536 ![0, 1]) (h0 : S8.BroadcastsInDim S8x1 ![0]) (m : Fin 8) (n : Fin 65536) :
    broadcastInDim S8x65536 ![0, 1] h1 (broadcastInDim S8x1 ![0] h0 (iotaInDim S8 32 0)) (ix2 m n) = BitVec.ofNat 32 m.val := by
  rw [broadcastInDim_apply _ h1 _ (ix2 m n) (ix2 m 0) (fun a => by
    match a with
    | ⟨0, _⟩ => rfl
    | ⟨1, _⟩ => rfl)]
  rw [broadcastInDim_apply _ h0 _ (ix2 m 0) (ix1 m) (fun a => by
    match a with
    | ⟨0, _⟩ => rfl)]
  rfl

/-- out_feats of the reference's own inputs is the specification's: the zero is 0, the batch numbers are the words
    m, the candidate columns the words 2 i, the mask the specification's, the coordinates not negative. -/
theorem outFeats_eq (coords : IVec S8x65536x2 32) (fts : FVec Ideal S8x65536x32 .f32) (hnn : Cert.Spec.NonNeg coords)
    (zero : FVec Ideal S_ .f32) (hzero : zero ix0 = 0)
    (bidx : IVec S8x65536 32) (hbidx : ∀ m n, bidx (ix2 m n) = BitVec.ofNat 32 m.val)
    (g0 g1 : IVec S256 32) (hg0 : ∀ g : Fin 256, g0 (ix1 g) = Cert.Spec.gW g.val)
    (hg1 : ∀ g : Fin 256, g1 (ix1 g) = Cert.Spec.gW g.val) :
    outFeats zero bidx coords fts g0 g1 (Cert.Spec.mask coords) = Cert.Spec.feats coords fts := by
  unfold outFeats
  refine feats_pure coords fts _ ?hZ _ ?h0 ?h1 ?h2 _ ?hG0 _ ?hG1 _ ?hM
  case hZ =>
    intro k
    rw [broadcastInDim_scalar_apply]
    exact hzero
  case h0 =>
    intro m n
    unfold idxCols
    refine (cat3_apply _ _ _ _ m n).1.trans ?_
    refine (unit_apply _ _ m n 0).trans ?_
    exact wrap_col _ 8#32 _ (ix2 m n) (BitVec.ofNat 32 m.val) (hbidx m n)
      (Cert.LibScatterGather.wrap_select_of_word _ _ m.val (by have := m.isLt; omega) rfl)
  case h1 =>
    intro m n
    unfold idxCols
    refine (cat3_apply _ _ _ _ m n).2.1.trans ?_
    refine (unit_apply _ _ m n 0).trans ?_
    exact wrap_col _ 512#32 _ (ix2 m n) _ (col0_apply coords _ _ m n) (Cert.Bridge.wrap_nonneg _ (hnn _))
  case h2 =>
    intro m n
    unfold idxCols
    refine (cat3_apply _ _ _ _ m n).2.2.trans ?_
    refine (unit_apply _ _ m n 0).trans ?_
    exact wrap_col _ 512#32 _ (ix2 m n) _ (col1_apply coords _ _ m n) (Cert.Bridge.wrap_nonneg _ (hnn _))
  case hG0 =>
    intro g
    exact gidx_apply g0 hg0 _ _ g
  case hG1 =>
    intro g
    exact gidx_apply g1 hg1 _ _ g
  case hM =>
    intro b i j c
    exact maskf_apply (Cert.Spec.mask coords) _ _ b i j c

end Cert.ReferenceIdeal.Hand

end
-- ==== Proof.RefFeats.lean ====
/-
  The reference's third result, out_feats, read off the run: the feature rows scattered onto the dense 512 x 512
  grid of each batch, read back at the candidate cells (2 i, 2 j) and multiplied by the mask.

  The operations from the scatter on compute one function of seven arrays: the zero the grid starts from, the batch
  numbers, the coordinates and the features (the two arguments), the two clipped candidate columns and the mask.
  The stretch before the scatter leaves those arrays, and the later operations write none of them; that function
  of exactly these arrays is the specification's out_feats.
-/
import proofs.«419918_j39608188403815_2_alg».proof.Proof.RefRun
import proofs.«419918_j39608188403815_2_alg».proof.Proof.RefMask
import proofs.«419918_j39608188403815_2_alg».proof.Proof.RefNary
import proofs.«419918_j39608188403815_2_alg».proof.Proof.RefFeatsPure
import proofs.«419918_j39608188403815_2_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

/-- The stretch before the scatter leaves the batch numbers: row m holds m. -/
theorem ops1_v99 (X : Valuation τ sig (Elt Ideal)) :
    after ops1 X (main_v99 : DevRef τ sig)
      = broadcastInDim S8x65536 ![0, 1] bcast_S8x1_S8x65536_0_1 (broadcastInDim S8x1 ![0] bcast_S8_S8x1_0 (iotaInDim S8 32 0)) := by
  fold_results

/-- … and the zero the dense grid starts from. -/
theorem ops1_cst (X : Valuation τ sig (Elt Ideal)) :
    after ops1 X (main_cst : DevRef τ sig) = constant (F := Ideal) S_ .f32 0x00000000#32 := by
  fold_results

/-- The operations from the scatter on write none of the buffers it and the takes read from before. -/
theorem tail_v93 (W : Valuation τ sig (Elt Ideal)) :
    after ops3 (after ops2 W) (main_v93 : DevRef τ sig) = W (main_v93 : DevRef τ sig) := by
  fold_results
theorem tail_v96 (W : Valuation τ sig (Elt Ideal)) :
    after ops3 (after ops2 W) (main_v96 : DevRef τ sig) = W (main_v96 : DevRef τ sig) := by
  fold_results
theorem tail_v90 (W : Valuation τ sig (Elt Ideal)) :
    after ops3 (after ops2 W) (main_v90 : DevRef τ sig) = W (main_v90 : DevRef τ sig) := by
  fold_results
theorem tail_arg0 (W : Valuation τ sig (Elt Ideal)) :
    after ops3 (after ops2 W) (main_arg0 : DevRef τ sig) = W (main_arg0 : DevRef τ sig) := by
  fold_results
theorem tail_arg1 (W : Valuation τ sig (Elt Ideal)) :
    after ops3 (after ops2 W) (main_arg1 : DevRef τ sig) = W (main_arg1 : DevRef τ sig) := by
  fold_results

set_option maxHeartbeats 4000000 in
/-- The operations from the scatter on, read at out_feats: the one function of the seven arrays they read. -/
theorem fold_v142 (W : Valuation τ sig (Elt Ideal)) :
    after ops3 (after ops2 W) (main_v142 : DevRef τ sig)
      = outFeats (W (main_cst : DevRef τ sig)) (W (main_v99 : DevRef τ sig)) (W (main_arg0 : DevRef τ sig))
          (W (main_arg1 : DevRef τ sig)) (W (main_v93 : DevRef τ sig)) (W (main_v96 : DevRef τ sig))
          (W (main_v90 : DevRef τ sig)) := by
  fold_results
  fold_rest
  rfl

/-- out_feats: at (b, i, j, c) the sum over the points of batch b that sit on cell (2 i, 2 j) of their feature c,
    times the mask bit read as 0 or 1. -/
theorem ref_v142 (V : Valuation τ sig (Elt Ideal)) (hnn : Cert.Spec.NonNeg (V main_arg0)) :
    StableHlo.after ops V (main_v142 : DevRef τ sig) = Cert.Spec.feats (V main_arg0) (V main_arg1) := by
  have k93 := ref_v93 (F := Ideal) V
  have k96 := ref_v96 (F := Ideal) V
  have k90 := ref_v90 (F := Ideal) V
  have ka0 := ref_arg0 (F := Ideal) V
  have ka1 := ref_arg1 (F := Ideal) V
  rw [after_ops] at k93 k96 k90 ka0 ka1 ⊢
  have e99 := ops1_v99 (after ops0 V)
  have ecst := ops1_cst (after ops0 V)
  generalize after ops1 (after ops0 V) = W at k93 k96 k90 ka0 ka1 e99 ecst ⊢
  rw [tail_v93] at k93
  rw [tail_v96] at k96
  rw [tail_v90] at k90
  rw [tail_arg0] at ka0
  rw [tail_arg1] at ka1
  rw [fold_v142, k93, k96, k90, ka0, ka1, e99, ecst]
  refine outFeats_eq (V main_arg0) (V main_arg1) hnn _ ?_ _ (bidx_apply _ _) _ _ (fun g => rfl) (fun g => rfl)
  show Ideal.ofBits .f32 0x00000000#32 = 0
  simp [Ideal.ofBits, Ideal.ieee]

end Cert.ReferenceIdeal.Hand

end
-- ==== Proof.PreDecode.lean ====
/-
  The statement's precondition, read back: the printed predicate ends in a conjunction whose last conjunct is the
  all-reduction by "and" of the elementwise comparison coords >= 0 (signed).  If the predicate is 1, that conjunct is 1,
  so every element of the comparison is 1, which says that every coordinate is non-negative read signed.
-/
import proofs.«419918_j39608188403815_2_alg».proof.Pre_finite_inputs
import proofs.«419918_j39608188403815_2_alg».proof.Proof.Gen.Pre_finite_inputs
import proofs.«419918_j39608188403815_2_alg».proof.Proof.Spec
import Idealize.ShloMosaic.Lib.ReduceAll

namespace Cert.Bridge

open Idealize.ShloMosaic

/-- The signed comparison x >= 0 is 1 exactly when x is non-negative read signed. -/
theorem sge_zero_iff (x : BitVec 32) : IntOp.cmpi .sge x 0#32 = 1#1 ↔ 0 ≤ x.toInt := by
  have h0 : (0#32 : BitVec 32).toInt = 0 := by decide
  show BitVec.ofBool ((0#32 : BitVec 32).sle x) = 1#1 ↔ 0 ≤ x.toInt
  rw [BitVec.sle, h0]
  by_cases hx : 0 ≤ x.toInt
  · simp [hx]
  · simp [hx]

/-- The scalar shape has one index. -/
instance subsingleton_S_Idx : Subsingleton Cert.Pre_finite_inputs.S_.Idx := ⟨fun a b => funext fun d => d.elim0⟩

/-- The precondition gives: every coordinate is non-negative. -/
theorem nonneg_of_pre {F : FTy → Type} [FloatOps F] [Cert.Pre_finite_inputs.Facts]
    (a0 : IVec Cert.Pre_finite_inputs.S8x65536x2 32) (a1 : FVec F Cert.Pre_finite_inputs.S8x65536x32 .f32)
    (a2 : FVec F Cert.Pre_finite_inputs.S1 .f32)
    (h : Cert.Pre_finite_inputs.fn (F := F) a0 a1 a2 = fun _ => 1#1) : Cert.Spec.NonNeg a0 := by
  intro idx
  have h0 := congrFun h ValueIdx.ix0
  dsimp only [Cert.Pre_finite_inputs.fn] at h0
  -- the predicate is a conjunction; its second conjunct is the all-reduction of the comparison
  have h1 := (IntOp.andi_eq_one.1 h0).2
  have h2 := Host.reduce_andi_all _ _ _ _ _ h1 idx
  -- at one element the comparison is against the broadcast scalar 0
  exact (sge_zero_iff (a0 idx)).1 h2

end Cert.Bridge
-- ==== Proof.lean ====
/-
  The certificate: a sparse (coordinate, feature) cloud of 8 x 65536 points scattered onto a dense 512 x 512 grid and
  gathered at the 256 x 256 stride-2 output cells, masked by each batch's validity window.

  The reference does it literally: an accumulating scatter into the dense grid, two row gathers at the even
  coordinates g(i) = 2 i, a product with the mask. The kernel does it as a one-hot product: for each chunk of 256
  points the [256 x 256] one-hot matrix of the points' row bins (times the row validity) is contracted with the
  [256 x (256 * 32)] matrix of column one-hots (times the column validity) times the features, and the chunks'
  products are accumulated in a scratch array that is written out after the last chunk of each batch. Over the
  extended reals both are, at (b, i, j, c), the sum of feats[b, n, c] over the points n of batch b that sit exactly
  on (2 i, 2 j), times the mask bit: a point off the even grid, or beyond 511, contributes to neither (the
  reference's scatter drops an index outside the grid, the kernel's bin is the sentinel), and 0 * x = 0, 1 * x = x
  hold for every extended real, so no finiteness is used. A NEGATIVE coordinate is where they part (the reference
  wraps it by 512, the kernel drops it), which is why the statement assumes every coordinate non-negative.

  The mask and the reported coordinates are the same word arithmetic in both programs (Spec.lean), the argument
  arrays are written by nothing, and the idealization rewrote no operation, so preserves is trivial.
-/
import proofs.«419918_j39608188403815_2_alg».proof.Defs
import proofs.«419918_j39608188403815_2_alg».proof.Proof.Gen.Kernel
import proofs.«419918_j39608188403815_2_alg».proof.Proof.Gen.KernelIdeal
import proofs.«419918_j39608188403815_2_alg».proof.Proof.Gen.ReferenceIdeal
import proofs.«419918_j39608188403815_2_alg».proof.Proof.Gen.Pre_finite_inputs
import proofs.«419918_j39608188403815_2_alg».proof.Proof.BKFrame
import proofs.«419918_j39608188403815_2_alg».proof.Proof.KFrame
import proofs.«419918_j39608188403815_2_alg».proof.Proof.KValue
import proofs.«419918_j39608188403815_2_alg».proof.Proof.RefRun
import proofs.«419918_j39608188403815_2_alg».proof.Proof.RefMask
import proofs.«419918_j39608188403815_2_alg».proof.Proof.RefFeats
import proofs.«419918_j39608188403815_2_alg».proof.Proof.PreDecode

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments alone. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host operations only: it runs to the end of its list, and no operation writes an argument. -/
theorem frame_ri : Cert.frame_ReferenceIdeal := fun m ρ _ =>
  (θ_run Cert.ReferenceIdeal.defs _ _).mono
    (fun r h c => ⟨(h c _).trans (Cert.ReferenceIdeal.Hand.ref_arg0 _), (h c _).trans (Cert.ReferenceIdeal.Hand.ref_arg1 _),
      (h c _).trans (Cert.ReferenceIdeal.Hand.ref_arg2 _)⟩)
    (Cert.ReferenceIdeal.Hand.run (F := Ideal) m ρ)

/-- Both idealized programs end with the specification's four results. -/
theorem algebraic : Cert.algebraic_KernelIdeal_ReferenceIdeal := by
  intro m ρ m' ρ' hpre hagree
  -- the added precondition, decoded: every coordinate is non-negative, on every core
  have hnn : ∀ c : Dev Cert.KernelIdeal.nD,
      Cert.Spec.NonNeg (m ((c.tc : Thread Cert.KernelIdeal.nD Cert.KernelIdeal.τ).loc Cert.KernelIdeal.main_arg0)) :=
    fun c => Cert.Bridge.nonneg_of_pre _ _ _ (hpre c)
  -- the kernel program ends at the specification's four arrays of its own arguments
  refine ⟨_, _, _, _, Cert.KernelIdeal.Hand.run_value m ρ hnn, ?_⟩
  -- and the reference at the same four, its arguments being the kernel's
  refine (θ_run Cert.ReferenceIdeal.defs _ _).mono (fun r h c => ?_) (Cert.ReferenceIdeal.Hand.run (F := Ideal) m' ρ')
  obtain ⟨h0, h1, h2⟩ := hagree c
  have hnn' : Cert.Spec.NonNeg (StableHlo.launchContents m' c (Cert.ReferenceIdeal.main_arg0 : DevRef Cert.ReferenceIdeal.τ Cert.ReferenceIdeal.sig)) := by
    show Cert.Spec.NonNeg (m' ((c.tc : Thread Cert.ReferenceIdeal.nD Cert.ReferenceIdeal.τ).loc Cert.ReferenceIdeal.main_arg0))
    rw [h0]; exact hnn c
  refine ⟨?_, ?_, ?_, ?_, ?_, ?_, ?_⟩
  · rw [h c, Cert.ReferenceIdeal.Hand.ref_v162]
  · rw [h c, Cert.ReferenceIdeal.Hand.ref_v90]
    show Cert.Spec.mask (m' ((c.tc : Thread Cert.ReferenceIdeal.nD Cert.ReferenceIdeal.τ).loc Cert.ReferenceIdeal.main_arg0)) = _
    rw [h0]
  · rw [h c, Cert.ReferenceIdeal.Hand.ref_v142 _ hnn']
    show Cert.Spec.feats (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [h0, h1]
  · rw [h c, Cert.ReferenceIdeal.Hand.ref_arg2]
    exact h2
  · rw [h c, Cert.ReferenceIdeal.Hand.ref_arg0]
  · rw [h c, Cert.ReferenceIdeal.Hand.ref_arg1]
  · rw [h c, Cert.ReferenceIdeal.Hand.ref_arg2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
